-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part4 {F : FTy → Type} [FloatOps F] (main_v63 : IVec S_ 1) (main_v65 : IVec S100000 1) (main_v67 : IVec S100000 1) : IVec S_ 1 :=
  let main_v68 : IVec S100000 1 := andi main_v65 main_v67
  let main_c_26 : IVec S_ 1 := constantI S_ 1 1#1
  let main_v69 : IVec S_ 1 := (fun x v => Host.reduce IntOp.andi x v reducesTo_S100000_S_d0 h_S_) main_v68 main_c_26
  let main_v70 : IVec S_ 1 := andi main_v63 main_v69
  main_v70

def fn_part3 {F : FTy → Type} [FloatOps F] (main_arg2 : IVec S100000 32) (main_arg13 : FVec F S128x1 .f32) (main_arg14 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_c_24 : IVec S_ 32 := constantI S_ 32 0#32
  let main_v64 : IVec S100000 32 := broadcastInDim S100000 ![] bcast_S_S100000 main_c_24
  let main_v65 : IVec S100000 1 := cmpi .sge main_arg2 main_v64
  let main_c_25 : IVec S_ 32 := constantI S_ 32 512#32
  let main_v66 : IVec S100000 32 := broadcastInDim S100000 ![] bcast_S_S100000 main_c_25
  let main_v67 : IVec S100000 1 := cmpi .slt main_arg2 main_v66
  fn_part4 (F := F) main_v63 main_v65 main_v67

def fn_part2 {F : FTy → Type} [FloatOps F] (main_arg2 : IVec S100000 32) (main_arg9 : FVec F S128x128 .f32) (main_arg10 : FVec F S128 .f32) (main_arg11 : FVec F S128 .f32) (main_arg12 : FVec F S128 .f32) (main_arg13 : FVec F S128x1 .f32) (main_arg14 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg2 main_arg13 main_arg14 main_v48 main_v49 main_v50

def fn_part1 {F : FTy → Type} [FloatOps F] (main_arg2 : IVec S100000 32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg9 main_arg10 main_arg11 main_arg12 main_arg13 main_arg14 main_v33

def fn {F : FTy → Type} [FloatOps F] (main_arg0 : FVec F S100000x64 .f32) (main_arg1 : IVec S2x1600000 32) (main_arg2 : IVec S100000 32) (main_arg3 : FVec F S64x128 .f32) (main_arg4 : FVec F S128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x1 .f32) (main_arg14 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_arg7 main_arg8 main_arg9 main_arg10 main_arg11 main_arg12 main_arg13 main_arg14 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S512 : Shape := ⟨1, ![512]⟩
abbrev S100000x1 : Shape := ⟨2, ![100000, 1]⟩
abbrev S1x128 : Shape := ⟨2, ![1, 128]⟩
abbrev S100000x128 : Shape := ⟨2, ![100000, 128]⟩
abbrev S1000x64 : Shape := ⟨2, ![1000, 64]⟩
abbrev S1000x128 : Shape := ⟨2, ![1000, 128]⟩
abbrev S1700000x128 : Shape := ⟨2, ![1700000, 128]⟩
abbrev S1x512 : Shape := ⟨2, ![1, 512]⟩
abbrev S1000x1 : Shape := ⟨2, ![1000, 1]⟩
abbrev S1000 : Shape := ⟨1, ![1000]⟩
abbrev S1000x512 : Shape := ⟨2, ![1000, 512]⟩
abbrev S512x128 : Shape := ⟨2, ![512, 128]⟩
abbrev S512x1 : Shape := ⟨2, ![512, 1]⟩
abbrev S1x1 : Shape := ⟨2, ![1, 1]⟩

abbrev nBuf : Space → Nat
  | .hbm => 156
  | .vmem => 59
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x1, .f32⟩
  | 14 => ⟨S1, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .f32⟩
  | 40 => ⟨S100000, .f32⟩
  | 41 => ⟨S_, .f32⟩
  | 42 => ⟨S512, .f32⟩
  | 43 => ⟨S100000x1, .i32⟩
  | 44 => ⟨S512, .f32⟩
  | 45 => ⟨S100000x1, .i32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S1700000, .f32⟩
  | 65 => ⟨S_, .f32⟩
  | 66 => ⟨S512, .f32⟩
  | 67 => ⟨S512, .f32⟩
  | 68 => ⟨S_, .f32⟩
  | 69 => ⟨S512, .f32⟩
  | 70 => ⟨S512, .f32⟩
  | 71 => ⟨S1x128, .f32⟩
  | 72 => ⟨S100000x128, .f32⟩
  | 73 => ⟨S_, .f32⟩
  | 74 => ⟨S128, .f32⟩
  | 75 => ⟨S1x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x1, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S1x512, .f32⟩
  | 95 => ⟨S1x512, .f32⟩
  | 96 => ⟨S1x512, .f32⟩
  | 97 => ⟨S1x512, .f32⟩
  | 98 => ⟨S1x512, .f32⟩
  | 99 => ⟨S1x512, .f32⟩
  | 100 => ⟨S1x512, .f32⟩
  | 101 => ⟨S1x512, .f32⟩
  | 102 => ⟨S_, .f32⟩
  | 103 => ⟨S1x512, .f32⟩
  | 104 => ⟨S1x512, .f32⟩
  | 105 => ⟨S1x512, .f32⟩
  | 106 => ⟨S1x128, .f32⟩
  | 107 => ⟨S1x128, .f32⟩
  | 108 => ⟨S1x128, .f32⟩
  | 109 => ⟨S100000x128, .f32⟩
  | 110 => ⟨S1x128, .f32⟩
  | 111 => ⟨S100000x128, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x64, .f32⟩

abbrev hbmTy0_1 (i : Nat) : BufTy := match i % 128 with
  | 0 => ⟨S1x128, .f32⟩
  | 1 => ⟨S1x512, .f32⟩
  | 2 => ⟨S1x512, .f32⟩
  | 3 => ⟨S1x512, .f32⟩
  | 4 => ⟨S1x512, .f32⟩
  | 5 => ⟨S1x512, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S1x512, .f32⟩
  | 13 => ⟨S1x128, .f32⟩
  | 14 => ⟨S1x128, .f32⟩
  | 15 => ⟨S1x128, .f32⟩
  | 16 => ⟨S100000x128, .f32⟩
  | 17 => ⟨S512x128, .f32⟩
  | 18 => ⟨S_, .f32⟩
  | 19 => ⟨S512, .f32⟩
  | 20 => ⟨S512, .f32⟩
  | 21 => ⟨S512x1, .f32⟩
  | 22 => ⟨S512x128, .f32⟩
  | 23 => ⟨S512x128, .f32⟩
  | 24 => ⟨S512x1, .f32⟩
  | 25 => ⟨S1x1, .f32⟩
  | 26 => ⟨S512x1, .f32⟩
  | 27 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S1000x64, .f32⟩
  | .local _ .vmem, ⟨1, _⟩ => ⟨S1000x64, .f32⟩
  | .local _ .vmem, ⟨2, _⟩ => ⟨S64x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S128x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S1x128, .f32⟩
  | .local _ .vmem, ⟨15, _⟩ => ⟨S1000x1, .i32⟩
  | .local _ .vmem, ⟨16, _⟩ => ⟨S1000x1, .i32⟩
  | .local _ .vmem, ⟨17, _⟩ => ⟨S1x512, .f32⟩
  | .local _ .vmem, ⟨18, _⟩ => ⟨S1x512, .f32⟩
  | .local _ .vmem, ⟨19, _⟩ => ⟨S1000x128, .f32⟩
  | .local _ .vmem, ⟨20, _⟩ => ⟨S1000x128, .f32⟩
  | .local _ .vmem, ⟨21, _⟩ => ⟨S1x128, .f32⟩
  | .local _ .vmem, ⟨22, _⟩ => ⟨S1000x1, .i32⟩
  | .local _ .vmem, ⟨23, _⟩ => ⟨S1000x1, .i32⟩
  | .local _ .vmem, ⟨24, _⟩ => ⟨S1x512, .f32⟩
  | .local _ .vmem, ⟨25, _⟩ => ⟨S1x512, .f32⟩
  | .local _ .vmem, ⟨26, _⟩ => ⟨S1x128, .f32⟩
  | .local _ .vmem, ⟨27, _⟩ => ⟨S1x128, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | .local _ .vmem, ⟨32, _⟩ => ⟨S128x128, .f32⟩
  | .local _ .vmem, ⟨33, _⟩ => ⟨S1x128, .f32⟩
  | .local _ .vmem, ⟨34, _⟩ => ⟨S1000x128, .f32⟩
  | .local _ .vmem, ⟨35, _⟩ => ⟨S1000x128, .f32⟩
  | .local _ .vmem, ⟨36, _⟩ => ⟨S1000x128, .f32⟩
  | .local _ .vmem, ⟨37, _⟩ => ⟨S1000x128, .f32⟩
  | .local _ .vmem, ⟨38, _⟩ => ⟨S1x128, .f32⟩
  | .local _ .vmem, ⟨39, _⟩ => ⟨S1000x1, .i32⟩
  | .local _ .vmem, ⟨40, _⟩ => ⟨S1000x1, .i32⟩
  | .local _ .vmem, ⟨41, _⟩ => ⟨S1x512, .f32⟩
  | .local _ .vmem, ⟨42, _⟩ => ⟨S1x512, .f32⟩
  | .local _ .vmem, ⟨43, _⟩ => ⟨S1000x128, .f32⟩
  | .local _ .vmem, ⟨44, _⟩ => ⟨S1000x128, .f32⟩
  | .local _ .vmem, ⟨45, _⟩ => ⟨S1x128, .f32⟩
  | .local _ .vmem, ⟨46, _⟩ => ⟨S1000x1, .i32⟩
  | .local _ .vmem, ⟨47, _⟩ => ⟨S1000x1, .i32⟩
  | .local _ .vmem, ⟨48, _⟩ => ⟨S1x512, .f32⟩
  | .local _ .vmem, ⟨49, _⟩ => ⟨S1x512, .f32⟩
  | .local _ .vmem, ⟨50, _⟩ => ⟨S1x128, .f32⟩
  | .local _ .vmem, ⟨51, _⟩ => ⟨S1x128, .f32⟩
  | .local _ .vmem, ⟨52, _⟩ => ⟨S1000x128, .f32⟩
  | .local _ .vmem, ⟨53, _⟩ => ⟨S1000x128, .f32⟩
  | .local _ .vmem, ⟨54, _⟩ => ⟨S1000x128, .f32⟩
  | .local _ .vmem, ⟨55, _⟩ => ⟨S1000x128, .f32⟩
  | .local _ .vmem, ⟨56, _⟩ => ⟨S1000x1, .i32⟩
  | .local _ .vmem, ⟨57, _⟩ => ⟨S1000x1, .i32⟩
  | .local _ .vmem, ⟨58, _⟩ => ⟨S512x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_7 : Ref sig .tc := ⟨.hbm, 55, rfl⟩
abbrev main_v29 : Ref sig .tc := ⟨.hbm, 56, rfl⟩
abbrev main_v30 : Ref sig .tc := ⟨.hbm, 57, rfl⟩
abbrev main_c_8 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_9 : Ref sig .tc := ⟨.hbm, 65, rfl⟩
abbrev main_v37 : Ref sig .tc := ⟨.hbm, 66, rfl⟩
abbrev main_v38 : Ref sig .tc := ⟨.hbm, 67, rfl⟩
abbrev main_cst_10 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_12 : Ref sig .tc := ⟨.hbm, 77, rfl⟩
abbrev main_v46 : Ref sig .tc := ⟨.hbm, 78, rfl⟩
abbrev main_v47 : Ref sig .tc := ⟨.hbm, 79, rfl⟩
abbrev main_c_13 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_14 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60_0 : Ref sig .tc := ⟨.hbm, 94, rfl⟩
abbrev main_v60_1 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_15 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_16 : Ref sig .tc := ⟨.hbm, 112, rfl⟩
abbrev main_v76 : Ref sig .tc := ⟨.hbm, 113, rfl⟩
abbrev main_v77 : Ref sig .tc := ⟨.hbm, 114, rfl⟩
abbrev main_c_17 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90_0 : Ref sig .tc := ⟨.hbm, 129, rfl⟩
abbrev main_v90_1 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_20 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg7_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg5_0 : Ref sig .tc := ⟨.vmem, 50, rfl⟩
abbrev cc6_stg6_0 : Ref sig .tc := ⟨.vmem, 51, rfl⟩
abbrev cc6_stg7_0 : Ref sig .tc := ⟨.vmem, 52, rfl⟩
abbrev cc6_stg7_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem4_0 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem7_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem2_1 : DmaSem sig := 40
abbrev cc5_sem3_0 : DmaSem sig := 41
abbrev cc5_sem4_0 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47
abbrev cc6_sem3_0 : DmaSem sig := 48
abbrev cc6_sem4_0 : DmaSem sig := 49
abbrev cc6_sem5_0 : DmaSem sig := 50
abbrev cc6_sem6_0 : DmaSem sig := 51
abbrev cc6_sem7_0 : DmaSem sig := 52
abbrev cc6_sem7_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1000x1 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1000x1 .i32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S1000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![100], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S512 : S_.BroadcastsInDim S512 (![] : Fin 0 → Fin S512.rank)
  bcast_S100000_S100000x1_0 : S100000.BroadcastsInDim S100000x1 (![0] : Fin 1 → Fin S100000x1.rank)
  shapeCasts_S100000_S100000x1 : S100000.ShapeCasts S100000x1
  shapeCasts_S128_S1x128 : S128.ShapeCasts S1x128
  inb_S1000x64_S1000x64_0_0 : ∀ a, (![0, 0] : Fin 2 → Nat) a + S1000x64.size a ≤ S1000x64.size a
  h_S1000x64 : 0 < S1000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  bcast_S_S128 : S_.BroadcastsInDim S128 (![] : Fin 0 → Fin S128.rank)
  shapeCasts_S1000x128_S1000x128 : S1000x128.ShapeCasts S1000x128
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S1x512_S1x512_0_0 : ∀ a, (![0, 0] : Fin 2 → Nat) a + S1x512.size a ≤ S1x512.size a
  h_S1x512 : 0 < S1x512.numel
  reduces_S1000x128_S1000 : S1000x128.Reduces [1] S1000
  shapeCasts_S1000_S1000x1 : S1000.ShapeCasts S1000x1
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x512_d1_w32 : S1000x512.Iotas .tc 32 [1]
  broadcasts_S1000x1_S1000x512 : S1000x1.Broadcasts S1000x512
  natLt_1_32 : 1 < 32
  shapeCasts_S1x512_S1x512 : S1x512.ShapeCasts S1x512
  reduces_S1000x512_S512 : S1000x512.Reduces [0] S512
  shapeCasts_S512_S1x512 : S512.ShapeCasts S1x512
  bcast_S512_S1x512_1 : S512.BroadcastsInDim S1x512 (![1] : Fin 1 → Fin S1x512.rank)
  bcast_S_S1x512 : S_.BroadcastsInDim S1x512 (![] : Fin 0 → Fin S1x512.rank)
  broadcasts_S1x512_S1000x512 : S1x512.Broadcasts S1000x512
  reduces_S1000x512_S1000 : S1000x512.Reduces [1] S1000
  broadcasts_S1000x1_S1000x128 : S1000x1.Broadcasts S1000x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1700000x1_S1700000_n_0_0_1_wf : ScatterDims.WF S100000 S1700000x1 S1700000 [] [0] [0] 1
  scatter_S512_S100000x1_S100000_n_0_0_1_wf : ScatterDims.WF S512 S100000x1 S100000 [] [0] [0] 1
  gather_S100000_S1700000x1_S1700000_n_0_n_n_0_1_1_wf : GatherDims.WF S100000 S1700000x1 S1700000 [] [0] [] [0] [] 1 ![1]
  dot_S1000x64_S64x128_S1000x128_1_0_0_1_n_n_wf : DotDims.WF S1000x64 S64x128 S1000x128 [1] [0] [0] [1] [] []
  dot_S1000x128_S128x128_S1000x128_1_0_0_1_n_n_wf : DotDims.WF S1000x128 S128x128 S1000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1000x512_S1000x128_S512x128_0_0_1_1_n_n_wf : DotDims.WF S1000x512 S1000x128 S512x128 [0] [0] [1] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x64.size a ≤ S100000x64.size a
  hwx0_0 : ∀ i : grid0.Coords, EltTy.bits .f32 = 32 ∨ (Rect.block (s := S100000x64) S1000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S100000x128.size a
  hwx0_3 : ∀ i : grid0.Coords, EltTy.bits .f32 = 32 ∨ (Rect.block (s := S100000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S100000x128.size a
  hwx1_3 : ∀ i : grid1.Coords, EltTy.bits .f32 = 32 ∨ (Rect.block (s := S100000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x1.size a ≤ S100000x1.size a
  hwx2_2 : ∀ i : grid2.Coords, EltTy.bits .i32 = 32 ∨ (Rect.block (s := S100000x1) S1000x1.size (cc2_transform_2 i) (hinb2_2 i)).WholeWords (EltTy.packing .i32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S100000x1.size a
  hwx3_2 : ∀ i : grid3.Coords, EltTy.bits .i32 = 32 ∨ (Rect.block (s := S100000x1) S1000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1000x128.size a ≤ S100000x128.size a
  hwx3_7 : ∀ i : grid3.Coords, EltTy.bits .f32 = 32 ∨ (Rect.block (s := S100000x128) S1000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S100000x128.size a
  hwx4_0 : ∀ i : grid4.Coords, EltTy.bits .f32 = 32 ∨ (Rect.block (s := S100000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S100000x128.size a
  hwx4_3 : ∀ i : grid4.Coords, EltTy.bits .f32 = 32 ∨ (Rect.block (s := S100000x128) S1000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x128.size a ≤ S100000x128.size a
  hwx5_0 : ∀ i : grid5.Coords, EltTy.bits .f32 = 32 ∨ (Rect.block (s := S100000x128) S1000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1000x1.size a ≤ S100000x1.size a
  hwx5_2 : ∀ i : grid5.Coords, EltTy.bits .i32 = 32 ∨ (Rect.block (s := S100000x1) S1000x1.size (cc5_transform_2 i) (hinb5_2 i)).WholeWords (EltTy.packing .i32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S100000x128.size a
  hwx6_0 : ∀ i : grid6.Coords, EltTy.bits .f32 = 32 ∨ (Rect.block (s := S100000x128) S1000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1000x1.size a ≤ S100000x1.size a
  hwx6_2 : ∀ i : grid6.Coords, EltTy.bits .i32 = 32 ∨ (Rect.block (s := S100000x1) S1000x1.size (cc6_transform_2 i) (hinb6_2 i)).WholeWords (EltTy.packing .i32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x512.size a ≤ S1x512.size a
  hwx6_3 : ∀ i : grid6.Coords, EltTy.bits .f32 = 32 ∨ (Rect.block (s := S1x512) S1x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x512.size a ≤ S1x512.size a
  hwx6_4 : ∀ i : grid6.Coords, EltTy.bits .f32 = 32 ∨ (Rect.block (s := S1x512) S1x512.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1000x128.size a ≤ S100000x128.size a
  hwx6_7 : ∀ i : grid6.Coords, EltTy.bits .f32 = 32 ∨ (Rect.block (s := S100000x128) S1000x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x128.size a ≤ S100000x128.size a
  hwx7_0 : ∀ i : grid7.Coords, EltTy.bits .f32 = 32 ∨ (Rect.block (s := S100000x128) S1000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1000x1.size a ≤ S100000x1.size a
  hwx7_1 : ∀ i : grid7.Coords, EltTy.bits .i32 = 32 ∨ (Rect.block (s := S100000x1) S1000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x128.size a ≤ S512x128.size a
  hwx7_2 : ∀ i : grid7.Coords, EltTy.bits .f32 = 32 ∨ (Rect.block (s := S512x128) S512x128.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S1000x64_S64x128_S1000x128_1_0_0_1_n_n : DotDims S1000x64 S64x128 S1000x128 where
  lhsContracting := [1]
  rhsContracting := [0]
  lhsNonContracting := [0]
  rhsNonContracting := [1]
  lhsBatch := []
  rhsBatch := []
  wf := dot_S1000x64_S64x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1000x512_S1000x128_S512x128_0_0_1_1_n_n : DotDims S1000x512 S1000x128 S512x128 where
  lhsContracting := [0]
  rhsContracting := [0]
  lhsNonContracting := [1]
  rhsNonContracting := [1]
  lhsBatch := []
  rhsBatch := []
  wf := dot_S1000x512_S1000x128_S512x128_0_0_1_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60_0) S1x512.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60_1) S1x512.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v58) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S1000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v73) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v88) S1000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v21) S1000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v90_0) S1x512.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90_1) S1x512.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v88) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v100) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v21) S1000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v92) S1x512.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v99) S1x512.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v101) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v102) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v103) S1000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v103) S1000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v21) S1000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v104) S512x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S512 : Shape := ⟨1, ![512]⟩
abbrev S100000x1 : Shape := ⟨2, ![100000, 1]⟩
abbrev S100000x128 : Shape := ⟨2, ![100000, 128]⟩
abbrev S1x128 : Shape := ⟨2, ![1, 128]⟩
abbrev S1700000x128 : Shape := ⟨2, ![1700000, 128]⟩
abbrev S512x128 : Shape := ⟨2, ![512, 128]⟩
abbrev S512x1 : Shape := ⟨2, ![512, 1]⟩
abbrev S1x1 : Shape := ⟨2, ![1, 1]⟩

abbrev nBuf : Space → Nat
  | .hbm => 257
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x1, .f32⟩
  | 14 => ⟨S1, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S_, .f32⟩
  | 32 => ⟨S100000, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .f32⟩
  | 40 => ⟨S100000, .f32⟩
  | 41 => ⟨S_, .f32⟩
  | 42 => ⟨S512, .f32⟩
  | 43 => ⟨S100000x1, .i32⟩
  | 44 => ⟨S512, .f32⟩
  | 45 => ⟨S100000x128, .f32⟩
  | 46 => ⟨S1x128, .f32⟩
  | 47 => ⟨S100000x128, .f32⟩
  | 48 => ⟨S100000x128, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000, .f32⟩
  | 68 => ⟨S1700000, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000x128, .f32⟩
  | 78 => ⟨S1700000x1, .f32⟩
  | 79 => ⟨S1700000x128, .f32⟩
  | 80 => ⟨S1700000x128, .f32⟩
  | 81 => ⟨S_, .f32⟩
  | 82 => ⟨S100000x128, .f32⟩
  | 83 => ⟨S1700000x1, .i32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S512, .f32⟩
  | 90 => ⟨S512, .f32⟩
  | 91 => ⟨S_, .f32⟩
  | 92 => ⟨S512, .f32⟩
  | 93 => ⟨S512, .f32⟩
  | 94 => ⟨S_, .f32⟩
  | 95 => ⟨S100000, .f32⟩
  | 96 => ⟨S_, .f32⟩
  | 97 => ⟨S512, .f32⟩
  | 98 => ⟨S100000x1, .i32⟩
  | 99 => ⟨S512, .f32⟩
  | 100 => ⟨S512, .f32⟩
  | 101 => ⟨S_, .i32⟩
  | 102 => ⟨S100000, .i32⟩
  | 103 => ⟨S100000, .i1⟩
  | 104 => ⟨S_, .i32⟩
  | 105 => ⟨S100000, .i32⟩
  | 106 => ⟨S100000, .i32⟩
  | 107 => ⟨S100000, .i32⟩
  | 108 => ⟨S100000x1, .i32⟩
  | 109 => ⟨S100000, .f32⟩
  | 110 => ⟨S100000x1, .f32⟩
  | 111 => ⟨S100000x128, .f32⟩
  | 112 => ⟨S100000x128, .f32⟩
  | 113 => ⟨S100000x128, .f32⟩
  | 114 => ⟨S_, .f32⟩
  | 115 => ⟨S100000, .f32⟩
  | 116 => ⟨S_, .f32⟩
  | 117 => ⟨S512, .f32⟩
  | 118 => ⟨S100000x1, .i32⟩
  | 119 => ⟨S512, .f32⟩
  | 120 => ⟨S512, .f32⟩
  | 121 => ⟨S_, .f32⟩
  | 122 => ⟨S512, .f32⟩
  | 123 => ⟨S512, .f32⟩
  | 124 => ⟨S512, .f32⟩
  | 125 => ⟨S_, .i32⟩
  | 126 => ⟨S100000, .i32⟩
  | 127 => ⟨S100000, .i1⟩
  | _ => ⟨S100000x64, .f32⟩

abbrev hbmTy0_1 (i : Nat) : BufTy := match i % 128 with
  | 0 => ⟨S_, .i32⟩
  | 1 => ⟨S100000, .i32⟩
  | 2 => ⟨S100000, .i32⟩
  | 3 => ⟨S100000, .i32⟩
  | 4 => ⟨S100000x1, .i32⟩
  | 5 => ⟨S100000, .f32⟩
  | 6 => ⟨S100000x1, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x128, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000x128, .f32⟩
  | 47 => ⟨S1700000x1, .f32⟩
  | 48 => ⟨S1700000x128, .f32⟩
  | 49 => ⟨S1700000x128, .f32⟩
  | 50 => ⟨S_, .f32⟩
  | 51 => ⟨S100000x128, .f32⟩
  | 52 => ⟨S1700000x1, .i32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S512, .f32⟩
  | 59 => ⟨S512, .f32⟩
  | 60 => ⟨S_, .f32⟩
  | 61 => ⟨S512, .f32⟩
  | 62 => ⟨S512, .f32⟩
  | 63 => ⟨S_, .f32⟩
  | 64 => ⟨S100000, .f32⟩
  | 65 => ⟨S_, .f32⟩
  | 66 => ⟨S512, .f32⟩
  | 67 => ⟨S100000x1, .i32⟩
  | 68 => ⟨S512, .f32⟩
  | 69 => ⟨S512, .f32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000, .f32⟩
  | 79 => ⟨S100000x1, .f32⟩
  | 80 => ⟨S100000x128, .f32⟩
  | 81 => ⟨S100000x128, .f32⟩
  | 82 => ⟨S100000x128, .f32⟩
  | 83 => ⟨S_, .f32⟩
  | 84 => ⟨S100000, .f32⟩
  | 85 => ⟨S_, .f32⟩
  | 86 => ⟨S512, .f32⟩
  | 87 => ⟨S100000x1, .i32⟩
  | 88 => ⟨S512, .f32⟩
  | 89 => ⟨S512, .f32⟩
  | 90 => ⟨S_, .f32⟩
  | 91 => ⟨S512, .f32⟩
  | 92 => ⟨S512, .f32⟩
  | 93 => ⟨S512, .f32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S100000, .f32⟩
  | 103 => ⟨S100000x1, .f32⟩
  | 104 => ⟨S100000x128, .f32⟩
  | 105 => ⟨S100000x128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S_, .f32⟩
  | 116 => ⟨S512x128, .f32⟩
  | 117 => ⟨S100000x1, .i32⟩
  | 118 => ⟨S512x128, .f32⟩
  | 119 => ⟨S_, .f32⟩
  | 120 => ⟨S512, .f32⟩
  | 121 => ⟨S512, .f32⟩
  | 122 => ⟨S512x1, .f32⟩
  | 123 => ⟨S512x128, .f32⟩
  | 124 => ⟨S512x128, .f32⟩
  | 125 => ⟨S512x1, .f32⟩
  | 126 => ⟨S1x1, .f32⟩
  | 127 => ⟨S512x1, .f32⟩
  | _ => ⟨S100000x64, .f32⟩

abbrev hbmTy0_2 (i : Nat) : BufTy := match i % 128 with
  | 0 => ⟨S512x1, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_cst_4 : Ref sig .tc := ⟨.hbm, 39, rfl⟩
abbrev main_v17 : Ref sig .tc := ⟨.hbm, 40, rfl⟩
abbrev main_cst_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_c_9 : Ref sig .tc := ⟨.hbm, 69, rfl⟩
abbrev main_v41 : Ref sig .tc := ⟨.hbm, 70, rfl⟩
abbrev main_v42 : Ref sig .tc := ⟨.hbm, 71, rfl⟩
abbrev main_c_10 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_12 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_cst_14 : Ref sig .tc := ⟨.hbm, 94, rfl⟩
abbrev main_v61 : Ref sig .tc := ⟨.hbm, 95, rfl⟩
abbrev main_cst_15 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_c_17 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_18 : Ref sig .tc := ⟨.hbm, 114, rfl⟩
abbrev main_v77 : Ref sig .tc := ⟨.hbm, 115, rfl⟩
abbrev main_cst_19 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_20 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_21 : Ref sig .tc := ⟨.hbm, 125, rfl⟩
abbrev main_v85 : Ref sig .tc := ⟨.hbm, 126, rfl⟩
abbrev main_v86 : Ref sig .tc := ⟨.hbm, 127, rfl⟩
abbrev main_c_22 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_call1_cst : Ref sig .tc := ⟨.hbm, 143, rfl⟩
abbrev main_call1_v0 : Ref sig .tc := ⟨.hbm, 144, rfl⟩
abbrev main_v101 : Ref sig .tc := ⟨.hbm, 145, rfl⟩
abbrev main_v102 : Ref sig .tc := ⟨.hbm, 146, rfl⟩
abbrev main_c_23 : Ref sig .tc := ⟨.hbm, 147, rfl⟩
abbrev main_v103 : Ref sig .tc := ⟨.hbm, 148, rfl⟩
abbrev main_v104 : Ref sig .tc := ⟨.hbm, 149, rfl⟩
abbrev main_c_24 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_25 : Ref sig .tc := ⟨.hbm, 156, rfl⟩
abbrev main_v110 : Ref sig .tc := ⟨.hbm, 157, rfl⟩
abbrev main_v111 : Ref sig .tc := ⟨.hbm, 158, rfl⟩
abbrev main_c_26 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_c_27 : Ref sig .tc := ⟨.hbm, 166, rfl⟩
abbrev main_v118 : Ref sig .tc := ⟨.hbm, 167, rfl⟩
abbrev main_v119 : Ref sig .tc := ⟨.hbm, 168, rfl⟩
abbrev main_c_28 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_29 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_30 : Ref sig .tc := ⟨.hbm, 185, rfl⟩
abbrev main_v134 : Ref sig .tc := ⟨.hbm, 186, rfl⟩
abbrev main_v135 : Ref sig .tc := ⟨.hbm, 187, rfl⟩
abbrev main_cst_31 : Ref sig .tc := ⟨.hbm, 188, rfl⟩
abbrev main_v136 : Ref sig .tc := ⟨.hbm, 189, rfl⟩
abbrev main_v137 : Ref sig .tc := ⟨.hbm, 190, rfl⟩
abbrev main_cst_32 : Ref sig .tc := ⟨.hbm, 191, rfl⟩
abbrev main_v138 : Ref sig .tc := ⟨.hbm, 192, rfl⟩
abbrev main_cst_33 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_c_34 : Ref sig .tc := ⟨.hbm, 198, rfl⟩
abbrev main_v143 : Ref sig .tc := ⟨.hbm, 199, rfl⟩
abbrev main_v144 : Ref sig .tc := ⟨.hbm, 200, rfl⟩
abbrev main_c_35 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_36 : Ref sig .tc := ⟨.hbm, 211, rfl⟩
abbrev main_v154 : Ref sig .tc := ⟨.hbm, 212, rfl⟩
abbrev main_cst_37 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_38 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_c_39 : Ref sig .tc := ⟨.hbm, 222, rfl⟩
abbrev main_v162 : Ref sig .tc := ⟨.hbm, 223, rfl⟩
abbrev main_v163 : Ref sig .tc := ⟨.hbm, 224, rfl⟩
abbrev main_c_40 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_call2_cst : Ref sig .tc := ⟨.hbm, 240, rfl⟩
abbrev main_call2_v0 : Ref sig .tc := ⟨.hbm, 241, rfl⟩
abbrev main_v178 : Ref sig .tc := ⟨.hbm, 242, rfl⟩
abbrev main_cst_41 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_cst_42 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S512 : S_.BroadcastsInDim S512 (![] : Fin 0 → Fin S512.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000x1_S100000x128_0_1 : S100000x1.BroadcastsInDim S100000x128 (![0, 1] : Fin 2 → Fin S100000x128.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1700000x1_S1700000_n_0_0_1_wf : ScatterDims.WF S100000 S1700000x1 S1700000 [] [0] [0] 1
  scatter_S512_S100000x1_S100000_n_0_0_1_wf : ScatterDims.WF S512 S100000x1 S100000 [] [0] [0] 1
  dot_S100000x64_S64x128_S100000x128_1_0_0_1_n_n_wf : DotDims.WF S100000x64 S64x128 S100000x128 [1] [0] [0] [1] [] []
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S512_S100000x1_S100000_n_0_n_n_0_1_1_wf : GatherDims.WF S512 S100000x1 S100000 [] [0] [] [0] [] 1 ![1]
  scatter_S512x128_S100000x1_S100000x128_1_0_0_1_wf : ScatterDims.WF S512x128 S100000x1 S100000x128 [1] [0] [0] 1
  dot_S512x128_S128x1_S512x1_1_0_0_1_n_n_wf : DotDims.WF S512x128 S128x1 S512x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S512_S100000x1_S100000_n_0_n_n_0_1_1 : GatherDims S512 S100000x1 S100000 where
  offsetDims := []
  collapsedSliceDims := [0]
  operandBatchingDims := []
  startIndicesBatchingDims := []
  startIndexMap := [0]
  indexVectorDim := 1
  sliceSizes := ![1]
  wf := gather_S512_S100000x1_S100000_n_0_n_n_0_1_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.Names.lean ====
/-
  Names for the argument arrays of the two programs. The kernel's memory holds the fifteen arguments
  (node features, edge list, graph ids, the weights and biases of the two linear maps and the two graph
  convolutions, and the scales and shifts of the two normalisation layers); `a0 m c` … `a14 m c` are
  those arrays on device `c`, each typed by its literal shape, so that the reference's value functions
  can be applied to them.
-/
import proofs.«427561_j32633161515373_1_alg».proof.Defs

noncomputable section

namespace Cert.Names

open Idealize.ShloMosaic Idealize.SL.Sem

/-- A memory of the kernel program at the ideal instance. -/
abbrev KMem := (ℓ : Loc Cert.KernelIdeal.nD Cert.KernelIdeal.τ Cert.KernelIdeal.sig) → Buf (Elt Ideal) ℓ

/-- A memory of the reference program at the ideal instance. -/
abbrev RMem := (ℓ : Loc Cert.ReferenceIdeal.nD Cert.ReferenceIdeal.τ Cert.ReferenceIdeal.sig) → Buf (Elt Ideal) ℓ

/-- Argument 0 of the kernel program on device `c`, at its literal type. -/
abbrev a0 (m : KMem) (c : Dev Cert.KernelIdeal.nD) : (⟨Cert.ReferenceIdeal.S100000x64, .f32⟩ : BufTy).Contents (Elt Ideal) :=
  m ((c.tc : Thread Cert.KernelIdeal.nD Cert.KernelIdeal.τ).loc Cert.KernelIdeal.main_arg0)

/-- Argument 1 of the kernel program on device `c`, at its literal type. -/
abbrev a1 (m : KMem) (c : Dev Cert.KernelIdeal.nD) : (⟨Cert.ReferenceIdeal.S2x1600000, .i32⟩ : BufTy).Contents (Elt Ideal) :=
  m ((c.tc : Thread Cert.KernelIdeal.nD Cert.KernelIdeal.τ).loc Cert.KernelIdeal.main_arg1)

/-- Argument 2 of the kernel program on device `c`, at its literal type. -/
abbrev a2 (m : KMem) (c : Dev Cert.KernelIdeal.nD) : (⟨Cert.ReferenceIdeal.S100000, .i32⟩ : BufTy).Contents (Elt Ideal) :=
  m ((c.tc : Thread Cert.KernelIdeal.nD Cert.KernelIdeal.τ).loc Cert.KernelIdeal.main_arg2)

/-- Argument 3 of the kernel program on device `c`, at its literal type. -/
abbrev a3 (m : KMem) (c : Dev Cert.KernelIdeal.nD) : (⟨Cert.ReferenceIdeal.S64x128, .f32⟩ : BufTy).Contents (Elt Ideal) :=
  m ((c.tc : Thread Cert.KernelIdeal.nD Cert.KernelIdeal.τ).loc Cert.KernelIdeal.main_arg3)

/-- Argument 4 of the kernel program on device `c`, at its literal type. -/
abbrev a4 (m : KMem) (c : Dev Cert.KernelIdeal.nD) : (⟨Cert.ReferenceIdeal.S128, .f32⟩ : BufTy).Contents (Elt Ideal) :=
  m ((c.tc : Thread Cert.KernelIdeal.nD Cert.KernelIdeal.τ).loc Cert.KernelIdeal.main_arg4)

/-- Argument 5 of the kernel program on device `c`, at its literal type. -/
abbrev a5 (m : KMem) (c : Dev Cert.KernelIdeal.nD) : (⟨Cert.ReferenceIdeal.S128x128, .f32⟩ : BufTy).Contents (Elt Ideal) :=
  m ((c.tc : Thread Cert.KernelIdeal.nD Cert.KernelIdeal.τ).loc Cert.KernelIdeal.main_arg5)

/-- Argument 6 of the kernel program on device `c`, at its literal type. -/
abbrev a6 (m : KMem) (c : Dev Cert.KernelIdeal.nD) : (⟨Cert.ReferenceIdeal.S128, .f32⟩ : BufTy).Contents (Elt Ideal) :=
  m ((c.tc : Thread Cert.KernelIdeal.nD Cert.KernelIdeal.τ).loc Cert.KernelIdeal.main_arg6)

/-- Argument 7 of the kernel program on device `c`, at its literal type. -/
abbrev a7 (m : KMem) (c : Dev Cert.KernelIdeal.nD) : (⟨Cert.ReferenceIdeal.S128, .f32⟩ : BufTy).Contents (Elt Ideal) :=
  m ((c.tc : Thread Cert.KernelIdeal.nD Cert.KernelIdeal.τ).loc Cert.KernelIdeal.main_arg7)

/-- Argument 8 of the kernel program on device `c`, at its literal type. -/
abbrev a8 (m : KMem) (c : Dev Cert.KernelIdeal.nD) : (⟨Cert.ReferenceIdeal.S128, .f32⟩ : BufTy).Contents (Elt Ideal) :=
  m ((c.tc : Thread Cert.KernelIdeal.nD Cert.KernelIdeal.τ).loc Cert.KernelIdeal.main_arg8)

/-- Argument 9 of the kernel program on device `c`, at its literal type. -/
abbrev a9 (m : KMem) (c : Dev Cert.KernelIdeal.nD) : (⟨Cert.ReferenceIdeal.S128x128, .f32⟩ : BufTy).Contents (Elt Ideal) :=
  m ((c.tc : Thread Cert.KernelIdeal.nD Cert.KernelIdeal.τ).loc Cert.KernelIdeal.main_arg9)

/-- Argument 10 of the kernel program on device `c`, at its literal type. -/
abbrev a10 (m : KMem) (c : Dev Cert.KernelIdeal.nD) : (⟨Cert.ReferenceIdeal.S128, .f32⟩ : BufTy).Contents (Elt Ideal) :=
  m ((c.tc : Thread Cert.KernelIdeal.nD Cert.KernelIdeal.τ).loc Cert.KernelIdeal.main_arg10)

/-- Argument 11 of the kernel program on device `c`, at its literal type. -/
abbrev a11 (m : KMem) (c : Dev Cert.KernelIdeal.nD) : (⟨Cert.ReferenceIdeal.S128, .f32⟩ : BufTy).Contents (Elt Ideal) :=
  m ((c.tc : Thread Cert.KernelIdeal.nD Cert.KernelIdeal.τ).loc Cert.KernelIdeal.main_arg11)

/-- Argument 12 of the kernel program on device `c`, at its literal type. -/
abbrev a12 (m : KMem) (c : Dev Cert.KernelIdeal.nD) : (⟨Cert.ReferenceIdeal.S128, .f32⟩ : BufTy).Contents (Elt Ideal) :=
  m ((c.tc : Thread Cert.KernelIdeal.nD Cert.KernelIdeal.τ).loc Cert.KernelIdeal.main_arg12)

/-- Argument 13 of the kernel program on device `c`, at its literal type. -/
abbrev a13 (m : KMem) (c : Dev Cert.KernelIdeal.nD) : (⟨Cert.ReferenceIdeal.S128x1, .f32⟩ : BufTy).Contents (Elt Ideal) :=
  m ((c.tc : Thread Cert.KernelIdeal.nD Cert.KernelIdeal.τ).loc Cert.KernelIdeal.main_arg13)

/-- Argument 14 of the kernel program on device `c`, at its literal type. -/
abbrev a14 (m : KMem) (c : Dev Cert.KernelIdeal.nD) : (⟨Cert.ReferenceIdeal.S1, .f32⟩ : BufTy).Contents (Elt Ideal) :=
  m ((c.tc : Thread Cert.KernelIdeal.nD Cert.KernelIdeal.τ).loc Cert.KernelIdeal.main_arg14)

end Cert.Names

end
-- ==== Proof.LibScatter.lean ====
/-
  Row gathers and row scatters read at an index.
  A gather of whole rows of an [N, C] array (or of entries of an [N] vector) at E start words reads, at (e, c), the
  operand's row named by start word e, read signed and clamped into [0, N - 1]. A scatter-add of E update rows into
  an [N, C] array adds update row e to the operand's row named by start word e, read signed and NOT clamped, and
  drops it when that row is outside the array; so entry (i, j) of the result is the operand's entry plus the sum,
  over the update rows e whose start word names row i, of update entry (e, j).
-/
import Idealize.ShloMosaic.Lib.ValueIdx
import Idealize.ShloMosaic.PureOps.Ideal

noncomputable section

namespace Cert.LibScatter

open Idealize.ShloMosaic Idealize.ShloMosaic.ValueIdx

variable {α : Type}

/-- The row of an `N`-row array a start word names when read signed, if it is one. -/
def rowOf? (N : ℕ) {w : ℕ} (z : BitVec w) : Option (Fin N) :=
  if h : 0 ≤ z.toInt ∧ z.toInt < (N : Int) then some ⟨z.toInt.toNat, by omega⟩ else none

/-- The row a gather reads for a start word: read signed, clamped into `[0, N - 1]`. -/
def clampRow (N : ℕ) (hN : 0 < N) {w : ℕ} (z : BitVec w) : Fin N := ⟨min z.toInt.toNat (N - 1), by omega⟩

/-- The two axes of a rank-2 array are different. -/
theorem fin2_one_ne_zero : (1 : Fin 2) ≠ 0 := by decide

/-- A start word that names a row of the array is not moved by the clamp. -/
theorem clampRow_of_rowOf? {N : ℕ} (hN : 0 < N) {w : ℕ} {z : BitVec w} {i : Fin N} (h : rowOf? N z = some i) :
    clampRow N hN z = i := by
  unfold rowOf? at h
  split at h
  · rename_i hz
    have hi : (⟨z.toInt.toNat, by omega⟩ : Fin N) = i := Option.some.inj h
    rw [← hi]
    refine Fin.ext ?_
    show min z.toInt.toNat (N - 1) = z.toInt.toNat
    omega
  · exact absurd h (by simp)

/-- Scatter of `E` update rows `[E, C]` into `[N, C]` at start words `[E, 1]`. -/
abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Scatter of `E` update entries `[E]` into `[N]` at start words `[E, 1]`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Gather of `E` whole rows of `[N, C]` at start words `[E, 1]`. -/
abbrev rowGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of `E` entries of `[N]` at start words `[E, 1]`. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row gather read at `(e, c)`. -/
theorem rowGather_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    have hst : (rowGather N E C wf).start (ix2 e c) idx 1 = 0 := by
      unfold GatherDims.start
      rw [dif_neg (show ¬ (1 : Fin 2) ∈ (rowGather N E C wf).startIndexMap from
        fun h => fin2_one_ne_zero (List.mem_singleton.mp h))]
    have hoff : (rowGather N E C wf).offCoord (ix2 e c) 1 = c.val := by
      unfold GatherDims.offCoord
      rw [dif_pos (show (1 : Fin 2) ∈ (rowGather N E C wf).sKept from
        (GatherDims.mem_sKept _ _).mpr ⟨fun h => fin2_one_ne_zero (List.mem_singleton.mp h), List.not_mem_nil⟩)]
      rfl
    rw [hst, hoff]; omega

/-- The entry gather read at `e`. -/
theorem vecGather_apply {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (clampRow N hN (idx (ix2 e (0 : Fin 1))))) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- Where update entry `(e, c)` of the row scatter lands: in row `rowOf?` of start word `e`, column `c`, if that is a
    row of the array. -/
theorem rowScatter_resultIdx? {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).resultIdx? (ix2 e c) idx
      = (rowOf? N (idx (ix2 e (0 : Fin 1)))).map (fun i => ix2 i c) := by
  have hsi : (rowScatter N E C wf).siIdx (ix2 e c) ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl), hsi]
  have hs1 : (rowScatter N E C wf).start (ix2 e c) idx 1 = 0 := by
    unfold ScatterDims.start
    rw [dif_neg (show ¬ (1 : Fin 2) ∈ (rowScatter N E C wf).scatterDimsToOperandDims from
      fun h => fin2_one_ne_zero (List.mem_singleton.mp h))]
  have hw0 : (rowScatter N E C wf).window (ix2 e c) 0 = 0 := by
    unfold ScatterDims.window
    rw [dif_neg (show ¬ (0 : Fin 2) ∈ (rowScatter N E C wf).sKept from by
      simp [ScatterDims.sKept, Shape.kept])]
  have hw1 : (rowScatter N E C wf).window (ix2 e c) 1 = c.val := by
    unfold ScatterDims.window
    rw [dif_pos (show (1 : Fin 2) ∈ (rowScatter N E C wf).sKept from by
      simp [ScatterDims.sKept, Shape.kept])]
    rfl
  unfold ScatterDims.resultIdx? rowOf?
  by_cases hz : 0 ≤ (idx (ix2 e (0 : Fin 1))).toInt ∧ (idx (ix2 e (0 : Fin 1))).toInt < (N : Int)
  · have hall : ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro a
      match a with
      | ⟨0, _⟩ =>
        show 0 ≤ (rowScatter N E C wf).start (ix2 e c) idx 0 + ((rowScatter N E C wf).window (ix2 e c) 0 : ℕ) ∧
          (rowScatter N E C wf).start (ix2 e c) idx 0 + ((rowScatter N E C wf).window (ix2 e c) 0 : ℕ) < (N : ℤ)
        rw [hs0, hw0]; omega
      | ⟨1, _⟩ =>
        show 0 ≤ (rowScatter N E C wf).start (ix2 e c) idx 1 + ((rowScatter N E C wf).window (ix2 e c) 1 : ℕ) ∧
          (rowScatter N E C wf).start (ix2 e c) idx 1 + ((rowScatter N E C wf).window (ix2 e c) 1 : ℕ) < (C : ℤ)
        rw [hs1, hw1]; have := c.isLt; omega
    rw [dif_pos hall, dif_pos hz]
    simp only [Option.map_some]
    congr 1
    funext a
    refine Fin.ext ?_
    match a with
    | ⟨0, _⟩ =>
      show ((rowScatter N E C wf).start (ix2 e c) idx 0 + ((rowScatter N E C wf).window (ix2 e c) 0 : ℕ)).toNat
        = (idx (ix2 e (0 : Fin 1))).toInt.toNat
      rw [hs0, hw0]; simp
    | ⟨1, _⟩ =>
      show ((rowScatter N E C wf).start (ix2 e c) idx 1 + ((rowScatter N E C wf).window (ix2 e c) 1 : ℕ)).toNat = c.val
      rw [hs1, hw1]; simp
  · have hnot : ¬ ∀ a, 0 ≤ (rowScatter N E C wf).start (ix2 e c) idx a + (rowScatter N E C wf).window (ix2 e c) a ∧
        (rowScatter N E C wf).start (ix2 e c) idx a + (rowScatter N E C wf).window (ix2 e c) a
          < (⟨2, ![N, C]⟩ : Shape).size a := by
      intro hall
      have h0 : 0 ≤ (idx (ix2 e (0 : Fin 1))).toInt + ((0 : ℕ) : ℤ) ∧
          (idx (ix2 e (0 : Fin 1))).toInt + ((0 : ℕ) : ℤ) < (N : ℤ) := by
        have := hall 0
        rw [hs0, hw0] at this
        exact this
      exact hz (by omega)
    rw [dif_neg hnot, dif_neg hz]
    rfl

/-- Where update entry `e` of the entry scatter lands: at entry `rowOf?` of start word `e`, if that is an entry of the
    array. -/
theorem vecScatter_resultIdx? {N E w : ℕ}
    (wf : ScatterDims.WF ⟨1, ![N]⟩ ⟨2, ![E, 1]⟩ ⟨1, ![E]⟩ [] [0] [0] 1)
    (idx : IVec ⟨2, ![E, 1]⟩ w) (e : Fin E) :
    (vecScatter N E wf).resultIdx? (ix1 e) idx = (rowOf? N (idx (ix2 e (0 : Fin 1)))).map ix1 := by
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N E wf).start (ix1 e) idx 0 = (idx (ix2 e (0 : Fin 1))).toInt := by
    unfold ScatterDims.start
    rw [dif_pos (show (0 : Fin 1) ∈ (vecScatter N E wf).scatterDimsToOperandDims from List.mem_singleton.mpr rfl), hsi]
  have hw0 : (vecScatter N E wf).window (ix1 e) 0 = 0 := by
    unfold ScatterDims.window
    rw [dif_neg (show ¬ (0 : Fin 1) ∈ (vecScatter N E wf).sKept from by
      simp [ScatterDims.sKept, Shape.kept])]
  unfold ScatterDims.resultIdx? rowOf?
  by_cases hz : 0 ≤ (idx (ix2 e (0 : Fin 1))).toInt ∧ (idx (ix2 e (0 : Fin 1))).toInt < (N : Int)
  · have hall : ∀ a, 0 ≤ (vecScatter N E wf).start (ix1 e) idx a + (vecScatter N E wf).window (ix1 e) a ∧
        (vecScatter N E wf).start (ix1 e) idx a + (vecScatter N E wf).window (ix1 e) a
          < (⟨1, ![N]⟩ : Shape).size a := by
      intro a
      obtain rfl : a = 0 := Subsingleton.elim _ _
      show 0 ≤ (vecScatter N E wf).start (ix1 e) idx 0 + ((vecScatter N E wf).window (ix1 e) 0 : ℕ) ∧
        (vecScatter N E wf).start (ix1 e) idx 0 + ((vecScatter N E wf).window (ix1 e) 0 : ℕ) < (N : ℤ)
      rw [hs0, hw0]; omega
    rw [dif_pos hall, dif_pos hz]
    simp only [Option.map_some]
    congr 1
    funext a
    obtain rfl : a = 0 := Subsingleton.elim _ _
    refine Fin.ext ?_
    show ((vecScatter N E wf).start (ix1 e) idx 0 + ((vecScatter N E wf).window (ix1 e) 0 : ℕ)).toNat
      = (idx (ix2 e (0 : Fin 1))).toInt.toNat
    rw [hs0, hw0]; simp
  · have hnot : ¬ ∀ a, 0 ≤ (vecScatter N E wf).start (ix1 e) idx a + (vecScatter N E wf).window (ix1 e) a ∧
        (vecScatter N E wf).start (ix1 e) idx a + (vecScatter N E wf).window (ix1 e) a
          < (⟨1, ![N]⟩ : Shape).size a := by
      intro hall
      have h0 : 0 ≤ (idx (ix2 e (0 : Fin 1))).toInt + ((0 : ℕ) : ℤ) ∧
          (idx (ix2 e (0 : Fin 1))).toInt + ((0 : ℕ) : ℤ) < (N : ℤ) := by
        have := hall 0
        rw [hs0, hw0] at this
        exact this
      exact hz (by omega)
    rw [dif_neg hnot, dif_neg hz]
    rfl

/-- Two rank-2 indices given by coordinates are equal exactly when their coordinates are. -/
theorem ix2_eq_ix2 {n0 n1 : ℕ} (a a' : Fin n0) (b b' : Fin n1) : ix2 a b = ix2 a' b' ↔ a = a' ∧ b = b' := by
  constructor
  · intro h
    exact ⟨congrFun h 0, congrFun h 1⟩
  · rintro ⟨rfl, rfl⟩; rfl

/-- Two rank-1 indices given by their coordinate are equal exactly when the coordinates are. -/
theorem ix1_eq_ix1 {n : ℕ} (a a' : Fin n) : ix1 a = ix1 a' ↔ a = a' := by
  constructor
  · intro h
    exact congrFun h 0
  · rintro rfl; rfl

/-- A rank-1 index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The accumulating row scatter at the ideal instance, read at `(i, j)`: the operand's entry plus the update
    entries `(e, j)` of the rows `e` whose start word names row `i`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32) (i : Fin N) (j : Fin C) :
    Host.scatterAdd (F := Ideal) (rowScatter N E C wf) x idx upd (ix2 i j)
      = x (ix2 i j) + ∑ e ∈ Finset.univ.filter (fun e : Fin E => rowOf? N (idx (ix2 e (0 : Fin 1))) = some i), upd (ix2 e j) := by
  unfold Host.scatterAdd
  rw [Ideal.hostScatterAdd_def]
  unfold Ideal.hostScatterAdd
  congr 1
  rw [Finset.sum_filter, Finset.sum_filter, sum_idx2]
  refine Finset.sum_congr rfl fun e _ => ?_
  simp only [rowScatter_resultIdx?]
  cases hr : rowOf? N (idx (ix2 e (0 : Fin 1))) with
  | none => simp
  | some i' =>
    simp only [Option.map_some, Option.some.injEq, ix2_eq_ix2]
    by_cases hi : i' = i
    · subst hi; simp
    · simp [hi]

/-- The accumulating entry scatter at the ideal instance, read at `i`. -/
theorem vecScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (F := Ideal) (vecScatter N E wf) x idx upd (ix1 i)
      = x (ix1 i) + ∑ e ∈ Finset.univ.filter (fun e : Fin E => rowOf? N (idx (ix2 e (0 : Fin 1))) = some i), upd (ix1 e) := by
  unfold Host.scatterAdd
  rw [Ideal.hostScatterAdd_def]
  unfold Ideal.hostScatterAdd
  congr 1
  rw [Finset.sum_filter, Finset.sum_filter, sum_idx1]
  refine Finset.sum_congr rfl fun e _ => ?_
  simp only [vecScatter_resultIdx?]
  cases hr : rowOf? N (idx (ix2 e (0 : Fin 1))) with
  | none => simp
  | some i' =>
    simp only [Option.map_some, Option.some.injEq, ix1_eq_ix1]

end Cert.LibScatter

end
-- ==== Proof.NormMath.lean ====
/-
  The algebra of one graph-wise normalisation layer over the extended reals.
  Rows `p` carry `C` channel entries `y p c` and a graph id; a graph's divisor is the number of its entries, or `1`
  when it has none. One form picks a graph's rows by one-hot weights and takes the variance as the mean of squares
  minus the squared mean; the other sums over the graph's rows and takes the variance as the mean of the squared
  centred entries. When every entry is a real the two forms give the same normalised, scaled, shifted and rectified
  entry, and that entry is a real when scale and shift are.
-/
import Idealize.ShloMosaic.PureOps.Ideal
import Idealize.ShloMosaic.Lib.ValueIdx
import proofs.«427561_j32633161515373_1_alg».proof.Proof.LibScatter

noncomputable section

namespace Cert.NormMath

open Idealize.ShloMosaic Cert.LibScatter
open scoped BigOperators

/-! ### The constants the two programs spell -/

/-- The float word of `128.0` (`0x43000000`) denotes the real `128`. -/
theorem ofBits_128 : Ideal.ofBits .f32 0x43000000#32 = ((128 : ℝ) : EReal) := by
  simp [Ideal.ofBits, Ideal.ieee, -EReal.coe_mul]; norm_num

/-- The float word of `1.0` (`0x3F800000`) denotes the real `1`. -/
theorem ofBits_one : Ideal.ofBits .f32 0x3F800000#32 = ((1 : ℝ) : EReal) := by
  simp [Ideal.ofBits, Ideal.ieee, -EReal.coe_mul]; norm_num

/-- The float word of the variance offset (`0x3727C5AC`) denotes a positive real. -/
theorem ofBits_eps : ∃ e : ℝ, 0 < e ∧ Ideal.ofBits .f32 0x3727C5AC#32 = (e : EReal) := by
  simp [Ideal.ofBits, Ideal.ieee, -EReal.coe_mul]

/-! ### Reals inside the extended reals -/

/-- The coercion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals commutes with the maximum. -/
theorem coe_max (a b : ℝ) : ((max a b : ℝ) : EReal) = max (a : EReal) (b : EReal) :=
  EReal.coe_strictMono.monotone.map_max

/-- A sum of `n` ones is the real `n`. -/
theorem nsmul_one_eq (n : ℕ) : n • (1 : EReal) = ((n : ℝ) : EReal) := by
  induction n with
  | zero => simp
  | succ k ih => rw [succ_nsmul, ih, Nat.cast_succ, EReal.coe_add, EReal.coe_one]

/-! ### A graph id read as a word and as a row -/

/-- A word that names row `i` of a `G`-row table (`G ≤ 2^31`) is the word of `g` exactly when `i = g`. -/
theorem eq_ofNat_iff {G : ℕ} (hG31 : G ≤ 2147483648) {z : BitVec 32} {i : Fin G} (h : rowOf? G z = some i)
    (g : Fin G) : z = BitVec.ofNat 32 g.val ↔ i = g := by
  unfold rowOf? at h
  split at h
  · rename_i hz
    have hi := Option.some.inj h
    have hiv : i.val = z.toInt.toNat := by rw [← hi]
    have hg := g.isLt
    constructor
    · intro he
      apply Fin.ext
      rw [hiv, he, BitVec.toInt_ofNat']
      simp only [Int.bmod_def]
      omega
    · intro he
      apply BitVec.eq_of_toInt_eq
      rw [BitVec.toInt_ofNat']
      simp only [Int.bmod_def]
      have : i.val = g.val := by rw [he]
      omega
  · simp at h

/-! ### The mean and the variance over a finite set, in the reals -/

/-- With `d = max |T| 1`, the mean `μ = (∑ f) / d` satisfies `(∑ (f - μ)²) / d = (∑ f²) / d - μ²`:
    when `T` is empty every sum is zero, otherwise `d = |T|`. -/
theorem var_identity {ι : Type*} (T : Finset ι) (f : ι → ℝ) (d : ℝ) (hd : d = max (T.card : ℝ) 1) :
    (∑ i ∈ T, (f i - (∑ i ∈ T, f i) * (1 / d)) * (f i - (∑ i ∈ T, f i) * (1 / d))) * (1 / d)
      = (∑ i ∈ T, f i * f i) * (1 / d) - ((∑ i ∈ T, f i) * (1 / d)) * ((∑ i ∈ T, f i) * (1 / d)) := by
  have hexp : ∀ μ : ℝ, ∑ i ∈ T, (f i - μ) * (f i - μ)
      = (∑ i ∈ T, f i * f i) - 2 * μ * (∑ i ∈ T, f i) + T.card * (μ * μ) := by
    intro μ
    have h1 : ∀ i, (f i - μ) * (f i - μ) = f i * f i - 2 * μ * f i + μ * μ := fun i => by ring
    simp only [h1, Finset.sum_add_distrib, Finset.sum_sub_distrib, ← Finset.mul_sum, Finset.sum_const,
      nsmul_eq_mul]
    ring
  rcases T.eq_empty_or_nonempty with rfl | hne
  · simp
  · have hc : (1 : ℝ) ≤ T.card := by exact_mod_cast hne.card_pos
    have hd' : (T.card : ℝ) = d := by rw [hd, max_eq_left hc]
    have hd0 : d ≠ 0 := by rw [← hd']; linarith
    rw [hexp, hd']
    field_simp
    ring

/-- The same over the rows of a set `R` and all `C` channels, with `d = max (|R| · C) 1`. -/
theorem var_real {N C : ℕ} (R : Finset (Fin N)) (f : Fin N → Fin C → ℝ) (d : ℝ)
    (hd : d = max ((R.card : ℝ) * C) 1) :
    (∑ p ∈ R, ∑ c, (f p c - (∑ p ∈ R, ∑ c, f p c) * (1 / d)) * (f p c - (∑ p ∈ R, ∑ c, f p c) * (1 / d))) * (1 / d)
      = (∑ p ∈ R, ∑ c, f p c * f p c) * (1 / d)
        - ((∑ p ∈ R, ∑ c, f p c) * (1 / d)) * ((∑ p ∈ R, ∑ c, f p c) * (1 / d)) := by
  have h := var_identity (R ×ˢ (Finset.univ : Finset (Fin C))) (fun x => f x.1 x.2) d
    (by rw [hd, Finset.card_product, Finset.card_univ, Fintype.card_fin]; push_cast; rfl)
  simp only [Finset.sum_product] at h
  exact h

/-! ### One normalisation layer, in the kernel's form and in the reference's form -/

section Layer

variable {N C G : ℕ}

/-- The rows of graph `g`: those whose id, read as a signed word, names row `g` of a `G`-row table. -/
def rows (β : Fin N → BitVec 32) (g : Fin G) : Finset (Fin N) :=
  Finset.univ.filter (fun p => rowOf? G (β p) = some g)

/-- The one-hot weight of row `p` for graph `g`. -/
def oh (β : Fin N → BitVec 32) (p : Fin N) (g : Fin G) : EReal :=
  if β p = BitVec.ofNat 32 g.val then 1 else 0

/-- The per-graph sum, by one-hot weights. -/
def kS (y : Fin N → Fin C → EReal) (β : Fin N → BitVec 32) (g : Fin G) : EReal :=
  ∑ p, oh β p g * ∑ c, y p c

/-- The per-graph sum of squares, by one-hot weights. -/
def kQ (y : Fin N → Fin C → EReal) (β : Fin N → BitVec 32) (g : Fin G) : EReal :=
  ∑ p, oh β p g * ∑ c, y p c * y p c

/-- The per-graph mean, from the one-hot sum. -/
def kMean (y : Fin N → Fin C → EReal) (β : Fin N → BitVec 32) (den : Fin G → EReal) (g : Fin G) : EReal :=
  Ideal.div (kS y β g) (den g)

/-- The per-graph inverse deviation, from the mean of squares minus the squared mean. -/
def kInv (y : Fin N → Fin C → EReal) (β : Fin N → BitVec 32) (den : Fin G → EReal) (eps : EReal) (g : Fin G) :
    EReal :=
  Ideal.rsqrt ((Ideal.div (kQ y β g) (den g) - kMean y β den g * kMean y β den g) + eps)

/-- The normalised, scaled, shifted and rectified entry, with mean and inverse deviation picked by one-hot weights. -/
def kOut (y : Fin N → Fin C → EReal) (β : Fin N → BitVec 32) (den : Fin G → EReal) (eps : EReal)
    (γ δ : Fin C → EReal) (p : Fin N) (c : Fin C) : EReal :=
  max ((((y p c - ∑ g, oh β p g * kMean y β den g) * (∑ g, oh β p g * kInv y β den eps g)) * γ c) + δ c) 0

/-- The per-graph mean, summed over the graph's rows. -/
def rMean (y : Fin N → Fin C → EReal) (β : Fin N → BitVec 32) (den : Fin G → EReal) (g : Fin G) : EReal :=
  Ideal.div (∑ p ∈ rows β g, ∑ c, y p c) (den g)

/-- The entry minus its graph's mean. -/
def rXc (y : Fin N → Fin C → EReal) (β : Fin N → BitVec 32) (gi : Fin N → Fin G) (den : Fin G → EReal)
    (p : Fin N) (c : Fin C) : EReal :=
  y p c - rMean y β den (gi p)

/-- The per-graph inverse deviation, from the centred second moment. -/
def rInv (y : Fin N → Fin C → EReal) (β : Fin N → BitVec 32) (gi : Fin N → Fin G) (den : Fin G → EReal)
    (eps : EReal) (g : Fin G) : EReal :=
  Ideal.rsqrt (Ideal.div (∑ p ∈ rows β g, ∑ c, rXc y β gi den p c * rXc y β gi den p c) (den g) + eps)

/-- The normalised, scaled, shifted and rectified entry, with mean and inverse deviation of the row's graph. -/
def rOut (y : Fin N → Fin C → EReal) (β : Fin N → BitVec 32) (gi : Fin N → Fin G) (den : Fin G → EReal)
    (eps : EReal) (γ δ : Fin C → EReal) (p : Fin N) (c : Fin C) : EReal :=
  max (((rXc y β gi den p c * rInv y β gi den eps (gi p)) * γ c) + δ c) 0

variable {β : Fin N → BitVec 32} {gi : Fin N → Fin G}

/-- Row `p` is a row of graph `g` exactly when its graph is `g`. -/
theorem mem_rows (hgi : ∀ p, rowOf? G (β p) = some (gi p)) (p : Fin N) (g : Fin G) :
    p ∈ rows β g ↔ gi p = g := by
  unfold rows
  rw [Finset.mem_filter, hgi p]
  simp

/-- The one-hot weight is `1` at the row's graph and `0` elsewhere. -/
theorem oh_eq (hG31 : G ≤ 2147483648) (hgi : ∀ p, rowOf? G (β p) = some (gi p)) (p : Fin N) (g : Fin G) :
    oh β p g = if gi p = g then 1 else 0 := by
  unfold oh
  simp only [eq_ofNat_iff hG31 (hgi p) g]

/-- A one-hot weighted sum over the graphs picks the row's graph. -/
theorem sum_oh_mul (hG31 : G ≤ 2147483648) (hgi : ∀ p, rowOf? G (β p) = some (gi p)) (f : Fin G → EReal)
    (p : Fin N) : ∑ g, oh β p g * f g = f (gi p) := by
  simp only [oh_eq hG31 hgi, ite_mul, one_mul, zero_mul]
  rw [Finset.sum_ite_eq]
  simp

/-- A one-hot weighted sum over the rows is the sum over the graph's rows. -/
theorem sum_oh_rows (hG31 : G ≤ 2147483648) (hgi : ∀ p, rowOf? G (β p) = some (gi p)) (f : Fin N → EReal)
    (g : Fin G) : ∑ p, oh β p g * f p = ∑ p ∈ rows β g, f p := by
  unfold rows
  rw [Finset.sum_filter]
  refine Finset.sum_congr rfl fun p _ => ?_
  rw [oh_eq hG31 hgi, hgi p]
  by_cases h : gi p = g
  · simp [h]
  · simp [h]

/-- The one-hot sum is the sum over the graph's rows. -/
theorem kS_eq (hG31 : G ≤ 2147483648) (hgi : ∀ p, rowOf? G (β p) = some (gi p)) (y : Fin N → Fin C → EReal)
    (g : Fin G) : kS y β g = ∑ p ∈ rows β g, ∑ c, y p c :=
  sum_oh_rows hG31 hgi (fun p => ∑ c, y p c) g

/-- The one-hot sum of squares is the sum over the graph's rows. -/
theorem kQ_eq (hG31 : G ≤ 2147483648) (hgi : ∀ p, rowOf? G (β p) = some (gi p)) (y : Fin N → Fin C → EReal)
    (g : Fin G) : kQ y β g = ∑ p ∈ rows β g, ∑ c, y p c * y p c :=
  sum_oh_rows hG31 hgi (fun p => ∑ c, y p c * y p c) g

/-- The two means are the same. -/
theorem kMean_eq (hG31 : G ≤ 2147483648) (hgi : ∀ p, rowOf? G (β p) = some (gi p)) (y : Fin N → Fin C → EReal)
    (den : Fin G → EReal) (g : Fin G) : kMean y β den g = rMean y β den g := by
  unfold kMean rMean
  rw [kS_eq hG31 hgi]

end Layer

/-! ### The layer over the reals -/

section Real

variable {N C G : ℕ} {β : Fin N → BitVec 32} {gi : Fin N → Fin G} {y : Fin N → Fin C → EReal}
  {den : Fin G → EReal} {y' : Fin N → Fin C → ℝ}

/-- The divisor of graph `g` as a real: the number of its entries, or `1` when it has none. -/
def dR (C : ℕ) (β : Fin N → BitVec 32) (g : Fin G) : ℝ := max (((rows β g).card : ℝ) * C) 1

/-- The mean of graph `g` as a real. -/
def mR (y' : Fin N → Fin C → ℝ) (β : Fin N → BitVec 32) (g : Fin G) : ℝ :=
  (∑ p ∈ rows β g, ∑ c, y' p c) * (1 / dR C β g)

/-- The variance of graph `g` as a real: the centred second moment over the divisor. -/
def vR (y' : Fin N → Fin C → ℝ) (β : Fin N → BitVec 32) (g : Fin G) : ℝ :=
  (∑ p ∈ rows β g, ∑ c, (y' p c - mR y' β g) * (y' p c - mR y' β g)) * (1 / dR C β g)

theorem dR_pos (C : ℕ) (β : Fin N → BitVec 32) (g : Fin G) : 0 < dR C β g :=
  lt_of_lt_of_le one_pos (le_max_right _ _)

theorem vR_nonneg (y' : Fin N → Fin C → ℝ) (β : Fin N → BitVec 32) (g : Fin G) : 0 ≤ vR y' β g := by
  unfold vR
  have hd := dR_pos C β g
  exact mul_nonneg (Finset.sum_nonneg fun p _ => Finset.sum_nonneg fun c _ => mul_self_nonneg _)
    (by positivity)

/-- The divisor is that real. -/
theorem den_real (hden : ∀ g, den g = max ((∑ p ∈ rows β g, (1 : EReal)) * ((C : ℝ) : EReal)) 1) (g : Fin G) :
    den g = ((dR C β g : ℝ) : EReal) := by
  rw [hden g]
  unfold dR
  rw [coe_max, EReal.coe_mul, EReal.coe_one, Finset.sum_const, nsmul_one_eq]

/-- The mean is that real. -/
theorem rMean_real (hy' : ∀ p c, y p c = ((y' p c : ℝ) : EReal))
    (hden : ∀ g, den g = max ((∑ p ∈ rows β g, (1 : EReal)) * ((C : ℝ) : EReal)) 1) (g : Fin G) :
    rMean y β den g = ((mR y' β g : ℝ) : EReal) := by
  unfold rMean mR
  rw [den_real hden g, Ideal.div_coe (dR_pos C β g).ne', EReal.coe_mul, coe_sum]
  simp only [hy', coe_sum]

/-- The centred entry is a real. -/
theorem rXc_real (hy' : ∀ p c, y p c = ((y' p c : ℝ) : EReal))
    (hden : ∀ g, den g = max ((∑ p ∈ rows β g, (1 : EReal)) * ((C : ℝ) : EReal)) 1) (p : Fin N) (c : Fin C) :
    rXc y β gi den p c = ((y' p c - mR y' β (gi p) : ℝ) : EReal) := by
  unfold rXc
  rw [rMean_real hy' hden, hy', EReal.coe_sub]

/-- The reference's variance is that real. -/
theorem rvar_real (hgi : ∀ p, rowOf? G (β p) = some (gi p)) (hy' : ∀ p c, y p c = ((y' p c : ℝ) : EReal))
    (hden : ∀ g, den g = max ((∑ p ∈ rows β g, (1 : EReal)) * ((C : ℝ) : EReal)) 1) (g : Fin G) :
    Ideal.div (∑ p ∈ rows β g, ∑ c, rXc y β gi den p c * rXc y β gi den p c) (den g)
      = ((vR y' β g : ℝ) : EReal) := by
  rw [den_real hden g, Ideal.div_coe (dR_pos C β g).ne']
  unfold vR
  rw [EReal.coe_mul, coe_sum]
  congr 1
  refine Finset.sum_congr rfl fun p hp => ?_
  rw [coe_sum]
  refine Finset.sum_congr rfl fun c _ => ?_
  rw [rXc_real hy' hden, (mem_rows hgi p g).mp hp, EReal.coe_mul]

/-- The kernel's variance, the mean of squares minus the squared mean, is the same real. -/
theorem kvar_real (hG31 : G ≤ 2147483648) (hgi : ∀ p, rowOf? G (β p) = some (gi p))
    (hy' : ∀ p c, y p c = ((y' p c : ℝ) : EReal))
    (hden : ∀ g, den g = max ((∑ p ∈ rows β g, (1 : EReal)) * ((C : ℝ) : EReal)) 1) (g : Fin G) :
    Ideal.div (kQ y β g) (den g) - kMean y β den g * kMean y β den g = ((vR y' β g : ℝ) : EReal) := by
  rw [kMean_eq hG31 hgi, rMean_real hy' hden, kQ_eq hG31 hgi, den_real hden g,
    Ideal.div_coe (dR_pos C β g).ne']
  have hQ : (∑ p ∈ rows β g, ∑ c, y p c * y p c)
      = ((∑ p ∈ rows β g, ∑ c, y' p c * y' p c : ℝ) : EReal) := by
    simp only [hy', coe_sum, EReal.coe_mul]
  rw [hQ, ← EReal.coe_mul, ← EReal.coe_mul, ← EReal.coe_sub]
  congr 1
  unfold vR mR
  exact (var_real (rows β g) y' (dR C β g) rfl).symm

/-- The two inverse deviations are the same. -/
theorem kInv_eq_rInv (hG31 : G ≤ 2147483648) (hgi : ∀ p, rowOf? G (β p) = some (gi p))
    (hy' : ∀ p c, y p c = ((y' p c : ℝ) : EReal))
    (hden : ∀ g, den g = max ((∑ p ∈ rows β g, (1 : EReal)) * ((C : ℝ) : EReal)) 1) (eps : EReal) (g : Fin G) :
    kInv y β den eps g = rInv y β gi den eps g := by
  unfold kInv rInv
  rw [kvar_real hG31 hgi hy' hden, rvar_real hgi hy' hden]

/-- The inverse deviation is a real: the variance is nonnegative and the offset positive. -/
theorem rInv_real (hgi : ∀ p, rowOf? G (β p) = some (gi p)) (hy' : ∀ p c, y p c = ((y' p c : ℝ) : EReal))
    (hden : ∀ g, den g = max ((∑ p ∈ rows β g, (1 : EReal)) * ((C : ℝ) : EReal)) 1) {eps : EReal}
    (heps : ∃ e : ℝ, 0 < e ∧ eps = (e : EReal)) (g : Fin G) :
    ∃ r : ℝ, rInv y β gi den eps g = (r : EReal) := by
  obtain ⟨e, he0, rfl⟩ := heps
  unfold rInv
  rw [rvar_real hgi hy' hden, ← EReal.coe_add, Ideal.rsqrt_coe]
  have hpos : 0 < vR y' β g + e := by have := vR_nonneg y' β g; linarith
  rw [if_neg (not_lt.mpr hpos.le), if_neg hpos.ne']
  exact ⟨_, rfl⟩

end Real

/-! ### The two forms agree, and the result is a real -/

section Main

variable {N C G : ℕ} {β : Fin N → BitVec 32} {gi : Fin N → Fin G} {y : Fin N → Fin C → EReal}
  {den : Fin G → EReal}

/-- The kernel's form of the layer equals the reference's form, entry by entry. -/
theorem kOut_eq_rOut (hy : ∀ p c, ∃ r : ℝ, y p c = (r : EReal)) (hgi : ∀ p, rowOf? G (β p) = some (gi p))
    (hG31 : G ≤ 2147483648)
    (hden : ∀ g, den g = max ((∑ p ∈ rows β g, (1 : EReal)) * ((C : ℝ) : EReal)) 1) (eps : EReal)
    (γ δ : Fin C → EReal) (p : Fin N) (c : Fin C) :
    kOut y β den eps γ δ p c = rOut y β gi den eps γ δ p c := by
  choose y' hy' using hy
  unfold kOut rOut
  rw [sum_oh_mul hG31 hgi, sum_oh_mul hG31 hgi, kMean_eq hG31 hgi, kInv_eq_rInv hG31 hgi hy' hden]
  rfl

/-- The reference's form of the layer is a real at every entry, when scale and shift are reals. -/
theorem rOut_real (hy : ∀ p c, ∃ r : ℝ, y p c = (r : EReal)) (hgi : ∀ p, rowOf? G (β p) = some (gi p))
    (hden : ∀ g, den g = max ((∑ p ∈ rows β g, (1 : EReal)) * ((C : ℝ) : EReal)) 1) {eps : EReal}
    (heps : ∃ e : ℝ, 0 < e ∧ eps = (e : EReal)) {γ δ : Fin C → EReal} (hγ : ∀ c, ∃ r : ℝ, γ c = (r : EReal))
    (hδ : ∀ c, ∃ r : ℝ, δ c = (r : EReal)) (p : Fin N) (c : Fin C) :
    ∃ r : ℝ, rOut y β gi den eps γ δ p c = (r : EReal) := by
  choose y' hy' using hy
  obtain ⟨i, hi⟩ := rInv_real hgi hy' hden heps (gi p)
  obtain ⟨a, ha⟩ := hγ c
  obtain ⟨b, hb⟩ := hδ c
  unfold rOut
  rw [rXc_real hy' hden, hi, ha, hb, ← EReal.coe_mul, ← EReal.coe_mul, ← EReal.coe_add, ← EReal.coe_zero, ← coe_max]
  exact ⟨_, rfl⟩

/-- So is the kernel's form. -/
theorem kOut_real (hy : ∀ p c, ∃ r : ℝ, y p c = (r : EReal)) (hgi : ∀ p, rowOf? G (β p) = some (gi p))
    (hG31 : G ≤ 2147483648)
    (hden : ∀ g, den g = max ((∑ p ∈ rows β g, (1 : EReal)) * ((C : ℝ) : EReal)) 1) {eps : EReal}
    (heps : ∃ e : ℝ, 0 < e ∧ eps = (e : EReal)) {γ δ : Fin C → EReal} (hγ : ∀ c, ∃ r : ℝ, γ c = (r : EReal))
    (hδ : ∀ c, ∃ r : ℝ, δ c = (r : EReal)) (p : Fin N) (c : Fin C) :
    ∃ r : ℝ, kOut y β den eps γ δ p c = (r : EReal) := by
  rw [kOut_eq_rOut hy hgi hG31 hden]
  exact rOut_real hy hgi hden heps hγ hδ p c

end Main

end Cert.NormMath
end
-- ==== Proof.NormCore.lean ====
/-
  The normalisation layer and the pooling read entry by entry at the literal sizes (100000 rows, 128 channels,
  512 graphs). The apply step's result, given entry by entry in terms of per-graph sums, means and inverse deviations
  that are themselves given entry by entry, is the one-hot form of the layer; it equals the row-sum form, whose
  entries are reals. The pooling's one-hot weighted sum over the rows is the sum over each graph's rows.
-/
import Idealize.ShloMosaic.PureOps.Ideal
import Idealize.ShloMosaic.Lib.ValueIdx
import proofs.«427561_j32633161515373_1_alg».proof.Proof.LibScatter
import proofs.«427561_j32633161515373_1_alg».proof.Proof.NormMath

noncomputable section

namespace Cert.NormCore

open Idealize.ShloMosaic Idealize.ShloMosaic.ValueIdx Cert.LibScatter Cert.NormMath
open scoped BigOperators

/-- Rows × channels. -/
abbrev A2 := (⟨2, ![100000, 128]⟩ : Shape).Idx → EReal
/-- One row of channels. -/
abbrev R1 := (⟨2, ![1, 128]⟩ : Shape).Idx → EReal
/-- One row of graphs. -/
abbrev G1 := (⟨2, ![1, 512]⟩ : Shape).Idx → EReal
/-- The graph ids as a column. -/
abbrev B2 := (⟨2, ![100000, 1]⟩ : Shape).Idx → BitVec 32
/-- A vector over the channels. -/
abbrev V128 := (⟨1, ![128]⟩ : Shape).Idx → EReal
/-- A vector over the graphs. -/
abbrev V512 := (⟨1, ![512]⟩ : Shape).Idx → EReal
/-- The graph ids as a vector. -/
abbrev I1 := (⟨1, ![100000]⟩ : Shape).Idx → BitVec 32
/-- Graphs × channels. -/
abbrev P2 := (⟨2, ![512, 128]⟩ : Shape).Idx → EReal

/-- The layer's input: the aggregated features plus the bias. -/
abbrev yOf (conv : A2) (bias : V128) : Fin 100000 → Fin 128 → EReal := fun p c => conv (ix2 p c) + bias (ix1 c)
/-- The graph id of each row. -/
abbrev idOf (ids : I1) : Fin 100000 → BitVec 32 := fun p => ids (ix1 p)
/-- A channel vector by its coordinate. -/
abbrev vecOf (v : V128) : Fin 128 → EReal := fun c => v (ix1 c)
/-- A graph vector by its coordinate. -/
abbrev denOf (den : V512) : Fin 512 → EReal := fun g => den (ix1 g)

/-- The divisor spelled with the words of `128.0` and `1.0` is the divisor with the reals `128` and `1`. -/
theorem hden_of_words {β : Fin 100000 → BitVec 32} {dn : Fin 512 → EReal}
    (hden : ∀ g, dn g = max ((∑ p ∈ rows β g, (1 : EReal)) * Ideal.ofBits .f32 0x43000000#32)
      (Ideal.ofBits .f32 0x3F800000#32)) :
    ∀ g, dn g = max ((∑ p ∈ rows β g, (1 : EReal)) * (((128 : ℕ) : ℝ) : EReal)) 1 := by
  intro g
  have h128 : (((128 : ℕ) : ℝ) : EReal) = ((128 : ℝ) : EReal) := by norm_num
  rw [hden g, ofBits_128, ofBits_one, EReal.coe_one, h128]

/-- The apply region's result, read entry by entry with its statistics read entry by entry, is the reference's
    normalisation layer. -/
theorem norm_core (conv : A2) (bias γv δv : V128) (ids : I1) (den : V512) (eps : EReal)
    (v58 v58' : A2) (v59 v70 v71 v72 : R1) (v21 v21' : B2) (s0 s1 v62 v69 : G1) (out tgt : A2)
    (gi : Fin 100000 → Fin 512)
    (hout : ∀ (p : Fin 100000) (q : Fin 128), out (ix2 p q)
      = max (((((v58 (ix2 p q) + v70 (ix2 (0 : Fin 1) q))
          - ∑ g : Fin 512, (if v21 (ix2 p (0 : Fin 1)) = BitVec.ofNat 32 g.val then (1 : EReal) else 0)
              * v62 (ix2 (0 : Fin 1) g))
          * (∑ g : Fin 512, (if v21 (ix2 p (0 : Fin 1)) = BitVec.ofNat 32 g.val then (1 : EReal) else 0)
              * v69 (ix2 (0 : Fin 1) g)))
          * v71 (ix2 (0 : Fin 1) q)) + v72 (ix2 (0 : Fin 1) q)) 0)
    (hs0 : ∀ g : Fin 512, s0 (ix2 (0 : Fin 1) g)
      = ∑ p : Fin 100000, (if v21' (ix2 p (0 : Fin 1)) = BitVec.ofNat 32 g.val then (1 : EReal) else 0)
          * ∑ q : Fin 128, (v58' (ix2 p q) + v59 (ix2 (0 : Fin 1) q)))
    (hs1 : ∀ g : Fin 512, s1 (ix2 (0 : Fin 1) g)
      = ∑ p : Fin 100000, (if v21' (ix2 p (0 : Fin 1)) = BitVec.ofNat 32 g.val then (1 : EReal) else 0)
          * ∑ q : Fin 128, (v58' (ix2 p q) + v59 (ix2 (0 : Fin 1) q)) * (v58' (ix2 p q) + v59 (ix2 (0 : Fin 1) q)))
    (h62 : ∀ g : Fin 512, v62 (ix2 (0 : Fin 1) g) = Ideal.div (s0 (ix2 (0 : Fin 1) g)) (den (ix1 g)))
    (h69 : ∀ g : Fin 512, v69 (ix2 (0 : Fin 1) g)
      = Ideal.rsqrt ((Ideal.div (s1 (ix2 (0 : Fin 1) g)) (den (ix1 g))
          - v62 (ix2 (0 : Fin 1) g) * v62 (ix2 (0 : Fin 1) g)) + eps))
    (h58 : v58 = conv) (h58' : v58' = conv)
    (h59 : ∀ q : Fin 128, v59 (ix2 (0 : Fin 1) q) = bias (ix1 q))
    (h70 : ∀ q : Fin 128, v70 (ix2 (0 : Fin 1) q) = bias (ix1 q))
    (h71 : ∀ q : Fin 128, v71 (ix2 (0 : Fin 1) q) = γv (ix1 q))
    (h72 : ∀ q : Fin 128, v72 (ix2 (0 : Fin 1) q) = δv (ix1 q))
    (h21 : ∀ p : Fin 100000, v21 (ix2 p (0 : Fin 1)) = ids (ix1 p))
    (h21' : ∀ p : Fin 100000, v21' (ix2 p (0 : Fin 1)) = ids (ix1 p))
    (hy : ∀ p c, ∃ r : ℝ, yOf conv bias p c = (r : EReal))
    (hgi : ∀ p, rowOf? 512 (idOf ids p) = some (gi p))
    (hden : ∀ g, denOf den g = max ((∑ p ∈ rows (idOf ids) g, (1 : EReal)) * Ideal.ofBits .f32 0x43000000#32)
      (Ideal.ofBits .f32 0x3F800000#32))
    (htgt : ∀ p c, tgt (ix2 p c)
      = rOut (yOf conv bias) (idOf ids) gi (denOf den) eps (vecOf γv) (vecOf δv) p c) :
    out = tgt := by
  have hm : ∀ g : Fin 512, v62 (ix2 (0 : Fin 1) g) = kMean (yOf conv bias) (idOf ids) (denOf den) g := by
    intro g
    rw [h62, hs0]
    unfold kMean kS oh
    simp only [h21', h59, h58', yOf, idOf, denOf]
  have hi : ∀ g : Fin 512, v69 (ix2 (0 : Fin 1) g) = kInv (yOf conv bias) (idOf ids) (denOf den) eps g := by
    intro g
    rw [h69, hs1, hm]
    unfold kInv kQ oh
    simp only [h21', h59, h58', yOf, idOf, denOf]
  funext j
  obtain ⟨p, q, rfl⟩ : ∃ p q, j = ix2 p q := ⟨j 0, j 1, eq_ix2 j⟩
  rw [htgt p q, ← kOut_eq_rOut hy hgi (by norm_num) (hden_of_words hden) eps _ _ p q, hout p q]
  unfold kOut oh
  simp only [hm, hi, h70, h71, h72, h21, h58, yOf, idOf, vecOf]

/-- Every entry of the reference's normalisation layer is a real. -/
theorem norm_core_real (conv : A2) (bias γv δv : V128) (ids : I1) (den : V512) (eps : EReal) (tgt : A2)
    (gi : Fin 100000 → Fin 512)
    (hy : ∀ p c, ∃ r : ℝ, yOf conv bias p c = (r : EReal))
    (hgi : ∀ p, rowOf? 512 (idOf ids p) = some (gi p))
    (hden : ∀ g, denOf den g = max ((∑ p ∈ rows (idOf ids) g, (1 : EReal)) * Ideal.ofBits .f32 0x43000000#32)
      (Ideal.ofBits .f32 0x3F800000#32))
    (htgt : ∀ p c, tgt (ix2 p c)
      = rOut (yOf conv bias) (idOf ids) gi (denOf den) eps (vecOf γv) (vecOf δv) p c)
    (heps : ∃ e : ℝ, 0 < e ∧ eps = (e : EReal))
    (hγ : ∀ c : Fin 128, ∃ r : ℝ, γv (ix1 c) = (r : EReal))
    (hδ : ∀ c : Fin 128, ∃ r : ℝ, δv (ix1 c) = (r : EReal)) :
    ∀ i, ∃ r : ℝ, tgt i = (r : EReal) := by
  intro i
  obtain ⟨p, q, rfl⟩ : ∃ p q, i = ix2 p q := ⟨i 0, i 1, eq_ix2 i⟩
  rw [htgt p q]
  exact rOut_real hy hgi (hden_of_words hden) heps hγ hδ p q

/-- The pooling region's result, read entry by entry, is the sum over each graph's rows. -/
theorem pool_core (h2 : A2) (outp : P2) (v21 : B2) (ids : I1) (gi : Fin 100000 → Fin 512)
    (hpool : ∀ (g : Fin 512) (q : Fin 128), outp (ix2 g q)
      = ∑ p : Fin 100000, (if v21 (ix2 p (0 : Fin 1)) = BitVec.ofNat 32 g.val then (1 : EReal) else 0)
          * h2 (ix2 p q))
    (h21 : ∀ p : Fin 100000, v21 (ix2 p (0 : Fin 1)) = ids (ix1 p))
    (hgi : ∀ p, rowOf? 512 (idOf ids p) = some (gi p)) :
    ∀ (g : Fin 512) (q : Fin 128), outp (ix2 g q) = ∑ p ∈ rows (idOf ids) g, h2 (ix2 p q) := by
  intro g q
  rw [hpool g q, ← sum_oh_rows (by norm_num) hgi (fun p => h2 (ix2 p q)) g]
  unfold oh
  simp only [h21, idOf]

end Cert.NormCore
end
-- ==== Proof.KLin.lean ====
/- The three dense layers of the network, each a pipeline of 100 grid points over 1000-row blocks:
   out = x @ w + b, with x of [100000, K], the weights w of [K, 128] whole at every point, and a one-row bias b of [1, 128]
   added to every row. The module reads each layer's output array at the region's exit, entry by entry, as a function of
   the three arrays at the region's entry:
     out(p, q) = (the sum over k of x(p, k) * w(k, q)) + b(0, q).
   Three steps per layer: the body's arithmetic at an entry of a block (the product into a zero accumulator is the plain
   sum; changing the float format is the identity at the ideal values); each input block as rows of its array (the block
   at point t starts at row 1000 t; the weights and the bias row never move); the 100 output blocks cover the array,
   row p lying in the block of point p / 1000. -/
import proofs.«427561_j32633161515373_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.KLin

open Cert.KernelIdeal Cert.KernelIdeal.Gen Idealize.ShloMosaic Idealize.ShloMosaic.TcCoe Idealize.ShloMosaic.ValueIdx Idealize.SL.Sem
open Idealize.ShloMosaic.Pipeline (Dat)

/-! ## The body's arithmetic at one entry

A dense layer's body multiplies its 1000-row block of the input by the whole weight matrix into a zero
accumulator and adds the one bias row to every row. At the ideal values the change of float format before the
product is the identity and the accumulator is the real number zero, so entry (r, q) of the result is
the sum over k of x(r, k) * w(k, q), plus b(0, q). -/

/-- Where the [1000,64] x [64,128] product reads its left operand, on the row axis: the output's row. -/
theorem lhs64_0 (i : S1000x128.Idx) (s : dot_S1000x64_S64x128_S1000x128_1_0_0_1_n_n.contr.Idx) :
    (dot_S1000x64_S64x128_S1000x128_1_0_0_1_n_n.lhsIdx i s 0).val = (i 0).val := by
  unfold DotDims.lhsIdx
  rw [dif_neg (show ¬(0 : Fin S1000x64.rank) ∈ dot_S1000x64_S64x128_S1000x128_1_0_0_1_n_n.lhsBatch by decide), dif_pos (show (0 : Fin S1000x64.rank) ∈ dot_S1000x64_S64x128_S1000x128_1_0_0_1_n_n.lhsNonContracting by decide)]
  rfl
/-- On the column axis: the contraction index. -/
theorem lhs64_1 (i : S1000x128.Idx) (s : dot_S1000x64_S64x128_S1000x128_1_0_0_1_n_n.contr.Idx) :
    (dot_S1000x64_S64x128_S1000x128_1_0_0_1_n_n.lhsIdx i s 1).val = (s ⟨0, by decide⟩).val :=
  dot_S1000x64_S64x128_S1000x128_1_0_0_1_n_n.lhsIdx_val_of_single rfl i s
/-- Where it reads its right operand, on the row axis: the contraction index. -/
theorem rhs64_0 (i : S1000x128.Idx) (s : dot_S1000x64_S64x128_S1000x128_1_0_0_1_n_n.contr.Idx) :
    (dot_S1000x64_S64x128_S1000x128_1_0_0_1_n_n.rhsIdx i s 0).val = (s ⟨0, by decide⟩).val :=
  dot_S1000x64_S64x128_S1000x128_1_0_0_1_n_n.rhsIdx_val_of_single rfl i s
/-- On the column axis: the output's column. -/
theorem rhs64_1 (i : S1000x128.Idx) (s : dot_S1000x64_S64x128_S1000x128_1_0_0_1_n_n.contr.Idx) :
    (dot_S1000x64_S64x128_S1000x128_1_0_0_1_n_n.rhsIdx i s 1).val = (i 1).val := by
  unfold DotDims.rhsIdx
  rw [dif_neg (show ¬(1 : Fin S64x128.rank) ∈ dot_S1000x64_S64x128_S1000x128_1_0_0_1_n_n.rhsBatch by decide), dif_pos (show (1 : Fin S64x128.rank) ∈ dot_S1000x64_S64x128_S1000x128_1_0_0_1_n_n.rhsNonContracting by decide)]
  rfl

/-- The [1000,64] x [64,128] product into zeros, at entry (r, q): the sum over k of l(r, k) * w(k, q). -/
theorem matmul64_apply {φ₁ φ₂ : FTy} (l : FVec Ideal S1000x64 φ₁) (w : FVec Ideal S64x128 φ₂) (r : Fin 1000) (q : Fin 128) :
    FloatOps.matmul dot_S1000x64_S64x128_S1000x128_1_0_0_1_n_n none l w (constant (F := Ideal) S1000x128 .f32 0x00000000#32) (ix2 r q)
      = ∑ k : Fin 64, l (ix2 r k) * w (ix2 k q) := by
  rw [Ideal.matmul_constant_zero_apply, ← Equiv.sum_comp (ValueIdx.contrEquiv1 dot_S1000x64_S64x128_S1000x128_1_0_0_1_n_n 64 rfl rfl).symm]
  refine Finset.sum_congr rfl fun k _ => ?_
  have hk := ValueIdx.contrEquiv1_symm_val dot_S1000x64_S64x128_S1000x128_1_0_0_1_n_n 64 rfl rfl k
  have el : dot_S1000x64_S64x128_S1000x128_1_0_0_1_n_n.lhsIdx (ix2 r q) ((ValueIdx.contrEquiv1 dot_S1000x64_S64x128_S1000x128_1_0_0_1_n_n 64 rfl rfl).symm k) = ix2 r k := funext fun a => Fin.ext (by
    match a with
    | ⟨0, _⟩ => exact lhs64_0 _ _
    | ⟨1, _⟩ => exact (lhs64_1 _ _).trans hk)
  have er : dot_S1000x64_S64x128_S1000x128_1_0_0_1_n_n.rhsIdx (ix2 r q) ((ValueIdx.contrEquiv1 dot_S1000x64_S64x128_S1000x128_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-- The input layer's body at entry (r, q) of its block. -/
theorem pay0_apply (x : Vec Ideal S1000x64 .f32) (w : Vec Ideal S64x128 .f32) (b : Vec Ideal S1x128 .f32) (r : Fin 1000) (q : Fin 128) :
    (k0_pay1 (F := Ideal) x w b) (ix2 r q) = (∑ k : Fin 64, x (ix2 r k) * w (ix2 k q)) + b (ix2 (0 : Fin 1) q) := by
  unfold k0_pay1
  rw [shapeCast_self]
  refine (addf_apply _ _ _).trans ?_
  refine congrArg₂ (· + ·) ?_ ?_
  · exact matmul64_apply _ _ r q
  · exact broadcastTo_1b_ab_apply b broadcasts_S1x128_S1000x128 r q

/-- Where the [1000,128] x [128,128] product reads its left operand, on the row axis: the output's row. -/
theorem lhs128_0 (i : S1000x128.Idx) (s : dot_S1000x128_S128x128_S1000x128_1_0_0_1_n_n.contr.Idx) :
    (dot_S1000x128_S128x128_S1000x128_1_0_0_1_n_n.lhsIdx i s 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
/-- On the column axis: the contraction index. -/
theorem lhs128_1 (i : S1000x128.Idx) (s : dot_S1000x128_S128x128_S1000x128_1_0_0_1_n_n.contr.Idx) :
    (dot_S1000x128_S128x128_S1000x128_1_0_0_1_n_n.lhsIdx i s 1).val = (s ⟨0, by decide⟩).val :=
  dot_S1000x128_S128x128_S1000x128_1_0_0_1_n_n.lhsIdx_val_of_single rfl i s
/-- Where it reads its right operand, on the row axis: the contraction index. -/
theorem rhs128_0 (i : S1000x128.Idx) (s : dot_S1000x128_S128x128_S1000x128_1_0_0_1_n_n.contr.Idx) :
    (dot_S1000x128_S128x128_S1000x128_1_0_0_1_n_n.rhsIdx i s 0).val = (s ⟨0, by decide⟩).val :=
  dot_S1000x128_S128x128_S1000x128_1_0_0_1_n_n.rhsIdx_val_of_single rfl i s
/-- On the column axis: the output's column. -/
theorem rhs128_1 (i : S1000x128.Idx) (s : dot_S1000x128_S128x128_S1000x128_1_0_0_1_n_n.contr.Idx) :
    (dot_S1000x128_S128x128_S1000x128_1_0_0_1_n_n.rhsIdx i s 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The [1000,128] x [128,128] product into zeros, at entry (r, q): the sum over k of l(r, k) * w(k, q). -/
theorem matmul128_apply {φ₁ φ₂ : FTy} (l : FVec Ideal S1000x128 φ₁) (w : FVec Ideal S128x128 φ₂) (r : Fin 1000) (q : Fin 128) :
    FloatOps.matmul dot_S1000x128_S128x128_S1000x128_1_0_0_1_n_n none l w (constant (F := Ideal) S1000x128 .f32 0x00000000#32) (ix2 r q)
      = ∑ k : Fin 128, l (ix2 r k) * w (ix2 k q) := by
  rw [Ideal.matmul_constant_zero_apply, ← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 r q) ((ValueIdx.contrEquiv1 dot_S1000x128_S128x128_S1000x128_1_0_0_1_n_n 128 rfl rfl).symm k) = ix2 r k := funext fun a => Fin.ext (by
    match a with
    | ⟨0, _⟩ => exact lhs128_0 _ _
    | ⟨1, _⟩ => exact (lhs128_1 _ _).trans hk)
  have er : dot_S1000x128_S128x128_S1000x128_1_0_0_1_n_n.rhsIdx (ix2 r q) ((ValueIdx.contrEquiv1 dot_S1000x128_S128x128_S1000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The first graph-convolution layer's dense body at entry (r, q) of its block. -/
theorem pay1_apply (x : Vec Ideal S1000x128 .f32) (w : Vec Ideal S128x128 .f32) (b : Vec Ideal S1x128 .f32) (r : Fin 1000) (q : Fin 128) :
    (k1_pay1 (F := Ideal) x w b) (ix2 r q) = (∑ k : Fin 128, x (ix2 r k) * w (ix2 k q)) + b (ix2 (0 : Fin 1) q) := by
  unfold k1_pay1
  rw [shapeCast_self, shapeCast_self]
  refine (addf_apply _ _ _).trans ?_
  refine congrArg₂ (· + ·) ?_ ?_
  · exact matmul128_apply _ _ r q
  · exact broadcastTo_1b_ab_apply b broadcasts_S1x128_S1000x128 r q

/-- The second graph-convolution layer's dense body at entry (r, q) of its block. -/
theorem pay4_apply (x : Vec Ideal S1000x128 .f32) (w : Vec Ideal S128x128 .f32) (b : Vec Ideal S1x128 .f32) (r : Fin 1000) (q : Fin 128) :
    (k4_pay1 (F := Ideal) x w b) (ix2 r q) = (∑ k : Fin 128, x (ix2 r k) * w (ix2 k q)) + b (ix2 (0 : Fin 1) q) := by
  unfold k4_pay1
  rw [shapeCast_self, shapeCast_self]
  refine (addf_apply _ _ _).trans ?_
  refine congrArg₂ (· + ·) ?_ ?_
  · exact matmul128_apply _ _ r q
  · exact broadcastTo_1b_ab_apply b broadcasts_S1x128_S1000x128 r q

/-! ## The closed form of a dense layer

One function of three whole arrays: the [100000, K] input, the [K, 128] weights and the [1, 128] bias row. -/

/-- Entry (p, q) of a dense layer's result: the sum over k of x(p, k) * w(k, q), plus b(0, q). -/
def linG (K : Nat) (x : (⟨2, ![100000, K]⟩ : Shape).Idx → EReal) (w : (⟨2, ![K, 128]⟩ : Shape).Idx → EReal)
    (b : (⟨2, ![1, 128]⟩ : Shape).Idx → EReal) : (⟨2, ![100000, 128]⟩ : Shape).Idx → EReal := fun i =>
  (∑ k : Fin K, x (ix2 (⟨(i 0).val, idx2_lt0 i⟩ : Fin 100000) k) * w (ix2 k (⟨(i 1).val, idx2_lt1 i⟩ : Fin 128)))
    + b (ix2 (0 : Fin 1) (⟨(i 1).val, idx2_lt1 i⟩ : Fin 128))

theorem linG_apply (K : Nat) (x : (⟨2, ![100000, K]⟩ : Shape).Idx → EReal) (w : (⟨2, ![K, 128]⟩ : Shape).Idx → EReal)
    (b : (⟨2, ![1, 128]⟩ : Shape).Idx → EReal) (p : Fin 100000) (q : Fin 128) :
    linG K x w b (ix2 p q) = (∑ k : Fin K, x (ix2 p k) * w (ix2 k q)) + b (ix2 (0 : Fin 1) q) := rfl

/-- The same at an entry given by its coordinates' values. -/
theorem linG_eq (K : Nat) (x : (⟨2, ![100000, K]⟩ : Shape).Idx → EReal) (w : (⟨2, ![K, 128]⟩ : Shape).Idx → EReal)
    (b : (⟨2, ![1, 128]⟩ : Shape).Idx → EReal) (i : (⟨2, ![100000, 128]⟩ : Shape).Idx) (p : Fin 100000) (q : Fin 128)
    (h0 : (i 0).val = p.val) (h1 : (i 1).val = q.val) :
    linG K x w b i = (∑ k : Fin K, x (ix2 p k) * w (ix2 k q)) + b (ix2 (0 : Fin 1) q) := by
  have e : i = ix2 p q := funext fun a => Fin.ext (by
    match a with
    | ⟨0, _⟩ => exact h0
    | ⟨1, _⟩ => exact h1)
  rw [e]; rfl

theorem hz : (![0, 0] : Fin 2 → Nat) = fun _ => 0 := funext fun a => by fin_cases a <;> rfl

/-- An array read as a function from the indices of a named shape to the extended reals: the same function. -/
abbrev arr (S : Shape) (f : S.Idx → EReal) : S.Idx → EReal := f

/-! ## Region 0: the input layer, x @ fc1_w + fc1_b -/

section Region0

variable (V : (c : Dev nD) → (b : Ref sig .tc) → Buf (Elt Ideal) ((c : Thread nD τ).loc b))

/-- The grid has 100 points; at point t the input's and the output's windows are at block row t, the weights' and
    the bias row's windows never move. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input's block at point t is rows 1000 t … 1000 t + 999 of its array. -/
theorem xblk0_apply (c : Dev nD) (t : Fin cfg0.N) (r : Fin 1000) (k : Fin 64) (hr : 1000 * t.val + r.val < 100000) :
    (iblk0 V c 0 t : Vec Ideal S1000x64 .f32) (ix2 r k) = (V c main_arg0 : S100000x64.Idx → EReal) (ix2 (⟨1000 * t.val + r.val, hr⟩ : Fin 100000) k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1000 + 1 * r.val = 1000 * t.val + r.val; rw [e0]; omega
  | ⟨1, _⟩ => show win0_0.index t (1 : Fin 2) * 64 + 1 * k.val = k.val; rw [e1]; omega

/-- The weights' block at every point is the whole matrix. -/
theorem wblk0_apply (c : Dev nD) (t : Fin cfg0.N) (k : Fin 64) (q : Fin 128) :
    (iblk0 V c 1 t : Vec Ideal S64x128 .f32) (ix2 k q) = (V c main_arg3 : S64x128.Idx → EReal) (ix2 k q) := by
  obtain ⟨-, -, e0, e1, -⟩ := idx_facts0 t
  unfold iblk0
  rw [View.read_apply]
  show V c main_arg3 _ = V c main_arg3 _
  congr 1
  funext a
  apply Fin.ext
  match a with
  | ⟨0, _⟩ => show win0_1.index t (0 : Fin 2) * 64 + 1 * k.val = k.val; rw [e0]; omega
  | ⟨1, _⟩ => show win0_1.index t (1 : Fin 2) * 128 + 1 * q.val = q.val; rw [e1]; omega

/-- The bias row's block at every point is the whole row. -/
theorem bblk0_apply (c : Dev nD) (t : Fin cfg0.N) (q : Fin 128) :
    (iblk0 V c 2 t : Vec Ideal S1x128 .f32) (ix2 (0 : Fin 1) q) = (V c main_v41 : S1x128.Idx → EReal) (ix2 (0 : Fin 1) q) := by
  obtain ⟨-, -, -, -, e0, e1, -⟩ := idx_facts0 t
  unfold iblk0
  rw [View.read_apply]
  show V c main_v41 _ = V c main_v41 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * q.val = q.val; rw [e1]; omega

/-- What point t writes back is block t of the layer's closed form of the arrays the region finds. -/
theorem flushed0 (c : Dev nD) (t : Fin cfg0.N) :
    (dat0 V c).flushed 3 t = ((cfg0.win 3).blk t).view.read (Elt Ideal)
      (linG 64 (V c main_arg0) (V c main_arg3) (V c main_v41)) := by
  show (cfg0.win 3).cut (grid0.coords t) ((dat0 V c).after 3 t) = _
  rw [after0_3]
  unfold out0_3
  rw [View.canon_unit_zero hz]
  simp only [View.ld_unit_zero (S := S1000x64) hz, View.ld_unit_zero (S := S64x128) hz, View.ld_unit_zero (S := S1x128) hz]
  have ht : t.val < 100 := t.isLt
  obtain ⟨-, -, -, -, -, -, e0, e1⟩ := idx_facts0 t
  refine funext fun (j : S1000x128.Idx) => ?_
  obtain ⟨r, q, rfl⟩ : ∃ (r : Fin 1000) (q : Fin 128), j = ix2 r q := ⟨j 0, j 1, eq_ix2 j⟩
  have hr : 1000 * t.val + r.val < 100000 := by have := r.isLt; omega
  refine (pay0_apply (iblk0 V c 0 t) (iblk0 V c 1 t) (iblk0 V c 2 t) r q).trans ?_
  refine Eq.trans ?_ (linG_eq 64 (V c main_arg0) (V c main_arg3) (V c main_v41) _ (⟨1000 * t.val + r.val, hr⟩ : Fin 100000) q ?_ ?_).symm
  · refine congrArg₂ (· + ·) (Finset.sum_congr rfl fun k _ => congrArg₂ (· * ·) ?_ ?_) ?_
    · exact xblk0_apply V c t r k hr
    · exact wblk0_apply V c t k q
    · exact bblk0_apply V c t q
  · show win0_3.index t (0 : Fin 2) * 1000 + 1 * r.val = 1000 * t.val + r.val; rw [e0]; omega
  · show win0_3.index t (1 : Fin 2) * 128 + 1 * q.val = q.val; rw [e1]; omega

/-- An entry of the output array is in point t's block iff each coordinate is in the block's range on its axis. -/
theorem mem_blk0 (t : Fin cfg0.N) (i : S100000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v42).slice (win0_3.rect t)).set ↔ _
  rw [View.set_slice_whole, Rect.mem_set_unit]
  exact Iff.rfl

/-- Row p of the output lies in the block of point p / 1000, so the 100 blocks cover the array and it ends
    holding the closed form. -/
theorem final0 (c : Dev nD) : (dat0 V c).arrAt 3 cfg0.N = linG 64 (V c main_arg0) (V c main_arg3) (V c main_v41) :=
  (dat0 V c).arrAt_eq_of_cover 3 _ (fun t _ => flushed0 V c t) fun i => by
    have hi0 : (i 0).val < 100000 := idx2_lt0 i
    have hi1 : (i 1).val < 128 := idx2_lt1 i
    have hN : cfg0.N = 100 := N_0
    let t : Fin cfg0.N := ⟨(i 0).val / 1000, by rw [hN]; omega⟩
    obtain ⟨-, -, -, -, -, -, e0, e1⟩ := idx_facts0 t
    have ht : t.val = (i 0).val / 1000 := rfl
    refine ⟨t, flush0_3 t, ?_⟩
    rw [mem_blk0]
    intro a
    match a with
    | ⟨0, _⟩ => show win0_3.index t (0 : Fin 2) * 1000 ≤ (i 0).val ∧ (i 0).val < win0_3.index t (0 : Fin 2) * 1000 + 1000; rw [e0, ht]; omega
    | ⟨1, _⟩ => show win0_3.index t (1 : Fin 2) * 128 ≤ (i 1).val ∧ (i 1).val < win0_3.index t (1 : Fin 2) * 128 + 128; rw [e1]; omega

end Region0

/-- The layer's output array at the region's exit is the closed form of the three arrays at its entry. -/
theorem W4_v42_eq (m : (ℓ : Loc nD τ sig) → Buf (Elt Ideal) ℓ) (ρ : Dev nD → PrngReg) (c : Dev nD) :
    W4 m ρ c (Proc.devRef .tc main_v42)
      = linG 64 (W3 m ρ c (Proc.devRef .tc main_arg0)) (W3 m ρ c (Proc.devRef .tc main_arg3)) (W3 m ρ c (Proc.devRef .tc main_v41)) :=
  (W4_arr m ρ c 3).trans (final0 (V3 m ρ) c)

/-- The same entry by entry. -/
theorem W4_v42 (m : (ℓ : Loc nD τ sig) → Buf (Elt Ideal) ℓ) (ρ : Dev nD → PrngReg) (c : Dev nD) (p : Fin 100000) (q : Fin 128) :
    arr S100000x128 (W4 m ρ c (Proc.devRef .tc main_v42)) (ix2 p q)
      = (∑ k : Fin 64, arr S100000x64 (W3 m ρ c (Proc.devRef .tc main_arg0)) (ix2 p k)
            * arr S64x128 (W3 m ρ c (Proc.devRef .tc main_arg3)) (ix2 k q))
        + arr S1x128 (W3 m ρ c (Proc.devRef .tc main_v41)) (ix2 (0 : Fin 1) q) :=
  (congrFun (W4_v42_eq m ρ c) (ix2 p q)).trans (linG_apply 64 _ _ _ p q)

/-! ## Region 1: the dense product of the first graph convolution -/

section Region1

variable (V : (c : Dev nD) → (b : Ref sig .tc) → Buf (Elt Ideal) ((c : Thread nD τ).loc b))

/-- The grid has 100 points; at point t the input's and the output's windows are at block row t, the weights' and
    the bias row's windows never move. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input's block at point t is rows 1000 t … 1000 t + 999 of its array. -/
theorem xblk1_apply (c : Dev nD) (t : Fin cfg1.N) (r : Fin 1000) (k : Fin 128) (hr : 1000 * t.val + r.val < 100000) :
    (iblk1 V c 0 t : Vec Ideal S1000x128 .f32) (ix2 r k) = (V c main_v42 : S100000x128.Idx → EReal) (ix2 (⟨1000 * t.val + r.val, hr⟩ : Fin 100000) k) := by
  obtain ⟨e0, e1, -⟩ := idx_facts1 t
  unfold iblk1
  rw [View.read_apply]
  show V c main_v42 _ = V c main_v42 _
  congr 1
  funext a
  apply Fin.ext
  match a with
  | ⟨0, _⟩ => show win1_0.index t (0 : Fin 2) * 1000 + 1 * r.val = 1000 * t.val + r.val; rw [e0]; omega
  | ⟨1, _⟩ => show win1_0.index t (1 : Fin 2) * 128 + 1 * k.val = k.val; rw [e1]; omega

/-- The weights' block at every point is the whole matrix. -/
theorem wblk1_apply (c : Dev nD) (t : Fin cfg1.N) (k : Fin 128) (q : Fin 128) :
    (iblk1 V c 1 t : Vec Ideal S128x128 .f32) (ix2 k q) = (V c main_arg5 : S128x128.Idx → EReal) (ix2 k q) := by
  obtain ⟨-, -, e0, e1, -⟩ := idx_facts1 t
  unfold iblk1
  rw [View.read_apply]
  show V c main_arg5 _ = V c main_arg5 _
  congr 1
  funext a
  apply Fin.ext
  match a with
  | ⟨0, _⟩ => show win1_1.index t (0 : Fin 2) * 128 + 1 * k.val = k.val; rw [e0]; omega
  | ⟨1, _⟩ => show win1_1.index t (1 : Fin 2) * 128 + 1 * q.val = q.val; rw [e1]; omega

/-- The bias row's block at every point is the whole row. -/
theorem bblk1_apply (c : Dev nD) (t : Fin cfg1.N) (q : Fin 128) :
    (iblk1 V c 2 t : Vec Ideal S1x128 .f32) (ix2 (0 : Fin 1) q) = (V c main_v44 : S1x128.Idx → EReal) (ix2 (0 : Fin 1) q) := by
  obtain ⟨-, -, -, -, e0, e1, -⟩ := idx_facts1 t
  unfold iblk1
  rw [View.read_apply]
  show V c main_v44 _ = V c main_v44 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- What point t writes back is block t of the layer's closed form of the arrays the region finds. -/
theorem flushed1 (c : Dev nD) (t : Fin cfg1.N) :
    (dat1 V c).flushed 3 t = ((cfg1.win 3).blk t).view.read (Elt Ideal)
      (linG 128 (V c main_v42) (V c main_arg5) (V c main_v44)) := by
  show (cfg1.win 3).cut (grid1.coords t) ((dat1 V c).after 3 t) = _
  rw [after1_3]
  unfold out1_3
  rw [View.canon_unit_zero hz]
  simp only [View.ld_unit_zero (S := S1000x128) hz, View.ld_unit_zero (S := S128x128) hz, View.ld_unit_zero (S := S1x128) hz]
  have ht : t.val < 100 := t.isLt
  obtain ⟨-, -, -, -, -, -, e0, e1⟩ := idx_facts1 t
  refine funext fun (j : S1000x128.Idx) => ?_
  obtain ⟨r, q, rfl⟩ : ∃ (r : Fin 1000) (q : Fin 128), j = ix2 r q := ⟨j 0, j 1, eq_ix2 j⟩
  have hr : 1000 * t.val + r.val < 100000 := by have := r.isLt; omega
  refine (pay1_apply (iblk1 V c 0 t) (iblk1 V c 1 t) (iblk1 V c 2 t) r q).trans ?_
  refine Eq.trans ?_ (linG_eq 128 (V c main_v42) (V c main_arg5) (V c main_v44) _ (⟨1000 * t.val + r.val, hr⟩ : Fin 100000) q ?_ ?_).symm
  · refine congrArg₂ (· + ·) (Finset.sum_congr rfl fun k _ => congrArg₂ (· * ·) ?_ ?_) ?_
    · exact xblk1_apply V c t r k hr
    · exact wblk1_apply V c t k q
    · exact bblk1_apply V c t q
  · show win1_3.index t (0 : Fin 2) * 1000 + 1 * r.val = 1000 * t.val + r.val; rw [e0]; omega
  · show win1_3.index t (1 : Fin 2) * 128 + 1 * q.val = q.val; rw [e1]; omega

/-- An entry of the output array is in point t's block iff each coordinate is in the block's range on its axis. -/
theorem mem_blk1 (t : Fin cfg1.N) (i : S100000x128.Idx) :
    i ∈ ((cfg1.win 3).blk t).view.set ↔ ∀ a : Fin 2, win1_3.index t a * S1000x128.size a ≤ (i a).val ∧ (i a).val < win1_3.index t a * S1000x128.size a + S1000x128.size a := by
  show i ∈ ((View.whole main_v45).slice (win1_3.rect t)).set ↔ _
  rw [View.set_slice_whole, Rect.mem_set_unit]
  exact Iff.rfl

/-- Row p of the output lies in the block of point p / 1000, so the 100 blocks cover the array and it ends
    holding the closed form. -/
theorem final1 (c : Dev nD) : (dat1 V c).arrAt 3 cfg1.N = linG 128 (V c main_v42) (V c main_arg5) (V c main_v44) :=
  (dat1 V c).arrAt_eq_of_cover 3 _ (fun t _ => flushed1 V c t) fun i => by
    have hi0 : (i 0).val < 100000 := idx2_lt0 i
    have hi1 : (i 1).val < 128 := idx2_lt1 i
    have hN : cfg1.N = 100 := N_1
    let t : Fin cfg1.N := ⟨(i 0).val / 1000, by rw [hN]; omega⟩
    obtain ⟨-, -, -, -, -, -, e0, e1⟩ := idx_facts1 t
    have ht : t.val = (i 0).val / 1000 := rfl
    refine ⟨t, flush1_3 t, ?_⟩
    rw [mem_blk1]
    intro a
    match a with
    | ⟨0, _⟩ => show win1_3.index t (0 : Fin 2) * 1000 ≤ (i 0).val ∧ (i 0).val < win1_3.index t (0 : Fin 2) * 1000 + 1000; rw [e0, ht]; omega
    | ⟨1, _⟩ => show win1_3.index t (1 : Fin 2) * 128 ≤ (i 1).val ∧ (i 1).val < win1_3.index t (1 : Fin 2) * 128 + 128; rw [e1]; omega

end Region1

/-- The layer's output array at the region's exit is the closed form of the three arrays at its entry. -/
theorem W6_v45_eq (m : (ℓ : Loc nD τ sig) → Buf (Elt Ideal) ℓ) (ρ : Dev nD → PrngReg) (c : Dev nD) :
    W6 m ρ c (Proc.devRef .tc main_v45)
      = linG 128 (W5 m ρ c (Proc.devRef .tc main_v42)) (W5 m ρ c (Proc.devRef .tc main_arg5)) (W5 m ρ c (Proc.devRef .tc main_v44)) :=
  (W6_arr m ρ c 3).trans (final1 (V5 m ρ) c)

/-- The same entry by entry. -/
theorem W6_v45 (m : (ℓ : Loc nD τ sig) → Buf (Elt Ideal) ℓ) (ρ : Dev nD → PrngReg) (c : Dev nD) (p : Fin 100000) (q : Fin 128) :
    arr S100000x128 (W6 m ρ c (Proc.devRef .tc main_v45)) (ix2 p q)
      = (∑ k : Fin 128, arr S100000x128 (W5 m ρ c (Proc.devRef .tc main_v42)) (ix2 p k)
            * arr S128x128 (W5 m ρ c (Proc.devRef .tc main_arg5)) (ix2 k q))
        + arr S1x128 (W5 m ρ c (Proc.devRef .tc main_v44)) (ix2 (0 : Fin 1) q) :=
  (congrFun (W6_v45_eq m ρ c) (ix2 p q)).trans (linG_apply 128 _ _ _ p q)

/-! ## Region 4: the dense product of the second graph convolution -/

section Region4

variable (V : (c : Dev nD) → (b : Ref sig .tc) → Buf (Elt Ideal) ((c : Thread nD τ).loc b))

/-- The grid has 100 points; at point t the input's and the output's windows are at block row t, the weights' and
    the bias row's windows never move. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The input's block at point t is rows 1000 t … 1000 t + 999 of its array. -/
theorem xblk4_apply (c : Dev nD) (t : Fin cfg4.N) (r : Fin 1000) (k : Fin 128) (hr : 1000 * t.val + r.val < 100000) :
    (iblk4 V c 0 t : Vec Ideal S1000x128 .f32) (ix2 r k) = (V c main_v73 : S100000x128.Idx → EReal) (ix2 (⟨1000 * t.val + r.val, hr⟩ : Fin 100000) k) := by
  obtain ⟨e0, e1, -⟩ := idx_facts4 t
  unfold iblk4
  rw [View.read_apply]
  show V c main_v73 _ = V c main_v73 _
  congr 1
  funext a
  apply Fin.ext
  match a with
  | ⟨0, _⟩ => show win4_0.index t (0 : Fin 2) * 1000 + 1 * r.val = 1000 * t.val + r.val; rw [e0]; omega
  | ⟨1, _⟩ => show win4_0.index t (1 : Fin 2) * 128 + 1 * k.val = k.val; rw [e1]; omega

/-- The weights' block at every point is the whole matrix. -/
theorem wblk4_apply (c : Dev nD) (t : Fin cfg4.N) (k : Fin 128) (q : Fin 128) :
    (iblk4 V c 1 t : Vec Ideal S128x128 .f32) (ix2 k q) = (V c main_arg9 : S128x128.Idx → EReal) (ix2 k q) := by
  obtain ⟨-, -, e0, e1, -⟩ := idx_facts4 t
  unfold iblk4
  rw [View.read_apply]
  show V c main_arg9 _ = V c main_arg9 _
  congr 1
  funext a
  apply Fin.ext
  match a with
  | ⟨0, _⟩ => show win4_1.index t (0 : Fin 2) * 128 + 1 * k.val = k.val; rw [e0]; omega
  | ⟨1, _⟩ => show win4_1.index t (1 : Fin 2) * 128 + 1 * q.val = q.val; rw [e1]; omega

/-- The bias row's block at every point is the whole row. -/
theorem bblk4_apply (c : Dev nD) (t : Fin cfg4.N) (q : Fin 128) :
    (iblk4 V c 2 t : Vec Ideal S1x128 .f32) (ix2 (0 : Fin 1) q) = (V c main_v74 : S1x128.Idx → EReal) (ix2 (0 : Fin 1) q) := by
  obtain ⟨-, -, -, -, e0, e1, -⟩ := idx_facts4 t
  unfold iblk4
  rw [View.read_apply]
  show V c main_v74 _ = V c main_v74 _
  congr 1
  funext a
  apply Fin.ext
  match a with
  | ⟨0, _⟩ => show win4_2.index t (0 : Fin 2) * 1 + 1 * 0 = 0; rw [e0]
  | ⟨1, _⟩ => show win4_2.index t (1 : Fin 2) * 128 + 1 * q.val = q.val; rw [e1]; omega

/-- What point t writes back is block t of the layer's closed form of the arrays the region finds. -/
theorem flushed4 (c : Dev nD) (t : Fin cfg4.N) :
    (dat4 V c).flushed 3 t = ((cfg4.win 3).blk t).view.read (Elt Ideal)
      (linG 128 (V c main_v73) (V c main_arg9) (V c main_v74)) := by
  show (cfg4.win 3).cut (grid4.coords t) ((dat4 V c).after 3 t) = _
  rw [after4_3]
  unfold out4_3
  rw [View.canon_unit_zero hz]
  simp only [View.ld_unit_zero (S := S1000x128) hz, View.ld_unit_zero (S := S128x128) hz, View.ld_unit_zero (S := S1x128) hz]
  have ht : t.val < 100 := t.isLt
  obtain ⟨-, -, -, -, -, -, e0, e1⟩ := idx_facts4 t
  refine funext fun (j : S1000x128.Idx) => ?_
  obtain ⟨r, q, rfl⟩ : ∃ (r : Fin 1000) (q : Fin 128), j = ix2 r q := ⟨j 0, j 1, eq_ix2 j⟩
  have hr : 1000 * t.val + r.val < 100000 := by have := r.isLt; omega
  refine (pay4_apply (iblk4 V c 0 t) (iblk4 V c 1 t) (iblk4 V c 2 t) r q).trans ?_
  refine Eq.trans ?_ (linG_eq 128 (V c main_v73) (V c main_arg9) (V c main_v74) _ (⟨1000 * t.val + r.val, hr⟩ : Fin 100000) q ?_ ?_).symm
  · refine congrArg₂ (· + ·) (Finset.sum_congr rfl fun k _ => congrArg₂ (· * ·) ?_ ?_) ?_
    · exact xblk4_apply V c t r k hr
    · exact wblk4_apply V c t k q
    · exact bblk4_apply V c t q
  · show win4_3.index t (0 : Fin 2) * 1000 + 1 * r.val = 1000 * t.val + r.val; rw [e0]; omega
  · show win4_3.index t (1 : Fin 2) * 128 + 1 * q.val = q.val; rw [e1]; omega

/-- An entry of the output array is in point t's block iff each coordinate is in the block's range on its axis. -/
theorem mem_blk4 (t : Fin cfg4.N) (i : S100000x128.Idx) :
    i ∈ ((cfg4.win 3).blk t).view.set ↔ ∀ a : Fin 2, win4_3.index t a * S1000x128.size a ≤ (i a).val ∧ (i a).val < win4_3.index t a * S1000x128.size a + S1000x128.size a := by
  show i ∈ ((View.whole main_v75).slice (win4_3.rect t)).set ↔ _
  rw [View.set_slice_whole, Rect.mem_set_unit]
  exact Iff.rfl

/-- Row p of the output lies in the block of point p / 1000, so the 100 blocks cover the array and it ends
    holding the closed form. -/
theorem final4 (c : Dev nD) : (dat4 V c).arrAt 3 cfg4.N = linG 128 (V c main_v73) (V c main_arg9) (V c main_v74) :=
  (dat4 V c).arrAt_eq_of_cover 3 _ (fun t _ => flushed4 V c t) fun i => by
    have hi0 : (i 0).val < 100000 := idx2_lt0 i
    have hi1 : (i 1).val < 128 := idx2_lt1 i
    have hN : cfg4.N = 100 := N_4
    let t : Fin cfg4.N := ⟨(i 0).val / 1000, by rw [hN]; omega⟩
    obtain ⟨-, -, -, -, -, -, e0, e1⟩ := idx_facts4 t
    have ht : t.val = (i 0).val / 1000 := rfl
    refine ⟨t, flush4_3 t, ?_⟩
    rw [mem_blk4]
    intro a
    match a with
    | ⟨0, _⟩ => show win4_3.index t (0 : Fin 2) * 1000 ≤ (i 0).val ∧ (i 0).val < win4_3.index t (0 : Fin 2) * 1000 + 1000; rw [e0, ht]; omega
    | ⟨1, _⟩ => show win4_3.index t (1 : Fin 2) * 128 ≤ (i 1).val ∧ (i 1).val < win4_3.index t (1 : Fin 2) * 128 + 128; rw [e1]; omega

end Region4

/-- The layer's output array at the region's exit is the closed form of the three arrays at its entry. -/
theorem W12_v75_eq (m : (ℓ : Loc nD τ sig) → Buf (Elt Ideal) ℓ) (ρ : Dev nD → PrngReg) (c : Dev nD) :
    W12 m ρ c (Proc.devRef .tc main_v75)
      = linG 128 (W11 m ρ c (Proc.devRef .tc main_v73)) (W11 m ρ c (Proc.devRef .tc main_arg9)) (W11 m ρ c (Proc.devRef .tc main_v74)) :=
  (W12_arr m ρ c 3).trans (final4 (V11 m ρ) c)

/-- The same entry by entry. -/
theorem W12_v75 (m : (ℓ : Loc nD τ sig) → Buf (Elt Ideal) ℓ) (ρ : Dev nD → PrngReg) (c : Dev nD) (p : Fin 100000) (q : Fin 128) :
    arr S100000x128 (W12 m ρ c (Proc.devRef .tc main_v75)) (ix2 p q)
      = (∑ k : Fin 128, arr S100000x128 (W11 m ρ c (Proc.devRef .tc main_v73)) (ix2 p k)
            * arr S128x128 (W11 m ρ c (Proc.devRef .tc main_arg9)) (ix2 k q))
        + arr S1x128 (W11 m ρ c (Proc.devRef .tc main_v74)) (ix2 (0 : Fin 1) q) :=
  (congrFun (W12_v75_eq m ρ c) (ix2 p q)).trans (linG_apply 128 _ _ _ p q)

end Cert.KernelIdeal.KLin

end
-- ==== Proof.RLin.lean ====
/-
  The reference's linear layers and its pooling layer, recognised from their entries. An array whose entry (p, q) is
  the sum over k of left(p, k) · right(k, q), plus the bias at q, is the reference's linear layer as a whole array;
  an array whose entry (g, q) is the sum over all rows p of [graph id of p is g] · h(p, q) is the reference's pooled array,
  the scatter-add of the rows of h by graph id into zeros: a 32-bit word names row g of a 512-row table, read signed,
  exactly when it is the word of the number g.
-/
import proofs.«427561_j32633161515373_1_alg».proof.Proof.ReferenceRead
import proofs.«427561_j32633161515373_1_alg».proof.Proof.LibScatter
import Idealize.ShloMosaic.Lib.ValueIdx
import Idealize.ShloMosaic.Lib.StableHlo.Predicate

noncomputable section

namespace Cert.RLin

open Cert.ReferenceIdeal Cert.ReferenceIdeal.Read Idealize.ShloMosaic Idealize.ShloMosaic.ValueIdx

/-- A 32-bit word names row g of a 512-row table (read signed) exactly when it is the word of the number g. -/
theorem rowOf?_eq_some_iff (b : BitVec 32) (g : Fin 512) :
    Cert.LibScatter.rowOf? 512 b = some g ↔ b = BitVec.ofNat 32 g.val := by
  have hg := g.isLt
  constructor
  · intro h
    unfold Cert.LibScatter.rowOf? at h
    split at h
    · rename_i hz
      have hv : b.toInt.toNat = g.val := congrArg Fin.val (Option.some.inj h)
      have hb : b.toInt = (g.val : ℤ) := by omega
      have e : BitVec.ofInt 32 b.toInt = b := BitVec.ofInt_toInt
      rw [← e, hb]
      exact BitVec.ofInt_natCast 32 g.val
    · exact absurd h (by simp)
  · intro h
    subst h
    have ht : (BitVec.ofNat 32 g.val).toInt = (g.val : ℤ) :=
      StableHlo.Predicate.toInt_ofNat_small g.val (by omega)
    unfold Cert.LibScatter.rowOf?
    rw [dif_pos ⟨by omega, by omega⟩]
    refine congrArg some (Fin.ext ?_)
    show (BitVec.ofNat 32 g.val).toInt.toNat = g.val
    omega

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x128, .f32⟩ : BufTy).Contents (Elt Ideal))
  (x4 : (⟨S128, .f32⟩ : BufTy).Contents (Elt Ideal)) (x5 : (⟨S128x128, .f32⟩ : BufTy).Contents (Elt Ideal))
  (x6 x7 x8 : (⟨S128, .f32⟩ : BufTy).Contents (Elt Ideal)) (x9 : (⟨S128x128, .f32⟩ : BufTy).Contents (Elt Ideal))
  (x10 x11 x12 : (⟨S128, .f32⟩ : BufTy).Contents (Elt Ideal))

/-! ## The index functions of the printed contractions and broadcasts, as coordinates -/

theorem lidx21 (p : Fin 100000) (q : Fin 128) (k : Fin 64) : lidx_main_v21 (ix2 p q) k = ix2 p k :=
  funext fun a => Fin.ext (by match a with | ⟨0, _⟩ => rfl | ⟨1, _⟩ => rfl)
theorem ridx21 (p : Fin 100000) (q : Fin 128) (k : Fin 64) : ridx_main_v21 (ix2 p q) k = ix2 k q :=
  funext fun a => Fin.ext (by match a with | ⟨0, _⟩ => rfl | ⟨1, _⟩ => rfl)
theorem bidx24 (p : Fin 100000) (q : Fin 128) : idx_main_v22 (idx_main_v23 (ix2 p q)) = ix1 q :=
  funext fun a => Fin.ext (by match a with | ⟨0, _⟩ => rfl)
theorem lidx25 (p : Fin 100000) (q : Fin 128) (k : Fin 128) : lidx_main_v25 (ix2 p q) k = ix2 p k :=
  funext fun a => Fin.ext (by match a with | ⟨0, _⟩ => rfl | ⟨1, _⟩ => rfl)
theorem ridx25 (p : Fin 100000) (q : Fin 128) (k : Fin 128) : ridx_main_v25 (ix2 p q) k = ix2 k q :=
  funext fun a => Fin.ext (by match a with | ⟨0, _⟩ => rfl | ⟨1, _⟩ => rfl)
theorem lidx102 (p : Fin 100000) (q : Fin 128) (k : Fin 128) : lidx_main_v102 (ix2 p q) k = ix2 p k :=
  funext fun a => Fin.ext (by match a with | ⟨0, _⟩ => rfl | ⟨1, _⟩ => rfl)
theorem ridx102 (p : Fin 100000) (q : Fin 128) (k : Fin 128) : ridx_main_v102 (ix2 p q) k = ix2 k q :=
  funext fun a => Fin.ext (by match a with | ⟨0, _⟩ => rfl | ⟨1, _⟩ => rfl)

/-! ## The linear layers -/

/-- The first linear layer: entries (∑ₖ x(p,k)·w(k,q)) + b(q) make the reference's array. -/
theorem lin_eq_v24 (out : S100000x128.Idx → EReal)
    (h : ∀ (p : Fin 100000) (q : Fin 128), out (ix2 p q) = (∑ k : Fin 64, x0 (ix2 p k) * x3 (ix2 k q)) + x4 (ix1 q)) :
    out = val_main_v24 (F := Ideal) x0 x3 x4 := by
  funext i
  obtain ⟨p, q, rfl⟩ : ∃ (p : Fin 100000) (q : Fin 128), i = ix2 p q := ⟨i 0, i 1, eq_ix2 i⟩
  rw [h p q, val_main_v24_apply, val_main_v21_apply, val_main_v23_apply, val_main_v22_apply, bidx24]
  show _ = (∑ k : Fin 64, x0 (lidx_main_v21 (ix2 p q) k) * x3 (ridx_main_v21 (ix2 p q) k)) + x4 (ix1 q)
  refine congrArg (· + x4 (ix1 q)) (Finset.sum_congr rfl fun k _ => ?_)
  rw [lidx21, ridx21]

/-- The second linear layer, with the zero bias the kernel program adds: entries (∑ₖ h(p,k)·w(k,q)) + 0. -/
theorem lin_eq_v25 (out : S100000x128.Idx → EReal)
    (h : ∀ (p : Fin 100000) (q : Fin 128),
      out (ix2 p q) = (∑ k : Fin 128, val_main_v24 (F := Ideal) x0 x3 x4 (ix2 p k) * x5 (ix2 k q)) + 0) :
    out = val_main_v25 (F := Ideal) x0 x3 x4 x5 := by
  funext i
  obtain ⟨p, q, rfl⟩ : ∃ (p : Fin 100000) (q : Fin 128), i = ix2 p q := ⟨i 0, i 1, eq_ix2 i⟩
  rw [h p q, val_main_v25_apply, add_zero]
  generalize val_main_v24 (F := Ideal) x0 x3 x4 = y
  refine Finset.sum_congr rfl fun k _ => ?_
  rw [lidx25, ridx25]

/-- The third linear layer, likewise with a zero bias. -/
theorem lin_eq_v102 (out : S100000x128.Idx → EReal)
    (h : ∀ (p : Fin 100000) (q : Fin 128),
      out (ix2 p q) = (∑ k : Fin 128, val_main_v101 (F := Ideal) x0 x1 x2 x3 x4 x5 x6 x7 x8 (ix2 p k) * x9 (ix2 k q)) + 0) :
    out = val_main_v102 (F := Ideal) x0 x1 x2 x3 x4 x5 x6 x7 x8 x9 := by
  funext i
  obtain ⟨p, q, rfl⟩ : ∃ (p : Fin 100000) (q : Fin 128), i = ix2 p q := ⟨i 0, i 1, eq_ix2 i⟩
  rw [h p q, val_main_v102_apply, add_zero]
  generalize val_main_v101 (F := Ideal) x0 x1 x2 x3 x4 x5 x6 x7 x8 = y
  refine Finset.sum_congr rfl fun k _ => ?_
  rw [lidx102, ridx102]

/-! ## The pooling layer -/

/-- The pooled array: entries ∑ₚ [graph id of p is g]·h(p,q), over all rows p, make the reference's scatter-add by graph id. -/
theorem pool_eq_v181 (out : S512x128.Idx → EReal)
    (hv181 : ∀ (g : Fin 512) (q : Fin 128), val_main_v181 (F := Ideal) x0 x1 x2 x3 x4 x5 x6 x7 x8 x9 x10 x11 x12 (ix2 g q)
      = ∑ p ∈ Finset.univ.filter (fun p : Fin 100000 => Cert.LibScatter.rowOf? 512 (x2 (ix1 p)) = some g),
          val_main_v178 (F := Ideal) x0 x1 x2 x3 x4 x5 x6 x7 x8 x9 x10 x11 x12 (ix2 p q))
    (h : ∀ (g : Fin 512) (q : Fin 128), out (ix2 g q)
      = ∑ p : Fin 100000, (if x2 (ix1 p) = BitVec.ofNat 32 g.val then (1 : EReal) else 0)
          * val_main_v178 (F := Ideal) x0 x1 x2 x3 x4 x5 x6 x7 x8 x9 x10 x11 x12 (ix2 p q)) :
    out = val_main_v181 (F := Ideal) x0 x1 x2 x3 x4 x5 x6 x7 x8 x9 x10 x11 x12 := by
  funext i
  obtain ⟨g, q, rfl⟩ : ∃ (g : Fin 512) (q : Fin 128), i = ix2 g q := ⟨i 0, i 1, eq_ix2 i⟩
  rw [h g q, hv181 g q, Finset.sum_filter]
  generalize val_main_v178 (F := Ideal) x0 x1 x2 x3 x4 x5 x6 x7 x8 x9 x10 x11 x12 = y
  refine Finset.sum_congr rfl fun p _ => ?_
  by_cases hb : x2 (ix1 p) = BitVec.ofNat 32 g.val
  · rw [if_pos hb, if_pos ((rowOf?_eq_some_iff _ g).2 hb), one_mul]
  · rw [if_neg hb, if_neg (fun hr => hb ((rowOf?_eq_some_iff _ g).1 hr)), zero_mul]

end Cert.RLin

end
-- ==== Proof.KHostA.lean ====
/-
  The kernel program's host stretches that perform the reference program's own operations. Between its
  regions the kernel program computes, with the same operations as the reference, the edge endpoints with
  self-loops appended, the symmetric per-edge weight, the number of nodes of every graph, the divisor of
  the per-graph statistics, the two neighbourhood sums (rows gathered by source endpoint, scaled by the
  edge weight, added up by target endpoint) and the read-out (pooled sums divided by the graph sizes, then
  the last linear map). Each of these buffers, read at a boundary of the kernel program's run, equals the
  reference's value function of the argument arrays: a stretch is first read back over an arbitrary
  valuation whose entries at the stretch's operands are the reference's values, then instantiated at the
  boundary, where those operands were either computed by an earlier stretch, or left by a region (a
  hypothesis), or carried unchanged from where they were written.
-/
import proofs.«427561_j32633161515373_1_alg».proof.Proof.Gen.KernelIdeal.Frame
import proofs.«427561_j32633161515373_1_alg».proof.Proof.Names
import proofs.«427561_j32633161515373_1_alg».proof.Proof.ReferenceRead

set_option maxRecDepth 16384

noncomputable section

namespace Cert.KHostA

open Idealize.ShloMosaic Idealize.ShloMosaic.TcCoe Idealize.SL.Sem
open Cert.KernelIdeal Cert.KernelIdeal.Gen
open Cert.ReferenceIdeal.Read
open Cert.Names (KMem a0 a1 a2 a3 a4 a5 a6 a7 a8 a9 a10 a11 a12 a13 a14)

/-- An array of the given literal shape and element type, at the ideal instance. -/
abbrev RArr (s : Shape) (e : EltTy) : Type := (⟨s, e⟩ : BufTy).Contents (Elt Ideal)

variable (m : KMem) (ρ : Dev nD → PrngReg) (c : Dev nD)

/-! ## The stretches over an arbitrary valuation

Each lemma reads one result of a literal list of host operations from a valuation `V`, given what `V` holds
at the operands the list does not itself compute, and recognises the composed term as the reference's. -/

section Stretches
variable (V : Valuation τ sig (Elt Ideal))

/-! ### The first stretch: edge endpoints with self-loops appended, degrees, their inverse square roots -/

set_option maxHeartbeats 1000000 in
theorem ops0_v3 (x1 : RArr Cert.ReferenceIdeal.S2x1600000 .i32) (e1 : V (Proc.devRef .tc main_arg1) = x1) :
    StableHlo.after hostOps0 V (Proc.devRef .tc main_v3) = val_main_v3 x1 := by
  subst e1
  after_results
  unfold val_main_v3 val_main_v2 val_main_v1 val_main_v0
  rfl

set_option maxHeartbeats 1000000 in
theorem ops0_v6 (x1 : RArr Cert.ReferenceIdeal.S2x1600000 .i32) (e1 : V (Proc.devRef .tc main_arg1) = x1) :
    StableHlo.after hostOps0 V (Proc.devRef .tc main_v6) = val_main_v6 x1 := by
  subst e1
  after_results
  unfold val_main_v6 val_main_v5 val_main_v4 val_main_v0
  rfl

set_option maxHeartbeats 4000000 in
theorem ops0_v12 (x1 : RArr Cert.ReferenceIdeal.S2x1600000 .i32) (e1 : V (Proc.devRef .tc main_arg1) = x1) :
    StableHlo.after hostOps0 V (Proc.devRef .tc main_v12) = val_main_v12 x1 := by
  subst e1
  after_results
  unfold val_main_v12 val_main_v11 val_main_cst_1 val_main_v10 val_main_v9 val_main_v8 val_main_cst_0 val_main_v7 val_main_cst
    val_main_v6 val_main_v5 val_main_v4 val_main_v0
  rfl

set_option maxHeartbeats 4000000 in
theorem ops0_v15 (x1 : RArr Cert.ReferenceIdeal.S2x1600000 .i32) (e1 : V (Proc.devRef .tc main_arg1) = x1) :
    StableHlo.after hostOps0 V (Proc.devRef .tc main_v15) = val_main_v15 x1 := by
  subst e1
  after_results
  unfold val_main_v15 val_main_v14 val_main_v13 val_main_cst_2 val_main_v10 val_main_v9 val_main_v8 val_main_cst_0 val_main_v7 val_main_cst
    val_main_v6 val_main_v5 val_main_v4 val_main_v0
  rfl

theorem ops0_cst3 : StableHlo.after hostOps0 V (Proc.devRef .tc main_cst_3) = val_main_cst_3 (F := Ideal) := by
  after_results
  rfl

end Stretches

section Stretches2
variable (V : Valuation τ sig (Elt Ideal))

/-! ### The inlined call: zero where a node has no edge -/

theorem ops0_1_v16 (x1 : RArr Cert.ReferenceIdeal.S2x1600000 .i32)
    (e12 : V (Proc.devRef .tc main_v12) = val_main_v12 x1) (e15 : V (Proc.devRef .tc main_v15) = val_main_v15 x1)
    (ec : V (Proc.devRef .tc main_cst_3) = val_main_cst_3 (F := Ideal)) :
    StableHlo.after hostOps0_1 V (Proc.devRef .tc main_v16) = val_main_v16 x1 := by
  after_results
  simp only [StableHlo.TRef.ofBuf, StableHlo.TRef.toBuf, cast_eq]
  rw [e12, e15, ec]
  unfold val_main_v16 val_main_call0_v1 val_main_call0_v0
  rfl

/-! ### The third stretch: per-edge normalisation, nodes per graph, the divisor of the graph statistics -/

set_option maxHeartbeats 4000000 in
theorem ops0_2_v36 (x1 : RArr Cert.ReferenceIdeal.S2x1600000 .i32)
    (e16 : V (Proc.devRef .tc main_v16) = val_main_v16 x1) (e3 : V (Proc.devRef .tc main_v3) = val_main_v3 x1)
    (e6 : V (Proc.devRef .tc main_v6) = val_main_v6 x1) :
    StableHlo.after hostOps0_2 V (Proc.devRef .tc main_v36) = val_main_v40 x1 := by
  after_results_simp
  rw [e16, e3, e6]
  unfold val_main_v40 val_main_v39 val_main_v38 val_main_v37 val_main_v36 val_main_v35 val_main_c_8 val_main_v34 val_main_v33 val_main_c_7
    val_main_v32 val_main_v31 val_main_v30 val_main_v29 val_main_v28 val_main_c_6 val_main_v27 val_main_v26 val_main_c
  rfl

set_option maxHeartbeats 4000000 in
theorem ops0_2_v20 (x2 : RArr Cert.ReferenceIdeal.S100000 .i32) (e2 : V (Proc.devRef .tc main_arg2) = x2) :
    StableHlo.after hostOps0_2 V (Proc.devRef .tc main_v20) = val_main_v20 x2 := by
  subst e2
  after_results_simp
  unfold val_main_v20 val_main_v19 val_main_v18 val_main_cst_5 val_main_v17 val_main_cst_4
  rfl

set_option maxHeartbeats 4000000 in
theorem ops0_2_v40 (x2 : RArr Cert.ReferenceIdeal.S100000 .i32) (e2 : V (Proc.devRef .tc main_arg2) = x2) :
    StableHlo.after hostOps0_2 V (Proc.devRef .tc main_v40) = val_main_v60 x2 := by
  subst e2
  after_results_simp
  unfold val_main_v60 val_main_v59 val_main_cst_13 val_main_v58 val_main_v57 val_main_cst_12
    val_main_v20 val_main_v19 val_main_v18 val_main_cst_5 val_main_v17 val_main_cst_4
  rfl

end Stretches2

section Stretches3
variable (V : Valuation τ sig (Elt Ideal))

/-! ### One graph convolution: rows gathered by source, scaled by the edge's weight, added up by target -/

set_option maxHeartbeats 4000000 in
theorem ops2_v58 (x0 : RArr Cert.ReferenceIdeal.S100000x64 .f32) (x1 : RArr Cert.ReferenceIdeal.S2x1600000 .i32)
    (x3 : RArr Cert.ReferenceIdeal.S64x128 .f32) (x4 : RArr Cert.ReferenceIdeal.S128 .f32) (x5 : RArr Cert.ReferenceIdeal.S128x128 .f32)
    (e45 : V (Proc.devRef .tc main_v45) = val_main_v25 x0 x3 x4 x5)
    (e3 : V (Proc.devRef .tc main_v3) = val_main_v3 x1) (e6 : V (Proc.devRef .tc main_v6) = val_main_v6 x1)
    (e36 : V (Proc.devRef .tc main_v36) = val_main_v40 x1) :
    StableHlo.after hostOps2 V (Proc.devRef .tc main_v58) = val_main_v53 x0 x1 x3 x4 x5 := by
  after_results_simp
  rw [e45, e3, e6, e36]
  unfold val_main_v53 val_main_v52 val_main_v51 val_main_cst_11 val_main_v50 val_main_v49 val_main_v48 val_main_v47 val_main_v46
    val_main_v45 val_main_v44 val_main_v43 val_main_c_10 val_main_v42 val_main_v41 val_main_c_9
  rfl

/-- The second layer's edge weights are the first layer's: the same operations on the same operands. -/
theorem edge_weight_layer2 (x1 : RArr Cert.ReferenceIdeal.S2x1600000 .i32) : val_main_v117 x1 = val_main_v40 x1 := by
  unfold val_main_v117 val_main_v116 val_main_v115 val_main_v114 val_main_v113 val_main_v112 val_main_c_26 val_main_v111 val_main_v110 val_main_c_25
    val_main_v109 val_main_v108 val_main_v107 val_main_v106 val_main_v105 val_main_c_24 val_main_v104 val_main_v103 val_main_c_23
    val_main_v40 val_main_v39 val_main_v38 val_main_v37 val_main_v36 val_main_v35 val_main_c_8 val_main_v34 val_main_v33 val_main_c_7
    val_main_v32 val_main_v31 val_main_v30 val_main_v29 val_main_v28 val_main_c_6 val_main_v27 val_main_v26 val_main_c
  rfl

set_option maxHeartbeats 4000000 in
theorem ops5_v88 (x0 : RArr Cert.ReferenceIdeal.S100000x64 .f32) (x1 : RArr Cert.ReferenceIdeal.S2x1600000 .i32)
    (x2 : RArr Cert.ReferenceIdeal.S100000 .i32)
    (x3 : RArr Cert.ReferenceIdeal.S64x128 .f32) (x4 : RArr Cert.ReferenceIdeal.S128 .f32) (x5 : RArr Cert.ReferenceIdeal.S128x128 .f32)
    (x6 x7 x8 : RArr Cert.ReferenceIdeal.S128 .f32) (x9 : RArr Cert.ReferenceIdeal.S128x128 .f32)
    (e75 : V (Proc.devRef .tc main_v75) = val_main_v102 x0 x1 x2 x3 x4 x5 x6 x7 x8 x9)
    (e3 : V (Proc.devRef .tc main_v3) = val_main_v3 x1) (e6 : V (Proc.devRef .tc main_v6) = val_main_v6 x1)
    (e36 : V (Proc.devRef .tc main_v36) = val_main_v40 x1) :
    StableHlo.after hostOps5 V (Proc.devRef .tc main_v88) = val_main_v130 x0 x1 x2 x3 x4 x5 x6 x7 x8 x9 := by
  after_results_simp
  rw [e75, e3, e6, e36, ← edge_weight_layer2 x1]
  unfold val_main_v130 val_main_v129 val_main_v128 val_main_cst_29 val_main_v127 val_main_v126 val_main_v125 val_main_v124 val_main_v123
    val_main_v122 val_main_v121 val_main_v120 val_main_c_28 val_main_v119 val_main_v118 val_main_c_27
  rfl

/-! ### The read-out: the pooled sums over the nodes per graph, then the last linear map -/

set_option maxHeartbeats 4000000 in
theorem ops8_v113 (x0 : RArr Cert.ReferenceIdeal.S100000x64 .f32) (x1 : RArr Cert.ReferenceIdeal.S2x1600000 .i32)
    (x2 : RArr Cert.ReferenceIdeal.S100000 .i32)
    (x3 : RArr Cert.ReferenceIdeal.S64x128 .f32) (x4 : RArr Cert.ReferenceIdeal.S128 .f32) (x5 : RArr Cert.ReferenceIdeal.S128x128 .f32)
    (x6 x7 x8 : RArr Cert.ReferenceIdeal.S128 .f32) (x9 : RArr Cert.ReferenceIdeal.S128x128 .f32)
    (x10 x11 x12 : RArr Cert.ReferenceIdeal.S128 .f32) (x13 : RArr Cert.ReferenceIdeal.S128x1 .f32) (x14 : RArr Cert.ReferenceIdeal.S1 .f32)
    (e104 : V (Proc.devRef .tc main_v104) = val_main_v181 x0 x1 x2 x3 x4 x5 x6 x7 x8 x9 x10 x11 x12)
    (e20 : V (Proc.devRef .tc main_v20) = val_main_v20 x2)
    (e13 : V (Proc.devRef .tc main_arg13) = x13) (e14 : V (Proc.devRef .tc main_arg14) = x14) :
    StableHlo.after hostOps8 V (Proc.devRef .tc main_v113) = val_main_v190 x0 x1 x2 x3 x4 x5 x6 x7 x8 x9 x10 x11 x12 x13 x14 := by
  subst e13 e14
  after_results_simp
  rw [e104, e20]
  unfold val_main_v190 val_main_v189 val_main_v188 val_main_v187 val_main_v186 val_main_v185 val_main_v184 val_main_v183 val_main_v182 val_main_cst_42
  rfl

end Stretches3

/-! ## A buffer that nothing writes keeps its contents -/

/-- No operation of a literal host stretch writes the buffer. -/
macro "host_nw" ops:ident : tactic => `(tactic|
  (refine List.forall_iff_forall_mem.mp ?_
   simp only [$ops:ident, List.flatten_cons, List.flatten_nil, List.append_nil, List.cons_append, List.nil_append, List.Forall,
     StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

section Carries
variable (b : Ref sig .tc)

theorem W1_eq_W0 (g : ∀ op ∈ (hostOps0 (F := Ideal)), Proc.devRef (τ := τ) .tc b ∉ op.writes) :
    W1 m ρ c (Proc.devRef .tc b) = W0 m ρ c (Proc.devRef .tc b) :=
  StableHlo.after_of_forall_not_mem _ _ g

theorem W2_eq_W1 (g : ∀ op ∈ (hostOps0_1 (F := Ideal)), Proc.devRef (τ := τ) .tc b ∉ op.writes) :
    W2 m ρ c (Proc.devRef .tc b) = W1 m ρ c (Proc.devRef .tc b) :=
  StableHlo.after_of_forall_not_mem _ _ g

theorem W3_eq_W2 (g : ∀ op ∈ (hostOps0_2 (F := Ideal)), Proc.devRef (τ := τ) .tc b ∉ op.writes) :
    W3 m ρ c (Proc.devRef .tc b) = W2 m ρ c (Proc.devRef .tc b) :=
  StableHlo.after_of_forall_not_mem _ _ g

/-- From the first region's entry to the second region's exit. -/
theorem span_3_6 (h0 : ∀ w, Pipeline.arrRef spec0 w ≠ b)
    (g1 : ∀ op ∈ (hostOps1 (F := Ideal)), Proc.devRef (τ := τ) .tc b ∉ op.writes)
    (h1 : ∀ w, Pipeline.arrRef spec1 w ≠ b) :
    W6 m ρ c (Proc.devRef .tc b) = W3 m ρ c (Proc.devRef .tc b) :=
  (W6_of_ne m ρ c b h1).trans ((StableHlo.after_of_forall_not_mem _ _ g1).trans (W4_of_ne m ρ c b h0))

/-- From the second region's exit to the fifth region's exit. -/
theorem span_6_12
    (g2 : ∀ op ∈ (hostOps2 (F := Ideal)), Proc.devRef (τ := τ) .tc b ∉ op.writes)
    (h2 : ∀ w, Pipeline.arrRef spec2 w ≠ b)
    (g3 : ∀ op ∈ (hostOps3 (F := Ideal)), Proc.devRef (τ := τ) .tc b ∉ op.writes)
    (h3 : ∀ w, Pipeline.arrRef spec3 w ≠ b)
    (g4 : ∀ op ∈ (hostOps4 (F := Ideal)), Proc.devRef (τ := τ) .tc b ∉ op.writes)
    (h4 : ∀ w, Pipeline.arrRef spec4 w ≠ b) :
    W12 m ρ c (Proc.devRef .tc b) = W6 m ρ c (Proc.devRef .tc b) :=
  (W12_of_ne m ρ c b h4).trans ((StableHlo.after_of_forall_not_mem _ _ g4).trans
    ((W10_of_ne m ρ c b h3).trans ((StableHlo.after_of_forall_not_mem _ _ g3).trans
      ((W8_of_ne m ρ c b h2).trans (StableHlo.after_of_forall_not_mem _ _ g2)))))

/-- From the fifth region's exit to the last region's exit. -/
theorem span_12_17
    (g5 : ∀ op ∈ (hostOps5 (F := Ideal)), Proc.devRef (τ := τ) .tc b ∉ op.writes)
    (h5 : ∀ w, Pipeline.arrRef spec5 w ≠ b)
    (g6 : ∀ op ∈ (hostOps6 (F := Ideal)), Proc.devRef (τ := τ) .tc b ∉ op.writes)
    (h6 : ∀ w, Pipeline.arrRef spec6 w ≠ b)
    (h7 : ∀ w, Pipeline.arrRef spec7 w ≠ b) :
    W17 m ρ c (Proc.devRef .tc b) = W12 m ρ c (Proc.devRef .tc b) :=
  (W17_of_ne m ρ c b h7).trans ((W16_of_ne m ρ c b h6).trans ((StableHlo.after_of_forall_not_mem _ _ g6).trans
    ((W14_of_ne m ρ c b h5).trans (StableHlo.after_of_forall_not_mem _ _ g5))))

end Carries

/-! ## The boundaries

At the first region's entry: source and target endpoints, the per-edge weight, the nodes per graph and the
divisor of the graph statistics are the reference's values of the edge list and of the graph ids. -/

theorem W2_v3 : W2 m ρ c (Proc.devRef .tc main_v3) = val_main_v3 (a1 m c) :=
  (W2_eq_W1 m ρ c main_v3 (by host_nw hostOps0_1)).trans (ops0_v3 (W0 m ρ c) (a1 m c) rfl)

theorem W2_v6 : W2 m ρ c (Proc.devRef .tc main_v6) = val_main_v6 (a1 m c) :=
  (W2_eq_W1 m ρ c main_v6 (by host_nw hostOps0_1)).trans (ops0_v6 (W0 m ρ c) (a1 m c) rfl)

theorem W2_v16 : W2 m ρ c (Proc.devRef .tc main_v16) = val_main_v16 (a1 m c) :=
  ops0_1_v16 (W1 m ρ c) (a1 m c) (ops0_v12 (W0 m ρ c) (a1 m c) rfl) (ops0_v15 (W0 m ρ c) (a1 m c) rfl) (ops0_cst3 (W0 m ρ c))

theorem W2_arg2 : W2 m ρ c (Proc.devRef .tc main_arg2) = a2 m c :=
  (W2_eq_W1 m ρ c main_arg2 (by host_nw hostOps0_1)).trans (W1_eq_W0 m ρ c main_arg2 (by host_nw hostOps0))

theorem C3_src : W3 m ρ c (Proc.devRef .tc main_v3) = val_main_v3 (a1 m c) :=
  (W3_eq_W2 m ρ c main_v3 (by host_nw hostOps0_2)).trans (W2_v3 m ρ c)

theorem C3_dst : W3 m ρ c (Proc.devRef .tc main_v6) = val_main_v6 (a1 m c) :=
  (W3_eq_W2 m ρ c main_v6 (by host_nw hostOps0_2)).trans (W2_v6 m ρ c)

theorem C3_norm : W3 m ρ c (Proc.devRef .tc main_v36) = val_main_v40 (a1 m c) :=
  ops0_2_v36 (W2 m ρ c) (a1 m c) (W2_v16 m ρ c) (W2_v3 m ρ c) (W2_v6 m ρ c)

theorem C3_cnt : W3 m ρ c (Proc.devRef .tc main_v20) = val_main_v20 (a2 m c) :=
  ops0_2_v20 (W2 m ρ c) (a2 m c) (W2_arg2 m ρ c)

theorem C3_den : W3 m ρ c (Proc.devRef .tc main_v40) = val_main_v60 (a2 m c) :=
  ops0_2_v40 (W2 m ρ c) (a2 m c) (W2_arg2 m ρ c)

/-! Endpoints and edge weights at the later boundaries: no region and no later host operation writes them. -/

theorem W6_v3 : W6 m ρ c (Proc.devRef .tc main_v3) = val_main_v3 (a1 m c) :=
  (span_3_6 m ρ c main_v3 (by decide) (by host_nw hostOps1) (by decide)).trans (C3_src m ρ c)
theorem W6_v6 : W6 m ρ c (Proc.devRef .tc main_v6) = val_main_v6 (a1 m c) :=
  (span_3_6 m ρ c main_v6 (by decide) (by host_nw hostOps1) (by decide)).trans (C3_dst m ρ c)
theorem W6_v36 : W6 m ρ c (Proc.devRef .tc main_v36) = val_main_v40 (a1 m c) :=
  (span_3_6 m ρ c main_v36 (by decide) (by host_nw hostOps1) (by decide)).trans (C3_norm m ρ c)

theorem W12_v3 : W12 m ρ c (Proc.devRef .tc main_v3) = val_main_v3 (a1 m c) :=
  (span_6_12 m ρ c main_v3 (by host_nw hostOps2) (by decide) (by host_nw hostOps3) (by decide) (by host_nw hostOps4) (by decide)).trans
    (W6_v3 m ρ c)
theorem W12_v6 : W12 m ρ c (Proc.devRef .tc main_v6) = val_main_v6 (a1 m c) :=
  (span_6_12 m ρ c main_v6 (by host_nw hostOps2) (by decide) (by host_nw hostOps3) (by decide) (by host_nw hostOps4) (by decide)).trans
    (W6_v6 m ρ c)
theorem W12_v36 : W12 m ρ c (Proc.devRef .tc main_v36) = val_main_v40 (a1 m c) :=
  (span_6_12 m ρ c main_v36 (by host_nw hostOps2) (by decide) (by host_nw hostOps3) (by decide) (by host_nw hostOps4) (by decide)).trans
    (W6_v36 m ρ c)

/-- The nodes per graph at the last region's exit. -/
theorem W17_v20 : W17 m ρ c (Proc.devRef .tc main_v20) = val_main_v20 (a2 m c) :=
  (span_12_17 m ρ c main_v20 (by host_nw hostOps5) (by decide) (by host_nw hostOps6) (by decide) (by decide)).trans
    ((span_6_12 m ρ c main_v20 (by host_nw hostOps2) (by decide) (by host_nw hostOps3) (by decide) (by host_nw hostOps4) (by decide)).trans
      ((span_3_6 m ρ c main_v20 (by decide) (by host_nw hostOps1) (by decide)).trans (C3_cnt m ρ c)))

/-- The last linear map's weights at the last region's exit. -/
theorem W17_arg13 : W17 m ρ c (Proc.devRef .tc main_arg13) = a13 m c :=
  (span_12_17 m ρ c main_arg13 (by host_nw hostOps5) (by decide) (by host_nw hostOps6) (by decide) (by decide)).trans
    ((span_6_12 m ρ c main_arg13 (by host_nw hostOps2) (by decide) (by host_nw hostOps3) (by decide) (by host_nw hostOps4) (by decide)).trans
      ((span_3_6 m ρ c main_arg13 (by decide) (by host_nw hostOps1) (by decide)).trans
        ((W3_eq_W2 m ρ c main_arg13 (by host_nw hostOps0_2)).trans ((W2_eq_W1 m ρ c main_arg13 (by host_nw hostOps0_1)).trans
          (W1_eq_W0 m ρ c main_arg13 (by host_nw hostOps0))))))

/-- The last linear map's bias at the last region's exit. -/
theorem W17_arg14 : W17 m ρ c (Proc.devRef .tc main_arg14) = a14 m c :=
  (span_12_17 m ρ c main_arg14 (by host_nw hostOps5) (by decide) (by host_nw hostOps6) (by decide) (by decide)).trans
    ((span_6_12 m ρ c main_arg14 (by host_nw hostOps2) (by decide) (by host_nw hostOps3) (by decide) (by host_nw hostOps4) (by decide)).trans
      ((span_3_6 m ρ c main_arg14 (by decide) (by host_nw hostOps1) (by decide)).trans
        ((W3_eq_W2 m ρ c main_arg14 (by host_nw hostOps0_2)).trans ((W2_eq_W1 m ρ c main_arg14 (by host_nw hostOps0_1)).trans
          (W1_eq_W0 m ρ c main_arg14 (by host_nw hostOps0))))))

/-! ## The stretches that are the reference's own operations -/

/-- The first graph convolution, from the second region's result. -/
theorem C7_conv (hC6 : W6 m ρ c (Proc.devRef .tc main_v45) = val_main_v25 (a0 m c) (a3 m c) (a4 m c) (a5 m c)) :
    W7 m ρ c (Proc.devRef .tc main_v58) = val_main_v53 (a0 m c) (a1 m c) (a3 m c) (a4 m c) (a5 m c) :=
  ops2_v58 (W6 m ρ c) (a0 m c) (a1 m c) (a3 m c) (a4 m c) (a5 m c) hC6 (W6_v3 m ρ c) (W6_v6 m ρ c) (W6_v36 m ρ c)

/-- The second graph convolution, from the fifth region's result. -/
theorem C13_conv
    (hC12 : W12 m ρ c (Proc.devRef .tc main_v75)
      = val_main_v102 (a0 m c) (a1 m c) (a2 m c) (a3 m c) (a4 m c) (a5 m c) (a6 m c) (a7 m c) (a8 m c) (a9 m c)) :
    W13 m ρ c (Proc.devRef .tc main_v88)
      = val_main_v130 (a0 m c) (a1 m c) (a2 m c) (a3 m c) (a4 m c) (a5 m c) (a6 m c) (a7 m c) (a8 m c) (a9 m c) :=
  ops5_v88 (W12 m ρ c) (a0 m c) (a1 m c) (a2 m c) (a3 m c) (a4 m c) (a5 m c) (a6 m c) (a7 m c) (a8 m c) (a9 m c) hC12
    (W12_v3 m ρ c) (W12_v6 m ρ c) (W12_v36 m ρ c)

/-- The read-out, from the last region's pooled sums. -/
theorem C18_out
    (hC17 : W17 m ρ c (Proc.devRef .tc main_v104)
      = val_main_v181 (a0 m c) (a1 m c) (a2 m c) (a3 m c) (a4 m c) (a5 m c) (a6 m c) (a7 m c) (a8 m c) (a9 m c)
          (a10 m c) (a11 m c) (a12 m c)) :
    W18 m ρ c (Proc.devRef .tc main_v113)
      = val_main_v190 (a0 m c) (a1 m c) (a2 m c) (a3 m c) (a4 m c) (a5 m c) (a6 m c) (a7 m c) (a8 m c) (a9 m c)
          (a10 m c) (a11 m c) (a12 m c) (a13 m c) (a14 m c) :=
  ops8_v113 (W17 m ρ c) (a0 m c) (a1 m c) (a2 m c) (a3 m c) (a4 m c) (a5 m c) (a6 m c) (a7 m c) (a8 m c) (a9 m c)
    (a10 m c) (a11 m c) (a12 m c) (a13 m c) (a14 m c) hC17 (W17_v20 m ρ c) (W17_arg13 m ρ c) (W17_arg14 m ρ c)

end Cert.KHostA

end
-- ==== Proof.KHostB.lean ====
/-
  What each region of the kernel program finds in its input arrays when it is entered.

  The program alternates stretches of host operations with eight regions. A buffer holds, at a boundary, what the last
  operation or region that wrote it left there: a stretch changes only the buffers its operations write, a region only
  its output arrays. So every input array of a region is followed back to where it was written: an argument of the
  program (never written), a row vector that is a parameter vector with a unit axis added, the column of graph ids, the
  zero bias, or the per-graph mean and inverse standard deviation computed on the host from the two sums the statistics
  region before has left and the per-graph divisor (the number of the graph's entries, or 1 when it has none).  All of them are read here at an index given by coordinates.
-/
import proofs.«427561_j32633161515373_1_alg».proof.Proof.Gen.KernelIdeal.Frame
import proofs.«427561_j32633161515373_1_alg».proof.Proof.Names
import Idealize.ShloMosaic.Lib.StableHlo.Run
import Idealize.ShloMosaic.Lib.ValueLayout
import Idealize.ShloMosaic.PureOps.Ideal.Laws

set_option maxRecDepth 16384

noncomputable section

namespace Cert.KHostB

open Idealize.ShloMosaic Idealize.ShloMosaic.TcCoe Idealize.SL.Sem Idealize.ShloMosaic.StableHlo
open Idealize.ShloMosaic.ValueIdx
open Cert.KernelIdeal Cert.KernelIdeal.Gen
open Idealize.ShloMosaic.Pipeline (Dat)

/-! ## Layout operations read at an index -/

section Layout

variable {α : Type}

/-- A vector of length `a` cast to a column `[a, 1]` reads, at `(i, u)`, the vector at `i`: the row-major position of
    `(i, u)` is `i * 1 + u` and the unit coordinate `u` is zero. -/
theorem col_cast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A scalar broadcast to any shape reads the scalar everywhere. -/
theorem scalar_bcast_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply _ h x j _ (fun a => a.elim0)

/-- A vector of length 512 broadcast along a new leading unit axis reads, at `(u, g)`, the vector at `g`. -/
theorem row_bcast_512_apply (x : S512.Idx → α) (h : S512.BroadcastsInDim S1x512 (![1] : Fin 1 → Fin S1x512.rank))
    (u : Fin 1) (g : Fin 512) : broadcastInDim S1x512 ![1] h x (ix2 u g) = x (ix1 g) :=
  broadcastInDim_apply _ h x _ _ (fun a => match a with
    | ⟨0, _⟩ => by show g.val = if (512 : Nat) = 1 then 0 else g.val; rw [if_neg (by decide)])

end Layout

variable (m : Cert.Names.KMem) (ρ : Dev nD → PrngReg) (c : Dev nD)

/-! ## What a stretch of host operations leaves alone

For each stretch, the list of the buffers its operations write; a buffer not in the list holds after the stretch what
it held before. -/

theorem single_sub_of_mem {W : List (Ref sig .tc)} {y : Ref sig .tc} (h : y ∈ W) :
    ({Proc.devRef (τ := τ) .tc y} : Finset (DevRef τ sig)) ⊆ (W.map (Proc.devRef .tc)).toFinset :=
  Finset.singleton_subset_iff.mpr (List.mem_toFinset.mpr (List.mem_map_of_mem h))

/-- Every operation of a literal stretch writes a buffer of the given list. -/
macro "writes_in_list" : tactic =>
  `(tactic| (
    simp only [hostOps0, hostOps0_1, hostOps0_2, hostOps1, hostOps2, hostOps3, hostOps4, hostOps5, hostOps6,
      List.Forall, StableHlo.nullary_writes, StableHlo.unary_writes, StableHlo.binary_writes,
      StableHlo.ternary_writes, StableHlo.reshape_writes]
    repeat' apply And.intro
    all_goals exact single_sub_of_mem (by decide)))

abbrev wr0a : List (Ref sig .tc) :=
  [main_v0, main_v1, main_v2, main_v3, main_v4, main_v5, main_v6, main_cst, main_v7, main_cst_0, main_v8, main_v9,
   main_v10, main_cst_1, main_v11, main_v12, main_cst_2, main_v13, main_v14, main_v15, main_cst_3]
abbrev wr0b : List (Ref sig .tc) := [main_call0_v0, main_call0_v1, main_v16]
abbrev wr0c : List (Ref sig .tc) :=
  [main_cst_4, main_v17, main_cst_5, main_v18, main_v19, main_v20, main_v21, main_c, main_v22, main_v23, main_c_6,
   main_v24, main_v25, main_v26, main_v27, main_v28, main_c_7, main_v29, main_v30, main_c_8, main_v31, main_v32,
   main_v33, main_v34, main_v35, main_v36, main_cst_9, main_v37, main_v38, main_cst_10, main_v39, main_v40, main_v41]
abbrev wr1 : List (Ref sig .tc) := [main_cst_11, main_v43, main_v44]
abbrev wr2 : List (Ref sig .tc) :=
  [main_c_12, main_v46, main_v47, main_c_13, main_v48, main_v49, main_v50, main_v51, main_v52, main_v53, main_v54,
   main_v55, main_cst_14, main_v56, main_v57, main_v58, main_v59]
abbrev wr3 : List (Ref sig .tc) :=
  [main_v61, main_v62, main_v63, main_v64, main_v65, main_v66, main_cst_15, main_v67, main_v68, main_v69, main_v70,
   main_v71, main_v72]
abbrev wr4 : List (Ref sig .tc) := [main_v74]
abbrev wr5 : List (Ref sig .tc) :=
  [main_c_16, main_v76, main_v77, main_c_17, main_v78, main_v79, main_v80, main_v81, main_v82, main_v83, main_v84,
   main_v85, main_cst_18, main_v86, main_v87, main_v88, main_v89]
abbrev wr6 : List (Ref sig .tc) :=
  [main_v91, main_v92, main_v93, main_v94, main_v95, main_v96, main_cst_19, main_v97, main_v98, main_v99, main_v100,
   main_v101, main_v102]

theorem carry0a (b : Ref sig .tc) (hb : b ∉ wr0a) : W1 m ρ c (Proc.devRef .tc b) = W0 m ρ c (Proc.devRef .tc b) :=
  StableHlo.after_of_writes_sub (W := wr0a) hostOps0 _ (by writes_in_list) hb
theorem carry0b (b : Ref sig .tc) (hb : b ∉ wr0b) : W2 m ρ c (Proc.devRef .tc b) = W1 m ρ c (Proc.devRef .tc b) :=
  StableHlo.after_of_writes_sub (W := wr0b) hostOps0_1 _ (by writes_in_list) hb
theorem carry0c (b : Ref sig .tc) (hb : b ∉ wr0c) : W3 m ρ c (Proc.devRef .tc b) = W2 m ρ c (Proc.devRef .tc b) :=
  StableHlo.after_of_writes_sub (W := wr0c) hostOps0_2 _ (by writes_in_list) hb
theorem carry1 (b : Ref sig .tc) (hb : b ∉ wr1) : W5 m ρ c (Proc.devRef .tc b) = W4 m ρ c (Proc.devRef .tc b) :=
  StableHlo.after_of_writes_sub (W := wr1) hostOps1 _ (by writes_in_list) hb
theorem carry2 (b : Ref sig .tc) (hb : b ∉ wr2) : W7 m ρ c (Proc.devRef .tc b) = W6 m ρ c (Proc.devRef .tc b) :=
  StableHlo.after_of_writes_sub (W := wr2) hostOps2 _ (by writes_in_list) hb
theorem carry3 (b : Ref sig .tc) (hb : b ∉ wr3) : W9 m ρ c (Proc.devRef .tc b) = W8 m ρ c (Proc.devRef .tc b) :=
  StableHlo.after_of_writes_sub (W := wr3) hostOps3 _ (by writes_in_list) hb
theorem carry4 (b : Ref sig .tc) (hb : b ∉ wr4) : W11 m ρ c (Proc.devRef .tc b) = W10 m ρ c (Proc.devRef .tc b) :=
  StableHlo.after_of_writes_sub (W := wr4) hostOps4 _ (by writes_in_list) hb
theorem carry5 (b : Ref sig .tc) (hb : b ∉ wr5) : W13 m ρ c (Proc.devRef .tc b) = W12 m ρ c (Proc.devRef .tc b) :=
  StableHlo.after_of_writes_sub (W := wr5) hostOps5 _ (by writes_in_list) hb
theorem carry6 (b : Ref sig .tc) (hb : b ∉ wr6) : W15 m ρ c (Proc.devRef .tc b) = W14 m ρ c (Proc.devRef .tc b) :=
  StableHlo.after_of_writes_sub (W := wr6) hostOps6 _ (by writes_in_list) hb

/-! ## What a region leaves alone: its input arrays (and every buffer that is none of its arrays) -/

theorem cross0_in (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
theorem cross1_in (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))
theorem cross2_in (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))
theorem cross3_in (w : Fin cfg3.W) (hin : (cfg3.win w).isOut = false) :
    W10 m ρ c (Proc.devRef .tc (Pipeline.arrRef spec3 w)) = W9 m ρ c (Proc.devRef .tc (Pipeline.arrRef spec3 w)) :=
  (W10_arr m ρ c w).trans (((dat3 (V9 m ρ) c).arrAt_in w hin _).trans (A_eq3 (V9 m ρ) c w))
theorem cross4_in (w : Fin cfg4.W) (hin : (cfg4.win w).isOut = false) :
    W12 m ρ c (Proc.devRef .tc (Pipeline.arrRef spec4 w)) = W11 m ρ c (Proc.devRef .tc (Pipeline.arrRef spec4 w)) :=
  (W12_arr m ρ c w).trans (((dat4 (V11 m ρ) c).arrAt_in w hin _).trans (A_eq4 (V11 m ρ) c w))
theorem cross5_in (w : Fin cfg5.W) (hin : (cfg5.win w).isOut = false) :
    W14 m ρ c (Proc.devRef .tc (Pipeline.arrRef spec5 w)) = W13 m ρ c (Proc.devRef .tc (Pipeline.arrRef spec5 w)) :=
  (W14_arr m ρ c w).trans (((dat5 (V13 m ρ) c).arrAt_in w hin _).trans (A_eq5 (V13 m ρ) c w))
theorem cross6_in (w : Fin cfg6.W) (hin : (cfg6.win w).isOut = false) :
    W16 m ρ c (Proc.devRef .tc (Pipeline.arrRef spec6 w)) = W15 m ρ c (Proc.devRef .tc (Pipeline.arrRef spec6 w)) :=
  (W16_arr m ρ c w).trans (((dat6 (V15 m ρ) c).arrAt_in w hin _).trans (A_eq6 (V15 m ρ) c w))

/-- Over region `k` and the host stretch after it, for a buffer that is none of the region's arrays and that the
    stretch does not write. -/
theorem step0 (b : Ref sig .tc) (hr : ∀ w, Pipeline.arrRef spec0 w ≠ b) (hw : b ∉ wr1) :
    W5 m ρ c (Proc.devRef .tc b) = W3 m ρ c (Proc.devRef .tc b) :=
  (carry1 m ρ c b hw).trans (W4_of_ne m ρ c b hr)
theorem step1 (b : Ref sig .tc) (hr : ∀ w, Pipeline.arrRef spec1 w ≠ b) (hw : b ∉ wr2) :
    W7 m ρ c (Proc.devRef .tc b) = W5 m ρ c (Proc.devRef .tc b) :=
  (carry2 m ρ c b hw).trans (W6_of_ne m ρ c b hr)
theorem step2 (b : Ref sig .tc) (hr : ∀ w, Pipeline.arrRef spec2 w ≠ b) (hw : b ∉ wr3) :
    W9 m ρ c (Proc.devRef .tc b) = W7 m ρ c (Proc.devRef .tc b) :=
  (carry3 m ρ c b hw).trans (W8_of_ne m ρ c b hr)
theorem step3 (b : Ref sig .tc) (hr : ∀ w, Pipeline.arrRef spec3 w ≠ b) (hw : b ∉ wr4) :
    W11 m ρ c (Proc.devRef .tc b) = W9 m ρ c (Proc.devRef .tc b) :=
  (carry4 m ρ c b hw).trans (W10_of_ne m ρ c b hr)
theorem step4 (b : Ref sig .tc) (hr : ∀ w, Pipeline.arrRef spec4 w ≠ b) (hw : b ∉ wr5) :
    W13 m ρ c (Proc.devRef .tc b) = W11 m ρ c (Proc.devRef .tc b) :=
  (carry5 m ρ c b hw).trans (W12_of_ne m ρ c b hr)
theorem step5 (b : Ref sig .tc) (hr : ∀ w, Pipeline.arrRef spec5 w ≠ b) (hw : b ∉ wr6) :
    W15 m ρ c (Proc.devRef .tc b) = W13 m ρ c (Proc.devRef .tc b) :=
  (carry6 m ρ c b hw).trans (W14_of_ne m ρ c b hr)

/-! ## A buffer nothing writes before a boundary holds there what the launch memory holds -/

theorem at_W2 (b : Ref sig .tc) (ha : b ∉ wr0a) (hb : b ∉ wr0b) :
    W2 m ρ c (Proc.devRef .tc b) = m ((c : Thread nD τ).loc b) :=
  (carry0b m ρ c b hb).trans ((carry0a m ρ c b ha).trans rfl)
theorem at_W3 (b : Ref sig .tc) (ha : b ∉ wr0a) (hb : b ∉ wr0b) (hc : b ∉ wr0c) :
    W3 m ρ c (Proc.devRef .tc b) = m ((c : Thread nD τ).loc b) :=
  (carry0c m ρ c b hc).trans (at_W2 m ρ c b ha hb)

/-- No host operation of the program writes the buffer (the program's arguments). -/
abbrev Quiet (b : Ref sig .tc) : Prop :=
  b ∉ wr0a ∧ b ∉ wr0b ∧ b ∉ wr0c ∧ b ∉ wr1 ∧ b ∉ wr2 ∧ b ∉ wr3 ∧ b ∉ wr4 ∧ b ∉ wr5 ∧ b ∉ wr6

theorem quiet_W3 (b : Ref sig .tc) (hq : Quiet b) : W3 m ρ c (Proc.devRef .tc b) = m ((c : Thread nD τ).loc b) :=
  at_W3 m ρ c b hq.1 hq.2.1 hq.2.2.1
theorem quiet_W5 (b : Ref sig .tc) (hq : Quiet b) (h0 : ∀ w, Pipeline.arrRef spec0 w ≠ b) :
    W5 m ρ c (Proc.devRef .tc b) = m ((c : Thread nD τ).loc b) :=
  (step0 m ρ c b h0 hq.2.2.2.1).trans (quiet_W3 m ρ c b hq)
theorem quiet_W6 (b : Ref sig .tc) (hq : Quiet b) (h0 : ∀ w, Pipeline.arrRef spec0 w ≠ b)
    (h1 : ∀ w, Pipeline.arrRef spec1 w ≠ b) : W6 m ρ c (Proc.devRef .tc b) = m ((c : Thread nD τ).loc b) :=
  (W6_of_ne m ρ c b h1).trans (quiet_W5 m ρ c b hq h0)
theorem quiet_W7 (b : Ref sig .tc) (hq : Quiet b) (h0 : ∀ w, Pipeline.arrRef spec0 w ≠ b)
    (h1 : ∀ w, Pipeline.arrRef spec1 w ≠ b) : W7 m ρ c (Proc.devRef .tc b) = m ((c : Thread nD τ).loc b) :=
  (step1 m ρ c b h1 hq.2.2.2.2.1).trans (quiet_W5 m ρ c b hq h0)
theorem quiet_W8 (b : Ref sig .tc) (hq : Quiet b) (h0 : ∀ w, Pipeline.arrRef spec0 w ≠ b)
    (h1 : ∀ w, Pipeline.arrRef spec1 w ≠ b) (h2 : ∀ w, Pipeline.arrRef spec2 w ≠ b) :
    W8 m ρ c (Proc.devRef .tc b) = m ((c : Thread nD τ).loc b) :=
  (W8_of_ne m ρ c b h2).trans (quiet_W7 m ρ c b hq h0 h1)
theorem quiet_W9 (b : Ref sig .tc) (hq : Quiet b) (h0 : ∀ w, Pipeline.arrRef spec0 w ≠ b)
    (h1 : ∀ w, Pipeline.arrRef spec1 w ≠ b) (h2 : ∀ w, Pipeline.arrRef spec2 w ≠ b) :
    W9 m ρ c (Proc.devRef .tc b) = m ((c : Thread nD τ).loc b) :=
  (step2 m ρ c b h2 hq.2.2.2.2.2.1).trans (quiet_W7 m ρ c b hq h0 h1)
theorem quiet_W11 (b : Ref sig .tc) (hq : Quiet b) (h0 : ∀ w, Pipeline.arrRef spec0 w ≠ b)
    (h1 : ∀ w, Pipeline.arrRef spec1 w ≠ b) (h2 : ∀ w, Pipeline.arrRef spec2 w ≠ b)
    (h3 : ∀ w, Pipeline.arrRef spec3 w ≠ b) : W11 m ρ c (Proc.devRef .tc b) = m ((c : Thread nD τ).loc b) :=
  (step3 m ρ c b h3 hq.2.2.2.2.2.2.1).trans (quiet_W9 m ρ c b hq h0 h1 h2)
theorem quiet_W12 (b : Ref sig .tc) (hq : Quiet b) (h0 : ∀ w, Pipeline.arrRef spec0 w ≠ b)
    (h1 : ∀ w, Pipeline.arrRef spec1 w ≠ b) (h2 : ∀ w, Pipeline.arrRef spec2 w ≠ b)
    (h3 : ∀ w, Pipeline.arrRef spec3 w ≠ b) (h4 : ∀ w, Pipeline.arrRef spec4 w ≠ b) :
    W12 m ρ c (Proc.devRef .tc b) = m ((c : Thread nD τ).loc b) :=
  (W12_of_ne m ρ c b h4).trans (quiet_W11 m ρ c b hq h0 h1 h2 h3)
theorem quiet_W13 (b : Ref sig .tc) (hq : Quiet b) (h0 : ∀ w, Pipeline.arrRef spec0 w ≠ b)
    (h1 : ∀ w, Pipeline.arrRef spec1 w ≠ b) (h2 : ∀ w, Pipeline.arrRef spec2 w ≠ b)
    (h3 : ∀ w, Pipeline.arrRef spec3 w ≠ b) (h4 : ∀ w, Pipeline.arrRef spec4 w ≠ b) :
    W13 m ρ c (Proc.devRef .tc b) = m ((c : Thread nD τ).loc b) :=
  (step4 m ρ c b h4 hq.2.2.2.2.2.2.2.1).trans (quiet_W11 m ρ c b hq h0 h1 h2 h3)
theorem quiet_W14 (b : Ref sig .tc) (hq : Quiet b) (h0 : ∀ w, Pipeline.arrRef spec0 w ≠ b)
    (h1 : ∀ w, Pipeline.arrRef spec1 w ≠ b) (h2 : ∀ w, Pipeline.arrRef spec2 w ≠ b)
    (h3 : ∀ w, Pipeline.arrRef spec3 w ≠ b) (h4 : ∀ w, Pipeline.arrRef spec4 w ≠ b)
    (h5 : ∀ w, Pipeline.arrRef spec5 w ≠ b) : W14 m ρ c (Proc.devRef .tc b) = m ((c : Thread nD τ).loc b) :=
  (W14_of_ne m ρ c b h5).trans (quiet_W13 m ρ c b hq h0 h1 h2 h3 h4)

/-! ## Vectors the host reshapes or fills, read at an index -/

/-- A parameter vector with a unit axis added in front, read at `(u, q)`. -/
theorem row_read {y : S1x128.Idx → EReal} {x : S128.Idx → EReal}
    (h : y = shapeCast S1x128 x shapeCasts_S128_S1x128) (u : Fin 1) (q : Fin 128) : y (ix2 u q) = x (ix1 q) := by
  rw [h]; exact shapeCast_a_1a_apply x shapeCasts_S128_S1x128 u q

/-- The vector of graph ids as a column, read at `(p, u)`. -/
theorem col_read {y : (⟨S100000x1, .i32⟩ : BufTy).Contents (Elt Ideal)} {x : (⟨S100000, .i32⟩ : BufTy).Contents (Elt Ideal)}
    (h : y = shapeCast S100000x1 x shapeCasts_S100000_S100000x1) (p : Fin 100000) (u : Fin 1) :
    y (ix2 p u) = x (ix1 p) := by
  rw [h]; exact col_cast_apply x shapeCasts_S100000_S100000x1 p u

/-- The zero bias of the two graph convolutions: the constant zero broadcast to a vector of length 128. -/
def zeroVec : S128.Idx → EReal :=
  broadcastInDim S128 ![] bcast_S_S128 (constant (F := Ideal) S_ .f32 0x00000000#32)

theorem zeroVec_apply (i : S128.Idx) : zeroVec i = 0 := by
  unfold zeroVec
  rw [scalar_bcast_apply]
  exact Ideal.ofBits_zero_f32

/-! ## Region 0, entered at W3: the node features, the first weight matrix, and the first bias as a row -/

theorem in0_arg0 : W3 m ρ c (Proc.devRef .tc main_arg0) = Cert.Names.a0 m c :=
  quiet_W3 m ρ c main_arg0 (by decide)
theorem in0_arg3 : W3 m ρ c (Proc.devRef .tc main_arg3) = Cert.Names.a3 m c :=
  quiet_W3 m ρ c main_arg3 (by decide)

theorem v41_raw : W3 m ρ c (Proc.devRef .tc main_v41)
    = shapeCast S1x128 (W2 m ρ c (Proc.devRef .tc main_arg4)) shapeCasts_S128_S1x128 := by
  show StableHlo.after hostOps0_2 (W2 m ρ c) (Proc.devRef .tc main_v41) = _
  after_results; rfl

theorem in0_v41 (u : Fin 1) (q : Fin 128) :
    (W3 m ρ c (Proc.devRef .tc main_v41) : S1x128.Idx → EReal) (ix2 u q) = Cert.Names.a4 m c (ix1 q) :=
  (row_read (v41_raw m ρ c) u q).trans (congrFun (at_W2 m ρ c main_arg4 (by decide) (by decide)) (ix1 q))

/-! ## The column of graph ids: written before region 0, an input of regions 2, 3, 5, 6 and 7 -/

theorem v21_raw : W3 m ρ c (Proc.devRef .tc main_v21)
    = shapeCast S100000x1 (W2 m ρ c (Proc.devRef .tc main_arg2)) shapeCasts_S100000_S100000x1 := by
  show StableHlo.after hostOps0_2 (W2 m ρ c) (Proc.devRef .tc main_v21) = _
  after_results; rfl

theorem v21_W3 (p : Fin 100000) (u : Fin 1) :
    (W3 m ρ c (Proc.devRef .tc main_v21) : (⟨S100000x1, .i32⟩ : BufTy).Contents (Elt Ideal)) (ix2 p u)
      = Cert.Names.a2 m c (ix1 p) :=
  (col_read (v21_raw m ρ c) p u).trans (congrFun (at_W2 m ρ c main_arg2 (by decide) (by decide)) (ix1 p))

theorem v21_W7 : W7 m ρ c (Proc.devRef .tc main_v21) = W3 m ρ c (Proc.devRef .tc main_v21) :=
  (step1 m ρ c main_v21 (by decide) (by decide)).trans (step0 m ρ c main_v21 (by decide) (by decide))
theorem v21_W9 : W9 m ρ c (Proc.devRef .tc main_v21) = W7 m ρ c (Proc.devRef .tc main_v21) :=
  (carry3 m ρ c main_v21 (by decide)).trans (cross2_in m ρ c 2 rfl)
theorem v21_W13 : W13 m ρ c (Proc.devRef .tc main_v21) = W9 m ρ c (Proc.devRef .tc main_v21) :=
  (step4 m ρ c main_v21 (by decide) (by decide)).trans ((carry4 m ρ c main_v21 (by decide)).trans (cross3_in m ρ c 2 rfl))
theorem v21_W15 : W15 m ρ c (Proc.devRef .tc main_v21) = W13 m ρ c (Proc.devRef .tc main_v21) :=
  (carry6 m ρ c main_v21 (by decide)).trans (cross5_in m ρ c 2 rfl)
theorem v21_W16 : W16 m ρ c (Proc.devRef .tc main_v21) = W15 m ρ c (Proc.devRef .tc main_v21) :=
  cross6_in m ρ c 2 rfl

/-! ## Region 1, entered at W5: region 0's output, the first convolution's weights, a zero bias -/

theorem in1_v42 : W5 m ρ c (Proc.devRef .tc main_v42) = W4 m ρ c (Proc.devRef .tc main_v42) :=
  carry1 m ρ c main_v42 (by decide)
theorem in1_arg5 : W5 m ρ c (Proc.devRef .tc main_arg5) = Cert.Names.a5 m c :=
  quiet_W5 m ρ c main_arg5 (by decide) (by decide)

theorem v43_raw : W5 m ρ c (Proc.devRef .tc main_v43) = zeroVec := by
  show StableHlo.after hostOps1 (W4 m ρ c) (Proc.devRef .tc main_v43) = _
  after_results; rfl
theorem v44_raw : W5 m ρ c (Proc.devRef .tc main_v44) = shapeCast S1x128 zeroVec shapeCasts_S128_S1x128 := by
  show StableHlo.after hostOps1 (W4 m ρ c) (Proc.devRef .tc main_v44) = _
  after_results; rfl

theorem in1_v44 (u : Fin 1) (q : Fin 128) :
    (W5 m ρ c (Proc.devRef .tc main_v44) : S1x128.Idx → EReal) (ix2 u q) = (0 : EReal) :=
  (row_read (v44_raw m ρ c) u q).trans (zeroVec_apply (ix1 q))

/-! ## Region 2, entered at W7: the first convolution's sum, its bias as a row, the graph ids -/

theorem v59_raw : W7 m ρ c (Proc.devRef .tc main_v59)
    = shapeCast S1x128 (W6 m ρ c (Proc.devRef .tc main_arg6)) shapeCasts_S128_S1x128 := by
  show StableHlo.after hostOps2 (W6 m ρ c) (Proc.devRef .tc main_v59) = _
  after_results; rfl

theorem in2_v59 (u : Fin 1) (q : Fin 128) :
    (W7 m ρ c (Proc.devRef .tc main_v59) : S1x128.Idx → EReal) (ix2 u q) = Cert.Names.a6 m c (ix1 q) :=
  (row_read (v59_raw m ρ c) u q).trans
    (congrFun (quiet_W6 m ρ c main_arg6 (by decide) (by decide) (by decide)) (ix1 q))

theorem in2_v21 (p : Fin 100000) (u : Fin 1) :
    (W7 m ρ c (Proc.devRef .tc main_v21) : (⟨S100000x1, .i32⟩ : BufTy).Contents (Elt Ideal)) (ix2 p u)
      = Cert.Names.a2 m c (ix1 p) :=
  (congrFun (v21_W7 m ρ c) (ix2 p u)).trans (v21_W3 m ρ c p u)

/-! ## Region 3, entered at W9: the convolution's sum, bias, scale and shift as rows, the graph ids, and the
per-graph mean and inverse standard deviation the host computes from region 2's two sums and the per-graph divisor -/

theorem in3_v58 : W9 m ρ c (Proc.devRef .tc main_v58) = W7 m ρ c (Proc.devRef .tc main_v58) :=
  (carry3 m ρ c main_v58 (by decide)).trans (cross2_in m ρ c 0 rfl)

theorem v70_raw : W9 m ρ c (Proc.devRef .tc main_v70)
    = shapeCast S1x128 (W8 m ρ c (Proc.devRef .tc main_arg6)) shapeCasts_S128_S1x128 := by
  show StableHlo.after hostOps3 (W8 m ρ c) (Proc.devRef .tc main_v70) = _
  after_results; rfl
theorem v71_raw : W9 m ρ c (Proc.devRef .tc main_v71)
    = shapeCast S1x128 (W8 m ρ c (Proc.devRef .tc main_arg7)) shapeCasts_S128_S1x128 := by
  show StableHlo.after hostOps3 (W8 m ρ c) (Proc.devRef .tc main_v71) = _
  after_results; rfl
theorem v72_raw : W9 m ρ c (Proc.devRef .tc main_v72)
    = shapeCast S1x128 (W8 m ρ c (Proc.devRef .tc main_arg8)) shapeCasts_S128_S1x128 := by
  show StableHlo.after hostOps3 (W8 m ρ c) (Proc.devRef .tc main_v72) = _
  after_results; rfl

theorem in3_v70 (u : Fin 1) (q : Fin 128) :
    (W9 m ρ c (Proc.devRef .tc main_v70) : S1x128.Idx → EReal) (ix2 u q) = Cert.Names.a6 m c (ix1 q) :=
  (row_read (v70_raw m ρ c) u q).trans
    (congrFun (quiet_W8 m ρ c main_arg6 (by decide) (by decide) (by decide) (by decide)) (ix1 q))
theorem in3_v71 (u : Fin 1) (q : Fin 128) :
    (W9 m ρ c (Proc.devRef .tc main_v71) : S1x128.Idx → EReal) (ix2 u q) = Cert.Names.a7 m c (ix1 q) :=
  (row_read (v71_raw m ρ c) u q).trans
    (congrFun (quiet_W8 m ρ c main_arg7 (by decide) (by decide) (by decide) (by decide)) (ix1 q))
theorem in3_v72 (u : Fin 1) (q : Fin 128) :
    (W9 m ρ c (Proc.devRef .tc main_v72) : S1x128.Idx → EReal) (ix2 u q) = Cert.Names.a8 m c (ix1 q) :=
  (row_read (v72_raw m ρ c) u q).trans
    (congrFun (quiet_W8 m ρ c main_arg8 (by decide) (by decide) (by decide) (by decide)) (ix1 q))

theorem in3_v21 (p : Fin 100000) (u : Fin 1) :
    (W9 m ρ c (Proc.devRef .tc main_v21) : (⟨S100000x1, .i32⟩ : BufTy).Contents (Elt Ideal)) (ix2 p u)
      = Cert.Names.a2 m c (ix1 p) :=
  (congrFun ((v21_W9 m ρ c).trans (v21_W7 m ρ c)) (ix2 p u)).trans (v21_W3 m ρ c p u)

/-- The per-graph divisor, written before region 0, is still there when region 2 has run. -/
theorem v40_W8 : W8 m ρ c (Proc.devRef .tc main_v40) = W3 m ρ c (Proc.devRef .tc main_v40) :=
  (W8_of_ne m ρ c main_v40 (by decide)).trans
    ((step1 m ρ c main_v40 (by decide) (by decide)).trans (step0 m ρ c main_v40 (by decide) (by decide)))

/-- An array read as a function from the indices of a named shape to the extended reals: the same function. -/
abbrev arr (S : Shape) (f : S.Idx → EReal) : S.Idx → EReal := f

/-- The mean per graph, as the host computes it: a row of per-graph sums divided by the per-graph divisor. -/
def meanOf (s : FVec Ideal S1x512 .f32) (d : FVec Ideal S512 .f32) : FVec Ideal S1x512 .f32 :=
  Host.divf s (broadcastInDim S1x512 ![1] bcast_S512_S1x512_1 d)

/-- The inverse standard deviation per graph, as the host computes it: from the row of sums `s1`, the row of sums of
    squares `s2` and the divisor `d`, one over the square root of `s2 / d - (s1 / d)^2` plus the variance offset (the float
    word 0x3727C5AC, about 1e-5). -/
def invOf (s1 s2 : FVec Ideal S1x512 .f32) (d : FVec Ideal S512 .f32) : FVec Ideal S1x512 .f32 :=
  Host.rsqrt (addf (subf (Host.divf s2 (broadcastInDim S1x512 ![1] bcast_S512_S1x512_1 d)) (mulf (meanOf s1 d) (meanOf s1 d)))
    (broadcastInDim S1x512 ![] bcast_S_S1x512 (constant S_ .f32 0x3727C5AC#32)))

theorem meanOf_apply (s : FVec Ideal S1x512 .f32) (d : FVec Ideal S512 .f32) (u : Fin 1) (g : Fin 512) :
    meanOf s d (ix2 u g) = Ideal.div (s (ix2 u g)) (d (ix1 g)) := by
  show Ideal.div (s (ix2 u g)) (broadcastInDim S1x512 ![1] bcast_S512_S1x512_1 d (ix2 u g)) = _
  rw [row_bcast_512_apply]

theorem invOf_apply (s1 s2 : FVec Ideal S1x512 .f32) (d : FVec Ideal S512 .f32) (u : Fin 1) (g : Fin 512)
    (μ : EReal) (hμ : μ = meanOf s1 d (ix2 u g)) :
    invOf s1 s2 d (ix2 u g)
      = Ideal.rsqrt ((Ideal.div (s2 (ix2 u g)) (d (ix1 g)) - μ * μ) + Ideal.ofBits .f32 0x3727C5AC#32) := by
  subst hμ
  show Ideal.rsqrt ((Ideal.div (s2 (ix2 u g)) (broadcastInDim S1x512 ![1] bcast_S512_S1x512_1 d (ix2 u g))
      - meanOf s1 d (ix2 u g) * meanOf s1 d (ix2 u g))
      + broadcastInDim S1x512 ![] bcast_S_S1x512 (constant (F := Ideal) S_ .f32 0x3727C5AC#32) (ix2 u g)) = _
  rw [row_bcast_512_apply, scalar_bcast_apply]
  rfl

theorem v62_raw : W9 m ρ c (Proc.devRef .tc main_v62)
    = meanOf (W8 m ρ c (Proc.devRef .tc main_v60_0)) (W3 m ρ c (Proc.devRef .tc main_v40)) := by
  refine Eq.trans ?_ (congrArg (meanOf (W8 m ρ c (Proc.devRef .tc main_v60_0))) (v40_W8 m ρ c))
  show StableHlo.after hostOps3 (W8 m ρ c) (Proc.devRef .tc main_v62) = _
  after_results; rfl

theorem v69_raw : W9 m ρ c (Proc.devRef .tc main_v69)
    = invOf (W8 m ρ c (Proc.devRef .tc main_v60_0)) (W8 m ρ c (Proc.devRef .tc main_v60_1))
        (W3 m ρ c (Proc.devRef .tc main_v40)) := by
  refine Eq.trans ?_ (congrArg (invOf (W8 m ρ c (Proc.devRef .tc main_v60_0)) (W8 m ρ c (Proc.devRef .tc main_v60_1)))
    (v40_W8 m ρ c))
  show StableHlo.after hostOps3 (W8 m ρ c) (Proc.devRef .tc main_v69) = _
  after_results; rfl

/-- The mean of graph `g`: region 2's sum for `g` divided by the divisor of `g`. -/
theorem in3_v62 (u : Fin 1) (g : Fin 512) :
    (W9 m ρ c (Proc.devRef .tc main_v62) : S1x512.Idx → EReal) (ix2 u g)
      = Ideal.div ((W8 m ρ c (Proc.devRef .tc main_v60_0) : S1x512.Idx → EReal) (ix2 u g))
          ((W3 m ρ c (Proc.devRef .tc main_v40) : S512.Idx → EReal) (ix1 g)) :=
  (congrFun (v62_raw m ρ c) (ix2 u g)).trans (meanOf_apply _ _ u g)

/-- The inverse standard deviation of graph `g`, over the mean as region 3 finds it. -/
theorem in3_v69 (u : Fin 1) (g : Fin 512) :
    (W9 m ρ c (Proc.devRef .tc main_v69) : S1x512.Idx → EReal) (ix2 u g)
      = Ideal.rsqrt ((Ideal.div ((W8 m ρ c (Proc.devRef .tc main_v60_1) : S1x512.Idx → EReal) (ix2 u g))
            ((W3 m ρ c (Proc.devRef .tc main_v40) : S512.Idx → EReal) (ix1 g))
          - arr S1x512 (W9 m ρ c (Proc.devRef .tc main_v62)) (ix2 u g)
            * arr S1x512 (W9 m ρ c (Proc.devRef .tc main_v62)) (ix2 u g))
        + Ideal.ofBits .f32 0x3727C5AC#32) :=
  (congrFun (v69_raw m ρ c) (ix2 u g)).trans
    (invOf_apply _ _ _ u g _ (congrFun (v62_raw m ρ c) (ix2 u g)))

/-- The same with the mean written out: everything in terms of region 2's two sums and the divisor. -/
theorem in3_v69_sums (u : Fin 1) (g : Fin 512) :
    (W9 m ρ c (Proc.devRef .tc main_v69) : S1x512.Idx → EReal) (ix2 u g)
      = Ideal.rsqrt ((Ideal.div ((W8 m ρ c (Proc.devRef .tc main_v60_1) : S1x512.Idx → EReal) (ix2 u g))
            ((W3 m ρ c (Proc.devRef .tc main_v40) : S512.Idx → EReal) (ix1 g))
          - Ideal.div ((W8 m ρ c (Proc.devRef .tc main_v60_0) : S1x512.Idx → EReal) (ix2 u g))
              ((W3 m ρ c (Proc.devRef .tc main_v40) : S512.Idx → EReal) (ix1 g))
            * Ideal.div ((W8 m ρ c (Proc.devRef .tc main_v60_0) : S1x512.Idx → EReal) (ix2 u g))
              ((W3 m ρ c (Proc.devRef .tc main_v40) : S512.Idx → EReal) (ix1 g)))
        + Ideal.ofBits .f32 0x3727C5AC#32) :=
  (congrFun (v69_raw m ρ c) (ix2 u g)).trans (invOf_apply _ _ _ u g _ (meanOf_apply _ _ u g).symm)

end Cert.KHostB

end
-- ==== Proof.KStats.lean ====
/-
  The two statistics regions: the per-graph sums a graph-level normalisation needs, for the first layer
  and for the second.

  Each region walks the 100000 rows in 100 blocks of 1000 rows. At a block it forms `y = block + bias row`, the row
  sums `∑ q, y (r, q)` and `∑ q, y (r, q) * y (r, q)`, the 0/1 factor `[graph number of row r = g]` for each of the 512
  lanes `g`, and adds `∑ r, [graph number of row r = g] * rowsum r` (and the same with the sums of squares) onto two
  carried `[1, 512]` blocks; the first block's step sets the two carried blocks to zero before adding. The carried
  blocks are written to their arrays once, after the last block, and a carried block is the whole of its array.

  Read at lane `g`: after block `n` a carried block holds the contributions of blocks `0 … n`, in the order
  `((0 + P 0) + P 1) + … + P n` (induction on `n`; `0 + a = a`), and the hundred blocks of a thousand rows are the
  hundred thousand rows (sums over finite sets in a commutative monoid, regrouped through `p = 1000 t + r`). So the two
  arrays end holding

      stat0 x b β (0, g) = ∑ p, [β p = g] * ∑ q, (x (p, q) + b (0, q))
      stat1 x b β (0, g) = ∑ p, [β p = g] * ∑ q, (x (p, q) + b (0, q)) * (x (p, q) + b (0, q))

  of the three arrays `x`, `b`, `β` as the region finds them, where `[β p = g]` is 1 when the graph word of row `p` is
  the 32-bit word of `g`, else 0. No law here needs a finite entry: only `0 + a = a`, and commutativity and
  associativity of the addition of extended reals.
-/
import proofs.«427561_j32633161515373_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.RStats

open Cert.KernelIdeal Cert.KernelIdeal.Gen Idealize.ShloMosaic Idealize.ShloMosaic.ValueIdx

variable {F : FTy → Type} [FloatOps F]

/-- The origin of a rank-2 array, as the bodies' loads and stores spell it. -/
theorem hz : (![0, 0] : Fin 2 → Nat) = fun _ => 0 := funext fun a => by fin_cases a <;> rfl

/-! ## Small index facts (generic in the element type) -/

section Layout
variable {α : Type}

/-- A vector of `a` entries seen as a column `[a, 1]` reads, at row `i`, its entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along `b` lanes reads, at `(i, g)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (g : Fin b) : broadcastTo ⟨2, ![a, b]⟩ v h (ix2 i g) = v (ix2 i (0 : Fin 1)) := by
  refine broadcastTo_apply v h (ix2 i g) (ix2 i (0 : Fin 1)) fun ax => ?_
  match ax with
  | ⟨0, _⟩ =>
    show i.val = if a = 1 then 0 else i.val
    split
    · have := i.isLt; omega
    · rfl
  | ⟨1, _⟩ => rfl

end Layout

/-- The comparison bit of two words, zero-extended and read as a signed integer, is the indicator of their equality. -/
theorem onehot_scalar (β γ : BitVec 32) :
    (FloatOps.sitofp (F := Ideal) .f32 ((IntOp.cmpi .eq β γ).setWidth 32) : EReal) = if β = γ then (1 : EReal) else 0 := by
  show ((((BitVec.ofBool (β == γ)).setWidth 32).toInt : ℝ) : EReal) = _
  by_cases h : β = γ
  · rw [if_pos h, beq_iff_eq.mpr h, show ((BitVec.ofBool true).setWidth 32).toInt = 1 from by decide]
    simp
  · rw [if_neg h, beq_eq_false_iff_ne.mpr h, show ((BitVec.ofBool false).setWidth 32).toInt = 0 from by decide]
    simp

/-! ## Sums over the rows, block by block -/

/-- A sum over `a * b` rows is the sum over the `a` blocks of the sums over each block's `b` rows. -/
theorem sum_rows_blocks {M : Type} [AddCommMonoid M] (a b n : ℕ) (hn : n = a * b) (f : Fin n → M) :
    ∑ p : Fin n, f p
      = ∑ t : Fin a, ∑ r : Fin b, f ⟨b * t.val + r.val, by
          subst hn
          calc b * t.val + r.val < b * t.val + b := Nat.add_lt_add_left r.isLt _
            _ = b * (t.val + 1) := by ring
            _ ≤ b * a := Nat.mul_le_mul_left _ t.isLt
            _ = a * b := Nat.mul_comm _ _⟩ := by
  subst hn
  rw [← Equiv.sum_comp finProdFinEquiv f, Fintype.sum_prod_type]
  refine Finset.sum_congr rfl fun t _ => Finset.sum_congr rfl fun r _ => congrArg f (Fin.ext ?_)
  show r.val + b * t.val = b * t.val + r.val
  exact Nat.add_comm _ _

/-- A sum of per-block terms over the first `N` naturals is the sum over `Fin N`. -/
theorem sum_range_dite {M : Type} [AddCommMonoid M] (N : ℕ) (B : Fin N → M) :
    ∑ t ∈ Finset.range N, (if h : t < N then B ⟨t, h⟩ else 0) = ∑ t : Fin N, B t := by
  rw [Finset.sum_fin_eq_sum_range]

/-! ## The two statistics as functions of the three arrays

For each graph number `g` (a lane of the `[1, 512]` result): the sum, over the rows whose graph number is `g`, of the
row's sum over its 128 lanes of the input plus the bias row — and the same with each entry squared. -/

/-- The per-graph sums of the rows' lane sums. -/
def stat0 (x : S100000x128.Idx → EReal) (b : S1x128.Idx → EReal) (β : S100000x1.Idx → BitVec 32) : S1x512.Idx → EReal :=
  fun j => ∑ p : Fin 100000, (if β (ix2 p (0 : Fin 1)) = BitVec.ofNat 32 (j 1).val then (1 : EReal) else 0)
    * ∑ q : Fin 128, (x (ix2 p q) + b (ix2 (0 : Fin 1) q))

/-- The per-graph sums of the rows' sums of squares. -/
def stat1 (x : S100000x128.Idx → EReal) (b : S1x128.Idx → EReal) (β : S100000x1.Idx → BitVec 32) : S1x512.Idx → EReal :=
  fun j => ∑ p : Fin 100000, (if β (ix2 p (0 : Fin 1)) = BitVec.ofNat 32 (j 1).val then (1 : EReal) else 0)
    * ∑ q : Fin 128, (x (ix2 p q) + b (ix2 (0 : Fin 1) q)) * (x (ix2 p q) + b (ix2 (0 : Fin 1) q))

theorem stat0_apply (x : S100000x128.Idx → EReal) (b : S1x128.Idx → EReal) (β : S100000x1.Idx → BitVec 32) (g : Fin 512) :
    stat0 x b β (ix2 (0 : Fin 1) g)
      = ∑ p : Fin 100000, (if β (ix2 p (0 : Fin 1)) = BitVec.ofNat 32 g.val then (1 : EReal) else 0)
          * ∑ q : Fin 128, (x (ix2 p q) + b (ix2 (0 : Fin 1) q)) := rfl

theorem stat1_apply (x : S100000x128.Idx → EReal) (b : S1x128.Idx → EReal) (β : S100000x1.Idx → BitVec 32) (g : Fin 512) :
    stat1 x b β (ix2 (0 : Fin 1) g)
      = ∑ p : Fin 100000, (if β (ix2 p (0 : Fin 1)) = BitVec.ofNat 32 g.val then (1 : EReal) else 0)
          * ∑ q : Fin 128, (x (ix2 p q) + b (ix2 (0 : Fin 1) q)) * (x (ix2 p q) + b (ix2 (0 : Fin 1) q)) := rfl

/-- Case B (every later point, where the body adds onto what the point before left), first output: the one covering
    store's payload over the blocks and the carried contents. -/
theorem out2_B_3_eq (c : Dev nD) (i : grid2.Coords) (arg1 : Memref sig .tc .vmem S1000x128 .f32) (harg1 : arg1.IsWhole) (arg2 : Memref sig .tc .vmem S1x128 .f32) (harg2 : arg2.IsWhole) (arg3 : Memref sig .tc .vmem S1000x1 .i32) (harg3 : arg3.IsWhole) (arg4 : Memref sig .tc .vmem S1x512 .f32) (harg4 : arg4.IsWhole) (arg5 : Memref sig .tc .vmem S1x512 .f32) (harg5 : arg5.IsWhole) (hc0 : ¬cond2_0 i)
    (x0 : Vec F S1000x128 .f32) (x1 : Vec F S1x128 .f32) (x2 : Vec F S1000x1 .i32) (xo3 : Vec F S1x512 .f32) (xo4 : Vec F S1x512 .f32) :
    out2_B_3 c i arg1 harg1 arg2 harg2 arg3 harg3 arg4 harg4 arg5 harg5 hc0 x0 x1 x2 xo3 xo4 = k2_pay5 x0 x1 x2 xo3 := by
  unfold out2_B_3
  rw [View.read_writes_eq_canon _ _ _ (cover2_B_3 c i arg1 harg1 arg2 harg2 arg3 harg3 arg4 harg4 arg5 harg5 hc0 x0 x1 x2 xo3 xo4)]
  unfold kernelRun2_B
  dsimp only
  sl_unfold_words
  rw [View.canon_unit_zero hz]
  simp only [View.readAt_eq_ld, harg1.read_unread, harg2.read_unread, harg3.read_unread, harg4.read_unread, View.ld_unit_zero (S := S1000x128) hz, View.ld_unit_zero (S := S1x128) hz, View.ld_unit_zero (S := S1000x1) hz, View.ld_unit_zero (S := S1x512) hz]

/-- Case B (every later point), second output: the same, over the second carried block. -/
theorem out2_B_4_eq (c : Dev nD) (i : grid2.Coords) (arg1 : Memref sig .tc .vmem S1000x128 .f32) (harg1 : arg1.IsWhole) (arg2 : Memref sig .tc .vmem S1x128 .f32) (harg2 : arg2.IsWhole) (arg3 : Memref sig .tc .vmem S1000x1 .i32) (harg3 : arg3.IsWhole) (arg4 : Memref sig .tc .vmem S1x512 .f32) (harg4 : arg4.IsWhole) (arg5 : Memref sig .tc .vmem S1x512 .f32) (harg5 : arg5.IsWhole) (hc0 : ¬cond2_0 i)
    (x0 : Vec F S1000x128 .f32) (x1 : Vec F S1x128 .f32) (x2 : Vec F S1000x1 .i32) (xo3 : Vec F S1x512 .f32) (xo4 : Vec F S1x512 .f32) :
    out2_B_4 c i arg1 harg1 arg2 harg2 arg3 harg3 arg4 harg4 arg5 harg5 hc0 x0 x1 x2 xo3 xo4 = k2_pay6 x0 x1 x2 xo4 := by
  unfold out2_B_4
  rw [View.read_writes_eq_canon _ _ _ (cover2_B_4 c i arg1 harg1 arg2 harg2 arg3 harg3 arg4 harg4 arg5 harg5 hc0 x0 x1 x2 xo3 xo4)]
  unfold kernelRun2_B
  dsimp only
  sl_unfold_words
  rw [View.canon_unit_zero hz]
  simp only [View.readAt_eq_ld, harg1.read_unread, harg2.read_unread, harg3.read_unread, harg5.read_unread, View.ld_unit_zero (S := S1000x128) hz, View.ld_unit_zero (S := S1x128) hz, View.ld_unit_zero (S := S1000x1) hz, View.ld_unit_zero (S := S1x512) hz]

/-- Case A (the first point, where the body first stores zeros), first output: the zero block is stored, read back,
    and updated. -/
theorem out2_A_3_eq (c : Dev nD) (i : grid2.Coords) (arg1 : Memref sig .tc .vmem S1000x128 .f32) (harg1 : arg1.IsWhole) (arg2 : Memref sig .tc .vmem S1x128 .f32) (harg2 : arg2.IsWhole) (arg3 : Memref sig .tc .vmem S1000x1 .i32) (harg3 : arg3.IsWhole) (arg4 : Memref sig .tc .vmem S1x512 .f32) (harg4 : arg4.IsWhole) (arg5 : Memref sig .tc .vmem S1x512 .f32) (harg5 : arg5.IsWhole) (hc0 : cond2_0 i)
    (x0 : Vec F S1000x128 .f32) (x1 : Vec F S1x128 .f32) (x2 : Vec F S1000x1 .i32) :
    out2_A_3 c i arg1 harg1 arg2 harg2 arg3 harg3 arg4 harg4 arg5 harg5 hc0 x0 x1 x2 = k2_pay5 x0 x1 x2 (k2_pay1 (F := F)) := by
  unfold out2_A_3
  rw [View.read_writes_eq_canon _ _ _ (cover2_A_3 c i arg1 harg1 arg2 harg2 arg3 harg3 arg4 harg4 arg5 harg5 hc0 x0 x1 x2)]
  unfold kernelRun2_A
  dsimp only
  sl_unfold_words
  rw [View.canon_cons_unit_zero (S := S1x512) hz]
  simp only [View.readAt_eq_ld, harg1.read_unread, harg2.read_unread, harg3.read_unread, View.readCov_unit_zero (S := S1x512) _ hz, View.ld_unit_zero (S := S1000x128) hz, View.ld_unit_zero (S := S1x128) hz, View.ld_unit_zero (S := S1000x1) hz, View.ld_unit_zero (S := S1x512) hz]

/-- Case A (the first point), second output: the same, over the second carried block. -/
theorem out2_A_4_eq (c : Dev nD) (i : grid2.Coords) (arg1 : Memref sig .tc .vmem S1000x128 .f32) (harg1 : arg1.IsWhole) (arg2 : Memref sig .tc .vmem S1x128 .f32) (harg2 : arg2.IsWhole) (arg3 : Memref sig .tc .vmem S1000x1 .i32) (harg3 : arg3.IsWhole) (arg4 : Memref sig .tc .vmem S1x512 .f32) (harg4 : arg4.IsWhole) (arg5 : Memref sig .tc .vmem S1x512 .f32) (harg5 : arg5.IsWhole) (hc0 : cond2_0 i)
    (x0 : Vec F S1000x128 .f32) (x1 : Vec F S1x128 .f32) (x2 : Vec F S1000x1 .i32) :
    out2_A_4 c i arg1 harg1 arg2 harg2 arg3 harg3 arg4 harg4 arg5 harg5 hc0 x0 x1 x2 = k2_pay6 x0 x1 x2 (k2_pay2 (F := F)) := by
  unfold out2_A_4
  rw [View.read_writes_eq_canon _ _ _ (cover2_A_4 c i arg1 harg1 arg2 harg2 arg3 harg3 arg4 harg4 arg5 harg5 hc0 x0 x1 x2)]
  unfold kernelRun2_A
  dsimp only
  sl_unfold_words
  rw [View.canon_cons_unit_zero (S := S1x512) hz]
  simp only [View.readAt_eq_ld, harg1.read_unread, harg2.read_unread, harg3.read_unread, View.readCov_unit_zero (S := S1x512) _ hz, View.ld_unit_zero (S := S1000x128) hz, View.ld_unit_zero (S := S1x128) hz, View.ld_unit_zero (S := S1000x1) hz, View.ld_unit_zero (S := S1x512) hz]

/-! ## The body's arithmetic of region 2 read at an index, over the extended reals -/

/-- The block plus the bias row. -/
theorem k2_pay3_apply (v3 : FVec Ideal S1000x128 .f32) (v5 : FVec Ideal S1x128 .f32) (r : Fin 1000) (q : Fin 128) :
    k2_pay3 (F := Ideal) v3 v5 (ix2 r q) = v3 (ix2 r q) + v5 (ix2 (0 : Fin 1) q) := by
  unfold k2_pay3
  show addf (F := Ideal) (shapeCast S1000x128 v3 shapeCasts_S1000x128_S1000x128)
      (broadcastTo S1000x128 (shapeCast S1x128 v5 shapeCasts_S1x128_S1x128) broadcasts_S1x128_S1000x128) (ix2 r q) = _
  rw [addf_apply, shapeCast_self, shapeCast_self]
  exact congrArg (v3 (ix2 r q) + ·) (broadcastTo_1b_ab_apply v5 broadcasts_S1x128_S1000x128 r q)

/-- The one-hot factor: row `r`'s graph number against lane `g`. -/
theorem k2_pay4_apply (v14 : IVec S1000x1 32) (r : Fin 1000) (g : Fin 512) :
    k2_pay4 (F := Ideal) v14 (ix2 r g)
      = if v14 (ix2 r (0 : Fin 1)) = BitVec.ofNat 32 g.val then (1 : EReal) else 0 := by
  unfold k2_pay4
  show FloatOps.sitofp (F := Ideal) .f32 ((IntOp.cmpi .eq
      (broadcastTo S1000x512 (shapeCast S1000x1 v14 shapeCasts_S1000x1_S1000x1) broadcasts_S1000x1_S1000x512 (ix2 r g))
      (iota .tc S1000x512 32 [1] iota_S1000x512_d1_w32 (ix2 r g))).setWidth 32) = _
  rw [shapeCast_self, broadcastTo_a1_ab_apply v14 broadcasts_S1000x1_S1000x512 r g,
    iota_single_apply .tc S1000x512 32 1 iota_S1000x512_d1_w32 (ix2 r g)]
  exact onehot_scalar _ _

/-- The carried sums plus this block's contribution: per lane `g`, the rows of graph `g` summed over their lane sums. -/
theorem k2_pay5_apply (v3 : FVec Ideal S1000x128 .f32) (v5 : FVec Ideal S1x128 .f32) (v14 : IVec S1000x1 32)
    (v21 : FVec Ideal S1x512 .f32) (g : Fin 512) :
    k2_pay5 (F := Ideal) v3 v5 v14 v21 (ix2 (0 : Fin 1) g)
      = v21 (ix2 (0 : Fin 1) g)
        + ∑ r : Fin 1000, k2_pay4 (F := Ideal) v14 (ix2 r g) * ∑ q : Fin 128, k2_pay3 (F := Ideal) v3 v5 (ix2 r q) := by
  unfold k2_pay5
  show addf (F := Ideal) (shapeCast S1x512 v21 shapeCasts_S1x512_S1x512)
      (shapeCast S1x512 (multiReduction (F := Ideal) .add [0] S512
        (mulf (F := Ideal) (k2_pay4 (F := Ideal) v14)
          (broadcastTo S1000x512 (shapeCast S1000x1
            (multiReduction (F := Ideal) .add [1] S1000 (k2_pay3 (F := Ideal) v3 v5) 0x00000000#32 reduces_S1000x128_S1000 (.inl rfl) rfl)
            shapeCasts_S1000_S1000x1) broadcasts_S1000x1_S1000x512))
        0x00000000#32 reduces_S1000x512_S512 (.inl rfl) rfl) shapeCasts_S512_S1x512) (ix2 (0 : Fin 1) g) = _
  rw [addf_apply, shapeCast_self]
  refine congrArg (v21 (ix2 (0 : Fin 1) g) + ·) ?_
  refine (shapeCast_a_1a_apply _ shapeCasts_S512_S1x512 (0 : Fin 1) g).trans ?_
  refine (Ideal.multiReduction_add_single _ _ reduces_S1000x512_S512 (.inl rfl) rfl (ix1 g)).trans ?_
  show ∑ r : Fin 1000, _ = _
  refine Finset.sum_congr rfl fun r _ => ?_
  have hl : reduces_S1000x512_S512.lift (ix1 g) r = ix2 r g := by
    funext a; match a with | ⟨0, _⟩ => exact Fin.ext rfl | ⟨1, _⟩ => exact Fin.ext rfl
  rw [hl, mulf_apply]
  refine congrArg (k2_pay4 (F := Ideal) v14 (ix2 r g) * ·) ?_
  refine (broadcastTo_a1_ab_apply _ broadcasts_S1000x1_S1000x512 r g).trans ?_
  refine (shapeCast_a_a1_apply _ shapeCasts_S1000_S1000x1 r (0 : Fin 1)).trans ?_
  refine (Ideal.multiReduction_add_single _ _ reduces_S1000x128_S1000 (.inl rfl) rfl (ix1 r)).trans ?_
  show ∑ q : Fin 128, _ = _
  refine Finset.sum_congr rfl fun q _ => ?_
  have hl2 : reduces_S1000x128_S1000.lift (ix1 r) q = ix2 r q := by
    funext a; match a with | ⟨0, _⟩ => exact Fin.ext rfl | ⟨1, _⟩ => exact Fin.ext rfl
  rw [hl2]

/-- The same with the squared entries. -/
theorem k2_pay6_apply (v3 : FVec Ideal S1000x128 .f32) (v5 : FVec Ideal S1x128 .f32) (v14 : IVec S1000x1 32)
    (v29 : FVec Ideal S1x512 .f32) (g : Fin 512) :
    k2_pay6 (F := Ideal) v3 v5 v14 v29 (ix2 (0 : Fin 1) g)
      = v29 (ix2 (0 : Fin 1) g)
        + ∑ r : Fin 1000, k2_pay4 (F := Ideal) v14 (ix2 r g)
            * ∑ q : Fin 128, k2_pay3 (F := Ideal) v3 v5 (ix2 r q) * k2_pay3 (F := Ideal) v3 v5 (ix2 r q) := by
  unfold k2_pay6
  show addf (F := Ideal) (shapeCast S1x512 v29 shapeCasts_S1x512_S1x512)
      (shapeCast S1x512 (multiReduction (F := Ideal) .add [0] S512
        (mulf (F := Ideal) (k2_pay4 (F := Ideal) v14)
          (broadcastTo S1000x512 (shapeCast S1000x1
            (multiReduction (F := Ideal) .add [1] S1000 (mulf (F := Ideal) (k2_pay3 (F := Ideal) v3 v5) (k2_pay3 (F := Ideal) v3 v5)) 0x00000000#32 reduces_S1000x128_S1000 (.inl rfl) rfl)
            shapeCasts_S1000_S1000x1) broadcasts_S1000x1_S1000x512))
        0x00000000#32 reduces_S1000x512_S512 (.inl rfl) rfl) shapeCasts_S512_S1x512) (ix2 (0 : Fin 1) g) = _
  rw [addf_apply, shapeCast_self]
  refine congrArg (v29 (ix2 (0 : Fin 1) g) + ·) ?_
  refine (shapeCast_a_1a_apply _ shapeCasts_S512_S1x512 (0 : Fin 1) g).trans ?_
  refine (Ideal.multiReduction_add_single _ _ reduces_S1000x512_S512 (.inl rfl) rfl (ix1 g)).trans ?_
  show ∑ r : Fin 1000, _ = _
  refine Finset.sum_congr rfl fun r _ => ?_
  have hl : reduces_S1000x512_S512.lift (ix1 g) r = ix2 r g := by
    funext a; match a with | ⟨0, _⟩ => exact Fin.ext rfl | ⟨1, _⟩ => exact Fin.ext rfl
  rw [hl, mulf_apply]
  refine congrArg (k2_pay4 (F := Ideal) v14 (ix2 r g) * ·) ?_
  refine (broadcastTo_a1_ab_apply _ broadcasts_S1000x1_S1000x512 r g).trans ?_
  refine (shapeCast_a_a1_apply _ shapeCasts_S1000_S1000x1 r (0 : Fin 1)).trans ?_
  refine (Ideal.multiReduction_add_single _ _ reduces_S1000x128_S1000 (.inl rfl) rfl (ix1 r)).trans ?_
  show ∑ q : Fin 128, _ = _
  refine Finset.sum_congr rfl fun q _ => ?_
  have hl2 : reduces_S1000x128_S1000.lift (ix1 r) q = ix2 r q := by
    funext a; match a with | ⟨0, _⟩ => exact Fin.ext rfl | ⟨1, _⟩ => exact Fin.ext rfl
  rw [hl2, mulf_apply]

/-- The block a reset stores is zero everywhere. -/
theorem k2_pay1_apply (j : S1x512.Idx) : k2_pay1 (F := Ideal) j = 0 := by
  unfold k2_pay1
  show (Ideal.ofBits .f32 0x00000000#32 : EReal) = 0
  exact Ideal.ofBits_zero_f32
theorem k2_pay2_apply (j : S1x512.Idx) : k2_pay2 (F := Ideal) j = 0 := by
  unfold k2_pay2
  show (Ideal.ofBits .f32 0x00000000#32 : EReal) = 0
  exact Ideal.ofBits_zero_f32

/-! ## Region 2: the two statistics outputs after the last point -/

section Region2
variable (V : (c : Dev nD) → (b : Ref sig .tc) → Buf (Elt Ideal) ((c : Thread nD τ).loc b))

/-- The three input blocks of a point, at their literal types. -/
abbrev xb2 (c : Dev nD) (t : Fin cfg2.N) : FVec Ideal S1000x128 .f32 := iblk2 (F := Ideal) V c 0 t
abbrev bb2 (c : Dev nD) (t : Fin cfg2.N) : FVec Ideal S1x128 .f32 := iblk2 (F := Ideal) V c 1 t
abbrev gb2 (c : Dev nD) (t : Fin cfg2.N) : IVec S1000x1 32 := iblk2 (F := Ideal) V c 2 t
/-- The three input arrays as the region finds them, at their literal types. -/
abbrev xa2 (c : Dev nD) : S100000x128.Idx → EReal := V c main_v58
abbrev ba2 (c : Dev nD) : S1x128.Idx → EReal := V c main_v59
abbrev ga2 (c : Dev nD) : S100000x1.Idx → BitVec 32 := V c main_v21

/-- Where each window's block starts: the row-tiled windows at block row `t`, the whole-array windows at the origin. -/
theorem idx2_0 : ∀ t : Fin cfg2.N, win2_0.index t 0 = t.val ∧ win2_0.index t 1 = 0 :=
  (by decide +kernel : ∀ t : Fin grid2.N, win2_0.index t 0 = t.val ∧ win2_0.index t 1 = 0)
theorem idx2_1 : ∀ t : Fin cfg2.N, win2_1.index t 0 = 0 ∧ win2_1.index t 1 = 0 :=
  (by decide +kernel : ∀ t : Fin grid2.N, win2_1.index t 0 = 0 ∧ win2_1.index t 1 = 0)
theorem idx2_2 : ∀ t : Fin cfg2.N, win2_2.index t 0 = t.val ∧ win2_2.index t 1 = 0 :=
  (by decide +kernel : ∀ t : Fin grid2.N, win2_2.index t 0 = t.val ∧ win2_2.index t 1 = 0)
theorem idx2_3 : ∀ t : Fin cfg2.N, win2_3.index t 0 = 0 ∧ win2_3.index t 1 = 0 :=
  (by decide +kernel : ∀ t : Fin grid2.N, win2_3.index t 0 = 0 ∧ win2_3.index t 1 = 0)
theorem idx2_4 : ∀ t : Fin cfg2.N, win2_4.index t 0 = 0 ∧ win2_4.index t 1 = 0 :=
  (by decide +kernel : ∀ t : Fin grid2.N, win2_4.index t 0 = 0 ∧ win2_4.index t 1 = 0)

/-- Row `r` of point `t`'s block of the first input is row `1000 t + r` of the array. -/
theorem xb2_apply (c : Dev nD) (t : Fin cfg2.N) (r : Fin 1000) (q : Fin 128) (p : Fin 100000)
    (hp : p.val = 1000 * t.val + r.val) : xb2 V c t (ix2 r q) = xa2 V c (ix2 p q) := by
  have hi := idx2_0 t
  show iblk2 (F := Ideal) V c 0 t (ix2 r q) = _
  unfold iblk2
  rw [View.read_apply]
  show V c main_v58 _ = V c main_v58 _
  congr 1
  funext a
  apply Fin.ext
  match a with
  | ⟨0, _⟩ => show win2_0.index t 0 * 1000 + 1 * r.val = p.val; rw [hi.1, hp]; omega
  | ⟨1, _⟩ => show win2_0.index t 1 * 128 + 1 * q.val = q.val; rw [hi.2]; omega

/-- The bias block is the whole bias row at every point. -/
theorem bb2_apply (c : Dev nD) (t : Fin cfg2.N) (q : Fin 128) :
    bb2 V c t (ix2 (0 : Fin 1) q) = ba2 V c (ix2 (0 : Fin 1) q) := by
  have hi := idx2_1 t
  show iblk2 (F := Ideal) V c 1 t (ix2 (0 : Fin 1) q) = _
  unfold iblk2
  rw [View.read_apply]
  show V c main_v59 _ = V c main_v59 _
  congr 1
  funext a
  apply Fin.ext
  match a with
  | ⟨0, _⟩ => show win2_1.index t 0 * 1 + 1 * 0 = 0; rw [hi.1]
  | ⟨1, _⟩ => show win2_1.index t 1 * 128 + 1 * q.val = q.val; rw [hi.2]; omega

/-- Row `r` of point `t`'s block of graph numbers is row `1000 t + r` of the array. -/
theorem gb2_apply (c : Dev nD) (t : Fin cfg2.N) (r : Fin 1000) (p : Fin 100000)
    (hp : p.val = 1000 * t.val + r.val) : gb2 V c t (ix2 r (0 : Fin 1)) = ga2 V c (ix2 p (0 : Fin 1)) := by
  have hi := idx2_2 t
  show iblk2 (F := Ideal) V c 2 t (ix2 r (0 : Fin 1)) = _
  unfold iblk2
  rw [View.read_apply]
  show V c main_v21 _ = V c main_v21 _
  congr 1
  funext a
  apply Fin.ext
  match a with
  | ⟨0, _⟩ => show win2_2.index t 0 * 1000 + 1 * r.val = p.val; rw [hi.1, hp]; omega
  | ⟨1, _⟩ => show win2_2.index t 1 * 1 + 1 * 0 = 0; rw [hi.2]

/-- One row's term of the first statistic: the indicator of graph `g` times the row's lane sum. -/
abbrev term2_0 (c : Dev nD) (g : Fin 512) (p : Fin 100000) : EReal :=
  (if ga2 V c (ix2 p (0 : Fin 1)) = BitVec.ofNat 32 g.val then (1 : EReal) else 0)
    * ∑ q : Fin 128, (xa2 V c (ix2 p q) + ba2 V c (ix2 (0 : Fin 1) q))
/-- One row's term of the second statistic: the indicator times the row's sum of squares. -/
abbrev term2_1 (c : Dev nD) (g : Fin 512) (p : Fin 100000) : EReal :=
  (if ga2 V c (ix2 p (0 : Fin 1)) = BitVec.ofNat 32 g.val then (1 : EReal) else 0)
    * ∑ q : Fin 128, (xa2 V c (ix2 p q) + ba2 V c (ix2 (0 : Fin 1) q)) * (xa2 V c (ix2 p q) + ba2 V c (ix2 (0 : Fin 1) q))

/-- Point `t`'s contribution to each statistic: its 1000 rows' terms. -/
def part2_0 (c : Dev nD) (g : Fin 512) (t : ℕ) : EReal :=
  if h : t < 100 then ∑ r : Fin 1000, term2_0 V c g ⟨1000 * t + r.val, by have := r.isLt; omega⟩ else 0
def part2_1 (c : Dev nD) (g : Fin 512) (t : ℕ) : EReal :=
  if h : t < 100 then ∑ r : Fin 1000, term2_1 V c g ⟨1000 * t + r.val, by have := r.isLt; omega⟩ else 0

/-- What a point's body adds to the first output, in terms of the arrays. -/
theorem upd2_0 (c : Dev nD) (t : Fin cfg2.N) (ht : t.val < 100) (g : Fin 512) :
    ∑ r : Fin 1000, k2_pay4 (F := Ideal) (gb2 V c t) (ix2 r g)
        * ∑ q : Fin 128, k2_pay3 (F := Ideal) (xb2 V c t) (bb2 V c t) (ix2 r q)
      = part2_0 V c g t.val := by
  unfold part2_0
  rw [dif_pos ht]
  refine Finset.sum_congr rfl fun r _ => ?_
  rw [k2_pay4_apply, gb2_apply V c t r ⟨1000 * t.val + r.val, by have := r.isLt; omega⟩ rfl]
  refine congrArg (_ * ·) (Finset.sum_congr rfl fun q _ => ?_)
  rw [k2_pay3_apply, xb2_apply V c t r q ⟨1000 * t.val + r.val, by have := r.isLt; omega⟩ rfl, bb2_apply]

/-- What a point's body adds to the second output, in terms of the arrays. -/
theorem upd2_1 (c : Dev nD) (t : Fin cfg2.N) (ht : t.val < 100) (g : Fin 512) :
    ∑ r : Fin 1000, k2_pay4 (F := Ideal) (gb2 V c t) (ix2 r g)
        * ∑ q : Fin 128, k2_pay3 (F := Ideal) (xb2 V c t) (bb2 V c t) (ix2 r q)
            * k2_pay3 (F := Ideal) (xb2 V c t) (bb2 V c t) (ix2 r q)
      = part2_1 V c g t.val := by
  unfold part2_1
  rw [dif_pos ht]
  refine Finset.sum_congr rfl fun r _ => ?_
  rw [k2_pay4_apply, gb2_apply V c t r ⟨1000 * t.val + r.val, by have := r.isLt; omega⟩ rfl]
  refine congrArg (_ * ·) (Finset.sum_congr rfl fun q _ => ?_)
  rw [k2_pay3_apply, xb2_apply V c t r q ⟨1000 * t.val + r.val, by have := r.isLt; omega⟩ rfl, bb2_apply]

/-- THE INVARIANT, first output: after point `n` the carried block holds the contributions of points `0 … n`. -/
theorem acc2_0 (c : Dev nD) (g : Fin 512) : ∀ (n : ℕ) (h : n < cfg2.N),
    (outsAt2 (F := Ideal) V c n h).1 (ix2 (0 : Fin 1) g) = ∑ t ∈ Finset.range (n + 1), part2_0 V c g t
  | 0, h => by
    have hN : cfg2.N = 100 := N_2
    rw [outsAt2_A V c ⟨0, h⟩ rfl]
    dsimp only
    refine (congrFun (out2_A_3_eq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (iblk2 V c 0 ⟨0, h⟩) (iblk2 V c 1 ⟨0, h⟩) (iblk2 V c 2 ⟨0, h⟩)) (ix2 (0 : Fin 1) g)).trans ?_
    refine (k2_pay5_apply (xb2 V c ⟨0, h⟩) (bb2 V c ⟨0, h⟩) (gb2 V c ⟨0, h⟩) (k2_pay1 (F := Ideal)) g).trans ?_
    rw [k2_pay1_apply, zero_add, upd2_0 V c ⟨0, h⟩ (by show (0 : ℕ) < 100; decide) g, Finset.sum_range_one]
  | n + 1, h => by
    have hN : cfg2.N = 100 := N_2
    have hB : ¬(⟨n + 1, h⟩ : Fin cfg2.N).val % 100 = 0 := by dsimp only; omega
    rw [outsAt2_B V c ⟨n + 1, h⟩ hB]
    dsimp only
    refine (congrFun (out2_B_3_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun hc => hB ((hcond2_0 ⟨n + 1, h⟩).mp hc)) (iblk2 V c 0 ⟨n + 1, h⟩) (iblk2 V c 1 ⟨n + 1, h⟩) (iblk2 V c 2 ⟨n + 1, h⟩) (outsAt2 V c n (Nat.lt_of_succ_lt h)).1 (outsAt2 V c n (Nat.lt_of_succ_lt h)).2) (ix2 (0 : Fin 1) g)).trans ?_
    refine (k2_pay5_apply (xb2 V c ⟨n + 1, h⟩) (bb2 V c ⟨n + 1, h⟩) (gb2 V c ⟨n + 1, h⟩) (outsAt2 (F := Ideal) V c n (Nat.lt_of_succ_lt h)).1 g).trans ?_
    rw [acc2_0 c g n (Nat.lt_of_succ_lt h), upd2_0 V c ⟨n + 1, h⟩ (by dsimp only; omega) g, Finset.sum_range_succ _ (n + 1)]

/-- THE INVARIANT, second output. -/
theorem acc2_1 (c : Dev nD) (g : Fin 512) : ∀ (n : ℕ) (h : n < cfg2.N),
    (outsAt2 (F := Ideal) V c n h).2 (ix2 (0 : Fin 1) g) = ∑ t ∈ Finset.range (n + 1), part2_1 V c g t
  | 0, h => by
    have hN : cfg2.N = 100 := N_2
    rw [outsAt2_A V c ⟨0, h⟩ rfl]
    dsimp only
    refine (congrFun (out2_A_4_eq (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) (ms2_4 ⟨0, h⟩) (hs2_4 ⟨0, h⟩) ((hcond2_0 ⟨0, h⟩).mpr rfl) (iblk2 V c 0 ⟨0, h⟩) (iblk2 V c 1 ⟨0, h⟩) (iblk2 V c 2 ⟨0, h⟩)) (ix2 (0 : Fin 1) g)).trans ?_
    refine (k2_pay6_apply (xb2 V c ⟨0, h⟩) (bb2 V c ⟨0, h⟩) (gb2 V c ⟨0, h⟩) (k2_pay2 (F := Ideal)) g).trans ?_
    rw [k2_pay2_apply, zero_add, upd2_1 V c ⟨0, h⟩ (by show (0 : ℕ) < 100; decide) g, Finset.sum_range_one]
  | n + 1, h => by
    have hN : cfg2.N = 100 := N_2
    have hB : ¬(⟨n + 1, h⟩ : Fin cfg2.N).val % 100 = 0 := by dsimp only; omega
    rw [outsAt2_B V c ⟨n + 1, h⟩ hB]
    dsimp only
    refine (congrFun (out2_B_4_eq (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩) (ms2_4 ⟨n + 1, h⟩) (hs2_4 ⟨n + 1, h⟩) (fun hc => hB ((hcond2_0 ⟨n + 1, h⟩).mp hc)) (iblk2 V c 0 ⟨n + 1, h⟩) (iblk2 V c 1 ⟨n + 1, h⟩) (iblk2 V c 2 ⟨n + 1, h⟩) (outsAt2 V c n (Nat.lt_of_succ_lt h)).1 (outsAt2 V c n (Nat.lt_of_succ_lt h)).2) (ix2 (0 : Fin 1) g)).trans ?_
    refine (k2_pay6_apply (xb2 V c ⟨n + 1, h⟩) (bb2 V c ⟨n + 1, h⟩) (gb2 V c ⟨n + 1, h⟩) (outsAt2 (F := Ideal) V c n (Nat.lt_of_succ_lt h)).2 g).trans ?_
    rw [acc2_1 c g n (Nat.lt_of_succ_lt h), upd2_1 V c ⟨n + 1, h⟩ (by dsimp only; omega) g, Finset.sum_range_succ _ (n + 1)]

/-- All points' contributions are all rows' terms: the 100 blocks of 1000 rows are the 100000 rows. -/
theorem total2_0 (c : Dev nD) (g : Fin 512) :
    ∑ t ∈ Finset.range 100, part2_0 V c g t = ∑ p : Fin 100000, term2_0 V c g p :=
  (sum_range_dite 100 fun t : Fin 100 =>
      ∑ r : Fin 1000, term2_0 V c g ⟨1000 * t.val + r.val, by have := r.isLt; have := t.isLt; omega⟩).trans
    (sum_rows_blocks 100 1000 100000 (by norm_num) (term2_0 V c g)).symm
theorem total2_1 (c : Dev nD) (g : Fin 512) :
    ∑ t ∈ Finset.range 100, part2_1 V c g t = ∑ p : Fin 100000, term2_1 V c g p :=
  (sum_range_dite 100 fun t : Fin 100 =>
      ∑ r : Fin 1000, term2_1 V c g ⟨1000 * t.val + r.val, by have := r.isLt; have := t.isLt; omega⟩).trans
    (sum_rows_blocks 100 1000 100000 (by norm_num) (term2_1 V c g)).symm

theorem lt99_2 : 99 < cfg2.N := by rw [show cfg2.N = 100 from N_2]; decide

/-- The outputs' blocks never overhang: their extents are the whole `[1, 512]` array's. -/
theorem xs2_3 : ∀ t : Fin cfg2.N, win2_3.xsize (grid2.coords t) 0 = 1 ∧ win2_3.xsize (grid2.coords t) 1 = 512 :=
  (by decide +kernel : ∀ t : Fin grid2.N, win2_3.xsize (grid2.coords t) 0 = 1 ∧ win2_3.xsize (grid2.coords t) 1 = 512)
theorem xs2_4 : ∀ t : Fin cfg2.N, win2_4.xsize (grid2.coords t) 0 = 1 ∧ win2_4.xsize (grid2.coords t) 1 = 512 :=
  (by decide +kernel : ∀ t : Fin grid2.N, win2_4.xsize (grid2.coords t) 0 = 1 ∧ win2_4.xsize (grid2.coords t) 1 = 512)

/-- Output 0's block at any point is the whole `[1, 512]` array: cutting a block's contents for the write-back and
    reading the array through the block's rectangle are both the identity. -/
theorem cut_eq_read2_3 (c : Dev nD) (t : Fin cfg2.N) (G : Buf (Elt Ideal) ((c : Thread nD τ).loc main_v60_0)) :
    (cfg2.win 3).cut (grid2.coords t) G = ((cfg2.win 3).blk t).view.read (Elt Ideal) G := by
  have hz' : (fun a => win2_3.index t a * main_v60_0.ty.shape.size a) = fun _ => 0 := funext fun a => by
    match a with
    | ⟨0, _⟩ => show win2_3.index t 0 * 1 = 0; rw [(idx2_3 t).1]
    | ⟨1, _⟩ => show win2_3.index t 1 * 512 = 0; rw [(idx2_3 t).2]
  exact (Memref.read_access_unit_zero (Elt Ideal) main_v60_0 hz' (fun a => by rw [congrFun hz' a]; simp) G).symm

/-- The one write-back of output 0 is at the last point `t` (the hundredth), and writes the carried block. -/
theorem flushed2_3_eq (c : Dev nD) (t : Fin cfg2.N) (ht : t.val = 99) (t' : Fin cfg2.N)
    (hf : (cfg2.win 3).flush t' = true) :
    (dat2 (F := Ideal) V c).flushed 3 t'
      = ((cfg2.win 3).blk t').view.read (Elt Ideal) (outsAt2 (F := Ideal) V c t.val t.isLt).1 := by
  have hN : cfg2.N = 100 := N_2
  have h99 : t'.val = 99 := by have := (flush2_3 t').mp hf; have := t'.isLt; omega
  obtain rfl : t' = t := Fin.ext (h99.trans ht.symm)
  show (cfg2.win 3).cut (grid2.coords t') ((dat2 (F := Ideal) V c).after 3 t') = _
  rw [after2_3]
  exact cut_eq_read2_3 c t' _

/-- Every index of the `[1, 512]` array lies in the block of any point. -/
theorem mem_blk2_3 (t : Fin cfg2.N) (i : S1x512.Idx) : i ∈ ((cfg2.win 3).blk t).view.set := by
  show i ∈ ((View.whole main_v60_0).slice (win2_3.rect t)).set
  rw [View.set_slice_whole, Rect.mem_set_unit]
  intro a
  have h0 : (i 0 : Nat) < 1 := (i 0).isLt
  have h1 : (i 1 : Nat) < 512 := (i 1).isLt
  match a with
  | ⟨0, _⟩ => show win2_3.index t 0 * win2_3.size 0 ≤ (i 0 : Nat) ∧ (i 0 : Nat) < win2_3.index t 0 * win2_3.size 0 + win2_3.xsize (grid2.coords t) 0
              rw [(idx2_3 t).1, (xs2_3 t).1]; omega
  | ⟨1, _⟩ => show win2_3.index t 1 * win2_3.size 1 ≤ (i 1 : Nat) ∧ (i 1 : Nat) < win2_3.index t 1 * win2_3.size 1 + win2_3.xsize (grid2.coords t) 1
              rw [(idx2_3 t).2, (xs2_3 t).2]; omega

/-- So the output array ends holding what its carried block held after the last point. -/
theorem final2_3 (c : Dev nD) (t : Fin cfg2.N) (ht : t.val = 99) :
    (dat2 (F := Ideal) V c).arrAt 3 cfg2.N = (outsAt2 (F := Ideal) V c t.val t.isLt).1 :=
  (dat2 (F := Ideal) V c).arrAt_eq_of_cover 3 (outsAt2 (F := Ideal) V c t.val t.isLt).1 (flushed2_3_eq V c t ht) fun i =>
    ⟨t, (flush2_3 t).mpr (by rw [ht]), mem_blk2_3 t i⟩

/-- Output 0 at the region's exit, at lane `g`: all rows' terms. -/
theorem exit2_0 (c : Dev nD) (g : Fin 512) (t : Fin cfg2.N) (ht : t.val = 99) :
    (dat2 (F := Ideal) V c).arrAt 3 cfg2.N (ix2 (0 : Fin 1) g) = ∑ p : Fin 100000, term2_0 V c g p := by
  refine (congrFun (final2_3 V c t ht) (ix2 (0 : Fin 1) g)).trans ?_
  refine (acc2_0 V c g t.val t.isLt).trans ?_
  rw [ht]
  exact total2_0 V c g

/-- Output 1's block at any point is the whole `[1, 512]` array: cutting a block's contents for the write-back and
    reading the array through the block's rectangle are both the identity. -/
theorem cut_eq_read2_4 (c : Dev nD) (t : Fin cfg2.N) (G : Buf (Elt Ideal) ((c : Thread nD τ).loc main_v60_1)) :
    (cfg2.win 4).cut (grid2.coords t) G = ((cfg2.win 4).blk t).view.read (Elt Ideal) G := by
  have hz' : (fun a => win2_4.index t a * main_v60_1.ty.shape.size a) = fun _ => 0 := funext fun a => by
    match a with
    | ⟨0, _⟩ => show win2_4.index t 0 * 1 = 0; rw [(idx2_4 t).1]
    | ⟨1, _⟩ => show win2_4.index t 1 * 512 = 0; rw [(idx2_4 t).2]
  exact (Memref.read_access_unit_zero (Elt Ideal) main_v60_1 hz' (fun a => by rw [congrFun hz' a]; simp) G).symm

/-- The one write-back of output 1 is at the last point `t` (the hundredth), and writes the carried block. -/
theorem flushed2_4_eq (c : Dev nD) (t : Fin cfg2.N) (ht : t.val = 99) (t' : Fin cfg2.N)
    (hf : (cfg2.win 4).flush t' = true) :
    (dat2 (F := Ideal) V c).flushed 4 t'
      = ((cfg2.win 4).blk t').view.read (Elt Ideal) (outsAt2 (F := Ideal) V c t.val t.isLt).2 := by
  have hN : cfg2.N = 100 := N_2
  have h99 : t'.val = 99 := by have := (flush2_4 t').mp hf; have := t'.isLt; omega
  obtain rfl : t' = t := Fin.ext (h99.trans ht.symm)
  show (cfg2.win 4).cut (grid2.coords t') ((dat2 (F := Ideal) V c).after 4 t') = _
  rw [after2_4]
  exact cut_eq_read2_4 c t' _

/-- Every index of the `[1, 512]` array lies in the block of any point. -/
theorem mem_blk2_4 (t : Fin cfg2.N) (i : S1x512.Idx) : i ∈ ((cfg2.win 4).blk t).view.set := by
  show i ∈ ((View.whole main_v60_1).slice (win2_4.rect t)).set
  rw [View.set_slice_whole, Rect.mem_set_unit]
  intro a
  have h0 : (i 0 : Nat) < 1 := (i 0).isLt
  have h1 : (i 1 : Nat) < 512 := (i 1).isLt
  match a with
  | ⟨0, _⟩ => show win2_4.index t 0 * win2_4.size 0 ≤ (i 0 : Nat) ∧ (i 0 : Nat) < win2_4.index t 0 * win2_4.size 0 + win2_4.xsize (grid2.coords t) 0
              rw [(idx2_4 t).1, (xs2_4 t).1]; omega
  | ⟨1, _⟩ => show win2_4.index t 1 * win2_4.size 1 ≤ (i 1 : Nat) ∧ (i 1 : Nat) < win2_4.index t 1 * win2_4.size 1 + win2_4.xsize (grid2.coords t) 1
              rw [(idx2_4 t).2, (xs2_4 t).2]; omega

/-- So the output array ends holding what its carried block held after the last point. -/
theorem final2_4 (c : Dev nD) (t : Fin cfg2.N) (ht : t.val = 99) :
    (dat2 (F := Ideal) V c).arrAt 4 cfg2.N = (outsAt2 (F := Ideal) V c t.val t.isLt).2 :=
  (dat2 (F := Ideal) V c).arrAt_eq_of_cover 4 (outsAt2 (F := Ideal) V c t.val t.isLt).2 (flushed2_4_eq V c t ht) fun i =>
    ⟨t, (flush2_4 t).mpr (by rw [ht]), mem_blk2_4 t i⟩

/-- Output 1 at the region's exit, at lane `g`: all rows' terms. -/
theorem exit2_1 (c : Dev nD) (g : Fin 512) (t : Fin cfg2.N) (ht : t.val = 99) :
    (dat2 (F := Ideal) V c).arrAt 4 cfg2.N (ix2 (0 : Fin 1) g) = ∑ p : Fin 100000, term2_1 V c g p := by
  refine (congrFun (final2_4 V c t ht) (ix2 (0 : Fin 1) g)).trans ?_
  refine (acc2_1 V c g t.val t.isLt).trans ?_
  rw [ht]
  exact total2_1 V c g

end Region2

/-! ## Region 2 in the run: the exit arrays from the entry arrays -/

section Run2
variable (m : (ℓ : Loc nD τ sig) → Buf (Elt Ideal) ℓ) (ρ : Dev nD → PrngReg)

/-- At the region's exit the first output is the per-graph sums of the rows' lane sums of the entry arrays. -/
theorem W8_v60_0_eq (c : Dev nD) :
    W8 m ρ c (Proc.devRef .tc main_v60_0)
      = stat0 (W7 m ρ c (Proc.devRef .tc main_v58)) (W7 m ρ c (Proc.devRef .tc main_v59)) (W7 m ρ c (Proc.devRef .tc main_v21)) := by
  refine (W8_arr m ρ c 3).trans ?_
  funext j
  obtain ⟨u, g, rfl⟩ : ∃ (u : Fin 1) (g : Fin 512), j = ix2 u g := ⟨j 0, j 1, eq_ix2 j⟩
  obtain rfl : u = 0 := Subsingleton.elim _ _
  exact exit2_0 (V7 m ρ) c g ⟨99, lt99_2⟩ rfl

/-- At the region's exit the second output is the per-graph sums of the rows' sums of squares of the entry arrays. -/
theorem W8_v60_1_eq (c : Dev nD) :
    W8 m ρ c (Proc.devRef .tc main_v60_1)
      = stat1 (W7 m ρ c (Proc.devRef .tc main_v58)) (W7 m ρ c (Proc.devRef .tc main_v59)) (W7 m ρ c (Proc.devRef .tc main_v21)) := by
  refine (W8_arr m ρ c 4).trans ?_
  funext j
  obtain ⟨u, g, rfl⟩ : ∃ (u : Fin 1) (g : Fin 512), j = ix2 u g := ⟨j 0, j 1, eq_ix2 j⟩
  obtain rfl : u = 0 := Subsingleton.elim _ _
  exact exit2_1 (V7 m ρ) c g ⟨99, lt99_2⟩ rfl

end Run2

/-- Case B (every later point, where the body adds onto what the point before left), first output: the one covering
    store's payload over the blocks and the carried contents. -/
theorem out5_B_3_eq (c : Dev nD) (i : grid5.Coords) (arg1 : Memref sig .tc .vmem S1000x128 .f32) (harg1 : arg1.IsWhole) (arg2 : Memref sig .tc .vmem S1x128 .f32) (harg2 : arg2.IsWhole) (arg3 : Memref sig .tc .vmem S1000x1 .i32) (harg3 : arg3.IsWhole) (arg4 : Memref sig .tc .vmem S1x512 .f32) (harg4 : arg4.IsWhole) (arg5 : Memref sig .tc .vmem S1x512 .f32) (harg5 : arg5.IsWhole) (hc0 : ¬cond5_0 i)
    (x0 : Vec F S1000x128 .f32) (x1 : Vec F S1x128 .f32) (x2 : Vec F S1000x1 .i32) (xo3 : Vec F S1x512 .f32) (xo4 : Vec F S1x512 .f32) :
    out5_B_3 c i arg1 harg1 arg2 harg2 arg3 harg3 arg4 harg4 arg5 harg5 hc0 x0 x1 x2 xo3 xo4 = k5_pay5 x0 x1 x2 xo3 := by
  unfold out5_B_3
  rw [View.read_writes_eq_canon _ _ _ (cover5_B_3 c i arg1 harg1 arg2 harg2 arg3 harg3 arg4 harg4 arg5 harg5 hc0 x0 x1 x2 xo3 xo4)]
  unfold kernelRun5_B
  dsimp only
  sl_unfold_words
  rw [View.canon_unit_zero hz]
  simp only [View.readAt_eq_ld, harg1.read_unread, harg2.read_unread, harg3.read_unread, harg4.read_unread, View.ld_unit_zero (S := S1000x128) hz, View.ld_unit_zero (S := S1x128) hz, View.ld_unit_zero (S := S1000x1) hz, View.ld_unit_zero (S := S1x512) hz]

/-- Case B (every later point), second output: the same, over the second carried block. -/
theorem out5_B_4_eq (c : Dev nD) (i : grid5.Coords) (arg1 : Memref sig .tc .vmem S1000x128 .f32) (harg1 : arg1.IsWhole) (arg2 : Memref sig .tc .vmem S1x128 .f32) (harg2 : arg2.IsWhole) (arg3 : Memref sig .tc .vmem S1000x1 .i32) (harg3 : arg3.IsWhole) (arg4 : Memref sig .tc .vmem S1x512 .f32) (harg4 : arg4.IsWhole) (arg5 : Memref sig .tc .vmem S1x512 .f32) (harg5 : arg5.IsWhole) (hc0 : ¬cond5_0 i)
    (x0 : Vec F S1000x128 .f32) (x1 : Vec F S1x128 .f32) (x2 : Vec F S1000x1 .i32) (xo3 : Vec F S1x512 .f32) (xo4 : Vec F S1x512 .f32) :
    out5_B_4 c i arg1 harg1 arg2 harg2 arg3 harg3 arg4 harg4 arg5 harg5 hc0 x0 x1 x2 xo3 xo4 = k5_pay6 x0 x1 x2 xo4 := by
  unfold out5_B_4
  rw [View.read_writes_eq_canon _ _ _ (cover5_B_4 c i arg1 harg1 arg2 harg2 arg3 harg3 arg4 harg4 arg5 harg5 hc0 x0 x1 x2 xo3 xo4)]
  unfold kernelRun5_B
  dsimp only
  sl_unfold_words
  rw [View.canon_unit_zero hz]
  simp only [View.readAt_eq_ld, harg1.read_unread, harg2.read_unread, harg3.read_unread, harg5.read_unread, View.ld_unit_zero (S := S1000x128) hz, View.ld_unit_zero (S := S1x128) hz, View.ld_unit_zero (S := S1000x1) hz, View.ld_unit_zero (S := S1x512) hz]

/-- Case A (the first point, where the body first stores zeros), first output: the zero block is stored, read back,
    and updated. -/
theorem out5_A_3_eq (c : Dev nD) (i : grid5.Coords) (arg1 : Memref sig .tc .vmem S1000x128 .f32) (harg1 : arg1.IsWhole) (arg2 : Memref sig .tc .vmem S1x128 .f32) (harg2 : arg2.IsWhole) (arg3 : Memref sig .tc .vmem S1000x1 .i32) (harg3 : arg3.IsWhole) (arg4 : Memref sig .tc .vmem S1x512 .f32) (harg4 : arg4.IsWhole) (arg5 : Memref sig .tc .vmem S1x512 .f32) (harg5 : arg5.IsWhole) (hc0 : cond5_0 i)
    (x0 : Vec F S1000x128 .f32) (x1 : Vec F S1x128 .f32) (x2 : Vec F S1000x1 .i32) :
    out5_A_3 c i arg1 harg1 arg2 harg2 arg3 harg3 arg4 harg4 arg5 harg5 hc0 x0 x1 x2 = k5_pay5 x0 x1 x2 (k5_pay1 (F := F)) := by
  unfold out5_A_3
  rw [View.read_writes_eq_canon _ _ _ (cover5_A_3 c i arg1 harg1 arg2 harg2 arg3 harg3 arg4 harg4 arg5 harg5 hc0 x0 x1 x2)]
  unfold kernelRun5_A
  dsimp only
  sl_unfold_words
  rw [View.canon_cons_unit_zero (S := S1x512) hz]
  simp only [View.readAt_eq_ld, harg1.read_unread, harg2.read_unread, harg3.read_unread, View.readCov_unit_zero (S := S1x512) _ hz, View.ld_unit_zero (S := S1000x128) hz, View.ld_unit_zero (S := S1x128) hz, View.ld_unit_zero (S := S1000x1) hz, View.ld_unit_zero (S := S1x512) hz]

/-- Case A (the first point), second output: the same, over the second carried block. -/
theorem out5_A_4_eq (c : Dev nD) (i : grid5.Coords) (arg1 : Memref sig .tc .vmem S1000x128 .f32) (harg1 : arg1.IsWhole) (arg2 : Memref sig .tc .vmem S1x128 .f32) (harg2 : arg2.IsWhole) (arg3 : Memref sig .tc .vmem S1000x1 .i32) (harg3 : arg3.IsWhole) (arg4 : Memref sig .tc .vmem S1x512 .f32) (harg4 : arg4.IsWhole) (arg5 : Memref sig .tc .vmem S1x512 .f32) (harg5 : arg5.IsWhole) (hc0 : cond5_0 i)
    (x0 : Vec F S1000x128 .f32) (x1 : Vec F S1x128 .f32) (x2 : Vec F S1000x1 .i32) :
    out5_A_4 c i arg1 harg1 arg2 harg2 arg3 harg3 arg4 harg4 arg5 harg5 hc0 x0 x1 x2 = k5_pay6 x0 x1 x2 (k5_pay2 (F := F)) := by
  unfold out5_A_4
  rw [View.read_writes_eq_canon _ _ _ (cover5_A_4 c i arg1 harg1 arg2 harg2 arg3 harg3 arg4 harg4 arg5 harg5 hc0 x0 x1 x2)]
  unfold kernelRun5_A
  dsimp only
  sl_unfold_words
  rw [View.canon_cons_unit_zero (S := S1x512) hz]
  simp only [View.readAt_eq_ld, harg1.read_unread, harg2.read_unread, harg3.read_unread, View.readCov_unit_zero (S := S1x512) _ hz, View.ld_unit_zero (S := S1000x128) hz, View.ld_unit_zero (S := S1x128) hz, View.ld_unit_zero (S := S1000x1) hz, View.ld_unit_zero (S := S1x512) hz]

/-! ## The body's arithmetic of region 5 read at an index, over the extended reals -/

/-- The block plus the bias row. -/
theorem k5_pay3_apply (v3 : FVec Ideal S1000x128 .f32) (v5 : FVec Ideal S1x128 .f32) (r : Fin 1000) (q : Fin 128) :
    k5_pay3 (F := Ideal) v3 v5 (ix2 r q) = v3 (ix2 r q) + v5 (ix2 (0 : Fin 1) q) := by
  unfold k5_pay3
  show addf (F := Ideal) (shapeCast S1000x128 v3 shapeCasts_S1000x128_S1000x128)
      (broadcastTo S1000x128 (shapeCast S1x128 v5 shapeCasts_S1x128_S1x128) broadcasts_S1x128_S1000x128) (ix2 r q) = _
  rw [addf_apply, shapeCast_self, shapeCast_self]
  exact congrArg (v3 (ix2 r q) + ·) (broadcastTo_1b_ab_apply v5 broadcasts_S1x128_S1000x128 r q)

/-- The one-hot factor: row `r`'s graph number against lane `g`. -/
theorem k5_pay4_apply (v14 : IVec S1000x1 32) (r : Fin 1000) (g : Fin 512) :
    k5_pay4 (F := Ideal) v14 (ix2 r g)
      = if v14 (ix2 r (0 : Fin 1)) = BitVec.ofNat 32 g.val then (1 : EReal) else 0 := by
  unfold k5_pay4
  show FloatOps.sitofp (F := Ideal) .f32 ((IntOp.cmpi .eq
      (broadcastTo S1000x512 (shapeCast S1000x1 v14 shapeCasts_S1000x1_S1000x1) broadcasts_S1000x1_S1000x512 (ix2 r g))
      (iota .tc S1000x512 32 [1] iota_S1000x512_d1_w32 (ix2 r g))).setWidth 32) = _
  rw [shapeCast_self, broadcastTo_a1_ab_apply v14 broadcasts_S1000x1_S1000x512 r g,
    iota_single_apply .tc S1000x512 32 1 iota_S1000x512_d1_w32 (ix2 r g)]
  exact onehot_scalar _ _

/-- The carried sums plus this block's contribution: per lane `g`, the rows of graph `g` summed over their lane sums. -/
theorem k5_pay5_apply (v3 : FVec Ideal S1000x128 .f32) (v5 : FVec Ideal S1x128 .f32) (v14 : IVec S1000x1 32)
    (v21 : FVec Ideal S1x512 .f32) (g : Fin 512) :
    k5_pay5 (F := Ideal) v3 v5 v14 v21 (ix2 (0 : Fin 1) g)
      = v21 (ix2 (0 : Fin 1) g)
        + ∑ r : Fin 1000, k5_pay4 (F := Ideal) v14 (ix2 r g) * ∑ q : Fin 128, k5_pay3 (F := Ideal) v3 v5 (ix2 r q) := by
  unfold k5_pay5
  show addf (F := Ideal) (shapeCast S1x512 v21 shapeCasts_S1x512_S1x512)
      (shapeCast S1x512 (multiReduction (F := Ideal) .add [0] S512
        (mulf (F := Ideal) (k5_pay4 (F := Ideal) v14)
          (broadcastTo S1000x512 (shapeCast S1000x1
            (multiReduction (F := Ideal) .add [1] S1000 (k5_pay3 (F := Ideal) v3 v5) 0x00000000#32 reduces_S1000x128_S1000 (.inl rfl) rfl)
            shapeCasts_S1000_S1000x1) broadcasts_S1000x1_S1000x512))
        0x00000000#32 reduces_S1000x512_S512 (.inl rfl) rfl) shapeCasts_S512_S1x512) (ix2 (0 : Fin 1) g) = _
  rw [addf_apply, shapeCast_self]
  refine congrArg (v21 (ix2 (0 : Fin 1) g) + ·) ?_
  refine (shapeCast_a_1a_apply _ shapeCasts_S512_S1x512 (0 : Fin 1) g).trans ?_
  refine (Ideal.multiReduction_add_single _ _ reduces_S1000x512_S512 (.inl rfl) rfl (ix1 g)).trans ?_
  show ∑ r : Fin 1000, _ = _
  refine Finset.sum_congr rfl fun r _ => ?_
  have hl : reduces_S1000x512_S512.lift (ix1 g) r = ix2 r g := by
    funext a; match a with | ⟨0, _⟩ => exact Fin.ext rfl | ⟨1, _⟩ => exact Fin.ext rfl
  rw [hl, mulf_apply]
  refine congrArg (k5_pay4 (F := Ideal) v14 (ix2 r g) * ·) ?_
  refine (broadcastTo_a1_ab_apply _ broadcasts_S1000x1_S1000x512 r g).trans ?_
  refine (shapeCast_a_a1_apply _ shapeCasts_S1000_S1000x1 r (0 : Fin 1)).trans ?_
  refine (Ideal.multiReduction_add_single _ _ reduces_S1000x128_S1000 (.inl rfl) rfl (ix1 r)).trans ?_
  show ∑ q : Fin 128, _ = _
  refine Finset.sum_congr rfl fun q _ => ?_
  have hl2 : reduces_S1000x128_S1000.lift (ix1 r) q = ix2 r q := by
    funext a; match a with | ⟨0, _⟩ => exact Fin.ext rfl | ⟨1, _⟩ => exact Fin.ext rfl
  rw [hl2]

/-- The same with the squared entries. -/
theorem k5_pay6_apply (v3 : FVec Ideal S1000x128 .f32) (v5 : FVec Ideal S1x128 .f32) (v14 : IVec S1000x1 32)
    (v29 : FVec Ideal S1x512 .f32) (g : Fin 512) :
    k5_pay6 (F := Ideal) v3 v5 v14 v29 (ix2 (0 : Fin 1) g)
      = v29 (ix2 (0 : Fin 1) g)
        + ∑ r : Fin 1000, k5_pay4 (F := Ideal) v14 (ix2 r g)
            * ∑ q : Fin 128, k5_pay3 (F := Ideal) v3 v5 (ix2 r q) * k5_pay3 (F := Ideal) v3 v5 (ix2 r q) := by
  unfold k5_pay6
  show addf (F := Ideal) (shapeCast S1x512 v29 shapeCasts_S1x512_S1x512)
      (shapeCast S1x512 (multiReduction (F := Ideal) .add [0] S512
        (mulf (F := Ideal) (k5_pay4 (F := Ideal) v14)
          (broadcastTo S1000x512 (shapeCast S1000x1
            (multiReduction (F := Ideal) .add [1] S1000 (mulf (F := Ideal) (k5_pay3 (F := Ideal) v3 v5) (k5_pay3 (F := Ideal) v3 v5)) 0x00000000#32 reduces_S1000x128_S1000 (.inl rfl) rfl)
            shapeCasts_S1000_S1000x1) broadcasts_S1000x1_S1000x512))
        0x00000000#32 reduces_S1000x512_S512 (.inl rfl) rfl) shapeCasts_S512_S1x512) (ix2 (0 : Fin 1) g) = _
  rw [addf_apply, shapeCast_self]
  refine congrArg (v29 (ix2 (0 : Fin 1) g) + ·) ?_
  refine (shapeCast_a_1a_apply _ shapeCasts_S512_S1x512 (0 : Fin 1) g).trans ?_
  refine (Ideal.multiReduction_add_single _ _ reduces_S1000x512_S512 (.inl rfl) rfl (ix1 g)).trans ?_
  show ∑ r : Fin 1000, _ = _
  refine Finset.sum_congr rfl fun r _ => ?_
  have hl : reduces_S1000x512_S512.lift (ix1 g) r = ix2 r g := by
    funext a; match a with | ⟨0, _⟩ => exact Fin.ext rfl | ⟨1, _⟩ => exact Fin.ext rfl
  rw [hl, mulf_apply]
  refine congrArg (k5_pay4 (F := Ideal) v14 (ix2 r g) * ·) ?_
  refine (broadcastTo_a1_ab_apply _ broadcasts_S1000x1_S1000x512 r g).trans ?_
  refine (shapeCast_a_a1_apply _ shapeCasts_S1000_S1000x1 r (0 : Fin 1)).trans ?_
  refine (Ideal.multiReduction_add_single _ _ reduces_S1000x128_S1000 (.inl rfl) rfl (ix1 r)).trans ?_
  show ∑ q : Fin 128, _ = _
  refine Finset.sum_congr rfl fun q _ => ?_
  have hl2 : reduces_S1000x128_S1000.lift (ix1 r) q = ix2 r q := by
    funext a; match a with | ⟨0, _⟩ => exact Fin.ext rfl | ⟨1, _⟩ => exact Fin.ext rfl
  rw [hl2, mulf_apply]

/-- The block a reset stores is zero everywhere. -/
theorem k5_pay1_apply (j : S1x512.Idx) : k5_pay1 (F := Ideal) j = 0 := by
  unfold k5_pay1
  show (Ideal.ofBits .f32 0x00000000#32 : EReal) = 0
  exact Ideal.ofBits_zero_f32
theorem k5_pay2_apply (j : S1x512.Idx) : k5_pay2 (F := Ideal) j = 0 := by
  unfold k5_pay2
  show (Ideal.ofBits .f32 0x00000000#32 : EReal) = 0
  exact Ideal.ofBits_zero_f32

/-! ## Region 5: the two statistics outputs after the last point -/

section Region5
variable (V : (c : Dev nD) → (b : Ref sig .tc) → Buf (Elt Ideal) ((c : Thread nD τ).loc b))

/-- The three input blocks of a point, at their literal types. -/
abbrev xb5 (c : Dev nD) (t : Fin cfg5.N) : FVec Ideal S1000x128 .f32 := iblk5 (F := Ideal) V c 0 t
abbrev bb5 (c : Dev nD) (t : Fin cfg5.N) : FVec Ideal S1x128 .f32 := iblk5 (F := Ideal) V c 1 t
abbrev gb5 (c : Dev nD) (t : Fin cfg5.N) : IVec S1000x1 32 := iblk5 (F := Ideal) V c 2 t
/-- The three input arrays as the region finds them, at their literal types. -/
abbrev xa5 (c : Dev nD) : S100000x128.Idx → EReal := V c main_v88
abbrev ba5 (c : Dev nD) : S1x128.Idx → EReal := V c main_v89
abbrev ga5 (c : Dev nD) : S100000x1.Idx → BitVec 32 := V c main_v21

/-- Where each window's block starts: the row-tiled windows at block row `t`, the whole-array windows at the origin. -/
theorem idx5_0 : ∀ t : Fin cfg5.N, win5_0.index t 0 = t.val ∧ win5_0.index t 1 = 0 :=
  (by decide +kernel : ∀ t : Fin grid5.N, win5_0.index t 0 = t.val ∧ win5_0.index t 1 = 0)
theorem idx5_1 : ∀ t : Fin cfg5.N, win5_1.index t 0 = 0 ∧ win5_1.index t 1 = 0 :=
  (by decide +kernel : ∀ t : Fin grid5.N, win5_1.index t 0 = 0 ∧ win5_1.index t 1 = 0)
theorem idx5_2 : ∀ t : Fin cfg5.N, win5_2.index t 0 = t.val ∧ win5_2.index t 1 = 0 :=
  (by decide +kernel : ∀ t : Fin grid5.N, win5_2.index t 0 = t.val ∧ win5_2.index t 1 = 0)
theorem idx5_3 : ∀ t : Fin cfg5.N, win5_3.index t 0 = 0 ∧ win5_3.index t 1 = 0 :=
  (by decide +kernel : ∀ t : Fin grid5.N, win5_3.index t 0 = 0 ∧ win5_3.index t 1 = 0)
theorem idx5_4 : ∀ t : Fin cfg5.N, win5_4.index t 0 = 0 ∧ win5_4.index t 1 = 0 :=
  (by decide +kernel : ∀ t : Fin grid5.N, win5_4.index t 0 = 0 ∧ win5_4.index t 1 = 0)

/-- Row `r` of point `t`'s block of the first input is row `1000 t + r` of the array. -/
theorem xb5_apply (c : Dev nD) (t : Fin cfg5.N) (r : Fin 1000) (q : Fin 128) (p : Fin 100000)
    (hp : p.val = 1000 * t.val + r.val) : xb5 V c t (ix2 r q) = xa5 V c (ix2 p q) := by
  have hi := idx5_0 t
  show iblk5 (F := Ideal) V c 0 t (ix2 r q) = _
  unfold iblk5
  rw [View.read_apply]
  show V c main_v88 _ = V c main_v88 _
  congr 1
  funext a
  apply Fin.ext
  match a with
  | ⟨0, _⟩ => show win5_0.index t 0 * 1000 + 1 * r.val = p.val; rw [hi.1, hp]; omega
  | ⟨1, _⟩ => show win5_0.index t 1 * 128 + 1 * q.val = q.val; rw [hi.2]; omega

/-- The bias block is the whole bias row at every point. -/
theorem bb5_apply (c : Dev nD) (t : Fin cfg5.N) (q : Fin 128) :
    bb5 V c t (ix2 (0 : Fin 1) q) = ba5 V c (ix2 (0 : Fin 1) q) := by
  have hi := idx5_1 t
  show iblk5 (F := Ideal) V c 1 t (ix2 (0 : Fin 1) q) = _
  unfold iblk5
  rw [View.read_apply]
  show V c main_v89 _ = V c main_v89 _
  congr 1
  funext a
  apply Fin.ext
  match a with
  | ⟨0, _⟩ => show win5_1.index t 0 * 1 + 1 * 0 = 0; rw [hi.1]
  | ⟨1, _⟩ => show win5_1.index t 1 * 128 + 1 * q.val = q.val; rw [hi.2]; omega

/-- Row `r` of point `t`'s block of graph numbers is row `1000 t + r` of the array. -/
theorem gb5_apply (c : Dev nD) (t : Fin cfg5.N) (r : Fin 1000) (p : Fin 100000)
    (hp : p.val = 1000 * t.val + r.val) : gb5 V c t (ix2 r (0 : Fin 1)) = ga5 V c (ix2 p (0 : Fin 1)) := by
  have hi := idx5_2 t
  show iblk5 (F := Ideal) V c 2 t (ix2 r (0 : Fin 1)) = _
  unfold iblk5
  rw [View.read_apply]
  show V c main_v21 _ = V c main_v21 _
  congr 1
  funext a
  apply Fin.ext
  match a with
  | ⟨0, _⟩ => show win5_2.index t 0 * 1000 + 1 * r.val = p.val; rw [hi.1, hp]; omega
  | ⟨1, _⟩ => show win5_2.index t 1 * 1 + 1 * 0 = 0; rw [hi.2]

/-- One row's term of the first statistic: the indicator of graph `g` times the row's lane sum. -/
abbrev term5_0 (c : Dev nD) (g : Fin 512) (p : Fin 100000) : EReal :=
  (if ga5 V c (ix2 p (0 : Fin 1)) = BitVec.ofNat 32 g.val then (1 : EReal) else 0)
    * ∑ q : Fin 128, (xa5 V c (ix2 p q) + ba5 V c (ix2 (0 : Fin 1) q))
/-- One row's term of the second statistic: the indicator times the row's sum of squares. -/
abbrev term5_1 (c : Dev nD) (g : Fin 512) (p : Fin 100000) : EReal :=
  (if ga5 V c (ix2 p (0 : Fin 1)) = BitVec.ofNat 32 g.val then (1 : EReal) else 0)
    * ∑ q : Fin 128, (xa5 V c (ix2 p q) + ba5 V c (ix2 (0 : Fin 1) q)) * (xa5 V c (ix2 p q) + ba5 V c (ix2 (0 : Fin 1) q))

/-- Point `t`'s contribution to each statistic: its 1000 rows' terms. -/
def part5_0 (c : Dev nD) (g : Fin 512) (t : ℕ) : EReal :=
  if h : t < 100 then ∑ r : Fin 1000, term5_0 V c g ⟨1000 * t + r.val, by have := r.isLt; omega⟩ else 0
def part5_1 (c : Dev nD) (g : Fin 512) (t : ℕ) : EReal :=
  if h : t < 100 then ∑ r : Fin 1000, term5_1 V c g ⟨1000 * t + r.val, by have := r.isLt; omega⟩ else 0

/-- What a point's body adds to the first output, in terms of the arrays. -/
theorem upd5_0 (c : Dev nD) (t : Fin cfg5.N) (ht : t.val < 100) (g : Fin 512) :
    ∑ r : Fin 1000, k5_pay4 (F := Ideal) (gb5 V c t) (ix2 r g)
        * ∑ q : Fin 128, k5_pay3 (F := Ideal) (xb5 V c t) (bb5 V c t) (ix2 r q)
      = part5_0 V c g t.val := by
  unfold part5_0
  rw [dif_pos ht]
  refine Finset.sum_congr rfl fun r _ => ?_
  rw [k5_pay4_apply, gb5_apply V c t r ⟨1000 * t.val + r.val, by have := r.isLt; omega⟩ rfl]
  refine congrArg (_ * ·) (Finset.sum_congr rfl fun q _ => ?_)
  rw [k5_pay3_apply, xb5_apply V c t r q ⟨1000 * t.val + r.val, by have := r.isLt; omega⟩ rfl, bb5_apply]

/-- What a point's body adds to the second output, in terms of the arrays. -/
theorem upd5_1 (c : Dev nD) (t : Fin cfg5.N) (ht : t.val < 100) (g : Fin 512) :
    ∑ r : Fin 1000, k5_pay4 (F := Ideal) (gb5 V c t) (ix2 r g)
        * ∑ q : Fin 128, k5_pay3 (F := Ideal) (xb5 V c t) (bb5 V c t) (ix2 r q)
            * k5_pay3 (F := Ideal) (xb5 V c t) (bb5 V c t) (ix2 r q)
      = part5_1 V c g t.val := by
  unfold part5_1
  rw [dif_pos ht]
  refine Finset.sum_congr rfl fun r _ => ?_
  rw [k5_pay4_apply, gb5_apply V c t r ⟨1000 * t.val + r.val, by have := r.isLt; omega⟩ rfl]
  refine congrArg (_ * ·) (Finset.sum_congr rfl fun q _ => ?_)
  rw [k5_pay3_apply, xb5_apply V c t r q ⟨1000 * t.val + r.val, by have := r.isLt; omega⟩ rfl, bb5_apply]

/-- THE INVARIANT, first output: after point `n` the carried block holds the contributions of points `0 … n`. -/
theorem acc5_0 (c : Dev nD) (g : Fin 512) : ∀ (n : ℕ) (h : n < cfg5.N),
    (outsAt5 (F := Ideal) V c n h).1 (ix2 (0 : Fin 1) g) = ∑ t ∈ Finset.range (n + 1), part5_0 V c g t
  | 0, h => by
    have hN : cfg5.N = 100 := N_5
    rw [outsAt5_A V c ⟨0, h⟩ rfl]
    dsimp only
    refine (congrFun (out5_A_3_eq (F := Ideal) c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) ((hcond5_0 ⟨0, h⟩).mpr rfl) (iblk5 V c 0 ⟨0, h⟩) (iblk5 V c 1 ⟨0, h⟩) (iblk5 V c 2 ⟨0, h⟩)) (ix2 (0 : Fin 1) g)).trans ?_
    refine (k5_pay5_apply (xb5 V c ⟨0, h⟩) (bb5 V c ⟨0, h⟩) (gb5 V c ⟨0, h⟩) (k5_pay1 (F := Ideal)) g).trans ?_
    rw [k5_pay1_apply, zero_add, upd5_0 V c ⟨0, h⟩ (by show (0 : ℕ) < 100; decide) g, Finset.sum_range_one]
  | n + 1, h => by
    have hN : cfg5.N = 100 := N_5
    have hB : ¬(⟨n + 1, h⟩ : Fin cfg5.N).val % 100 = 0 := by dsimp only; omega
    rw [outsAt5_B V c ⟨n + 1, h⟩ hB]
    dsimp only
    refine (congrFun (out5_B_3_eq (F := Ideal) c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (fun hc => hB ((hcond5_0 ⟨n + 1, h⟩).mp hc)) (iblk5 V c 0 ⟨n + 1, h⟩) (iblk5 V c 1 ⟨n + 1, h⟩) (iblk5 V c 2 ⟨n + 1, h⟩) (outsAt5 V c n (Nat.lt_of_succ_lt h)).1 (outsAt5 V c n (Nat.lt_of_succ_lt h)).2) (ix2 (0 : Fin 1) g)).trans ?_
    refine (k5_pay5_apply (xb5 V c ⟨n + 1, h⟩) (bb5 V c ⟨n + 1, h⟩) (gb5 V c ⟨n + 1, h⟩) (outsAt5 (F := Ideal) V c n (Nat.lt_of_succ_lt h)).1 g).trans ?_
    rw [acc5_0 c g n (Nat.lt_of_succ_lt h), upd5_0 V c ⟨n + 1, h⟩ (by dsimp only; omega) g, Finset.sum_range_succ _ (n + 1)]

/-- THE INVARIANT, second output. -/
theorem acc5_1 (c : Dev nD) (g : Fin 512) : ∀ (n : ℕ) (h : n < cfg5.N),
    (outsAt5 (F := Ideal) V c n h).2 (ix2 (0 : Fin 1) g) = ∑ t ∈ Finset.range (n + 1), part5_1 V c g t
  | 0, h => by
    have hN : cfg5.N = 100 := N_5
    rw [outsAt5_A V c ⟨0, h⟩ rfl]
    dsimp only
    refine (congrFun (out5_A_4_eq (F := Ideal) c (grid5.coords ⟨0, h⟩) (ms5_0 ⟨0, h⟩) (hs5_0 ⟨0, h⟩) (ms5_1 ⟨0, h⟩) (hs5_1 ⟨0, h⟩) (ms5_2 ⟨0, h⟩) (hs5_2 ⟨0, h⟩) (ms5_3 ⟨0, h⟩) (hs5_3 ⟨0, h⟩) (ms5_4 ⟨0, h⟩) (hs5_4 ⟨0, h⟩) ((hcond5_0 ⟨0, h⟩).mpr rfl) (iblk5 V c 0 ⟨0, h⟩) (iblk5 V c 1 ⟨0, h⟩) (iblk5 V c 2 ⟨0, h⟩)) (ix2 (0 : Fin 1) g)).trans ?_
    refine (k5_pay6_apply (xb5 V c ⟨0, h⟩) (bb5 V c ⟨0, h⟩) (gb5 V c ⟨0, h⟩) (k5_pay2 (F := Ideal)) g).trans ?_
    rw [k5_pay2_apply, zero_add, upd5_1 V c ⟨0, h⟩ (by show (0 : ℕ) < 100; decide) g, Finset.sum_range_one]
  | n + 1, h => by
    have hN : cfg5.N = 100 := N_5
    have hB : ¬(⟨n + 1, h⟩ : Fin cfg5.N).val % 100 = 0 := by dsimp only; omega
    rw [outsAt5_B V c ⟨n + 1, h⟩ hB]
    dsimp only
    refine (congrFun (out5_B_4_eq (F := Ideal) c (grid5.coords ⟨n + 1, h⟩) (ms5_0 ⟨n + 1, h⟩) (hs5_0 ⟨n + 1, h⟩) (ms5_1 ⟨n + 1, h⟩) (hs5_1 ⟨n + 1, h⟩) (ms5_2 ⟨n + 1, h⟩) (hs5_2 ⟨n + 1, h⟩) (ms5_3 ⟨n + 1, h⟩) (hs5_3 ⟨n + 1, h⟩) (ms5_4 ⟨n + 1, h⟩) (hs5_4 ⟨n + 1, h⟩) (fun hc => hB ((hcond5_0 ⟨n + 1, h⟩).mp hc)) (iblk5 V c 0 ⟨n + 1, h⟩) (iblk5 V c 1 ⟨n + 1, h⟩) (iblk5 V c 2 ⟨n + 1, h⟩) (outsAt5 V c n (Nat.lt_of_succ_lt h)).1 (outsAt5 V c n (Nat.lt_of_succ_lt h)).2) (ix2 (0 : Fin 1) g)).trans ?_
    refine (k5_pay6_apply (xb5 V c ⟨n + 1, h⟩) (bb5 V c ⟨n + 1, h⟩) (gb5 V c ⟨n + 1, h⟩) (outsAt5 (F := Ideal) V c n (Nat.lt_of_succ_lt h)).2 g).trans ?_
    rw [acc5_1 c g n (Nat.lt_of_succ_lt h), upd5_1 V c ⟨n + 1, h⟩ (by dsimp only; omega) g, Finset.sum_range_succ _ (n + 1)]

/-- All points' contributions are all rows' terms: the 100 blocks of 1000 rows are the 100000 rows. -/
theorem total5_0 (c : Dev nD) (g : Fin 512) :
    ∑ t ∈ Finset.range 100, part5_0 V c g t = ∑ p : Fin 100000, term5_0 V c g p :=
  (sum_range_dite 100 fun t : Fin 100 =>
      ∑ r : Fin 1000, term5_0 V c g ⟨1000 * t.val + r.val, by have := r.isLt; have := t.isLt; omega⟩).trans
    (sum_rows_blocks 100 1000 100000 (by norm_num) (term5_0 V c g)).symm
theorem total5_1 (c : Dev nD) (g : Fin 512) :
    ∑ t ∈ Finset.range 100, part5_1 V c g t = ∑ p : Fin 100000, term5_1 V c g p :=
  (sum_range_dite 100 fun t : Fin 100 =>
      ∑ r : Fin 1000, term5_1 V c g ⟨1000 * t.val + r.val, by have := r.isLt; have := t.isLt; omega⟩).trans
    (sum_rows_blocks 100 1000 100000 (by norm_num) (term5_1 V c g)).symm

theorem lt99_5 : 99 < cfg5.N := by rw [show cfg5.N = 100 from N_5]; decide

/-- The outputs' blocks never overhang: their extents are the whole `[1, 512]` array's. -/
theorem xs5_3 : ∀ t : Fin cfg5.N, win5_3.xsize (grid5.coords t) 0 = 1 ∧ win5_3.xsize (grid5.coords t) 1 = 512 :=
  (by decide +kernel : ∀ t : Fin grid5.N, win5_3.xsize (grid5.coords t) 0 = 1 ∧ win5_3.xsize (grid5.coords t) 1 = 512)
theorem xs5_4 : ∀ t : Fin cfg5.N, win5_4.xsize (grid5.coords t) 0 = 1 ∧ win5_4.xsize (grid5.coords t) 1 = 512 :=
  (by decide +kernel : ∀ t : Fin grid5.N, win5_4.xsize (grid5.coords t) 0 = 1 ∧ win5_4.xsize (grid5.coords t) 1 = 512)

/-- Output 0's block at any point is the whole `[1, 512]` array: cutting a block's contents for the write-back and
    reading the array through the block's rectangle are both the identity. -/
theorem cut_eq_read5_3 (c : Dev nD) (t : Fin cfg5.N) (G : Buf (Elt Ideal) ((c : Thread nD τ).loc main_v90_0)) :
    (cfg5.win 3).cut (grid5.coords t) G = ((cfg5.win 3).blk t).view.read (Elt Ideal) G := by
  have hz' : (fun a => win5_3.index t a * main_v90_0.ty.shape.size a) = fun _ => 0 := funext fun a => by
    match a with
    | ⟨0, _⟩ => show win5_3.index t 0 * 1 = 0; rw [(idx5_3 t).1]
    | ⟨1, _⟩ => show win5_3.index t 1 * 512 = 0; rw [(idx5_3 t).2]
  exact (Memref.read_access_unit_zero (Elt Ideal) main_v90_0 hz' (fun a => by rw [congrFun hz' a]; simp) G).symm

/-- The one write-back of output 0 is at the last point `t` (the hundredth), and writes the carried block. -/
theorem flushed5_3_eq (c : Dev nD) (t : Fin cfg5.N) (ht : t.val = 99) (t' : Fin cfg5.N)
    (hf : (cfg5.win 3).flush t' = true) :
    (dat5 (F := Ideal) V c).flushed 3 t'
      = ((cfg5.win 3).blk t').view.read (Elt Ideal) (outsAt5 (F := Ideal) V c t.val t.isLt).1 := by
  have hN : cfg5.N = 100 := N_5
  have h99 : t'.val = 99 := by have := (flush5_3 t').mp hf; have := t'.isLt; omega
  obtain rfl : t' = t := Fin.ext (h99.trans ht.symm)
  show (cfg5.win 3).cut (grid5.coords t') ((dat5 (F := Ideal) V c).after 3 t') = _
  rw [after5_3]
  exact cut_eq_read5_3 c t' _

/-- Every index of the `[1, 512]` array lies in the block of any point. -/
theorem mem_blk5_3 (t : Fin cfg5.N) (i : S1x512.Idx) : i ∈ ((cfg5.win 3).blk t).view.set := by
  show i ∈ ((View.whole main_v90_0).slice (win5_3.rect t)).set
  rw [View.set_slice_whole, Rect.mem_set_unit]
  intro a
  have h0 : (i 0 : Nat) < 1 := (i 0).isLt
  have h1 : (i 1 : Nat) < 512 := (i 1).isLt
  match a with
  | ⟨0, _⟩ => show win5_3.index t 0 * win5_3.size 0 ≤ (i 0 : Nat) ∧ (i 0 : Nat) < win5_3.index t 0 * win5_3.size 0 + win5_3.xsize (grid5.coords t) 0
              rw [(idx5_3 t).1, (xs5_3 t).1]; omega
  | ⟨1, _⟩ => show win5_3.index t 1 * win5_3.size 1 ≤ (i 1 : Nat) ∧ (i 1 : Nat) < win5_3.index t 1 * win5_3.size 1 + win5_3.xsize (grid5.coords t) 1
              rw [(idx5_3 t).2, (xs5_3 t).2]; omega

/-- So the output array ends holding what its carried block held after the last point. -/
theorem final5_3 (c : Dev nD) (t : Fin cfg5.N) (ht : t.val = 99) :
    (dat5 (F := Ideal) V c).arrAt 3 cfg5.N = (outsAt5 (F := Ideal) V c t.val t.isLt).1 :=
  (dat5 (F := Ideal) V c).arrAt_eq_of_cover 3 (outsAt5 (F := Ideal) V c t.val t.isLt).1 (flushed5_3_eq V c t ht) fun i =>
    ⟨t, (flush5_3 t).mpr (by rw [ht]), mem_blk5_3 t i⟩

/-- Output 0 at the region's exit, at lane `g`: all rows' terms. -/
theorem exit5_0 (c : Dev nD) (g : Fin 512) (t : Fin cfg5.N) (ht : t.val = 99) :
    (dat5 (F := Ideal) V c).arrAt 3 cfg5.N (ix2 (0 : Fin 1) g) = ∑ p : Fin 100000, term5_0 V c g p := by
  refine (congrFun (final5_3 V c t ht) (ix2 (0 : Fin 1) g)).trans ?_
  refine (acc5_0 V c g t.val t.isLt).trans ?_
  rw [ht]
  exact total5_0 V c g

/-- Output 1's block at any point is the whole `[1, 512]` array: cutting a block's contents for the write-back and
    reading the array through the block's rectangle are both the identity. -/
theorem cut_eq_read5_4 (c : Dev nD) (t : Fin cfg5.N) (G : Buf (Elt Ideal) ((c : Thread nD τ).loc main_v90_1)) :
    (cfg5.win 4).cut (grid5.coords t) G = ((cfg5.win 4).blk t).view.read (Elt Ideal) G := by
  have hz' : (fun a => win5_4.index t a * main_v90_1.ty.shape.size a) = fun _ => 0 := funext fun a => by
    match a with
    | ⟨0, _⟩ => show win5_4.index t 0 * 1 = 0; rw [(idx5_4 t).1]
    | ⟨1, _⟩ => show win5_4.index t 1 * 512 = 0; rw [(idx5_4 t).2]
  exact (Memref.read_access_unit_zero (Elt Ideal) main_v90_1 hz' (fun a => by rw [congrFun hz' a]; simp) G).symm

/-- The one write-back of output 1 is at the last point `t` (the hundredth), and writes the carried block. -/
theorem flushed5_4_eq (c : Dev nD) (t : Fin cfg5.N) (ht : t.val = 99) (t' : Fin cfg5.N)
    (hf : (cfg5.win 4).flush t' = true) :
    (dat5 (F := Ideal) V c).flushed 4 t'
      = ((cfg5.win 4).blk t').view.read (Elt Ideal) (outsAt5 (F := Ideal) V c t.val t.isLt).2 := by
  have hN : cfg5.N = 100 := N_5
  have h99 : t'.val = 99 := by have := (flush5_4 t').mp hf; have := t'.isLt; omega
  obtain rfl : t' = t := Fin.ext (h99.trans ht.symm)
  show (cfg5.win 4).cut (grid5.coords t') ((dat5 (F := Ideal) V c).after 4 t') = _
  rw [after5_4]
  exact cut_eq_read5_4 c t' _

/-- Every index of the `[1, 512]` array lies in the block of any point. -/
theorem mem_blk5_4 (t : Fin cfg5.N) (i : S1x512.Idx) : i ∈ ((cfg5.win 4).blk t).view.set := by
  show i ∈ ((View.whole main_v90_1).slice (win5_4.rect t)).set
  rw [View.set_slice_whole, Rect.mem_set_unit]
  intro a
  have h0 : (i 0 : Nat) < 1 := (i 0).isLt
  have h1 : (i 1 : Nat) < 512 := (i 1).isLt
  match a with
  | ⟨0, _⟩ => show win5_4.index t 0 * win5_4.size 0 ≤ (i 0 : Nat) ∧ (i 0 : Nat) < win5_4.index t 0 * win5_4.size 0 + win5_4.xsize (grid5.coords t) 0
              rw [(idx5_4 t).1, (xs5_4 t).1]; omega
  | ⟨1, _⟩ => show win5_4.index t 1 * win5_4.size 1 ≤ (i 1 : Nat) ∧ (i 1 : Nat) < win5_4.index t 1 * win5_4.size 1 + win5_4.xsize (grid5.coords t) 1
              rw [(idx5_4 t).2, (xs5_4 t).2]; omega

/-- So the output array ends holding what its carried block held after the last point. -/
theorem final5_4 (c : Dev nD) (t : Fin cfg5.N) (ht : t.val = 99) :
    (dat5 (F := Ideal) V c).arrAt 4 cfg5.N = (outsAt5 (F := Ideal) V c t.val t.isLt).2 :=
  (dat5 (F := Ideal) V c).arrAt_eq_of_cover 4 (outsAt5 (F := Ideal) V c t.val t.isLt).2 (flushed5_4_eq V c t ht) fun i =>
    ⟨t, (flush5_4 t).mpr (by rw [ht]), mem_blk5_4 t i⟩

/-- Output 1 at the region's exit, at lane `g`: all rows' terms. -/
theorem exit5_1 (c : Dev nD) (g : Fin 512) (t : Fin cfg5.N) (ht : t.val = 99) :
    (dat5 (F := Ideal) V c).arrAt 4 cfg5.N (ix2 (0 : Fin 1) g) = ∑ p : Fin 100000, term5_1 V c g p := by
  refine (congrFun (final5_4 V c t ht) (ix2 (0 : Fin 1) g)).trans ?_
  refine (acc5_1 V c g t.val t.isLt).trans ?_
  rw [ht]
  exact total5_1 V c g

end Region5

/-! ## Region 5 in the run: the exit arrays from the entry arrays -/

section Run5
variable (m : (ℓ : Loc nD τ sig) → Buf (Elt Ideal) ℓ) (ρ : Dev nD → PrngReg)

/-- At the region's exit the first output is the per-graph sums of the rows' lane sums of the entry arrays. -/
theorem W14_v90_0_eq (c : Dev nD) :
    W14 m ρ c (Proc.devRef .tc main_v90_0)
      = stat0 (W13 m ρ c (Proc.devRef .tc main_v88)) (W13 m ρ c (Proc.devRef .tc main_v89)) (W13 m ρ c (Proc.devRef .tc main_v21)) := by
  refine (W14_arr m ρ c 3).trans ?_
  funext j
  obtain ⟨u, g, rfl⟩ : ∃ (u : Fin 1) (g : Fin 512), j = ix2 u g := ⟨j 0, j 1, eq_ix2 j⟩
  obtain rfl : u = 0 := Subsingleton.elim _ _
  exact exit5_0 (V13 m ρ) c g ⟨99, lt99_5⟩ rfl

/-- At the region's exit the second output is the per-graph sums of the rows' sums of squares of the entry arrays. -/
theorem W14_v90_1_eq (c : Dev nD) :
    W14 m ρ c (Proc.devRef .tc main_v90_1)
      = stat1 (W13 m ρ c (Proc.devRef .tc main_v88)) (W13 m ρ c (Proc.devRef .tc main_v89)) (W13 m ρ c (Proc.devRef .tc main_v21)) := by
  refine (W14_arr m ρ c 4).trans ?_
  funext j
  obtain ⟨u, g, rfl⟩ : ∃ (u : Fin 1) (g : Fin 512), j = ix2 u g := ⟨j 0, j 1, eq_ix2 j⟩
  obtain rfl : u = 0 := Subsingleton.elim _ _
  exact exit5_1 (V13 m ρ) c g ⟨99, lt99_5⟩ rfl

end Run5

end Cert.KernelIdeal.RStats

end
-- ==== Proof.KApply.lean ====
/- The two normalise + affine + relu regions (3 and 6) of the kernel program, read at an index.

   Each region runs over 100 grid points; point `t` reads rows `1000 t … 1000 t + 999` of the row-tiled arrays (the
   rows to normalise and the batch column: each row's graph id, a 32-bit word, called the row's batch word below) and
   the whole of the five small arrays (bias, per-graph means, per-graph
   inverse deviations, gamma, beta), and writes the same rows of the output. Its body computes, at row `r` and lane
   `q` of the block (a lane is a column, i.e. a channel),

     max (((x r q + bias q) - Σ_g onehot(r, g) · mean g) · (Σ_g onehot(r, g) · inv g)) · gamma q + beta q, 0)

   where `onehot(r, g)` is 1 when the row's batch word equals the 32-bit word of `g` and 0 otherwise (a comparison bit,
   zero-extended to a word and converted to a float), each lane sum running over the 512 graphs. Written here: that
   body at an index (`pay3_apply`), each input block as rows of its array (`iblk3_*`), what a point writes back as its
   block of ONE array-level function (`flushed3_eq`), the cover (row `p` lies in the block of point `p / 1000`), the
   output array after the region (`final3`), and the same at the run's boundary valuations (`W10_v73`); then region 6
   likewise (`W16_v103`). -/
import proofs.«427561_j32633161515373_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RV

open Cert.KernelIdeal Cert.KernelIdeal.Gen Idealize.ShloMosaic Idealize.ShloMosaic.ValueIdx
open Idealize.ShloMosaic.TcCoe Idealize.SL.Sem
open Idealize.ShloMosaic.Pipeline (Dat)

/-! ## Shared by both regions: the one-hot weight, the lane sums, the array-level value -/

/-- The one-hot weight of graph `g` at a row whose batch word is `b`. -/
def oh (b : BitVec 32) (g : Fin 512) : EReal := if b = BitVec.ofNat 32 g.val then 1 else 0

/-- A comparison bit widened to a word and converted to a float is 1 where the words agree, 0 elsewhere. -/
theorem onehot_word (a b : BitVec 32) :
    FloatOps.sitofp (F := Ideal) .f32 ((IntOp.cmpi .eq a b).setWidth 32) = if a = b then (1 : EReal) else 0 := by
  by_cases h : a = b
  · subst h
    rw [if_pos rfl]
    have e : (IntOp.cmpi .eq a a) = 1#1 := by simp [IntOp.cmpi]
    rw [e]
    show (((((1#1 : BitVec 1).setWidth 32).toInt : ℤ) : ℝ) : EReal) = 1
    rw [show ((1#1 : BitVec 1).setWidth 32).toInt = 1 from by decide]
    simp
  · rw [if_neg h]
    have e : (IntOp.cmpi .eq a b) = 0#1 := by
      show BitVec.ofBool (a == b) = 0#1
      rw [beq_eq_false_iff_ne.mpr h]; rfl
    rw [e]
    show (((((0#1 : BitVec 1).setWidth 32).toInt : ℤ) : ℝ) : EReal) = 0
    rw [show ((0#1 : BitVec 1).setWidth 32).toInt = 0 from by decide]
    simp

/-- A [1,128] row broadcast down 1000 rows reads its lane. -/
theorem bcast_row128 (x : Vec Ideal S1x128 .f32) (r : Fin 1000) (q : Fin 128) :
    broadcastTo S1000x128 x broadcasts_S1x128_S1000x128 (ix2 r q) = x (ix2 (0 : Fin 1) q) :=
  broadcastTo_apply x _ (ix2 r q) (ix2 (0 : Fin 1) q) (fun a => match a with | ⟨0, _⟩ => rfl | ⟨1, _⟩ => rfl)

/-- The per-row tile of a [1,512] per-graph row: the lane sum over the graphs of the one-hot weight times the
    graph's entry, broadcast along the 128 lanes. -/
theorem lane_sum (x2 : Vec Ideal S1000x1 .i32) (y : Vec Ideal S1x512 .f32) (hφ) (hacc) (r : Fin 1000) (q : Fin 128) :
    broadcastTo S1000x128
        (shapeCast S1000x1
          (multiReduction (F := Ideal) FKind.add [1] S1000
            (mulf
              (sitofp FTy.f32
                (extui 32
                  (cmpi CmpIPredicate.eq (broadcastTo S1000x512 x2 broadcasts_S1000x1_S1000x512)
                    (iota Kind.tc S1000x512 32 [1] iota_S1000x512_d1_w32))
                  natLt_1_32))
              (broadcastTo S1000x512 y broadcasts_S1x512_S1000x512))
            (0#32) reduces_S1000x512_S1000 hφ hacc)
          shapeCasts_S1000_S1000x1)
        broadcasts_S1000x1_S1000x128 (ix2 r q)
      = ∑ g : Fin 512, oh (x2 (ix2 r (0 : Fin 1))) g * y (ix2 (0 : Fin 1) g) := by
  refine (broadcastTo_apply _ _ (ix2 r q) (ix2 r (0 : Fin 1)) (fun a => match a with | ⟨0, _⟩ => rfl | ⟨1, _⟩ => rfl)).trans ?_
  refine (shapeCast_apply _ _ (ix2 r (0 : Fin 1)) (ix1 r) (by rw [Shape.rowMajor_val_one, Shape.rowMajor_val_two]; show r.val = r.val * 1 + 0; omega)).trans ?_
  refine (Ideal.multiReduction_add_single _ _ reduces_S1000x512_S1000 hφ hacc (ix1 r)).trans ?_
  show ∑ g : Fin 512, _ = _
  refine Finset.sum_congr rfl fun g _ => ?_
  have hl : reduces_S1000x512_S1000.lift (ix1 r) g = ix2 r g := funext fun a => Fin.ext (match a with | ⟨0, _⟩ => rfl | ⟨1, _⟩ => rfl)
  rw [hl]
  show FloatOps.sitofp (F := Ideal) .f32 ((IntOp.cmpi .eq (broadcastTo S1000x512 x2 broadcasts_S1000x1_S1000x512 (ix2 r g)) (iota Kind.tc S1000x512 32 [1] iota_S1000x512_d1_w32 (ix2 r g))).setWidth 32) * broadcastTo S1000x512 y broadcasts_S1x512_S1000x512 (ix2 r g) = _
  rw [onehot_word, broadcastTo_apply x2 _ (ix2 r g) (ix2 r (0 : Fin 1)) (fun a => match a with | ⟨0, _⟩ => rfl | ⟨1, _⟩ => rfl),
    iota_single_apply, broadcastTo_apply y _ (ix2 r g) (ix2 (0 : Fin 1) g) (fun a => match a with | ⟨0, _⟩ => rfl | ⟨1, _⟩ => rfl)]
  rfl

theorem hz : (![0, 0] : Fin 2 → Nat) = fun _ => 0 := funext fun a => by fin_cases a <;> rfl

/-- The normalise + affine + relu value at row `p`, lane `q`, of whole arrays: the row plus the bias, centred by the
    mean of the row's graph and scaled by its inverse deviation (both picked by the one-hot weights of the row's
    batch word), times gamma plus beta, clamped below at zero. -/
def applyAt (a0 : S100000x128.Idx → EReal) (a1 : S1x128.Idx → EReal) (a2 : S100000x1.Idx → BitVec 32)
    (a3 a4 : S1x512.Idx → EReal) (a5 a6 : S1x128.Idx → EReal) (p : Fin 100000) (q : Fin 128) : EReal :=
  max (((((a0 (ix2 p q) + a1 (ix2 (0 : Fin 1) q)) - ∑ g : Fin 512, oh (a2 (ix2 p (0 : Fin 1))) g * a3 (ix2 (0 : Fin 1) g))
          * (∑ g : Fin 512, oh (a2 (ix2 p (0 : Fin 1))) g * a4 (ix2 (0 : Fin 1) g))) * a5 (ix2 (0 : Fin 1) q))
        + a6 (ix2 (0 : Fin 1) q)) 0

/-- The same as one function of the array index. -/
def applyArr (a0 : S100000x128.Idx → EReal) (a1 : S1x128.Idx → EReal) (a2 : S100000x1.Idx → BitVec 32)
    (a3 a4 : S1x512.Idx → EReal) (a5 a6 : S1x128.Idx → EReal) : S100000x128.Idx → EReal :=
  fun i => applyAt a0 a1 a2 a3 a4 a5 a6 (i 0) (i 1)

/-- The array-level value read at row `p`, lane `q`, written out (the one-hot weight as its `if`). -/
theorem applyArr_apply (a0 : S100000x128.Idx → EReal) (a1 : S1x128.Idx → EReal) (a2 : S100000x1.Idx → BitVec 32)
    (a3 a4 : S1x512.Idx → EReal) (a5 a6 : S1x128.Idx → EReal) (p : Fin 100000) (q : Fin 128) :
    applyArr a0 a1 a2 a3 a4 a5 a6 (ix2 p q)
      = max (((((a0 (ix2 p q) + a1 (ix2 (0 : Fin 1) q))
                - ∑ g : Fin 512, (if a2 (ix2 p (0 : Fin 1)) = BitVec.ofNat 32 g.val then (1 : EReal) else 0) * a3 (ix2 (0 : Fin 1) g))
              * (∑ g : Fin 512, (if a2 (ix2 p (0 : Fin 1)) = BitVec.ofNat 32 g.val then (1 : EReal) else 0) * a4 (ix2 (0 : Fin 1) g)))
            * a5 (ix2 (0 : Fin 1) q))
          + a6 (ix2 (0 : Fin 1) q)) 0 := rfl

/-! ## Region 3 (first normalisation layer): the body at an index, the blocks, the cover, the array -/

section Region3

variable (V : (c : Dev nD) → (b : Ref sig .tc) → Buf (Elt Ideal) ((c : Thread nD τ).loc b))

/-- The normalise + affine + relu body read at row `r`, lane `q` of its block. -/
theorem pay3_apply (x0 : Vec Ideal S1000x128 .f32) (x1 : Vec Ideal S1x128 .f32) (x2 : Vec Ideal S1000x1 .i32)
    (x3 x4 : Vec Ideal S1x512 .f32) (x5 x6 : Vec Ideal S1x128 .f32) (r : Fin 1000) (q : Fin 128) :
    k3_pay1 (F := Ideal) x0 x1 x2 x3 x4 x5 x6 (ix2 r q)
      = max (((((x0 (ix2 r q) + x1 (ix2 (0 : Fin 1) q)) - ∑ g : Fin 512, oh (x2 (ix2 r (0 : Fin 1))) g * x3 (ix2 (0 : Fin 1) g))
              * (∑ g : Fin 512, oh (x2 (ix2 r (0 : Fin 1))) g * x4 (ix2 (0 : Fin 1) g))) * x5 (ix2 (0 : Fin 1) q))
            + x6 (ix2 (0 : Fin 1) q)) 0 := by
  unfold k3_pay1
  simp only [maximumf_apply, addf_apply, mulf_apply, subf_apply, broadcast_apply, shapeCast_self]
  exact congrArg₂ max
    (congrArg₂ (· + ·)
      (congrArg₂ (· * ·)
        (congrArg₂ (· * ·)
          (congrArg₂ (· - ·) (congrArg₂ (· + ·) rfl (bcast_row128 x1 r q)) (lane_sum x2 x3 _ _ r q))
          (lane_sum x2 x4 _ _ r q))
        (bcast_row128 x5 r q))
      (bcast_row128 x6 r q))
    Ideal.ofBits_zero_f32

/-- The printed index maps, decided once over the grid: the row-tiled windows (0, 2, 7) are at block `t` of the rows,
    the whole-array windows (1, 3, 4, 5, 6) at block 0. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Window 0's block at point `t` is rows `1000 t … 1000 t + 999` of its array. -/
theorem iblk3_0_apply (c : Dev nD) (t : Fin cfg3.N) (x : S1000x128.Idx) (k : S100000x128.Idx)
    (hk0 : (k 0).val = 1000 * t.val + (x 0).val) (hk1 : (k 1).val = (x 1).val) :
    (iblk3 V c 0 t : Vec Ideal S1000x128 .f32) x = (V c main_v58 : S100000x128.Idx → EReal) k := by
  obtain ⟨e0, e1, -⟩ := idx3 t
  unfold iblk3
  rw [View.read_apply]
  show V c main_v58 _ = V c main_v58 _
  congr 1
  funext a
  apply Fin.ext
  match a with
  | ⟨0, _⟩ => show win3_0.index t 0 * 1000 + 1 * (x 0).val = (k 0).val; rw [e0, hk0]; omega
  | ⟨1, _⟩ => show win3_0.index t 1 * 128 + 1 * (x 1).val = (k 1).val; rw [e1, hk1]; omega

/-- Window 2's block at point `t` is rows `1000 t … 1000 t + 999` of the batch column. -/
theorem iblk3_2_apply (c : Dev nD) (t : Fin cfg3.N) (x : S1000x1.Idx) (k : S100000x1.Idx)
    (hk0 : (k 0).val = 1000 * t.val + (x 0).val) :
    (iblk3 V c 2 t : Vec Ideal S1000x1 .i32) x = (V c main_v21 : S100000x1.Idx → BitVec 32) k := by
  obtain ⟨-, -, -, -, e0, e1, -⟩ := idx3 t
  unfold iblk3
  rw [View.read_apply]
  show V c main_v21 _ = V c main_v21 _
  congr 1
  funext a
  apply Fin.ext
  have hx1 : (x 1).val < 1 := (x 1).isLt
  have hk1 : (k 1).val < 1 := (k 1).isLt
  match a with
  | ⟨0, _⟩ => show win3_2.index t 0 * 1000 + 1 * (x 0).val = (k 0).val; rw [e0, hk0]; omega
  | ⟨1, _⟩ => show win3_2.index t 1 * 1 + 1 * (x 1).val = (k 1).val; rw [e1]; omega

/-- The whole-array windows' blocks are their arrays at every point. -/
theorem iblk3_1_eq (c : Dev nD) (t : Fin cfg3.N) :
    (iblk3 V c 1 t : Vec Ideal S1x128 .f32) = (V c main_v70 : S1x128.Idx → EReal) := by
  obtain ⟨-, -, e0, e1, -⟩ := idx3 t
  funext x
  unfold iblk3
  rw [View.read_apply]
  show V c main_v70 _ = V c main_v70 x
  congr 1
  funext a
  apply Fin.ext
  match a with
  | ⟨0, _⟩ => show win3_1.index t 0 * 1 + 1 * (x 0).val = (x 0).val; rw [e0]; omega
  | ⟨1, _⟩ => show win3_1.index t 1 * 128 + 1 * (x 1).val = (x 1).val; rw [e1]; omega

theorem iblk3_3_eq (c : Dev nD) (t : Fin cfg3.N) :
    (iblk3 V c 3 t : Vec Ideal S1x512 .f32) = (V c main_v62 : S1x512.Idx → EReal) := by
  obtain ⟨-, -, -, -, -, -, e0, e1, -⟩ := idx3 t
  funext x
  unfold iblk3
  rw [View.read_apply]
  show V c main_v62 _ = V c main_v62 x
  congr 1
  funext a
  apply Fin.ext
  match a with
  | ⟨0, _⟩ => show win3_3.index t 0 * 1 + 1 * (x 0).val = (x 0).val; rw [e0]; omega
  | ⟨1, _⟩ => show win3_3.index t 1 * 512 + 1 * (x 1).val = (x 1).val; rw [e1]; omega

theorem iblk3_4_eq (c : Dev nD) (t : Fin cfg3.N) :
    (iblk3 V c 4 t : Vec Ideal S1x512 .f32) = (V c main_v69 : S1x512.Idx → EReal) := by
  obtain ⟨-, -, -, -, -, -, -, -, e0, e1, -⟩ := idx3 t
  funext x
  unfold iblk3
  rw [View.read_apply]
  show V c main_v69 _ = V c main_v69 x
  congr 1
  funext a
  apply Fin.ext
  match a with
  | ⟨0, _⟩ => show win3_4.index t 0 * 1 + 1 * (x 0).val = (x 0).val; rw [e0]; omega
  | ⟨1, _⟩ => show win3_4.index t 1 * 512 + 1 * (x 1).val = (x 1).val; rw [e1]; omega

theorem iblk3_5_eq (c : Dev nD) (t : Fin cfg3.N) :
    (iblk3 V c 5 t : Vec Ideal S1x128 .f32) = (V c main_v71 : S1x128.Idx → EReal) := by
  obtain ⟨-, -, -, -, -, -, -, -, -, -, e0, e1, -⟩ := idx3 t
  funext x
  unfold iblk3
  rw [View.read_apply]
  show V c main_v71 _ = V c main_v71 x
  congr 1
  funext a
  apply Fin.ext
  match a with
  | ⟨0, _⟩ => show win3_5.index t 0 * 1 + 1 * (x 0).val = (x 0).val; rw [e0]; omega
  | ⟨1, _⟩ => show win3_5.index t 1 * 128 + 1 * (x 1).val = (x 1).val; rw [e1]; omega

theorem iblk3_6_eq (c : Dev nD) (t : Fin cfg3.N) :
    (iblk3 V c 6 t : Vec Ideal S1x128 .f32) = (V c main_v72 : S1x128.Idx → EReal) := by
  obtain ⟨-, -, -, -, -, -, -, -, -, -, -, -, e0, e1, -⟩ := idx3 t
  funext x
  unfold iblk3
  rw [View.read_apply]
  show V c main_v72 _ = V c main_v72 x
  congr 1
  funext a
  apply Fin.ext
  match a with
  | ⟨0, _⟩ => show win3_6.index t 0 * 1 + 1 * (x 0).val = (x 0).val; rw [e0]; omega
  | ⟨1, _⟩ => show win3_6.index t 1 * 128 + 1 * (x 1).val = (x 1).val; rw [e1]; omega

/-- The body's value at local index `j` of a block, over blocks that are the stated rows of whole arrays, is the
    array-level value at the array index `i` with the same lane and row `1000 t + (j 0)`. -/
theorem pay3_block (a0 : S100000x128.Idx → EReal) (a1 : S1x128.Idx → EReal) (a2 : S100000x1.Idx → BitVec 32)
    (a3 a4 : S1x512.Idx → EReal) (a5 a6 : S1x128.Idx → EReal)
    (x0 : Vec Ideal S1000x128 .f32) (x2 : Vec Ideal S1000x1 .i32) (tv : Nat)
    (h0 : ∀ (x : S1000x128.Idx) (k : S100000x128.Idx), (k 0).val = 1000 * tv + (x 0).val → (k 1).val = (x 1).val → x0 x = a0 k)
    (h2 : ∀ (x : S1000x1.Idx) (k : S100000x1.Idx), (k 0).val = 1000 * tv + (x 0).val → x2 x = a2 k)
    (j : S1000x128.Idx) (i : S100000x128.Idx) (hi0 : (i 0).val = 1000 * tv + (j 0).val) (hi1 : (i 1).val = (j 1).val) :
    k3_pay1 (F := Ideal) x0 a1 x2 a3 a4 a5 a6 j = applyArr a0 a1 a2 a3 a4 a5 a6 i := by
  have hj : j = ix2 (n0 := 1000) (n1 := 128) (j 0) (j 1) := eq_ix2 j
  rw [hj]
  refine (pay3_apply x0 a1 x2 a3 a4 a5 a6 (j 0) (j 1)).trans ?_
  have hq : (j 1 : Fin 128) = (i 1 : Fin 128) := Fin.ext hi1.symm
  unfold applyArr applyAt
  rw [h0 (ix2 (j 0) (j 1)) (ix2 (i 0) (i 1)) hi0 hi1, h2 (ix2 (j 0) (0 : Fin 1)) (ix2 (i 0) (0 : Fin 1)) hi0, hq]

/-- WHAT POINT `t` WRITES BACK is block `t` of the array-level value of the region's input arrays as it finds them. -/
theorem flushed3_eq (c : Dev nD) (t : Fin cfg3.N) :
    (dat3 V c).flushed 7 t = ((cfg3.win 7).blk t).view.read (Elt Ideal)
      (applyArr (V c main_v58) (V c main_v70) (V c main_v21) (V c main_v62) (V c main_v69) (V c main_v71) (V c main_v72)) := by
  show (cfg3.win 7).cut (grid3.coords t) ((dat3 V c).after 7 t) = _
  rw [after3_7]
  unfold out3_7
  rw [View.canon_unit_zero hz]
  simp only [View.ld_unit_zero (S := S1000x128) hz, View.ld_unit_zero (S := S1x128) hz, View.ld_unit_zero (S := S1000x1) hz,
    View.ld_unit_zero (S := S1x512) hz]
  rw [iblk3_1_eq V c t, iblk3_3_eq V c t, iblk3_4_eq V c t, iblk3_5_eq V c t, iblk3_6_eq V c t]
  obtain ⟨-, -, -, -, -, -, -, -, -, -, -, -, -, -, e0, e1⟩ := idx3 t
  funext j
  rw [View.read_apply]
  refine pay3_block (V c main_v58) (V c main_v70) (V c main_v21) (V c main_v62) (V c main_v69) (V c main_v71) (V c main_v72)
    (iblk3 V c 0 t) (iblk3 V c 2 t) t.val (iblk3_0_apply V c t) (iblk3_2_apply V c t) j (((cfg3.win 7).blk t).view.emb j) ?_ ?_
  · show win3_7.index t 0 * 1000 + 1 * (j 0).val = 1000 * t.val + (j 0).val; rw [e0]; omega
  · show win3_7.index t 1 * 128 + 1 * (j 1).val = (j 1).val; rw [e1]; omega

/-- An index of the output array is in point `t`'s block iff each coordinate is in the block's range on its axis. -/
theorem mem_blk3 (t : Fin cfg3.N) (i : S100000x128.Idx) :
    i ∈ ((cfg3.win 7).blk t).view.set ↔ ∀ a : Fin 2, win3_7.index t a * S1000x128.size a ≤ (i a).val ∧ (i a).val < win3_7.index t a * S1000x128.size a + S1000x128.size a := by
  show i ∈ ((View.whole main_v73).slice (win3_7.rect t)).set ↔ _
  rw [View.set_slice_whole, Rect.mem_set_unit]
  exact Iff.rfl

/-- Row `p` of the output array lies in the block of point `p / 1000`. -/
theorem cover3 (i : S100000x128.Idx) :
    ∃ t : Fin cfg3.N, (cfg3.win 7).flush t = true ∧ i ∈ ((cfg3.win 7).blk t).view.set := by
  have hi0 : (i 0).val < 100000 := (i 0).isLt
  have hi1 : (i 1).val < 128 := (i 1).isLt
  have hN : cfg3.N = 100 := N_3
  have ht : (i 0).val / 1000 < cfg3.N := by rw [hN]; omega
  obtain ⟨-, -, -, -, -, -, -, -, -, -, -, -, -, -, e0, e1⟩ := idx3 ⟨(i 0).val / 1000, ht⟩
  have e0' : win3_7.index ⟨(i 0).val / 1000, ht⟩ 0 = (i 0).val / 1000 := e0
  refine ⟨⟨(i 0).val / 1000, ht⟩, flush3_7 _, ?_⟩
  rw [mem_blk3]
  intro a
  match a with
  | ⟨0, _⟩ => show win3_7.index ⟨(i 0).val / 1000, ht⟩ 0 * 1000 ≤ (i 0).val ∧ (i 0).val < win3_7.index ⟨(i 0).val / 1000, ht⟩ 0 * 1000 + 1000; rw [e0']; omega
  | ⟨1, _⟩ => show win3_7.index ⟨(i 0).val / 1000, ht⟩ 1 * 128 ≤ (i 1).val ∧ (i 1).val < win3_7.index ⟨(i 0).val / 1000, ht⟩ 1 * 128 + 128; rw [e1]; omega

/-- THE OUTPUT ARRAY after the region: the array-level value of the input arrays as the region finds them. -/
theorem final3 (c : Dev nD) :
    (dat3 V c).arrAt 7 cfg3.N
      = applyArr (V c main_v58) (V c main_v70) (V c main_v21) (V c main_v62) (V c main_v69) (V c main_v71) (V c main_v72) :=
  (dat3 V c).arrAt_eq_of_cover 7
    (applyArr (V c main_v58) (V c main_v70) (V c main_v21) (V c main_v62) (V c main_v69) (V c main_v71) (V c main_v72))
    (fun t _ => flushed3_eq V c t) cover3

end Region3

section Run3

variable (m : (ℓ : Loc nD τ sig) → Buf (Elt Ideal) ℓ) (ρ : Dev nD → PrngReg)

/-- Region 3's input `main_v58` at its entry, at its literal type: the rows the region normalises. -/
abbrev w9_v58 (c : Dev nD) : S100000x128.Idx → EReal := W9 m ρ c (Proc.devRef .tc main_v58)
/-- Region 3's input `main_v70` at its entry, at its literal type: the bias row added to them. -/
abbrev w9_v70 (c : Dev nD) : S1x128.Idx → EReal := W9 m ρ c (Proc.devRef .tc main_v70)
/-- Region 3's input `main_v21` at its entry, at its literal type: the batch column: each row's graph number, a 32-bit word. -/
abbrev w9_v21 (c : Dev nD) : S100000x1.Idx → BitVec 32 := W9 m ρ c (Proc.devRef .tc main_v21)
/-- Region 3's input `main_v62` at its entry, at its literal type: the per-graph means. -/
abbrev w9_v62 (c : Dev nD) : S1x512.Idx → EReal := W9 m ρ c (Proc.devRef .tc main_v62)
/-- Region 3's input `main_v69` at its entry, at its literal type: the per-graph inverse deviations. -/
abbrev w9_v69 (c : Dev nD) : S1x512.Idx → EReal := W9 m ρ c (Proc.devRef .tc main_v69)
/-- Region 3's input `main_v71` at its entry, at its literal type: the scale row (gamma). -/
abbrev w9_v71 (c : Dev nD) : S1x128.Idx → EReal := W9 m ρ c (Proc.devRef .tc main_v71)
/-- Region 3's input `main_v72` at its entry, at its literal type: the shift row (beta). -/
abbrev w9_v72 (c : Dev nD) : S1x128.Idx → EReal := W9 m ρ c (Proc.devRef .tc main_v72)
/-- Region 3's output `main_v73` at its exit, at its literal type. -/
abbrev w10_v73 (c : Dev nD) : S100000x128.Idx → EReal := W10 m ρ c (Proc.devRef .tc main_v73)

/-- Region 3's output array at its exit, as one function of its input arrays at its entry. -/
theorem W10_v73_arr (c : Dev nD) :
    w10_v73 m ρ c = applyArr (w9_v58 m ρ c) (w9_v70 m ρ c) (w9_v21 m ρ c) (w9_v62 m ρ c) (w9_v69 m ρ c) (w9_v71 m ρ c) (w9_v72 m ρ c) :=
  (W10_arr m ρ c 7).trans (final3 (V9 m ρ) c)

/-- The same read at row `p`, lane `q`. -/
theorem W10_v73_at (c : Dev nD) (p : Fin 100000) (q : Fin 128) :
    w10_v73 m ρ c (ix2 p q) = applyAt (w9_v58 m ρ c) (w9_v70 m ρ c) (w9_v21 m ρ c) (w9_v62 m ρ c) (w9_v69 m ρ c) (w9_v71 m ρ c) (w9_v72 m ρ c) p q :=
  congrFun (W10_v73_arr m ρ c) (ix2 p q)

/-- Region 3's output at row `p`, lane `q`, written out: the input row plus the bias, minus the mean of the row's
    graph, times that graph's inverse deviation (each picked out of its [1,512] row by the one-hot weights of the
    row's batch word), times gamma, plus beta, clamped below at zero. -/
theorem W10_v73 (c : Dev nD) (p : Fin 100000) (q : Fin 128) :
    w10_v73 m ρ c (ix2 p q)
      = max (((((w9_v58 m ρ c (ix2 p q) + w9_v70 m ρ c (ix2 (0 : Fin 1) q))
                - ∑ g : Fin 512, (if w9_v21 m ρ c (ix2 p (0 : Fin 1)) = BitVec.ofNat 32 g.val then (1 : EReal) else 0) * w9_v62 m ρ c (ix2 (0 : Fin 1) g))
              * (∑ g : Fin 512, (if w9_v21 m ρ c (ix2 p (0 : Fin 1)) = BitVec.ofNat 32 g.val then (1 : EReal) else 0) * w9_v69 m ρ c (ix2 (0 : Fin 1) g)))
            * w9_v71 m ρ c (ix2 (0 : Fin 1) q))
          + w9_v72 m ρ c (ix2 (0 : Fin 1) q)) 0 :=
  W10_v73_at m ρ c p q

/-- Region 3's output array at its exit is the array-level value of its seven input arrays at its entry: the
    equation between the run's boundary valuations themselves. -/
theorem W10_v73_eq (c : Dev nD) :
    W10 m ρ c (Proc.devRef .tc main_v73)
      = applyArr (W9 m ρ c (Proc.devRef .tc main_v58)) (W9 m ρ c (Proc.devRef .tc main_v70))
          (W9 m ρ c (Proc.devRef .tc main_v21)) (W9 m ρ c (Proc.devRef .tc main_v62))
          (W9 m ρ c (Proc.devRef .tc main_v69)) (W9 m ρ c (Proc.devRef .tc main_v71))
          (W9 m ρ c (Proc.devRef .tc main_v72)) :=
  W10_v73_arr m ρ c

end Run3

/-! ## Region 6 (second normalisation layer): the body at an index, the blocks, the cover, the array -/

section Region6

variable (V : (c : Dev nD) → (b : Ref sig .tc) → Buf (Elt Ideal) ((c : Thread nD τ).loc b))

/-- The normalise + affine + relu body read at row `r`, lane `q` of its block. -/
theorem pay6_apply (x0 : Vec Ideal S1000x128 .f32) (x1 : Vec Ideal S1x128 .f32) (x2 : Vec Ideal S1000x1 .i32)
    (x3 x4 : Vec Ideal S1x512 .f32) (x5 x6 : Vec Ideal S1x128 .f32) (r : Fin 1000) (q : Fin 128) :
    k6_pay1 (F := Ideal) x0 x1 x2 x3 x4 x5 x6 (ix2 r q)
      = max (((((x0 (ix2 r q) + x1 (ix2 (0 : Fin 1) q)) - ∑ g : Fin 512, oh (x2 (ix2 r (0 : Fin 1))) g * x3 (ix2 (0 : Fin 1) g))
              * (∑ g : Fin 512, oh (x2 (ix2 r (0 : Fin 1))) g * x4 (ix2 (0 : Fin 1) g))) * x5 (ix2 (0 : Fin 1) q))
            + x6 (ix2 (0 : Fin 1) q)) 0 := by
  unfold k6_pay1
  simp only [maximumf_apply, addf_apply, mulf_apply, subf_apply, broadcast_apply, shapeCast_self]
  exact congrArg₂ max
    (congrArg₂ (· + ·)
      (congrArg₂ (· * ·)
        (congrArg₂ (· * ·)
          (congrArg₂ (· - ·) (congrArg₂ (· + ·) rfl (bcast_row128 x1 r q)) (lane_sum x2 x3 _ _ r q))
          (lane_sum x2 x4 _ _ r q))
        (bcast_row128 x5 r q))
      (bcast_row128 x6 r q))
    Ideal.ofBits_zero_f32

/-- The printed index maps, decided once over the grid: the row-tiled windows (0, 2, 7) are at block `t` of the rows,
    the whole-array windows (1, 3, 4, 5, 6) at block 0. -/
theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Window 0's block at point `t` is rows `1000 t … 1000 t + 999` of its array. -/
theorem iblk6_0_apply (c : Dev nD) (t : Fin cfg6.N) (x : S1000x128.Idx) (k : S100000x128.Idx)
    (hk0 : (k 0).val = 1000 * t.val + (x 0).val) (hk1 : (k 1).val = (x 1).val) :
    (iblk6 V c 0 t : Vec Ideal S1000x128 .f32) x = (V c main_v88 : S100000x128.Idx → EReal) k := by
  obtain ⟨e0, e1, -⟩ := idx6 t
  unfold iblk6
  rw [View.read_apply]
  show V c main_v88 _ = V c main_v88 _
  congr 1
  funext a
  apply Fin.ext
  match a with
  | ⟨0, _⟩ => show win6_0.index t 0 * 1000 + 1 * (x 0).val = (k 0).val; rw [e0, hk0]; omega
  | ⟨1, _⟩ => show win6_0.index t 1 * 128 + 1 * (x 1).val = (k 1).val; rw [e1, hk1]; omega

/-- Window 2's block at point `t` is rows `1000 t … 1000 t + 999` of the batch column. -/
theorem iblk6_2_apply (c : Dev nD) (t : Fin cfg6.N) (x : S1000x1.Idx) (k : S100000x1.Idx)
    (hk0 : (k 0).val = 1000 * t.val + (x 0).val) :
    (iblk6 V c 2 t : Vec Ideal S1000x1 .i32) x = (V c main_v21 : S100000x1.Idx → BitVec 32) k := by
  obtain ⟨-, -, -, -, e0, e1, -⟩ := idx6 t
  unfold iblk6
  rw [View.read_apply]
  show V c main_v21 _ = V c main_v21 _
  congr 1
  funext a
  apply Fin.ext
  have hx1 : (x 1).val < 1 := (x 1).isLt
  have hk1 : (k 1).val < 1 := (k 1).isLt
  match a with
  | ⟨0, _⟩ => show win6_2.index t 0 * 1000 + 1 * (x 0).val = (k 0).val; rw [e0, hk0]; omega
  | ⟨1, _⟩ => show win6_2.index t 1 * 1 + 1 * (x 1).val = (k 1).val; rw [e1]; omega

/-- The whole-array windows' blocks are their arrays at every point. -/
theorem iblk6_1_eq (c : Dev nD) (t : Fin cfg6.N) :
    (iblk6 V c 1 t : Vec Ideal S1x128 .f32) = (V c main_v100 : S1x128.Idx → EReal) := by
  obtain ⟨-, -, e0, e1, -⟩ := idx6 t
  funext x
  unfold iblk6
  rw [View.read_apply]
  show V c main_v100 _ = V c main_v100 x
  congr 1
  funext a
  apply Fin.ext
  match a with
  | ⟨0, _⟩ => show win6_1.index t 0 * 1 + 1 * (x 0).val = (x 0).val; rw [e0]; omega
  | ⟨1, _⟩ => show win6_1.index t 1 * 128 + 1 * (x 1).val = (x 1).val; rw [e1]; omega

theorem iblk6_3_eq (c : Dev nD) (t : Fin cfg6.N) :
    (iblk6 V c 3 t : Vec Ideal S1x512 .f32) = (V c main_v92 : S1x512.Idx → EReal) := by
  obtain ⟨-, -, -, -, -, -, e0, e1, -⟩ := idx6 t
  funext x
  unfold iblk6
  rw [View.read_apply]
  show V c main_v92 _ = V c main_v92 x
  congr 1
  funext a
  apply Fin.ext
  match a with
  | ⟨0, _⟩ => show win6_3.index t 0 * 1 + 1 * (x 0).val = (x 0).val; rw [e0]; omega
  | ⟨1, _⟩ => show win6_3.index t 1 * 512 + 1 * (x 1).val = (x 1).val; rw [e1]; omega

theorem iblk6_4_eq (c : Dev nD) (t : Fin cfg6.N) :
    (iblk6 V c 4 t : Vec Ideal S1x512 .f32) = (V c main_v99 : S1x512.Idx → EReal) := by
  obtain ⟨-, -, -, -, -, -, -, -, e0, e1, -⟩ := idx6 t
  funext x
  unfold iblk6
  rw [View.read_apply]
  show V c main_v99 _ = V c main_v99 x
  congr 1
  funext a
  apply Fin.ext
  match a with
  | ⟨0, _⟩ => show win6_4.index t 0 * 1 + 1 * (x 0).val = (x 0).val; rw [e0]; omega
  | ⟨1, _⟩ => show win6_4.index t 1 * 512 + 1 * (x 1).val = (x 1).val; rw [e1]; omega

theorem iblk6_5_eq (c : Dev nD) (t : Fin cfg6.N) :
    (iblk6 V c 5 t : Vec Ideal S1x128 .f32) = (V c main_v101 : S1x128.Idx → EReal) := by
  obtain ⟨-, -, -, -, -, -, -, -, -, -, e0, e1, -⟩ := idx6 t
  funext x
  unfold iblk6
  rw [View.read_apply]
  show V c main_v101 _ = V c main_v101 x
  congr 1
  funext a
  apply Fin.ext
  match a with
  | ⟨0, _⟩ => show win6_5.index t 0 * 1 + 1 * (x 0).val = (x 0).val; rw [e0]; omega
  | ⟨1, _⟩ => show win6_5.index t 1 * 128 + 1 * (x 1).val = (x 1).val; rw [e1]; omega

theorem iblk6_6_eq (c : Dev nD) (t : Fin cfg6.N) :
    (iblk6 V c 6 t : Vec Ideal S1x128 .f32) = (V c main_v102 : S1x128.Idx → EReal) := by
  obtain ⟨-, -, -, -, -, -, -, -, -, -, -, -, e0, e1, -⟩ := idx6 t
  funext x
  unfold iblk6
  rw [View.read_apply]
  show V c main_v102 _ = V c main_v102 x
  congr 1
  funext a
  apply Fin.ext
  match a with
  | ⟨0, _⟩ => show win6_6.index t 0 * 1 + 1 * (x 0).val = (x 0).val; rw [e0]; omega
  | ⟨1, _⟩ => show win6_6.index t 1 * 128 + 1 * (x 1).val = (x 1).val; rw [e1]; omega

/-- The body's value at local index `j` of a block, over blocks that are the stated rows of whole arrays, is the
    array-level value at the array index `i` with the same lane and row `1000 t + (j 0)`. -/
theorem pay6_block (a0 : S100000x128.Idx → EReal) (a1 : S1x128.Idx → EReal) (a2 : S100000x1.Idx → BitVec 32)
    (a3 a4 : S1x512.Idx → EReal) (a5 a6 : S1x128.Idx → EReal)
    (x0 : Vec Ideal S1000x128 .f32) (x2 : Vec Ideal S1000x1 .i32) (tv : Nat)
    (h0 : ∀ (x : S1000x128.Idx) (k : S100000x128.Idx), (k 0).val = 1000 * tv + (x 0).val → (k 1).val = (x 1).val → x0 x = a0 k)
    (h2 : ∀ (x : S1000x1.Idx) (k : S100000x1.Idx), (k 0).val = 1000 * tv + (x 0).val → x2 x = a2 k)
    (j : S1000x128.Idx) (i : S100000x128.Idx) (hi0 : (i 0).val = 1000 * tv + (j 0).val) (hi1 : (i 1).val = (j 1).val) :
    k6_pay1 (F := Ideal) x0 a1 x2 a3 a4 a5 a6 j = applyArr a0 a1 a2 a3 a4 a5 a6 i := by
  have hj : j = ix2 (n0 := 1000) (n1 := 128) (j 0) (j 1) := eq_ix2 j
  rw [hj]
  refine (pay6_apply x0 a1 x2 a3 a4 a5 a6 (j 0) (j 1)).trans ?_
  have hq : (j 1 : Fin 128) = (i 1 : Fin 128) := Fin.ext hi1.symm
  unfold applyArr applyAt
  rw [h0 (ix2 (j 0) (j 1)) (ix2 (i 0) (i 1)) hi0 hi1, h2 (ix2 (j 0) (0 : Fin 1)) (ix2 (i 0) (0 : Fin 1)) hi0, hq]

/-- WHAT POINT `t` WRITES BACK is block `t` of the array-level value of the region's input arrays as it finds them. -/
theorem flushed6_eq (c : Dev nD) (t : Fin cfg6.N) :
    (dat6 V c).flushed 7 t = ((cfg6.win 7).blk t).view.read (Elt Ideal)
      (applyArr (V c main_v88) (V c main_v100) (V c main_v21) (V c main_v92) (V c main_v99) (V c main_v101) (V c main_v102)) := by
  show (cfg6.win 7).cut (grid6.coords t) ((dat6 V c).after 7 t) = _
  rw [after6_7]
  unfold out6_7
  rw [View.canon_unit_zero hz]
  simp only [View.ld_unit_zero (S := S1000x128) hz, View.ld_unit_zero (S := S1x128) hz, View.ld_unit_zero (S := S1000x1) hz,
    View.ld_unit_zero (S := S1x512) hz]
  rw [iblk6_1_eq V c t, iblk6_3_eq V c t, iblk6_4_eq V c t, iblk6_5_eq V c t, iblk6_6_eq V c t]
  obtain ⟨-, -, -, -, -, -, -, -, -, -, -, -, -, -, e0, e1⟩ := idx6 t
  funext j
  rw [View.read_apply]
  refine pay6_block (V c main_v88) (V c main_v100) (V c main_v21) (V c main_v92) (V c main_v99) (V c main_v101) (V c main_v102)
    (iblk6 V c 0 t) (iblk6 V c 2 t) t.val (iblk6_0_apply V c t) (iblk6_2_apply V c t) j (((cfg6.win 7).blk t).view.emb j) ?_ ?_
  · show win6_7.index t 0 * 1000 + 1 * (j 0).val = 1000 * t.val + (j 0).val; rw [e0]; omega
  · show win6_7.index t 1 * 128 + 1 * (j 1).val = (j 1).val; rw [e1]; omega

/-- An index of the output array is in point `t`'s block iff each coordinate is in the block's range on its axis. -/
theorem mem_blk6 (t : Fin cfg6.N) (i : S100000x128.Idx) :
    i ∈ ((cfg6.win 7).blk t).view.set ↔ ∀ a : Fin 2, win6_7.index t a * S1000x128.size a ≤ (i a).val ∧ (i a).val < win6_7.index t a * S1000x128.size a + S1000x128.size a := by
  show i ∈ ((View.whole main_v103).slice (win6_7.rect t)).set ↔ _
  rw [View.set_slice_whole, Rect.mem_set_unit]
  exact Iff.rfl

/-- Row `p` of the output array lies in the block of point `p / 1000`. -/
theorem cover6 (i : S100000x128.Idx) :
    ∃ t : Fin cfg6.N, (cfg6.win 7).flush t = true ∧ i ∈ ((cfg6.win 7).blk t).view.set := by
  have hi0 : (i 0).val < 100000 := (i 0).isLt
  have hi1 : (i 1).val < 128 := (i 1).isLt
  have hN : cfg6.N = 100 := N_6
  have ht : (i 0).val / 1000 < cfg6.N := by rw [hN]; omega
  obtain ⟨-, -, -, -, -, -, -, -, -, -, -, -, -, -, e0, e1⟩ := idx6 ⟨(i 0).val / 1000, ht⟩
  have e0' : win6_7.index ⟨(i 0).val / 1000, ht⟩ 0 = (i 0).val / 1000 := e0
  refine ⟨⟨(i 0).val / 1000, ht⟩, flush6_7 _, ?_⟩
  rw [mem_blk6]
  intro a
  match a with
  | ⟨0, _⟩ => show win6_7.index ⟨(i 0).val / 1000, ht⟩ 0 * 1000 ≤ (i 0).val ∧ (i 0).val < win6_7.index ⟨(i 0).val / 1000, ht⟩ 0 * 1000 + 1000; rw [e0']; omega
  | ⟨1, _⟩ => show win6_7.index ⟨(i 0).val / 1000, ht⟩ 1 * 128 ≤ (i 1).val ∧ (i 1).val < win6_7.index ⟨(i 0).val / 1000, ht⟩ 1 * 128 + 128; rw [e1]; omega

/-- THE OUTPUT ARRAY after the region: the array-level value of the input arrays as the region finds them. -/
theorem final6 (c : Dev nD) :
    (dat6 V c).arrAt 7 cfg6.N
      = applyArr (V c main_v88) (V c main_v100) (V c main_v21) (V c main_v92) (V c main_v99) (V c main_v101) (V c main_v102) :=
  (dat6 V c).arrAt_eq_of_cover 7
    (applyArr (V c main_v88) (V c main_v100) (V c main_v21) (V c main_v92) (V c main_v99) (V c main_v101) (V c main_v102))
    (fun t _ => flushed6_eq V c t) cover6

end Region6

section Run6

variable (m : (ℓ : Loc nD τ sig) → Buf (Elt Ideal) ℓ) (ρ : Dev nD → PrngReg)

/-- Region 6's input `main_v88` at its entry, at its literal type: the rows the region normalises. -/
abbrev w15_v88 (c : Dev nD) : S100000x128.Idx → EReal := W15 m ρ c (Proc.devRef .tc main_v88)
/-- Region 6's input `main_v100` at its entry, at its literal type: the bias row added to them. -/
abbrev w15_v100 (c : Dev nD) : S1x128.Idx → EReal := W15 m ρ c (Proc.devRef .tc main_v100)
/-- Region 6's input `main_v21` at its entry, at its literal type: the batch column: each row's graph number, a 32-bit word. -/
abbrev w15_v21 (c : Dev nD) : S100000x1.Idx → BitVec 32 := W15 m ρ c (Proc.devRef .tc main_v21)
/-- Region 6's input `main_v92` at its entry, at its literal type: the per-graph means. -/
abbrev w15_v92 (c : Dev nD) : S1x512.Idx → EReal := W15 m ρ c (Proc.devRef .tc main_v92)
/-- Region 6's input `main_v99` at its entry, at its literal type: the per-graph inverse deviations. -/
abbrev w15_v99 (c : Dev nD) : S1x512.Idx → EReal := W15 m ρ c (Proc.devRef .tc main_v99)
/-- Region 6's input `main_v101` at its entry, at its literal type: the scale row (gamma). -/
abbrev w15_v101 (c : Dev nD) : S1x128.Idx → EReal := W15 m ρ c (Proc.devRef .tc main_v101)
/-- Region 6's input `main_v102` at its entry, at its literal type: the shift row (beta). -/
abbrev w15_v102 (c : Dev nD) : S1x128.Idx → EReal := W15 m ρ c (Proc.devRef .tc main_v102)
/-- Region 6's output `main_v103` at its exit, at its literal type. -/
abbrev w16_v103 (c : Dev nD) : S100000x128.Idx → EReal := W16 m ρ c (Proc.devRef .tc main_v103)

/-- Region 6's output array at its exit, as one function of its input arrays at its entry. -/
theorem W16_v103_arr (c : Dev nD) :
    w16_v103 m ρ c = applyArr (w15_v88 m ρ c) (w15_v100 m ρ c) (w15_v21 m ρ c) (w15_v92 m ρ c) (w15_v99 m ρ c) (w15_v101 m ρ c) (w15_v102 m ρ c) :=
  (W16_arr m ρ c 7).trans (final6 (V15 m ρ) c)

/-- The same read at row `p`, lane `q`. -/
theorem W16_v103_at (c : Dev nD) (p : Fin 100000) (q : Fin 128) :
    w16_v103 m ρ c (ix2 p q) = applyAt (w15_v88 m ρ c) (w15_v100 m ρ c) (w15_v21 m ρ c) (w15_v92 m ρ c) (w15_v99 m ρ c) (w15_v101 m ρ c) (w15_v102 m ρ c) p q :=
  congrFun (W16_v103_arr m ρ c) (ix2 p q)

/-- Region 6's output at row `p`, lane `q`, written out: the input row plus the bias, minus the mean of the row's
    graph, times that graph's inverse deviation (each picked out of its [1,512] row by the one-hot weights of the
    row's batch word), times gamma, plus beta, clamped below at zero. -/
theorem W16_v103 (c : Dev nD) (p : Fin 100000) (q : Fin 128) :
    w16_v103 m ρ c (ix2 p q)
      = max (((((w15_v88 m ρ c (ix2 p q) + w15_v100 m ρ c (ix2 (0 : Fin 1) q))
                - ∑ g : Fin 512, (if w15_v21 m ρ c (ix2 p (0 : Fin 1)) = BitVec.ofNat 32 g.val then (1 : EReal) else 0) * w15_v92 m ρ c (ix2 (0 : Fin 1) g))
              * (∑ g : Fin 512, (if w15_v21 m ρ c (ix2 p (0 : Fin 1)) = BitVec.ofNat 32 g.val then (1 : EReal) else 0) * w15_v99 m ρ c (ix2 (0 : Fin 1) g)))
            * w15_v101 m ρ c (ix2 (0 : Fin 1) q))
          + w15_v102 m ρ c (ix2 (0 : Fin 1) q)) 0 :=
  W16_v103_at m ρ c p q

/-- Region 6's output array at its exit is the array-level value of its seven input arrays at its entry: the
    equation between the run's boundary valuations themselves. -/
theorem W16_v103_eq (c : Dev nD) :
    W16 m ρ c (Proc.devRef .tc main_v103)
      = applyArr (W15 m ρ c (Proc.devRef .tc main_v88)) (W15 m ρ c (Proc.devRef .tc main_v100))
          (W15 m ρ c (Proc.devRef .tc main_v21)) (W15 m ρ c (Proc.devRef .tc main_v92))
          (W15 m ρ c (Proc.devRef .tc main_v99)) (W15 m ρ c (Proc.devRef .tc main_v101))
          (W15 m ρ c (Proc.devRef .tc main_v102)) :=
  W16_v103_arr m ρ c

end Run6

end Cert.KernelIdeal.RV

end
-- ==== Proof.Finite.lean ====
/-
  Every entry of the inputs of the two normalisation layers is a real number.

  The first normalisation layer reads conv1 = A (x W1 + b1) W' + b' and the second reads the same expression of the
  first layer's output, where A sums, for every node, the rows of its in-edges weighed by
  rsqrt(max(deg src, 1)) rsqrt(max(deg dst, 1)) (or by zero at a node of degree zero). Every step keeps entries
  real: a contraction is a finite sum of products, a gather reads an entry of its operand whatever the index word,
  an accumulating scatter adds to an entry a finite sum of update entries (a row whose index word names no row is
  dropped), the degree is zero plus a finite sum of ones, and max(deg, 1) is at least one, so its reciprocal square
  root is the real (sqrt r)⁻¹. Nothing is asked of the integer arrays.
-/
import proofs.«427561_j32633161515373_1_alg».proof.Proof.ReferenceRead
import Idealize.ShloMosaic.Lib.Pipeline.Value
import Idealize.ShloMosaic.Lib.ValueIdx
import Idealize.ShloMosaic.PureOps.Ideal.Laws
import Idealize.ShloMosaic.Lib.IdealHost

noncomputable section

namespace Cert.Finite

open Idealize.ShloMosaic Idealize.ShloMosaic.StableHlo

/-- An extended real that is a real number. -/
def IsReal (x : EReal) : Prop := ∃ r : ℝ, x = (r : EReal)

/-- Every entry of an array of extended reals is a real number. -/
def Real1 {S : Shape} (v : S.Idx → EReal) : Prop := ∀ i, ∃ r : ℝ, v i = (r : EReal)

theorem isReal_zero : IsReal 0 := ⟨0, rfl⟩

theorem isReal_one : IsReal 1 := ⟨1, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  obtain ⟨a, rfl⟩ := hx
  obtain ⟨b, rfl⟩ := hy
  exact ⟨Max.max a b, (EReal.coe_strictMono.monotone.map_max (a := a) (b := b)).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

/-- Either branch of a choice between two real numbers is a real number. -/
theorem isReal_select (c : BitVec 1) {a b : EReal} (ha : IsReal a) (hb : IsReal b) : IsReal (Scalar.select c a b) := by
  unfold Scalar.select
  split
  · exact ha
  · exact hb

/-- The reciprocal square root of max(r, 1), r a real number, is a real number. -/
theorem isReal_rsqrt_max_one {x : EReal} (hx : IsReal x) : IsReal (Ideal.rsqrt (Max.max x 1)) := by
  obtain ⟨a, rfl⟩ := hx
  have h1 : Max.max (a : EReal) 1 = ((Max.max a 1 : ℝ) : EReal) := by
    rw [EReal.coe_strictMono.monotone.map_max, EReal.coe_one]
  rw [h1, Ideal.rsqrt_coe]
  have hpos : (0 : ℝ) < Max.max a 1 := lt_of_lt_of_le one_pos (le_max_right a 1)
  rw [if_neg (not_lt.mpr hpos.le), if_neg hpos.ne']
  exact ⟨_, rfl⟩

variable {s t : Shape}

theorem real1_addf {x y : FVec Ideal s .f32} (hx : Real1 x) (hy : Real1 y) : Real1 (addf x y) :=
  fun i => isReal_add (hx i) (hy i)

theorem real1_mulf {x y : FVec Ideal s .f32} (hx : Real1 x) (hy : Real1 y) : Real1 (mulf x y) :=
  fun i => isReal_mul (hx i) (hy i)

/-- A gather reads entries of its operand. -/
theorem real1_gather {si : Shape} {w : ℕ} (d : GatherDims s si t) {x : s.Idx → EReal} (idx : IVec si w) (hx : Real1 x) :
    Real1 (Host.gather d x idx) :=
  fun _ => hx _

/-- A broadcast reads entries of its operand. -/
theorem real1_broadcastInDim (dims : Fin s.rank → Fin t.rank) (h : s.BroadcastsInDim t dims) {x : s.Idx → EReal} (hx : Real1 x) :
    Real1 (broadcastInDim t dims h x) :=
  fun _ => hx _

/-- An accumulating scatter's entry is the operand's plus a finite sum of update entries. -/
theorem real1_scatterAdd {si u : Shape} {w : ℕ} (d : ScatterDims s si u) {x : FVec Ideal s .f32} (idx : IVec si w)
    {upd : FVec Ideal u .f32} (hx : Real1 x) (hu : Real1 upd) : Real1 (Host.scatterAdd (F := Ideal) d x idx upd) := by
  intro i
  unfold Host.scatterAdd
  rw [Ideal.hostScatterAdd_def]
  unfold Ideal.hostScatterAdd
  exact isReal_add (hx i) (isReal_sum _ _ fun j _ => hu j)

/-- A contraction's entry is a finite sum of products of entries. -/
theorem real1_dotGeneral {sl sr so : Shape} (d : DotDims sl sr so) (prec : Option ContractPrecision)
    {lhs : FVec Ideal sl .f32} {rhs : FVec Ideal sr .f32} (hl : Real1 lhs) (hr : Real1 rhs) :
    Real1 (Host.dotGeneral (F := Ideal) d prec lhs rhs) := by
  intro j
  simp only [Host.dotGeneral]
  rw [Ideal.dotGeneral_apply]
  exact isReal_sum _ _ fun k _ => isReal_mul (hl _) (hr _)

/-- The word of zero. -/
theorem real1_constant_zero (S : Shape) : Real1 (constant (F := Ideal) S .f32 0x00000000#32) :=
  fun _ => ⟨0, Ideal.ofBits_zero_f32⟩

/-- The word of one. -/
theorem real1_constant_one (S : Shape) : Real1 (constant (F := Ideal) S .f32 0x3F800000#32) :=
  fun _ => ⟨1, Ideal.ofBits_one_f32⟩

/-- rsqrt(max(deg, 1)), or zero where the inlined call puts zero: every entry is a real number. -/
theorem real1_degNorm (c : IVec s 1) {deg one zero : FVec Ideal s .f32} (hd : Real1 deg) (h1 : ∀ i, one i = 1)
    (h0 : Real1 zero) : Real1 (select c (Host.rsqrt (maximumf deg one)) zero) := by
  intro i
  show IsReal (Scalar.select (c i) (Ideal.rsqrt (Max.max (deg i) (one i))) (zero i))
  rw [h1 i]
  exact isReal_select _ (isReal_rsqrt_max_one (hd i)) (h0 i)

/-- The edge weights: the product of two gathers of one array of real numbers, broadcast twice. -/
theorem real1_edgeNorm {sI sE sE1 sEC : Shape} {w : ℕ} (dg : GatherDims s sI sE) (i1 i2 : IVec sI w)
    (dims1 : Fin sE.rank → Fin sE1.rank) (hb1 : sE.BroadcastsInDim sE1 dims1)
    (dims2 : Fin sE1.rank → Fin sEC.rank) (hb2 : sE1.BroadcastsInDim sEC dims2)
    {v : FVec Ideal s .f32} (hv : Real1 v) :
    Real1 (broadcastInDim sEC dims2 hb2 (broadcastInDim sE1 dims1 hb1
      (mulf (F := Ideal) (φ := .f32) (Host.gather dg v i1) (Host.gather dg v i2)))) :=
  real1_broadcastInDim _ _ (real1_broadcastInDim _ _ (real1_mulf (real1_gather dg i1 hv) (real1_gather dg i2 hv)))

/-- One convolution step keeps entries real: gather rows, weigh them, scatter-add them into an array of real
    numbers, add a bias of real numbers. The index arrays are arbitrary: a gather reads some row whatever its index
    word, and a scatter-add drops a row whose index word names none. -/
theorem real1_conv {sI sE : Shape} {w : ℕ} (dg : GatherDims s sI sE) (ds : ScatterDims s sI sE)
    {h z b : FVec Ideal s .f32} {nb : FVec Ideal sE .f32} (gi si : IVec sI w)
    (hh : Real1 h) (hnb : Real1 nb) (hz : Real1 z) (hb : Real1 b) :
    Real1 (addf (Host.scatterAdd (F := Ideal) ds z si (mulf (Host.gather dg h gi) nb)) b) :=
  real1_addf (real1_scatterAdd ds si hz (real1_mulf (real1_gather dg gi hh) hnb)) hb

/-! ### The reference's values -/

open Cert.ReferenceIdeal Cert.ReferenceIdeal.Gen Cert.ReferenceIdeal.Read

section Chain

variable {x0 : (⟨S100000x64, .f32⟩ : BufTy).Contents (Elt Ideal)}
  {x1 : (⟨S2x1600000, .i32⟩ : BufTy).Contents (Elt Ideal)}
  {x2 : (⟨S100000, .i32⟩ : BufTy).Contents (Elt Ideal)}
  {x3 : (⟨S64x128, .f32⟩ : BufTy).Contents (Elt Ideal)}
  {x4 : (⟨S128, .f32⟩ : BufTy).Contents (Elt Ideal)}
  {x5 : (⟨S128x128, .f32⟩ : BufTy).Contents (Elt Ideal)}
  {x6 x7 x8 : (⟨S128, .f32⟩ : BufTy).Contents (Elt Ideal)}
  {x9 : (⟨S128x128, .f32⟩ : BufTy).Contents (Elt Ideal)}
  {x10 : (⟨S128, .f32⟩ : BufTy).Contents (Elt Ideal)}

/-- The degrees: zero plus a finite sum of ones. -/
theorem real_v10 (x1 : (⟨S2x1600000, .i32⟩ : BufTy).Contents (Elt Ideal)) : Real1 (val_main_v10 (F := Ideal) x1) := by
  unfold val_main_v10 val_main_v8 val_main_v7 val_main_cst val_main_cst_0
  exact real1_scatterAdd _ _ (real1_broadcastInDim _ _ (real1_constant_zero _))
    (real1_broadcastInDim _ _ (real1_constant_one _))

/-- The inverse square roots of the degrees, zero at degree zero. -/
theorem real_v16 (x1 : (⟨S2x1600000, .i32⟩ : BufTy).Contents (Elt Ideal)) : Real1 (val_main_v16 (F := Ideal) x1) := by
  unfold val_main_v16 val_main_v15 val_main_v14
  refine real1_degNorm _ (real_v10 x1) ?_ ?_
  · intro i
    rw [val_main_v13_apply, val_main_cst_2_apply]
    exact Ideal.ofBits_one_f32
  · unfold val_main_call0_v1 val_main_call0_v0 val_main_cst_3
    exact real1_broadcastInDim _ _ (real1_constant_zero _)

/-- The first layer's edge weights, one per edge and column. -/
theorem real_v49 (x1 : (⟨S2x1600000, .i32⟩ : BufTy).Contents (Elt Ideal)) : Real1 (val_main_v49 (F := Ideal) x1) := by
  unfold val_main_v49 val_main_v48 val_main_v40 val_main_v32 val_main_v39
  exact real1_edgeNorm _ _ _ _ _ _ _ (real_v16 x1)

/-- The second layer's edge weights, computed again from the degrees. -/
theorem real_v126 (x1 : (⟨S2x1600000, .i32⟩ : BufTy).Contents (Elt Ideal)) : Real1 (val_main_v126 (F := Ideal) x1) := by
  unfold val_main_v126 val_main_v125 val_main_v117 val_main_v109 val_main_v116
  exact real1_edgeNorm _ _ _ _ _ _ _ (real_v16 x1)

/-- The first layer's rows before the convolution: (x W1 + b1) W'. -/
theorem real_v25 (h0 : Real1 x0) (h3 : Real1 x3) (h4 : Real1 x4) (h5 : Real1 x5) :
    Real1 (val_main_v25 (F := Ideal) x0 x3 x4 x5) := by
  unfold val_main_v25 val_main_v24 val_main_v21 val_main_v23 val_main_v22
  exact real1_dotGeneral _ _
    (real1_addf (real1_dotGeneral _ _ h0 h3) (real1_broadcastInDim _ _ (real1_broadcastInDim _ _ h4))) h5

/-- Every entry of the first normalisation layer's input is a real number. -/
theorem fin_v56 (h0 : Real1 x0) (h3 : Real1 x3) (h4 : Real1 x4) (h5 : Real1 x5) (h6 : Real1 x6) :
    Real1 (val_main_v56 (F := Ideal) x0 x1 x3 x4 x5 x6) := by
  unfold val_main_v56 val_main_v53 val_main_v50 val_main_v47 val_main_v51 val_main_cst_11 val_main_v55 val_main_v54
  exact real1_conv _ _ _ _ (real_v25 h0 h3 h4 h5) (real_v49 x1) (real1_broadcastInDim _ _ (real1_constant_zero _))
    (real1_broadcastInDim _ _ (real1_broadcastInDim _ _ h6))

/-- Every entry of the second normalisation layer's input is a real number, when the first layer's output is. -/
theorem fin_v133 (h101 : Real1 (val_main_v101 (F := Ideal) x0 x1 x2 x3 x4 x5 x6 x7 x8)) (h9 : Real1 x9)
    (h10 : Real1 x10) : Real1 (val_main_v133 (F := Ideal) x0 x1 x2 x3 x4 x5 x6 x7 x8 x9 x10) := by
  unfold val_main_v133 val_main_v130 val_main_v127 val_main_v124 val_main_v102 val_main_v128 val_main_cst_29
    val_main_v132 val_main_v131
  exact real1_conv _ _ _ _ (real1_dotGeneral _ _ h101 h9) (real_v126 x1)
    (real1_broadcastInDim _ _ (real1_constant_zero _)) (real1_broadcastInDim _ _ (real1_broadcastInDim _ _ h10))

end Chain

end Cert.Finite

end
-- ==== Proof.PreFacts.lean ====
/-
  What the printed precondition says of the argument arrays. The predicate is a conjunction of fourteen
  "all entries" tests: for each of the thirteen float arguments, |x| < +∞ at every entry, and for the
  graph-id vector, 0 ≤ b and b < 512 (signed) at every entry. Each test is a reduction by "and" of an
  array of one-bit words from the constant 1; the whole predicate being 1 gives each test 1, and a test being 1
  gives each of its entries 1. An extended real whose absolute value is below +∞ is a real number.
-/
import proofs.«427561_j32633161515373_1_alg».proof.Defs
import proofs.«427561_j32633161515373_1_alg».proof.Proof.Gen.Pre_finite_inputs
import proofs.«427561_j32633161515373_1_alg».proof.Proof.Names
import Idealize.ShloMosaic.Lib.ReduceAll
import Idealize.ShloMosaic.Lib.StableHlo.Predicate
import Idealize.ShloMosaic.Lib.ValueIdx

noncomputable section

namespace Cert.PreFacts

open Idealize.ShloMosaic Idealize.SL.Sem
open Idealize.ShloMosaic.ValueIdx
open Cert.Names

/-- The scalar shape has one index. -/
local instance subsingleton_scalar_idx : Subsingleton Cert.Pre_finite_inputs.S_.Idx := ⟨fun a b => funext fun d => d.elim0⟩

/-- The float word 0x7F800000 denotes +∞. -/
theorem ofBits_inf : Ideal.ofBits .f32 0x7F800000#32 = (⊤ : EReal) := by simp [Ideal.ofBits, Ideal.ieee]

/-- An extended real whose absolute value max x (−x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test: the compare word being 1 says the entry is a real number. -/
theorem real_of_cmp (x : EReal) (h : Ideal.cmp .olt (max x (-x)) (Ideal.ofBits .f32 0x7F800000#32) = 1#1) :
    ∃ r : ℝ, x = (r : EReal) := by
  rw [ofBits_inf] at h
  simp only [Ideal.cmp, StableHlo.Predicate.ofBool_eq_one_iff, decide_eq_true_eq] at h
  exact real_of_abs_lt_top x h

/-- One argument's test, at any shape: "all |x| < +∞" being 1 says every entry of x is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x) (broadcastInDim s ![] hb (constant (F := Ideal) Cert.Pre_finite_inputs.S_ .f32 0x7F800000#32)))
          (constantI Cert.Pre_finite_inputs.S_ 1 1#1) hr h0 ix0 = 1#1)
    (i : s.Idx) : ∃ r : ℝ, x i = (r : EReal) :=
  real_of_cmp (x i) (Host.reduce_andi_all _ _ hr h0 ix0 e i)

/-- The graph-id test at one entry: both compare words being 1 says 0 ≤ b < 512, signed. -/
theorem range_of_cmp (b : BitVec 32) (h0 : IntOp.cmpi .sge b 0#32 = 1#1) (h1 : IntOp.cmpi .slt b 512#32 = 1#1) :
    0 ≤ b.toInt ∧ b.toInt < 512 := by
  rw [IntOp.cmpi_sge] at h0
  rw [IntOp.cmpi_slt] at h1
  exact ⟨by simpa using h0, by simpa using h1⟩

/-- A word in [0, 512) signed reads the same unsigned, and is below 512 there. -/
theorem toNat_of_range (b : BitVec 32) (h : 0 ≤ b.toInt ∧ b.toInt < 512) : b.toInt = (b.toNat : ℤ) ∧ b.toNat < 512 := by
  have h32 := b.isLt
  obtain ⟨h0, h1⟩ := h
  rw [BitVec.toInt_eq_toNat_cond] at h0 h1 ⊢
  split_ifs at h0 h1 ⊢ <;> omega

/-- The graph-id test: "all (b ≥ 0 and b < 512)" being 1 says every entry of b is in [0, 512), signed. -/
theorem range_of_all (b : IVec Cert.Pre_finite_inputs.S100000 32)
    (hb : Cert.Pre_finite_inputs.S_.BroadcastsInDim Cert.Pre_finite_inputs.S100000 (![] : Fin 0 → Fin Cert.Pre_finite_inputs.S100000.rank))
    (hr : Cert.Pre_finite_inputs.S100000.ReducesTo [0] Cert.Pre_finite_inputs.S_) (h0 : 0 < Cert.Pre_finite_inputs.S_.numel)
    (e : Host.reduce IntOp.andi
          (andi
            (cmpi .sge b (broadcastInDim Cert.Pre_finite_inputs.S100000 ![] hb (constantI Cert.Pre_finite_inputs.S_ 32 0#32)))
            (cmpi .slt b (broadcastInDim Cert.Pre_finite_inputs.S100000 ![] hb (constantI Cert.Pre_finite_inputs.S_ 32 512#32))))
          (constantI Cert.Pre_finite_inputs.S_ 1 1#1) hr h0 ix0 = 1#1)
    (p : Fin 100000) : 0 ≤ (b (ix1 p)).toInt ∧ (b (ix1 p)).toInt < 512 := by
  have h := IntOp.andi_eq_one.1 (Host.reduce_andi_all _ _ hr h0 ix0 e (ix1 p))
  exact range_of_cmp (b (ix1 p)) h.1 h.2

variable (m : KMem) (hP : Cert.Pre_KernelIdeal (hPre_finite_inputs := Cert.Pre_finite_inputs.Gen.facts) m)
  (c : Dev Cert.KernelIdeal.nD)

include hP

/-- The precondition, read: every entry of each float argument is a real number, and every graph id is in [0, 512). -/
theorem decode :
    (∀ i, ∃ r : ℝ, a0 m c i = (r : EReal)) ∧ (∀ i, ∃ r : ℝ, a3 m c i = (r : EReal)) ∧ (∀ i, ∃ r : ℝ, a4 m c i = (r : EReal))
    ∧ (∀ i, ∃ r : ℝ, a5 m c i = (r : EReal)) ∧ (∀ i, ∃ r : ℝ, a6 m c i = (r : EReal)) ∧ (∀ i, ∃ r : ℝ, a7 m c i = (r : EReal))
    ∧ (∀ i, ∃ r : ℝ, a8 m c i = (r : EReal)) ∧ (∀ i, ∃ r : ℝ, a9 m c i = (r : EReal)) ∧ (∀ i, ∃ r : ℝ, a10 m c i = (r : EReal))
    ∧ (∀ i, ∃ r : ℝ, a11 m c i = (r : EReal)) ∧ (∀ i, ∃ r : ℝ, a12 m c i = (r : EReal)) ∧ (∀ i, ∃ r : ℝ, a13 m c i = (r : EReal))
    ∧ (∀ i, ∃ r : ℝ, a14 m c i = (r : EReal))
    ∧ (∀ p : Fin 100000, 0 ≤ (a2 m c (ix1 p)).toInt ∧ (a2 m c (ix1 p)).toInt < 512) := by
  have e := congrFun (hP c) ix0
  dsimp only [Cert.Pre_finite_inputs.fn, Cert.Pre_finite_inputs.fn_part1, Cert.Pre_finite_inputs.fn_part2,
    Cert.Pre_finite_inputs.fn_part3, Cert.Pre_finite_inputs.fn_part4] at e
  simp only [andi, IntOp.andi_eq_one] at e
  obtain ⟨⟨⟨⟨⟨⟨⟨⟨⟨⟨⟨⟨⟨e0, e3⟩, e4⟩, e5⟩, e6⟩, e7⟩, e8⟩, e9⟩, e10⟩, e11⟩, e12⟩, e13⟩, e14⟩, e2⟩ := e
  exact ⟨real_of_all _ _ _ _ e0, real_of_all _ _ _ _ e3, real_of_all _ _ _ _ e4, real_of_all _ _ _ _ e5,
    real_of_all _ _ _ _ e6, real_of_all _ _ _ _ e7, real_of_all _ _ _ _ e8, real_of_all _ _ _ _ e9,
    real_of_all _ _ _ _ e10, real_of_all _ _ _ _ e11, real_of_all _ _ _ _ e12, real_of_all _ _ _ _ e13,
    real_of_all _ _ _ _ e14, range_of_all _ _ _ _ e2⟩

/-- Every entry of the node-feature array is a real number. -/
theorem real_a0 : ∀ i, ∃ r : ℝ, a0 m c i = (r : EReal) := (decode m hP c).1
/-- Every entry of the first linear map's weight is a real number. -/
theorem real_a3 : ∀ i, ∃ r : ℝ, a3 m c i = (r : EReal) := (decode m hP c).2.1
/-- Every entry of the first linear map's bias is a real number. -/
theorem real_a4 : ∀ i, ∃ r : ℝ, a4 m c i = (r : EReal) := (decode m hP c).2.2.1
/-- Every entry of the first convolution's weight is a real number. -/
theorem real_a5 : ∀ i, ∃ r : ℝ, a5 m c i = (r : EReal) := (decode m hP c).2.2.2.1
/-- Every entry of the first convolution's bias is a real number. -/
theorem real_a6 : ∀ i, ∃ r : ℝ, a6 m c i = (r : EReal) := (decode m hP c).2.2.2.2.1
/-- Every entry of the first normalisation's scale is a real number. -/
theorem real_a7 : ∀ i, ∃ r : ℝ, a7 m c i = (r : EReal) := (decode m hP c).2.2.2.2.2.1
/-- Every entry of the first normalisation's shift is a real number. -/
theorem real_a8 : ∀ i, ∃ r : ℝ, a8 m c i = (r : EReal) := (decode m hP c).2.2.2.2.2.2.1
/-- Every entry of the second convolution's weight is a real number. -/
theorem real_a9 : ∀ i, ∃ r : ℝ, a9 m c i = (r : EReal) := (decode m hP c).2.2.2.2.2.2.2.1
/-- Every entry of the second convolution's bias is a real number. -/
theorem real_a10 : ∀ i, ∃ r : ℝ, a10 m c i = (r : EReal) := (decode m hP c).2.2.2.2.2.2.2.2.1
/-- Every entry of the second normalisation's scale is a real number. -/
theorem real_a11 : ∀ i, ∃ r : ℝ, a11 m c i = (r : EReal) := (decode m hP c).2.2.2.2.2.2.2.2.2.1
/-- Every entry of the second normalisation's shift is a real number. -/
theorem real_a12 : ∀ i, ∃ r : ℝ, a12 m c i = (r : EReal) := (decode m hP c).2.2.2.2.2.2.2.2.2.2.1
/-- Every entry of the last linear map's weight is a real number. -/
theorem real_a13 : ∀ i, ∃ r : ℝ, a13 m c i = (r : EReal) := (decode m hP c).2.2.2.2.2.2.2.2.2.2.2.1
/-- The last linear map's bias is a real number. -/
theorem real_a14 : ∀ i, ∃ r : ℝ, a14 m c i = (r : EReal) := (decode m hP c).2.2.2.2.2.2.2.2.2.2.2.2.1
/-- Every graph id is in [0, 512), read signed. -/
theorem batch_range : ∀ p : Fin 100000, 0 ≤ (a2 m c (ix1 p)).toInt ∧ (a2 m c (ix1 p)).toInt < 512 :=
  (decode m hP c).2.2.2.2.2.2.2.2.2.2.2.2.2
/-- Every graph id reads the same signed and unsigned, and is below 512 unsigned. -/
theorem batch_toNat : ∀ p : Fin 100000,
    (a2 m c (ix1 p)).toInt = ((a2 m c (ix1 p)).toNat : ℤ) ∧ (a2 m c (ix1 p)).toNat < 512 :=
  fun p => toNat_of_range _ (batch_range m hP c p)

end Cert.PreFacts

end
-- ==== Proof.RNorm.lean ====
/-
  The reference's two normalisation layers and its pooling, read at an index.
  A layer takes an array y of 100000 node rows of 128 entries and the nodes' graph ids. For each of the 512 graphs it
  forms the mean of all entries of the graph's rows (a sum added into per-graph zeros by graph id, over the graph's entry
  count), reads the mean back at every node (by the node's id, a negative one moved up by 512, clamped into [0, 511]),
  centres the entries, forms the per-graph mean of the squared centred entries the same way, adds a small constant, takes
  the inverse square root, reads it back at every node, and returns max((centred * inverse) * scale + shift, 0).
  The pooling adds the second layer's rows into per-graph zero rows by graph id.
  Each of these is stated here as the plain sums it computes, at one index.
-/
import proofs.«427561_j32633161515373_1_alg».proof.Proof.ReferenceRead
import proofs.«427561_j32633161515373_1_alg».proof.Proof.LibScatter
import Idealize.ShloMosaic.Lib.IdealHost

noncomputable section

namespace Cert.RNorm

open Cert.ReferenceIdeal Cert.ReferenceIdeal.Gen Cert.ReferenceIdeal.Read Idealize.ShloMosaic Idealize.ShloMosaic.ValueIdx Cert.LibScatter

/-! ## One normalisation layer, as plain sums -/

/-- The rows of graph g: the nodes whose graph id, read signed, is g. -/
def rows (β : Fin 100000 → BitVec 32) (g : Fin 512) : Finset (Fin 100000) :=
  Finset.univ.filter (fun p : Fin 100000 => rowOf? 512 (β p) = some g)

/-- A graph id with a negative one moved up by 512. -/
def wrap (z : BitVec 32) : BitVec 32 :=
  Scalar.select (IntOp.cmpi .slt z 0#32) (IntOp.addi z 512#32) z

/-- The graph whose statistics node p is normalised with: its wrapped id, clamped into [0, 511]. -/
def gi (β : Fin 100000 → BitVec 32) (p : Fin 100000) : Fin 512 :=
  clampRow 512 (by decide) (wrap (β p))

/-- The mean of graph g: the sum of all entries of its rows over its entry count. -/
def rMean (y : Fin 100000 → Fin 128 → EReal) (β : Fin 100000 → BitVec 32) (den : Fin 512 → EReal) (g : Fin 512) : EReal :=
  Ideal.div (∑ p ∈ rows β g, ∑ c : Fin 128, y p c) (den g)

/-- An entry minus the mean of the graph its node is normalised with (the map gi from nodes to graphs). -/
def rXc (y : Fin 100000 → Fin 128 → EReal) (β : Fin 100000 → BitVec 32) (gi : Fin 100000 → Fin 512)
    (den : Fin 512 → EReal) (p : Fin 100000) (c : Fin 128) : EReal :=
  y p c - rMean y β den (gi p)

/-- The inverse standard deviation of graph g. -/
def rInv (y : Fin 100000 → Fin 128 → EReal) (β : Fin 100000 → BitVec 32) (gi : Fin 100000 → Fin 512)
    (den : Fin 512 → EReal) (eps : EReal) (g : Fin 512) : EReal :=
  Ideal.rsqrt (Ideal.div (∑ p ∈ rows β g, ∑ c : Fin 128, rXc y β gi den p c * rXc y β gi den p c) (den g) + eps)

/-- The layer's result: normalise, scale, shift, and cut off below zero. -/
def rOut (y : Fin 100000 → Fin 128 → EReal) (β : Fin 100000 → BitVec 32) (gi : Fin 100000 → Fin 512)
    (den : Fin 512 → EReal) (eps : EReal) (γ δ : Fin 128 → EReal) (p : Fin 100000) (c : Fin 128) : EReal :=
  max (((rXc y β gi den p c * rInv y β gi den eps (gi p)) * γ c) + δ c) 0

/-! ## The graph id of a node -/

/-- An id that is not negative is not moved. -/
theorem wrap_of_nonneg (z : BitVec 32) (h : 0 ≤ z.toInt) : wrap z = z := by
  unfold wrap
  have hs : IntOp.cmpi .slt z 0#32 = 0#1 := by
    show BitVec.ofBool (z.slt 0#32) = 0#1
    have : z.slt 0#32 = false := by
      rw [BitVec.slt]
      simp only [BitVec.toInt_zero, decide_eq_false_iff_not, not_lt]
      exact h
    rw [this]; rfl
  rw [hs, select_zero]

/-- An id in [0, 511] names the graph the node is normalised with. -/
theorem gi_of_range (β : Fin 100000 → BitVec 32) (p : Fin 100000) (h : 0 ≤ (β p).toInt ∧ (β p).toInt < 512) :
    rowOf? 512 (β p) = some (gi β p) := by
  have h1 : rowOf? 512 (β p) = some ⟨(β p).toInt.toNat, by omega⟩ := by
    unfold rowOf?
    rw [dif_pos (show 0 ≤ (β p).toInt ∧ (β p).toInt < ((512 : ℕ) : Int) from h)]
  rw [h1]
  refine congrArg some ?_
  unfold gi
  rw [wrap_of_nonneg _ h.1]
  exact (clampRow_of_rowOf? (by decide) h1).symm

/-! ## The two index-driven operations of the layer, read at an index -/

/-- Adding per-node values into per-graph zeros by graph id: entry g is the sum over the rows of g. -/
theorem scatter512_apply (z : FVec Ideal S512 .f32) (idx : IVec S100000x1 32) (u : FVec Ideal S100000 .f32)
    (β : Fin 100000 → BitVec 32) (hz : ∀ g : Fin 512, z (ix1 g) = 0)
    (hidx : ∀ e : Fin 100000, idx (ix2 e (0 : Fin 1)) = β e) (g : Fin 512) :
    Host.scatterAdd (F := Ideal) scatter_S512_S100000x1_S100000_n_0_0_1 z idx u (ix1 g)
      = ∑ e ∈ rows β g, u (ix1 e) := by
  have hrec : scatter_S512_S100000x1_S100000_n_0_0_1
      = vecScatter 512 100000 scatter_S512_S100000x1_S100000_n_0_0_1.wf := rfl
  rw [hrec]
  refine (vecScatterAdd_apply _ z idx u g).trans ?_
  rw [hz g, zero_add]
  unfold rows
  simp only [hidx]

/-- Reading a per-graph array at per-node ids: entry p is the array at the clamped id of p. -/
theorem gather512_apply (t : FVec Ideal S512 .f32) (idx : IVec S100000x1 32)
    (β' : Fin 100000 → BitVec 32) (hidx : ∀ e : Fin 100000, idx (ix2 e (0 : Fin 1)) = β' e) (p : Fin 100000) :
    Host.gather gather_S512_S100000x1_S100000_n_0_n_n_0_1_1 t idx (ix1 p)
      = t (ix1 (clampRow 512 (by decide) (β' p))) := by
  have hrec : gather_S512_S100000x1_S100000_n_0_n_n_0_1_1
      = vecGather 512 100000 gather_S512_S100000x1_S100000_n_0_n_n_0_1_1.wf := rfl
  rw [hrec]
  refine (vecGather_apply (by decide) _ t idx p).trans ?_
  rw [hidx p]

/-- Adding node rows into per-graph zero rows by graph id: entry (g, c) is the sum over the rows of g. -/
theorem scatter512x128_apply (z : FVec Ideal S512x128 .f32) (idx : IVec S100000x1 32) (u : FVec Ideal S100000x128 .f32)
    (β : Fin 100000 → BitVec 32) (hz : ∀ (g : Fin 512) (c : Fin 128), z (ix2 g c) = 0)
    (hidx : ∀ e : Fin 100000, idx (ix2 e (0 : Fin 1)) = β e) (g : Fin 512) (c : Fin 128) :
    Host.scatterAdd (F := Ideal) scatter_S512x128_S100000x1_S100000x128_1_0_0_1 z idx u (ix2 g c)
      = ∑ e ∈ rows β g, u (ix2 e c) := by
  have hrec : scatter_S512x128_S100000x1_S100000x128_1_0_0_1
      = rowScatter 512 100000 128 scatter_S512x128_S100000x1_S100000x128_1_0_0_1.wf := rfl
  rw [hrec]
  refine (rowScatterAdd_apply _ z idx u g c).trans ?_
  rw [hz g c, zero_add]
  unfold rows
  simp only [hidx]

/-! ## The reference's values at an index -/

section Reference

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x128, .f32⟩ : BufTy).Contents (Elt Ideal))
  (x4 : (⟨S128, .f32⟩ : BufTy).Contents (Elt Ideal)) (x5 : (⟨S128x128, .f32⟩ : BufTy).Contents (Elt Ideal))
  (x6 x7 x8 : (⟨S128, .f32⟩ : BufTy).Contents (Elt Ideal)) (x9 : (⟨S128x128, .f32⟩ : BufTy).Contents (Elt Ideal))
  (x10 x11 x12 : (⟨S128, .f32⟩ : BufTy).Contents (Elt Ideal))

/-- A rank-1 index function is determined by its one coordinate. -/
local macro "idx_one" : tactic =>
  `(tactic| exact funext fun a => Fin.ext (by match a with | ⟨0, _⟩ => rfl))
/-- A rank-2 index function is determined by its two coordinates. -/
local macro "idx_two" : tactic =>
  `(tactic| exact funext fun a => Fin.ext (by match a with | ⟨0, _⟩ => rfl | ⟨1, _⟩ => rfl))

/-- The graph id of node p. -/
abbrev ids (p : Fin 100000) : BitVec 32 := x2 (ix1 p)

/-- The entry count of graph g, at least one: the divisor of both layers' means. -/
abbrev den (g : Fin 512) : EReal := val_main_v60 (F := Ideal) x2 (ix1 g)

/-- The small constant added under the inverse square root. -/
abbrev eps : EReal := Ideal.ofBits .f32 0x3727C5AC#32

/-- A 128-vector read at a coordinate. -/
abbrev vec (x : (⟨S128, .f32⟩ : BufTy).Contents (Elt Ideal)) (c : Fin 128) : EReal := x (ix1 c)

/-- The first layer's input at (p, c). -/
abbrev y1 (p : Fin 100000) (c : Fin 128) : EReal := val_main_v56 (F := Ideal) x0 x1 x3 x4 x5 x6 (ix2 p c)

/-- The second layer's input at (p, c). -/
abbrev y2 (p : Fin 100000) (c : Fin 128) : EReal :=
  val_main_v133 (F := Ideal) x0 x1 x2 x3 x4 x5 x6 x7 x8 x9 x10 (ix2 p c)

/-! ### The entry counts -/

theorem ids_19 (e : Fin 100000) : val_main_v19 (F := Ideal) x2 (ix2 e (0 : Fin 1)) = ids x2 e := by
  rw [val_main_v19_apply]; exact congrArg x2 (by idx_one)

theorem zero_18 (g : Fin 512) : val_main_v18 (F := Ideal) (ix1 g) = 0 := by
  rw [val_main_v18_apply, val_main_cst_5_apply]; exact Ideal.ofBits_zero_f32

theorem one_17 (e : Fin 100000) : val_main_v17 (F := Ideal) (ix1 e) = 1 := by
  rw [val_main_v17_apply, val_main_cst_4_apply]; exact Ideal.ofBits_one_f32

/-- The number of rows of graph g, as a sum of ones. -/
theorem v20_apply (g : Fin 512) : val_main_v20 (F := Ideal) x2 (ix1 g) = ∑ _p ∈ rows (ids x2) g, (1 : EReal) := by
  unfold val_main_v20
  refine (scatter512_apply _ _ _ (ids x2) zero_18 (ids_19 x2) g).trans ?_
  exact Finset.sum_congr rfl fun e _ => one_17 e

/-- The divisor of graph g: its row count times the word for 128, or the word for 1 if that is larger. -/
theorem den_eq (g : Fin 512) :
    val_main_v60 (F := Ideal) x2 (ix1 g)
      = max ((∑ _p ∈ rows (ids x2) g, (1 : EReal)) * Ideal.ofBits .f32 0x43000000#32) (Ideal.ofBits .f32 0x3F800000#32) := by
  rw [val_main_v60_apply, val_main_v58_apply, v20_apply, val_main_v57_apply, val_main_cst_12_apply, val_main_v59_apply,
    val_main_cst_13_apply]
  rfl

/-- The f32 word 0x43000000 is the real 128. -/
theorem ofBits_128_f32 : Ideal.ofBits .f32 0x43000000#32 = ((128 : ℝ) : EReal) := by
  simp [Ideal.ofBits, Ideal.ieee, -EReal.coe_mul]; norm_num

/-- The divisor of graph g with the two words evaluated: 128 times its row count, or 1 if that is larger. -/
theorem den_eq' (g : Fin 512) :
    val_main_v60 (F := Ideal) x2 (ix1 g) = max ((∑ _p ∈ rows (ids x2) g, (1 : EReal)) * ((128 : ℝ) : EReal)) 1 := by
  rw [den_eq, ofBits_128_f32, Ideal.ofBits_one_f32]

/-- The second layer's divisor is the first layer's. -/
theorem v137_eq : val_main_v137 (F := Ideal) x2 = val_main_v60 (F := Ideal) x2 := rfl

/-! ### The first layer -/

theorem ids_63 (e : Fin 100000) : val_main_v63 (F := Ideal) x2 (ix2 e (0 : Fin 1)) = ids x2 e := by
  rw [val_main_v63_apply]; exact congrArg x2 (by idx_one)

theorem ids_79 (e : Fin 100000) : val_main_v79 (F := Ideal) x2 (ix2 e (0 : Fin 1)) = ids x2 e := by
  rw [val_main_v79_apply]; exact congrArg x2 (by idx_one)

theorem wrapped_71 (e : Fin 100000) : val_main_v71 (F := Ideal) x2 (ix2 e (0 : Fin 1)) = wrap (ids x2 e) := by
  rw [val_main_v71_apply]
  have hi : idx_main_v71 (ix2 e (0 : Fin 1)) = ix1 e := by idx_one
  rw [hi, val_main_v70_apply, val_main_v67_apply, val_main_v69_apply, val_main_v66_apply, val_main_v68_apply]
  rfl

theorem wrapped_90 (e : Fin 100000) : val_main_v90 (F := Ideal) x2 (ix2 e (0 : Fin 1)) = wrap (ids x2 e) := by
  rw [val_main_v90_apply]
  have hi : idx_main_v90 (ix2 e (0 : Fin 1)) = ix1 e := by idx_one
  rw [hi, val_main_v89_apply, val_main_v86_apply, val_main_v88_apply, val_main_v85_apply, val_main_v87_apply]
  rfl

theorem zero_62 (g : Fin 512) : val_main_v62 (F := Ideal) (ix1 g) = 0 := by
  rw [val_main_v62_apply, val_main_cst_15_apply]; exact Ideal.ofBits_zero_f32

theorem zero_78 (g : Fin 512) : val_main_v78 (F := Ideal) (ix1 g) = 0 := by
  rw [val_main_v78_apply, val_main_cst_19_apply]; exact Ideal.ofBits_zero_f32

/-- The sum of a node's row. -/
theorem v61_apply (e : Fin 100000) :
    val_main_v61 (F := Ideal) x0 x1 x3 x4 x5 x6 (ix1 e) = ∑ c : Fin 128, y1 x0 x1 x3 x4 x5 x6 e c := by
  rw [val_main_v61_apply, val_main_cst_14_apply]
  show Ideal.ofBits .f32 0x00000000#32 + _ = _
  rw [Ideal.ofBits_zero_f32, zero_add]
  exact Finset.sum_congr rfl fun k _ => congrArg _ (by idx_two)

/-- The sum of all entries of the rows of graph g. -/
theorem v64_apply (g : Fin 512) :
    val_main_v64 (F := Ideal) x0 x1 x2 x3 x4 x5 x6 (ix1 g) = ∑ p ∈ rows (ids x2) g, ∑ c : Fin 128, y1 x0 x1 x3 x4 x5 x6 p c := by
  unfold val_main_v64
  refine (scatter512_apply _ _ _ (ids x2) zero_62 (ids_63 x2) g).trans ?_
  exact Finset.sum_congr rfl fun e _ => v61_apply x0 x1 x3 x4 x5 x6 e

/-- The mean of graph g. -/
theorem v65_apply (g : Fin 512) :
    val_main_v65 (F := Ideal) x0 x1 x2 x3 x4 x5 x6 (ix1 g) = rMean (y1 x0 x1 x3 x4 x5 x6) (ids x2) (den x2) g := by
  rw [val_main_v65_apply, v64_apply]
  rfl

/-- The mean read back at node p. -/
theorem v72_apply (p : Fin 100000) :
    val_main_v72 (F := Ideal) x0 x1 x2 x3 x4 x5 x6 (ix1 p) = rMean (y1 x0 x1 x3 x4 x5 x6) (ids x2) (den x2) (gi (ids x2) p) := by
  unfold val_main_v72
  refine (gather512_apply _ _ (fun e => wrap (ids x2 e)) (wrapped_71 x2) p).trans ?_
  exact v65_apply x0 x1 x2 x3 x4 x5 x6 (gi (ids x2) p)

theorem v74_apply (p : Fin 100000) (c : Fin 128) :
    val_main_v74 (F := Ideal) x0 x1 x2 x3 x4 x5 x6 (ix2 p c) = rMean (y1 x0 x1 x3 x4 x5 x6) (ids x2) (den x2) (gi (ids x2) p) := by
  rw [val_main_v74_apply, val_main_v73_apply]
  have hi : idx_main_v73 (idx_main_v74 (ix2 p c)) = ix1 p := by idx_one
  rw [hi]
  exact v72_apply x0 x1 x2 x3 x4 x5 x6 p

/-- The centred entry. -/
theorem v75_apply (p : Fin 100000) (c : Fin 128) :
    val_main_v75 (F := Ideal) x0 x1 x2 x3 x4 x5 x6 (ix2 p c) = rXc (y1 x0 x1 x3 x4 x5 x6) (ids x2) (gi (ids x2)) (den x2) p c := by
  rw [val_main_v75_apply, v74_apply]
  rfl

/-- The sum of the squared centred entries of a node's row. -/
theorem v77_apply (e : Fin 100000) :
    val_main_v77 (F := Ideal) x0 x1 x2 x3 x4 x5 x6 (ix1 e) = ∑ c : Fin 128, rXc (y1 x0 x1 x3 x4 x5 x6) (ids x2) (gi (ids x2)) (den x2) e c * rXc (y1 x0 x1 x3 x4 x5 x6) (ids x2) (gi (ids x2)) (den x2) e c := by
  rw [val_main_v77_apply, val_main_cst_18_apply]
  show Ideal.ofBits .f32 0x00000000#32 + _ = _
  rw [Ideal.ofBits_zero_f32, zero_add]
  refine Finset.sum_congr rfl fun k _ => ?_
  have hi : idx_main_v77 (ix1 e) k = ix2 e k := by idx_two
  rw [hi, val_main_v76_apply, v75_apply]
  rfl

/-- The sum of the squared centred entries of the rows of graph g. -/
theorem v80_apply (g : Fin 512) :
    val_main_v80 (F := Ideal) x0 x1 x2 x3 x4 x5 x6 (ix1 g)
      = ∑ p ∈ rows (ids x2) g, ∑ c : Fin 128, rXc (y1 x0 x1 x3 x4 x5 x6) (ids x2) (gi (ids x2)) (den x2) p c * rXc (y1 x0 x1 x3 x4 x5 x6) (ids x2) (gi (ids x2)) (den x2) p c := by
  unfold val_main_v80
  refine (scatter512_apply _ _ _ (ids x2) zero_78 (ids_79 x2) g).trans ?_
  exact Finset.sum_congr rfl fun e _ => v77_apply x0 x1 x2 x3 x4 x5 x6 e

/-- The inverse standard deviation of graph g. -/
theorem v84_apply (g : Fin 512) :
    val_main_v84 (F := Ideal) x0 x1 x2 x3 x4 x5 x6 (ix1 g) = rInv (y1 x0 x1 x3 x4 x5 x6) (ids x2) (gi (ids x2)) (den x2) eps g := by
  rw [val_main_v84_apply, val_main_v83_apply, val_main_v81_apply, v80_apply, val_main_v82_apply, val_main_cst_20_apply,
    Ideal.hostUnary_rsqrt_def, Ideal.addf_def, Ideal.hostDivf_def, Ideal.ofBits_def]
  unfold rInv
  rfl

/-- The inverse standard deviation read back at node p. -/
theorem v91_apply (p : Fin 100000) :
    val_main_v91 (F := Ideal) x0 x1 x2 x3 x4 x5 x6 (ix1 p) = rInv (y1 x0 x1 x3 x4 x5 x6) (ids x2) (gi (ids x2)) (den x2) eps (gi (ids x2) p) := by
  unfold val_main_v91
  refine (gather512_apply _ _ (fun e => wrap (ids x2 e)) (wrapped_90 x2) p).trans ?_
  exact v84_apply x0 x1 x2 x3 x4 x5 x6 (gi (ids x2) p)

theorem v93_apply (p : Fin 100000) (c : Fin 128) :
    val_main_v93 (F := Ideal) x0 x1 x2 x3 x4 x5 x6 (ix2 p c) = rInv (y1 x0 x1 x3 x4 x5 x6) (ids x2) (gi (ids x2)) (den x2) eps (gi (ids x2) p) := by
  rw [val_main_v93_apply, val_main_v92_apply]
  have hi : idx_main_v92 (idx_main_v93 (ix2 p c)) = ix1 p := by idx_one
  rw [hi]
  exact v91_apply x0 x1 x2 x3 x4 x5 x6 p

theorem v96_apply (p : Fin 100000) (c : Fin 128) : val_main_v96 (F := Ideal) x7 (ix2 p c) = vec x7 c := by
  rw [val_main_v96_apply, val_main_v95_apply]; exact congrArg x7 (by idx_one)

theorem v99_apply (p : Fin 100000) (c : Fin 128) : val_main_v99 (F := Ideal) x8 (ix2 p c) = vec x8 c := by
  rw [val_main_v99_apply, val_main_v98_apply]; exact congrArg x8 (by idx_one)

/-- The first layer's result at (p, c): the centred entry times the inverse standard deviation of the node's graph,
    scaled, shifted, and cut off below zero. -/
theorem v101_apply (p : Fin 100000) (c : Fin 128) :
    val_main_v101 (F := Ideal) x0 x1 x2 x3 x4 x5 x6 x7 x8 (ix2 p c)
      = rOut (y1 x0 x1 x3 x4 x5 x6) (ids x2) (gi (ids x2)) (den x2) eps (vec x7) (vec x8) p c := by
  rw [val_main_v101_apply, val_main_v100_apply, val_main_v97_apply, val_main_v94_apply, v75_apply, v93_apply, v96_apply,
    v99_apply, val_main_call1_v0_apply, val_main_call1_cst_apply]
  show max _ (Ideal.ofBits .f32 0x00000000#32) = _
  rw [Ideal.ofBits_zero_f32]
  rfl

/-! ### The second layer -/

theorem ids_140 (e : Fin 100000) : val_main_v140 (F := Ideal) x2 (ix2 e (0 : Fin 1)) = ids x2 e := by
  rw [val_main_v140_apply]; exact congrArg x2 (by idx_one)

theorem ids_156 (e : Fin 100000) : val_main_v156 (F := Ideal) x2 (ix2 e (0 : Fin 1)) = ids x2 e := by
  rw [val_main_v156_apply]; exact congrArg x2 (by idx_one)

theorem wrapped_148 (e : Fin 100000) : val_main_v148 (F := Ideal) x2 (ix2 e (0 : Fin 1)) = wrap (ids x2 e) := by
  rw [val_main_v148_apply]
  have hi : idx_main_v148 (ix2 e (0 : Fin 1)) = ix1 e := by idx_one
  rw [hi, val_main_v147_apply, val_main_v144_apply, val_main_v146_apply, val_main_v143_apply, val_main_v145_apply]
  rfl

theorem wrapped_167 (e : Fin 100000) : val_main_v167 (F := Ideal) x2 (ix2 e (0 : Fin 1)) = wrap (ids x2 e) := by
  rw [val_main_v167_apply]
  have hi : idx_main_v167 (ix2 e (0 : Fin 1)) = ix1 e := by idx_one
  rw [hi, val_main_v166_apply, val_main_v163_apply, val_main_v165_apply, val_main_v162_apply, val_main_v164_apply]
  rfl

theorem zero_139 (g : Fin 512) : val_main_v139 (F := Ideal) (ix1 g) = 0 := by
  rw [val_main_v139_apply, val_main_cst_33_apply]; exact Ideal.ofBits_zero_f32

theorem zero_155 (g : Fin 512) : val_main_v155 (F := Ideal) (ix1 g) = 0 := by
  rw [val_main_v155_apply, val_main_cst_37_apply]; exact Ideal.ofBits_zero_f32

/-- The sum of a node's row. -/
theorem v138_apply (e : Fin 100000) :
    val_main_v138 (F := Ideal) x0 x1 x2 x3 x4 x5 x6 x7 x8 x9 x10 (ix1 e) = ∑ c : Fin 128, y2 x0 x1 x2 x3 x4 x5 x6 x7 x8 x9 x10 e c := by
  rw [val_main_v138_apply, val_main_cst_32_apply]
  show Ideal.ofBits .f32 0x00000000#32 + _ = _
  rw [Ideal.ofBits_zero_f32, zero_add]
  exact Finset.sum_congr rfl fun k _ => congrArg _ (by idx_two)

/-- The sum of all entries of the rows of graph g. -/
theorem v141_apply (g : Fin 512) :
    val_main_v141 (F := Ideal) x0 x1 x2 x3 x4 x5 x6 x7 x8 x9 x10 (ix1 g) = ∑ p ∈ rows (ids x2) g, ∑ c : Fin 128, y2 x0 x1 x2 x3 x4 x5 x6 x7 x8 x9 x10 p c := by
  unfold val_main_v141
  refine (scatter512_apply _ _ _ (ids x2) zero_139 (ids_140 x2) g).trans ?_
  exact Finset.sum_congr rfl fun e _ => v138_apply x0 x1 x2 x3 x4 x5 x6 x7 x8 x9 x10 e

/-- The mean of graph g. -/
theorem v142_apply (g : Fin 512) :
    val_main_v142 (F := Ideal) x0 x1 x2 x3 x4 x5 x6 x7 x8 x9 x10 (ix1 g) = rMean (y2 x0 x1 x2 x3 x4 x5 x6 x7 x8 x9 x10) (ids x2) (den x2) g := by
  rw [val_main_v142_apply, v141_apply, v137_eq]
  rfl

/-- The mean read back at node p. -/
theorem v149_apply (p : Fin 100000) :
    val_main_v149 (F := Ideal) x0 x1 x2 x3 x4 x5 x6 x7 x8 x9 x10 (ix1 p) = rMean (y2 x0 x1 x2 x3 x4 x5 x6 x7 x8 x9 x10) (ids x2) (den x2) (gi (ids x2) p) := by
  unfold val_main_v149
  refine (gather512_apply _ _ (fun e => wrap (ids x2 e)) (wrapped_148 x2) p).trans ?_
  exact v142_apply x0 x1 x2 x3 x4 x5 x6 x7 x8 x9 x10 (gi (ids x2) p)

theorem v151_apply (p : Fin 100000) (c : Fin 128) :
    val_main_v151 (F := Ideal) x0 x1 x2 x3 x4 x5 x6 x7 x8 x9 x10 (ix2 p c) = rMean (y2 x0 x1 x2 x3 x4 x5 x6 x7 x8 x9 x10) (ids x2) (den x2) (gi (ids x2) p) := by
  rw [val_main_v151_apply, val_main_v150_apply]
  have hi : idx_main_v150 (idx_main_v151 (ix2 p c)) = ix1 p := by idx_one
  rw [hi]
  exact v149_apply x0 x1 x2 x3 x4 x5 x6 x7 x8 x9 x10 p

/-- The centred entry. -/
theorem v152_apply (p : Fin 100000) (c : Fin 128) :
    val_main_v152 (F := Ideal) x0 x1 x2 x3 x4 x5 x6 x7 x8 x9 x10 (ix2 p c) = rXc (y2 x0 x1 x2 x3 x4 x5 x6 x7 x8 x9 x10) (ids x2) (gi (ids x2)) (den x2) p c := by
  rw [val_main_v152_apply, v151_apply]
  rfl

/-- The sum of the squared centred entries of a node's row. -/
theorem v154_apply (e : Fin 100000) :
    val_main_v154 (F := Ideal) x0 x1 x2 x3 x4 x5 x6 x7 x8 x9 x10 (ix1 e) = ∑ c : Fin 128, rXc (y2 x0 x1 x2 x3 x4 x5 x6 x7 x8 x9 x10) (ids x2) (gi (ids x2)) (den x2) e c * rXc (y2 x0 x1 x2 x3 x4 x5 x6 x7 x8 x9 x10) (ids x2) (gi (ids x2)) (den x2) e c := by
  rw [val_main_v154_apply, val_main_cst_36_apply]
  show Ideal.ofBits .f32 0x00000000#32 + _ = _
  rw [Ideal.ofBits_zero_f32, zero_add]
  refine Finset.sum_congr rfl fun k _ => ?_
  have hi : idx_main_v154 (ix1 e) k = ix2 e k := by idx_two
  rw [hi, val_main_v153_apply, v152_apply]
  rfl

/-- The sum of the squared centred entries of the rows of graph g. -/
theorem v157_apply (g : Fin 512) :
    val_main_v157 (F := Ideal) x0 x1 x2 x3 x4 x5 x6 x7 x8 x9 x10 (ix1 g)
      = ∑ p ∈ rows (ids x2) g, ∑ c : Fin 128, rXc (y2 x0 x1 x2 x3 x4 x5 x6 x7 x8 x9 x10) (ids x2) (gi (ids x2)) (den x2) p c * rXc (y2 x0 x1 x2 x3 x4 x5 x6 x7 x8 x9 x10) (ids x2) (gi (ids x2)) (den x2) p c := by
  unfold val_main_v157
  refine (scatter512_apply _ _ _ (ids x2) zero_155 (ids_156 x2) g).trans ?_
  exact Finset.sum_congr rfl fun e _ => v154_apply x0 x1 x2 x3 x4 x5 x6 x7 x8 x9 x10 e

/-- The inverse standard deviation of graph g. -/
theorem v161_apply (g : Fin 512) :
    val_main_v161 (F := Ideal) x0 x1 x2 x3 x4 x5 x6 x7 x8 x9 x10 (ix1 g) = rInv (y2 x0 x1 x2 x3 x4 x5 x6 x7 x8 x9 x10) (ids x2) (gi (ids x2)) (den x2) eps g := by
  rw [val_main_v161_apply, val_main_v160_apply, val_main_v158_apply, v157_apply, v137_eq, val_main_v159_apply, val_main_cst_38_apply,
    Ideal.hostUnary_rsqrt_def, Ideal.addf_def, Ideal.hostDivf_def, Ideal.ofBits_def]
  unfold rInv
  rfl

/-- The inverse standard deviation read back at node p. -/
theorem v168_apply (p : Fin 100000) :
    val_main_v168 (F := Ideal) x0 x1 x2 x3 x4 x5 x6 x7 x8 x9 x10 (ix1 p) = rInv (y2 x0 x1 x2 x3 x4 x5 x6 x7 x8 x9 x10) (ids x2) (gi (ids x2)) (den x2) eps (gi (ids x2) p) := by
  unfold val_main_v168
  refine (gather512_apply _ _ (fun e => wrap (ids x2 e)) (wrapped_167 x2) p).trans ?_
  exact v161_apply x0 x1 x2 x3 x4 x5 x6 x7 x8 x9 x10 (gi (ids x2) p)

theorem v170_apply (p : Fin 100000) (c : Fin 128) :
    val_main_v170 (F := Ideal) x0 x1 x2 x3 x4 x5 x6 x7 x8 x9 x10 (ix2 p c) = rInv (y2 x0 x1 x2 x3 x4 x5 x6 x7 x8 x9 x10) (ids x2) (gi (ids x2)) (den x2) eps (gi (ids x2) p) := by
  rw [val_main_v170_apply, val_main_v169_apply]
  have hi : idx_main_v169 (idx_main_v170 (ix2 p c)) = ix1 p := by idx_one
  rw [hi]
  exact v168_apply x0 x1 x2 x3 x4 x5 x6 x7 x8 x9 x10 p

theorem v173_apply (p : Fin 100000) (c : Fin 128) : val_main_v173 (F := Ideal) x11 (ix2 p c) = vec x11 c := by
  rw [val_main_v173_apply, val_main_v172_apply]; exact congrArg x11 (by idx_one)

theorem v176_apply (p : Fin 100000) (c : Fin 128) : val_main_v176 (F := Ideal) x12 (ix2 p c) = vec x12 c := by
  rw [val_main_v176_apply, val_main_v175_apply]; exact congrArg x12 (by idx_one)

/-- The second layer's result at (p, c): the centred entry times the inverse standard deviation of the node's graph,
    scaled, shifted, and cut off below zero. -/
theorem v178_apply (p : Fin 100000) (c : Fin 128) :
    val_main_v178 (F := Ideal) x0 x1 x2 x3 x4 x5 x6 x7 x8 x9 x10 x11 x12 (ix2 p c)
      = rOut (y2 x0 x1 x2 x3 x4 x5 x6 x7 x8 x9 x10) (ids x2) (gi (ids x2)) (den x2) eps (vec x11) (vec x12) p c := by
  rw [val_main_v178_apply, val_main_v177_apply, val_main_v174_apply, val_main_v171_apply, v152_apply, v170_apply, v173_apply,
    v176_apply, val_main_call2_v0_apply, val_main_call2_cst_apply]
  show max _ (Ideal.ofBits .f32 0x00000000#32) = _
  rw [Ideal.ofBits_zero_f32]
  rfl

/-! ### The pooling -/

theorem ids_180 (e : Fin 100000) : val_main_v180 (F := Ideal) x2 (ix2 e (0 : Fin 1)) = ids x2 e := by
  rw [val_main_v180_apply]; exact congrArg x2 (by idx_one)

theorem zero_179 (g : Fin 512) (c : Fin 128) : val_main_v179 (F := Ideal) (ix2 g c) = 0 := by
  rw [val_main_v179_apply, val_main_cst_41_apply]; exact Ideal.ofBits_zero_f32

/-- The pooled array at (g, c): the sum, over the rows of graph g, of the second layer's result at column c. -/
theorem v181_apply (g : Fin 512) (c : Fin 128) :
    val_main_v181 (F := Ideal) x0 x1 x2 x3 x4 x5 x6 x7 x8 x9 x10 x11 x12 (ix2 g c)
      = ∑ p ∈ rows (ids x2) g, val_main_v178 (F := Ideal) x0 x1 x2 x3 x4 x5 x6 x7 x8 x9 x10 x11 x12 (ix2 p c) := by
  unfold val_main_v181
  exact scatter512x128_apply _ _ _ (ids x2) zero_179 (ids_180 x2) g c

end Reference

end Cert.RNorm

end
-- ==== Proof.KPool.lean ====
/-
  The pooling region read at an index.

  The region walks the 100000 node rows in 100 blocks of 1000. Its output, a [512,128] block that stays in place over the
  whole grid, is set to zero at the first point and at every point receives  out += Eᵀ · H,  where H is the point's
  [1000,128] block of node rows and E its [1000,512] one-hot matrix  E(r, g) = [graph word of row r = g]  (a comparison bit,
  widened and converted: exactly 1 or 0). The contraction runs over the block's ROW axis, so at (g, q) a point adds
  ∑_r E(r, g) · H(r, q). Over the extended reals the format changes are the identity and the accumulator's order
  ((0 + P₀) + P₁) + … is a plain sum, so after the last point — the only one whose block is written back, and that block
  is the whole array — entry (g, q) is the sum over ALL rows p of [graph word of p = g] · h(p, q):
  row p is row p % 1000 of block p / 1000 (Fin 100 × Fin 1000 ≃ Fin 100000).

  Order of the file: the two control cases' stores as payloads; the payloads at an index; a block's row in the array;
  the running sum by induction on the point; the write-back and the array at the region's exit; the statement at the
  region's entry and exit contents.
-/
import proofs.«427561_j32633161515373_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.KernelIdeal.Pool

open Cert.KernelIdeal Cert.KernelIdeal.Gen Idealize.ShloMosaic Idealize.ShloMosaic.ValueIdx
open Idealize.ShloMosaic.TcCoe Idealize.SL.Sem
open Idealize.ShloMosaic.Pipeline (Dat)

section Pieces
variable {F : FTy → Type} [FloatOps F]

/-- Every access of the body starts at row 0, column 0 of its buffer. -/
theorem hz : (![0, 0] : Fin 2 → Nat) = fun _ => 0 := funext fun a => by fin_cases a <;> rfl

/-- At every point but the first the body's one store, which covers the output block, holds the update of the block as
    the point before left it: the three loads read the whole buffers. -/
theorem out_B (c : Dev nD) (i : grid7.Coords) (a1 : Memref sig .tc .vmem S1000x128 .f32) (h1 : a1.IsWhole)
    (a2 : Memref sig .tc .vmem S1000x1 .i32) (h2 : a2.IsWhole) (a3 : Memref sig .tc .vmem S512x128 .f32) (h3 : a3.IsWhole)
    (hc : ¬cond7_0 i) (x0 : Vec F S1000x128 .f32) (x1 : Vec F S1000x1 .i32) (xo : Vec F S512x128 .f32) :
    out7_B_2 c i a1 h1 a2 h2 a3 h3 hc x0 x1 xo = k7_pay2 x0 x1 xo := by
  unfold out7_B_2
  rw [View.read_writes_eq_canon _ _ _ (cover7_B_2 c i a1 h1 a2 h2 a3 h3 hc x0 x1 xo)]
  unfold kernelRun7_B
  dsimp only
  sl_unfold_words
  rw [View.canon_unit_zero hz]
  simp only [View.readAt_eq_ld, h1.read_unread, h2.read_unread, h3.read_unread, View.ld_unit_zero (S := S1000x128) hz,
    View.ld_unit_zero (S := S1000x1) hz, View.ld_unit_zero (S := S512x128) hz]

/-- At the first point the body stores the zero block, reads it back, and stores the update of THAT: the later store covers
    the earlier one. -/
theorem out_A (c : Dev nD) (i : grid7.Coords) (a1 : Memref sig .tc .vmem S1000x128 .f32) (h1 : a1.IsWhole)
    (a2 : Memref sig .tc .vmem S1000x1 .i32) (h2 : a2.IsWhole) (a3 : Memref sig .tc .vmem S512x128 .f32) (h3 : a3.IsWhole)
    (hc : cond7_0 i) (x0 : Vec F S1000x128 .f32) (x1 : Vec F S1000x1 .i32) :
    out7_A_2 c i a1 h1 a2 h2 a3 h3 hc x0 x1 = k7_pay2 x0 x1 (k7_pay1 (F := F)) := by
  unfold out7_A_2
  rw [View.read_writes_eq_canon _ _ _ (cover7_A_2 c i a1 h1 a2 h2 a3 h3 hc x0 x1)]
  unfold kernelRun7_A
  dsimp only
  sl_unfold_words
  rw [View.canon_cons_unit_zero (S := S512x128) hz, View.readCov_unit_zero (S := S512x128) _ hz]
  simp only [View.readAt_eq_ld, h1.read_unread, h2.read_unread, View.ld_unit_zero (S := S1000x128) hz,
    View.ld_unit_zero (S := S1000x1) hz]

end Pieces

section Payload

/-- The one-hot entry as a word: the comparison bit, widened to 32 bits and read signed, is 1 where the two words agree and 0 elsewhere. -/
theorem onehot_word (b e : BitVec 32) :
    ((((IntOp.cmpi .eq b e).setWidth 32).toInt : ℝ) : EReal) = if b = e then (1 : EReal) else 0 := by
  by_cases h : b = e
  · have h1 : IntOp.cmpi .eq b e = 1#1 := IntOp.cmpi_eq.mpr h
    rw [h1, if_pos h]
    norm_num
  · have h0 : IntOp.cmpi .eq b e = 0#1 := eq_zero_of_ne_one fun h1 => h (IntOp.cmpi_eq.mp h1)
    rw [h0, if_neg h]
    norm_num

/-- The product's operand indices at output (g, q) and contraction position k. Both operands are contracted on their ROW
    axis: the one-hot matrix is read at (k, g), the node rows at (k, q). -/
theorem lhs_pool_0 (i : S512x128.Idx) (k : dot_S1000x512_S1000x128_S512x128_0_0_1_1_n_n.contr.Idx) :
    (dot_S1000x512_S1000x128_S512x128_0_0_1_1_n_n.lhsIdx i k 0).val = (k ⟨0, by decide⟩).val :=
  dot_S1000x512_S1000x128_S512x128_0_0_1_1_n_n.lhsIdx_val_of_single rfl i k
theorem lhs_pool_1 (i : S512x128.Idx) (k : dot_S1000x512_S1000x128_S512x128_0_0_1_1_n_n.contr.Idx) :
    (dot_S1000x512_S1000x128_S512x128_0_0_1_1_n_n.lhsIdx i k 1).val = (i 0).val := by
  unfold DotDims.lhsIdx
  rw [dif_neg (show ¬(1 : Fin S1000x512.rank) ∈ dot_S1000x512_S1000x128_S512x128_0_0_1_1_n_n.lhsBatch by decide), dif_pos (show (1 : Fin S1000x512.rank) ∈ dot_S1000x512_S1000x128_S512x128_0_0_1_1_n_n.lhsNonContracting by decide)]
  rfl
theorem rhs_pool_0 (i : S512x128.Idx) (k : dot_S1000x512_S1000x128_S512x128_0_0_1_1_n_n.contr.Idx) :
    (dot_S1000x512_S1000x128_S512x128_0_0_1_1_n_n.rhsIdx i k 0).val = (k ⟨0, by decide⟩).val :=
  dot_S1000x512_S1000x128_S512x128_0_0_1_1_n_n.rhsIdx_val_of_single rfl i k
theorem rhs_pool_1 (i : S512x128.Idx) (k : dot_S1000x512_S1000x128_S512x128_0_0_1_1_n_n.contr.Idx) :
    (dot_S1000x512_S1000x128_S512x128_0_0_1_1_n_n.rhsIdx i k 1).val = (i 1).val := by
  unfold DotDims.rhsIdx
  rw [dif_neg (show ¬(1 : Fin S1000x128.rank) ∈ dot_S1000x512_S1000x128_S512x128_0_0_1_1_n_n.rhsBatch by decide), dif_pos (show (1 : Fin S1000x128.rank) ∈ dot_S1000x512_S1000x128_S512x128_0_0_1_1_n_n.rhsNonContracting by decide)]
  rfl

/-- The one-hot operand of the product at row r, graph g: 1 where the row's graph word is g, else 0. -/
theorem onehot_apply (x1 : Vec Ideal S1000x1 .i32) (r : Fin 1000) (g : Fin 512) :
    (truncf .bf16 (sitofp (F := Ideal) .f32 (extui 32 (cmpi .eq (broadcastTo S1000x512 (shapeCast S1000x1 x1 shapeCasts_S1000x1_S1000x1) broadcasts_S1000x1_S1000x512)
        (iota .tc S1000x512 32 [1] iota_S1000x512_d1_w32)) natLt_1_32)) bitsLt_bf16_f32 : FVec Ideal S1000x512 .bf16) (ix2 r g)
      = if x1 (ix2 r (0 : Fin 1)) = BitVec.ofNat 32 g.val then (1 : EReal) else 0 := by
  rw [truncf_apply, sitofp_apply, extui_apply]
  show ((((IntOp.cmpi .eq (broadcastTo S1000x512 (shapeCast S1000x1 x1 shapeCasts_S1000x1_S1000x1) broadcasts_S1000x1_S1000x512 (ix2 r g))
    (iota .tc S1000x512 32 [1] iota_S1000x512_d1_w32 (ix2 r g))).setWidth 32).toInt : ℝ) : EReal) = _
  rw [iota_single_apply, shapeCast_self,
    broadcastTo_apply x1 broadcasts_S1000x1_S1000x512 (ix2 r g) (ix2 r (0 : Fin 1)) (fun a => by
      match a with
      | ⟨0, _⟩ => show r.val = if (1000 : Nat) = 1 then 0 else r.val; rw [if_neg (by decide)]
      | ⟨1, _⟩ => show (0 : Nat) = if (1 : Nat) = 1 then 0 else g.val; rw [if_pos rfl])]
  exact onehot_word _ _

/-- The update's payload at (g, q): the carried entry plus, over the block's 1000 rows, the one-hot weight times the row's entry in column q. -/
theorem pay2_apply (x0 : Vec Ideal S1000x128 .f32) (x1 : Vec Ideal S1000x1 .i32) (xo : Vec Ideal S512x128 .f32) (g : Fin 512) (q : Fin 128) :
    k7_pay2 (F := Ideal) x0 x1 xo (ix2 g q)
      = xo (ix2 g q) + ∑ r : Fin 1000, (if x1 (ix2 r (0 : Fin 1)) = BitVec.ofNat 32 g.val then (1 : EReal) else 0) * x0 (ix2 r q) := by
  unfold k7_pay2
  dsimp only
  rw [addf_apply, shapeCast_self]
  simp only [matmul]
  rw [Ideal.matmul_constant_zero_apply, ← Equiv.sum_comp (contrEquiv1 dot_S1000x512_S1000x128_S512x128_0_0_1_1_n_n 1000 rfl rfl).symm]
  refine congrArg (xo (ix2 g q) + ·) (Finset.sum_congr rfl fun k _ => ?_)
  have hk := contrEquiv1_symm_val dot_S1000x512_S1000x128_S512x128_0_0_1_1_n_n 1000 rfl rfl k
  have el : dot_S1000x512_S1000x128_S512x128_0_0_1_1_n_n.lhsIdx (ix2 g q) ((contrEquiv1 dot_S1000x512_S1000x128_S512x128_0_0_1_1_n_n 1000 rfl rfl).symm k) = (ix2 k g : S1000x512.Idx) := funext fun a => Fin.ext (by
    match a with
    | ⟨0, _⟩ => exact (lhs_pool_0 _ _).trans hk
    | ⟨1, _⟩ => exact lhs_pool_1 _ _)
  have er : dot_S1000x512_S1000x128_S512x128_0_0_1_1_n_n.rhsIdx (ix2 g q) ((contrEquiv1 dot_S1000x512_S1000x128_S512x128_0_0_1_1_n_n 1000 rfl rfl).symm k) = (ix2 k q : S1000x128.Idx) := funext fun a => Fin.ext (by
    match a with
    | ⟨0, _⟩ => exact (rhs_pool_0 _ _).trans hk
    | ⟨1, _⟩ => exact rhs_pool_1 _ _)
  rw [el, er, onehot_apply, truncf_apply, shapeCast_self]

/-- The reset's payload is zero everywhere. -/
theorem pay1_apply (j : S512x128.Idx) : k7_pay1 (F := Ideal) j = 0 := by
  unfold k7_pay1
  show Ideal.ofBits .f32 0x00000000#32 = 0
  exact Ideal.ofBits_zero_f32

end Payload

section Blocks
variable (V : (c : Dev nD) → (b : Ref sig .tc) → Buf (Elt Ideal) ((c : Thread nD τ).loc b))

/-- The point's block of node rows, and of the rows' graph words, at their literal types. -/
abbrev hblk (c : Dev nD) (t : Fin cfg7.N) : Vec Ideal S1000x128 .f32 := iblk7 V c 0 t
abbrev bblk (c : Dev nD) (t : Fin cfg7.N) : Vec Ideal S1000x1 .i32 := iblk7 V c 1 t
/-- The two input arrays as the region finds them, at their literal types. -/
abbrev harr (c : Dev nD) : Vec Ideal S100000x128 .f32 := V c main_v103
abbrev barr (c : Dev nD) : Vec Ideal S100000x1 .i32 := V c main_v21

/-- Both row-tiled windows sit at block row t, block column 0, at point t. -/
theorem idx_rows : ∀ t : Fin cfg7.N, (win7_0.index t (0 : Fin 2) = t.val ∧ win7_0.index t (1 : Fin 2) = 0)
    ∧ (win7_1.index t (0 : Fin 2) = t.val ∧ win7_1.index t (1 : Fin 2) = 0) :=
  (by decide +kernel : ∀ t : Fin grid7.N, (win7_0.index t (0 : Fin 2) = t.val ∧ win7_0.index t (1 : Fin 2) = 0)
    ∧ (win7_1.index t (0 : Fin 2) = t.val ∧ win7_1.index t (1 : Fin 2) = 0))

/-- Row r of point t's block is row 1000 t + r of the array. -/
theorem hblk_apply (c : Dev nD) (t : Fin cfg7.N) (r : Fin 1000) (q : Fin 128) (p : Fin 100000) (hp : p.val = 1000 * t.val + r.val) :
    hblk V c t (ix2 r q) = harr V c (ix2 p q) := by
  have hi := (idx_rows t).1
  unfold hblk iblk7
  rw [View.read_apply]
  show V c main_v103 _ = V c main_v103 _
  congr 1
  funext a
  apply Fin.ext
  match a with
  | ⟨0, _⟩ => show win7_0.index t 0 * 1000 + 1 * r.val = p.val; rw [hi.1, hp]; omega
  | ⟨1, _⟩ => show win7_0.index t 1 * 128 + 1 * q.val = q.val; rw [hi.2]; omega

/-- The same for the rows' graph words (one column). -/
theorem bblk_apply (c : Dev nD) (t : Fin cfg7.N) (r : Fin 1000) (p : Fin 100000) (hp : p.val = 1000 * t.val + r.val) :
    bblk V c t (ix2 r (0 : Fin 1)) = barr V c (ix2 p (0 : Fin 1)) := by
  have hi := (idx_rows t).2
  unfold bblk iblk7
  rw [View.read_apply]
  show V c main_v21 _ = V c main_v21 _
  congr 1
  funext a
  apply Fin.ext
  match a with
  | ⟨0, _⟩ => show win7_1.index t 0 * 1000 + 1 * r.val = p.val; rw [hi.1, hp]; omega
  | ⟨1, _⟩ => show win7_1.index t 1 * 1 + 1 * (0 : Fin 1).val = (0 : Fin 1).val; rw [hi.2]; rfl

end Blocks

section Accumulate
variable (V : (c : Dev nD) → (b : Ref sig .tc) → Buf (Elt Ideal) ((c : Thread nD τ).loc b))

/-- What point t adds at (g, q): over its 1000 rows, the one-hot weight of the row's graph word times the row's entry in column q. -/
def blockSum (c : Dev nD) (t : Fin cfg7.N) (g : Fin 512) (q : Fin 128) : EReal :=
  ∑ r : Fin 1000, (if bblk V c t (ix2 r (0 : Fin 1)) = BitVec.ofNat 32 g.val then (1 : EReal) else 0) * hblk V c t (ix2 r q)

/-- After point n the carried block holds, at (g, q), the sum of what points 0 … n added: point 0 starts from the zero block,
    every later point adds to what the point before left. -/
theorem outsAt_apply (c : Dev nD) (g : Fin 512) (q : Fin 128) : ∀ (n : ℕ) (h : n < cfg7.N),
    (outsAt7 V c n h : Vec Ideal S512x128 .f32) (ix2 g q) = ∑ s : Fin (n + 1), blockSum V c ⟨s.val, lt_of_lt_of_le s.isLt h⟩ g q
  | 0, h => by
    rw [outsAt7_A V c ⟨0, h⟩ rfl]
    refine (congrFun (out_A (F := Ideal) c (grid7.coords ⟨0, h⟩) (ms7_0 ⟨0, h⟩) (hs7_0 ⟨0, h⟩) (ms7_1 ⟨0, h⟩) (hs7_1 ⟨0, h⟩) (ms7_2 ⟨0, h⟩) (hs7_2 ⟨0, h⟩)
      ((hcond7_0 ⟨0, h⟩).mpr rfl) (hblk V c ⟨0, h⟩) (bblk V c ⟨0, h⟩)) (ix2 g q)).trans ?_
    rw [pay2_apply, pay1_apply, zero_add, Fin.sum_univ_one]
    rfl
  | n + 1, h => by
    have hN : cfg7.N = 100 := N_7
    have hB : ¬(⟨n + 1, h⟩ : Fin cfg7.N).val % 100 = 0 := by dsimp only; omega
    rw [outsAt7_B V c ⟨n + 1, h⟩ hB]
    refine (congrFun (out_B (F := Ideal) c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩)
      (fun hh => hB ((hcond7_0 ⟨n + 1, h⟩).mp hh)) (hblk V c ⟨n + 1, h⟩) (bblk V c ⟨n + 1, h⟩) (outsAt7 V c n (Nat.lt_of_succ_lt h))) (ix2 g q)).trans ?_
    rw [pay2_apply, outsAt_apply c g q n (Nat.lt_of_succ_lt h)]
    exact (Fin.sum_univ_castSucc (fun s : Fin (n + 1 + 1) => blockSum V c ⟨s.val, lt_of_lt_of_le s.isLt h⟩ g q)).symm

/-- A sum over the hundred thousand rows, taken block by block: row p is row p % 1000 of block p / 1000. -/
theorem sum_rows {M : Type*} [AddCommMonoid M] (f : Fin 100000 → M) :
    ∑ p : Fin 100000, f p
      = ∑ t : Fin 100, ∑ r : Fin 1000, f ⟨1000 * t.val + r.val, by have := t.isLt; have := r.isLt; omega⟩ := by
  rw [← Equiv.sum_comp (finProdFinEquiv (m := 100) (n := 1000)) f, Fintype.sum_prod_type]
  refine Finset.sum_congr rfl fun t _ => Finset.sum_congr rfl fun r _ => congrArg f (Fin.ext ?_)
  show r.val + 1000 * t.val = 1000 * t.val + r.val
  omega

/-- The blocks of all hundred points together are all the rows: with n the last point, the sum over the points 0 … n of what
    each adds at (g, q) is the sum over ALL rows of the one-hot weight times the row's entry. -/
theorem blocks_total (c : Dev nD) (g : Fin 512) (q : Fin 128) (n : ℕ) (h : n < cfg7.N) (hn : n = 99) :
    ∑ s : Fin (n + 1), blockSum V c ⟨s.val, lt_of_lt_of_le s.isLt h⟩ g q
      = ∑ p : Fin 100000, (if barr V c (ix2 p (0 : Fin 1)) = BitVec.ofNat 32 g.val then (1 : EReal) else 0) * harr V c (ix2 p q) := by
  subst hn
  rw [sum_rows]
  refine Finset.sum_congr rfl fun t _ => ?_
  unfold blockSum
  refine Finset.sum_congr rfl fun r _ => ?_
  rw [hblk_apply V c ⟨t.val, lt_of_lt_of_le t.isLt h⟩ r q ⟨1000 * t.val + r.val, by have := t.isLt; have := r.isLt; omega⟩ rfl,
    bblk_apply V c ⟨t.val, lt_of_lt_of_le t.isLt h⟩ r ⟨1000 * t.val + r.val, by have := t.isLt; have := r.isLt; omega⟩ rfl]

/-- After the last point t (t = 99, kept as a name) the carried block holds, at (g, q), the sum over ALL rows of the one-hot
    weight times the row's entry. -/
theorem last_apply (c : Dev nD) (g : Fin 512) (q : Fin 128) (t : Fin cfg7.N) (ht : t.val = 99) :
    (outsAt7 V c t.val t.isLt : Vec Ideal S512x128 .f32) (ix2 g q)
      = ∑ p : Fin 100000, (if barr V c (ix2 p (0 : Fin 1)) = BitVec.ofNat 32 g.val then (1 : EReal) else 0) * harr V c (ix2 p q) :=
  (outsAt_apply V c g q t.val t.isLt).trans (blocks_total V c g q t.val t.isLt ht)

end Accumulate

section Exit
variable (V : (c : Dev nD) → (b : Ref sig .tc) → Buf (Elt Ideal) ((c : Thread nD τ).loc b))

/-- The output window sits at block (0, 0) at every point, and that block is the whole [512,128] array. -/
theorem idx_out : ∀ t : Fin cfg7.N, (win7_2.index t (0 : Fin 2) = 0 ∧ win7_2.index t (1 : Fin 2) = 0)
    ∧ (win7_2.xsize (grid7.coords t) (0 : Fin 2) = 512 ∧ win7_2.xsize (grid7.coords t) (1 : Fin 2) = 128) :=
  (by decide +kernel : ∀ t : Fin grid7.N, (win7_2.index t (0 : Fin 2) = 0 ∧ win7_2.index t (1 : Fin 2) = 0)
    ∧ (win7_2.xsize (grid7.coords t) (0 : Fin 2) = 512 ∧ win7_2.xsize (grid7.coords t) (1 : Fin 2) = 128))

/-- Only the last point t (t = 99) writes the carried block back, and it writes it as that point left it: the output's one
    block is the whole array. -/
theorem flushed_last (c : Dev nD) (t : Fin cfg7.N) (ht : t.val = 99) (u : Fin cfg7.N) (hf : (cfg7.win 2).flush u = true) :
    (dat7 V c).flushed 2 u = ((cfg7.win 2).blk u).view.read (Elt Ideal) (outsAt7 V c t.val t.isLt) := by
  have hN : cfg7.N = 100 := N_7
  have h3 : u.val = 99 := by have := (flush7_2 u).mp hf; have := u.isLt; omega
  obtain rfl : u = t := Fin.ext (h3.trans ht.symm)
  show (cfg7.win 2).cut (grid7.coords u) ((dat7 V c).after 2 u) = _
  rw [after7_2]
  have hi := (idx_out u).1
  have hz' : (fun a => win7_2.index u a * main_v104.ty.shape.size a) = fun _ => 0 := funext fun a => by
    match a with
    | ⟨0, _⟩ => show win7_2.index u 0 * 512 = 0; rw [hi.1]
    | ⟨1, _⟩ => show win7_2.index u 1 * 128 = 0; rw [hi.2]
  exact (Memref.read_access_unit_zero (Elt Ideal) main_v104 hz' (fun a => by rw [congrFun hz' a]; simp) (outsAt7 V c u.val u.isLt)).symm

/-- So the output array ends holding what the last point left. -/
theorem exit_arr (c : Dev nD) (t : Fin cfg7.N) (ht : t.val = 99) :
    (dat7 V c).arrAt 2 cfg7.N = outsAt7 V c t.val t.isLt :=
  (dat7 V c).arrAt_eq_of_cover 2 (outsAt7 V c t.val t.isLt) (flushed_last V c t ht) fun i =>
    ⟨t, (flush7_2 t).mpr (by rw [ht]), by
      show i ∈ ((View.whole main_v104).slice (win7_2.rect t)).set
      rw [View.set_slice_whole, Rect.mem_set_unit]
      intro a
      have h0 : (i 0 : Nat) < 512 := (i 0).isLt
      have h1 : (i 1 : Nat) < 128 := (i 1).isLt
      have hi := idx_out t
      match a with
      | ⟨0, _⟩ => show win7_2.index t 0 * win7_2.size 0 ≤ (i 0 : Nat) ∧ (i 0 : Nat) < win7_2.index t 0 * win7_2.size 0 + win7_2.xsize (grid7.coords t) 0
                  rw [hi.1.1, hi.2.1]; omega
      | ⟨1, _⟩ => show win7_2.index t 1 * win7_2.size 1 ≤ (i 1 : Nat) ∧ (i 1 : Nat) < win7_2.index t 1 * win7_2.size 1 + win7_2.xsize (grid7.coords t) 1
                  rw [hi.1.2, hi.2.2]; omega⟩

/-- The output array at the region's exit, read at (g, q): the sum over all rows of the one-hot weight times the row's entry. -/
theorem exit_apply (c : Dev nD) (g : Fin 512) (q : Fin 128) (t : Fin cfg7.N) (ht : t.val = 99) :
    ((dat7 V c).arrAt 2 cfg7.N : Vec Ideal S512x128 .f32) (ix2 g q)
      = ∑ p : Fin 100000, (if barr V c (ix2 p (0 : Fin 1)) = BitVec.ofNat 32 g.val then (1 : EReal) else 0) * harr V c (ix2 p q) :=
  (congrFun (exit_arr V c t ht) (ix2 g q)).trans (last_apply V c g q t ht)

/-- The grid has a point 99. -/
theorem h99 : 99 < cfg7.N := by rw [show cfg7.N = 100 from N_7]; decide

end Exit

section ClosedForm

/-- The pooled array as ONE function of the two input arrays: at (g, q) the sum, over all 100000 node rows p, of the one-hot
    weight [graph word of row p = g] times the row's entry in column q. -/
def poolG (x21 : S100000x1.Idx → BitVec 32) (x103 : S100000x128.Idx → EReal) : S512x128.Idx → EReal :=
  fun j => ∑ p : Fin 100000, (if x21 (ix2 p (0 : Fin 1)) = BitVec.ofNat 32 (j 0).val then (1 : EReal) else 0) * x103 (ix2 p (j 1))

theorem poolG_apply (x21 : S100000x1.Idx → BitVec 32) (x103 : S100000x128.Idx → EReal) (g : Fin 512) (q : Fin 128) :
    poolG x21 x103 (ix2 g q)
      = ∑ p : Fin 100000, (if x21 (ix2 p (0 : Fin 1)) = BitVec.ofNat 32 g.val then (1 : EReal) else 0) * x103 (ix2 p q) := rfl

end ClosedForm

section Boundary
variable (m : (ℓ : Loc nD τ sig) → Buf (Elt Ideal) ℓ) (ρ : Dev nD → PrngReg)

/-- THE POOLING REGION, read at an index. At its exit the pooled array holds at (g, q) the sum, over all 100000 node rows p, of
    the one-hot weight [graph word of row p = g] times the row's entry in column q — both inputs as the region finds them. -/
theorem W17_v104 (c : Dev nD) (g : Fin 512) (q : Fin 128) :
    (W17 m ρ c (Proc.devRef .tc main_v104) : S512x128.Idx → EReal) (ix2 g q)
      = ∑ p : Fin 100000,
          (if (W16 m ρ c (Proc.devRef .tc main_v21) : S100000x1.Idx → BitVec 32) (ix2 p (0 : Fin 1)) = BitVec.ofNat 32 g.val then (1 : EReal) else 0)
            * (W16 m ρ c (Proc.devRef .tc main_v103) : S100000x128.Idx → EReal) (ix2 p q) := by
  exact (congrFun (W17_arr m ρ c 2) (ix2 g q)).trans (exit_apply (V16 m ρ) c g q ⟨99, h99⟩ rfl)

/-- The same as one equation between arrays: the pooled array at the region's exit is the closed form of the two input arrays
    at its entry. -/
theorem W17_v104_eq (c : Dev nD) :
    W17 m ρ c (Proc.devRef .tc main_v104)
      = poolG (W16 m ρ c (Proc.devRef .tc main_v21)) (W16 m ρ c (Proc.devRef .tc main_v103)) := by
  funext j
  obtain ⟨g, q, rfl⟩ : ∃ (g : Fin 512) (q : Fin 128), j = ix2 g q := ⟨j 0, j 1, eq_ix2 j⟩
  exact W17_v104 m ρ c g q

end Boundary

end Cert.KernelIdeal.Pool

end
-- ==== Proof.KHostB2.lean ====
/- What the kernel regions 4 to 7 find in their input arrays when they are entered, and what the last stretch of host
   operations finds, read off the run's boundaries. Between two regions the host reshapes parameter vectors to rows,
   and, before each normalisation, divides the per-graph sums by the per-graph divisor (the graph's entry count, or 1
   when it has none) and takes the inverse square
   root of the variance; everything else a region reads was written earlier and is carried: a stretch of host
   operations leaves alone every buffer it does not write, a region leaves alone its input arrays and every buffer
   that is none of its arrays. Each statement names the boundary, the buffer and what it holds there: an argument of
   the launch, an earlier boundary's contents, or the host's arithmetic of those, entry by entry.
   The carrying lemmas, the reshape readings and the mean / inverse-deviation forms are those of the module for
   regions 0 to 3. They are stated as in the module for regions 0 to 3: same lemma names, and the coordinate on a unit
   axis is a variable u : Fin 1 rather than the literal 0. -/
import proofs.«427561_j32633161515373_1_alg».proof.Proof.Gen.KernelIdeal.Frame
import proofs.«427561_j32633161515373_1_alg».proof.Proof.Names
import proofs.«427561_j32633161515373_1_alg».proof.Proof.KHostB
import Idealize.ShloMosaic.Lib.StableHlo.Run
import Idealize.ShloMosaic.Lib.ValueLayout
import Idealize.ShloMosaic.PureOps.Ideal.Laws

set_option maxRecDepth 16384

noncomputable section

namespace Cert.KernelIdeal.KHostB2

open Idealize.ShloMosaic Idealize.ShloMosaic.TcCoe Idealize.SL.Sem Idealize.ShloMosaic.StableHlo
open Idealize.ShloMosaic.ValueIdx
open Cert.KernelIdeal Cert.KernelIdeal.Gen Cert.KHostB

variable (m : Cert.Names.KMem) (ρ : Dev nD → PrngReg) (c : Dev nD)

/-! ## Arguments at the later boundaries

An argument no host operation writes, and that is none of the arrays of the regions before a boundary, holds at the
boundary what the launch memory holds; the earlier module reaches region 5's exit, these go on to region 7's. -/

theorem quiet_W15 (b : Ref sig .tc) (hq : Quiet b) (h0 : ∀ w, Pipeline.arrRef spec0 w ≠ b)
    (h1 : ∀ w, Pipeline.arrRef spec1 w ≠ b) (h2 : ∀ w, Pipeline.arrRef spec2 w ≠ b)
    (h3 : ∀ w, Pipeline.arrRef spec3 w ≠ b) (h4 : ∀ w, Pipeline.arrRef spec4 w ≠ b)
    (h5 : ∀ w, Pipeline.arrRef spec5 w ≠ b) : W15 m ρ c (Proc.devRef .tc b) = m ((c : Thread nD τ).loc b) :=
  (step5 m ρ c b h5 hq.2.2.2.2.2.2.2.2).trans (quiet_W13 m ρ c b hq h0 h1 h2 h3 h4)

theorem quiet_W17 (b : Ref sig .tc) (hq : Quiet b) (h0 : ∀ w, Pipeline.arrRef spec0 w ≠ b)
    (h1 : ∀ w, Pipeline.arrRef spec1 w ≠ b) (h2 : ∀ w, Pipeline.arrRef spec2 w ≠ b)
    (h3 : ∀ w, Pipeline.arrRef spec3 w ≠ b) (h4 : ∀ w, Pipeline.arrRef spec4 w ≠ b)
    (h5 : ∀ w, Pipeline.arrRef spec5 w ≠ b) (h6 : ∀ w, Pipeline.arrRef spec6 w ≠ b)
    (h7 : ∀ w, Pipeline.arrRef spec7 w ≠ b) : W17 m ρ c (Proc.devRef .tc b) = m ((c : Thread nD τ).loc b) :=
  (W17_of_ne m ρ c b h7).trans ((W16_of_ne m ρ c b h6).trans (quiet_W15 m ρ c b hq h0 h1 h2 h3 h4 h5))

/-! ## Region 4, entered at W11: the first normalisation's output, the second convolution's weights, a zero bias -/

/-- The input array is as region 3 left it: the one host operation in between writes the bias row. -/
theorem in4_v73 : W11 m ρ c (Proc.devRef .tc main_v73) = W10 m ρ c (Proc.devRef .tc main_v73) :=
  carry4 m ρ c main_v73 (by decide)

theorem in4_arg9 : W11 m ρ c (Proc.devRef .tc main_arg9) = Cert.Names.a9 m c :=
  quiet_W11 m ρ c main_arg9 (by decide) (by decide) (by decide) (by decide) (by decide)

/-- The vector of 128 zeros the host wrote before region 1 is still there at region 3's exit: regions 1 to 3 and the
    stretches between them neither window it nor write it. -/
theorem v43_W10 : W10 m ρ c (Proc.devRef .tc main_v43) = W5 m ρ c (Proc.devRef .tc main_v43) :=
  (W10_of_ne m ρ c main_v43 (by decide)).trans
    ((step2 m ρ c main_v43 (by decide) (by decide)).trans (step1 m ρ c main_v43 (by decide) (by decide)))

/-- The bias row is that vector with a unit axis in front. -/
theorem v74_raw : W11 m ρ c (Proc.devRef .tc main_v74) = shapeCast S1x128 zeroVec shapeCasts_S128_S1x128 := by
  refine Eq.trans ?_ (congrArg (fun x => shapeCast S1x128 x shapeCasts_S128_S1x128) ((v43_W10 m ρ c).trans (v43_raw m ρ c)))
  show StableHlo.after hostOps4 (W10 m ρ c) (Proc.devRef .tc main_v74) = _
  after_results
  first | done | rfl

theorem in4_v74 (u : Fin 1) (q : Fin 128) :
    (W11 m ρ c (Proc.devRef .tc main_v74) : S1x128.Idx → EReal) (ix2 u q) = (0 : EReal) :=
  (row_read (v74_raw m ρ c) u q).trans (zeroVec_apply (ix1 q))

/-! ## Region 5, entered at W13: the second convolution's sum, its bias as a row, the graph ids -/

theorem v89_raw : W13 m ρ c (Proc.devRef .tc main_v89)
    = shapeCast S1x128 (W12 m ρ c (Proc.devRef .tc main_arg10)) shapeCasts_S128_S1x128 := by
  show StableHlo.after hostOps5 (W12 m ρ c) (Proc.devRef .tc main_v89) = _
  after_results
  first | done | rfl

theorem in5_v89 (u : Fin 1) (q : Fin 128) :
    (W13 m ρ c (Proc.devRef .tc main_v89) : S1x128.Idx → EReal) (ix2 u q) = Cert.Names.a10 m c (ix1 q) :=
  (row_read (v89_raw m ρ c) u q).trans
    (congrFun (quiet_W12 m ρ c main_arg10 (by decide) (by decide) (by decide) (by decide) (by decide) (by decide)) (ix1 q))

/-- The column of graph ids at region 5's entry is the one written before region 0. -/
theorem v21_13_3 : W13 m ρ c (Proc.devRef .tc main_v21) = W3 m ρ c (Proc.devRef .tc main_v21) :=
  (v21_W13 m ρ c).trans ((v21_W9 m ρ c).trans (v21_W7 m ρ c))

theorem in5_v21 (p : Fin 100000) (u : Fin 1) :
    (W13 m ρ c (Proc.devRef .tc main_v21) : (⟨S100000x1, .i32⟩ : BufTy).Contents (Elt Ideal)) (ix2 p u)
      = Cert.Names.a2 m c (ix1 p) :=
  (congrFun (v21_13_3 m ρ c) (ix2 p u)).trans (v21_W3 m ρ c p u)

/-! ## Region 6, entered at W15: the second convolution's sum again, the mean and the inverse deviation per graph,
    the second normalisation's three parameter rows, the graph ids -/

/-- The convolution's sum is as region 5 found it: region 5 only reads it, the stretch after writes other buffers. -/
theorem in6_v88 : W15 m ρ c (Proc.devRef .tc main_v88) = W13 m ρ c (Proc.devRef .tc main_v88) :=
  (carry6 m ρ c main_v88 (by decide)).trans (cross5_in m ρ c 0 rfl)

theorem v100_raw : W15 m ρ c (Proc.devRef .tc main_v100)
    = shapeCast S1x128 (W14 m ρ c (Proc.devRef .tc main_arg10)) shapeCasts_S128_S1x128 := by
  show StableHlo.after hostOps6 (W14 m ρ c) (Proc.devRef .tc main_v100) = _
  after_results
  first | done | rfl
theorem v101_raw : W15 m ρ c (Proc.devRef .tc main_v101)
    = shapeCast S1x128 (W14 m ρ c (Proc.devRef .tc main_arg11)) shapeCasts_S128_S1x128 := by
  show StableHlo.after hostOps6 (W14 m ρ c) (Proc.devRef .tc main_v101) = _
  after_results
  first | done | rfl
theorem v102_raw : W15 m ρ c (Proc.devRef .tc main_v102)
    = shapeCast S1x128 (W14 m ρ c (Proc.devRef .tc main_arg12)) shapeCasts_S128_S1x128 := by
  show StableHlo.after hostOps6 (W14 m ρ c) (Proc.devRef .tc main_v102) = _
  after_results
  first | done | rfl

theorem in6_v100 (u : Fin 1) (q : Fin 128) :
    (W15 m ρ c (Proc.devRef .tc main_v100) : S1x128.Idx → EReal) (ix2 u q) = Cert.Names.a10 m c (ix1 q) :=
  (row_read (v100_raw m ρ c) u q).trans
    (congrFun (quiet_W14 m ρ c main_arg10 (by decide) (by decide) (by decide) (by decide) (by decide) (by decide) (by decide)) (ix1 q))
theorem in6_v101 (u : Fin 1) (q : Fin 128) :
    (W15 m ρ c (Proc.devRef .tc main_v101) : S1x128.Idx → EReal) (ix2 u q) = Cert.Names.a11 m c (ix1 q) :=
  (row_read (v101_raw m ρ c) u q).trans
    (congrFun (quiet_W14 m ρ c main_arg11 (by decide) (by decide) (by decide) (by decide) (by decide) (by decide) (by decide)) (ix1 q))
theorem in6_v102 (u : Fin 1) (q : Fin 128) :
    (W15 m ρ c (Proc.devRef .tc main_v102) : S1x128.Idx → EReal) (ix2 u q) = Cert.Names.a12 m c (ix1 q) :=
  (row_read (v102_raw m ρ c) u q).trans
    (congrFun (quiet_W14 m ρ c main_arg12 (by decide) (by decide) (by decide) (by decide) (by decide) (by decide) (by decide)) (ix1 q))

theorem in6_v21 (p : Fin 100000) (u : Fin 1) :
    (W15 m ρ c (Proc.devRef .tc main_v21) : (⟨S100000x1, .i32⟩ : BufTy).Contents (Elt Ideal)) (ix2 p u)
      = Cert.Names.a2 m c (ix1 p) :=
  (congrFun ((v21_W15 m ρ c).trans (v21_13_3 m ρ c)) (ix2 p u)).trans (v21_W3 m ρ c p u)

/-- The per-graph divisor, written before region 0, is still there when region 5 has run. -/
theorem v40_W14 : W14 m ρ c (Proc.devRef .tc main_v40) = W3 m ρ c (Proc.devRef .tc main_v40) :=
  (W14_of_ne m ρ c main_v40 (by decide)).trans
    ((step4 m ρ c main_v40 (by decide) (by decide)).trans
      ((step3 m ρ c main_v40 (by decide) (by decide)).trans
        ((carry3 m ρ c main_v40 (by decide)).trans (v40_W8 m ρ c))))

/-- The second normalisation's mean per graph: region 5's row of sums divided by the divisors. -/
theorem v92_raw : W15 m ρ c (Proc.devRef .tc main_v92)
    = meanOf (W14 m ρ c (Proc.devRef .tc main_v90_0)) (W3 m ρ c (Proc.devRef .tc main_v40)) := by
  refine Eq.trans ?_ (congrArg (meanOf (W14 m ρ c (Proc.devRef .tc main_v90_0))) (v40_W14 m ρ c))
  show StableHlo.after hostOps6 (W14 m ρ c) (Proc.devRef .tc main_v92) = _
  after_results
  first | done | rfl

/-- Its inverse deviation per graph, from region 5's two rows of sums and the divisors. -/
theorem v99_raw : W15 m ρ c (Proc.devRef .tc main_v99)
    = invOf (W14 m ρ c (Proc.devRef .tc main_v90_0)) (W14 m ρ c (Proc.devRef .tc main_v90_1))
        (W3 m ρ c (Proc.devRef .tc main_v40)) := by
  refine Eq.trans ?_ (congrArg (invOf (W14 m ρ c (Proc.devRef .tc main_v90_0)) (W14 m ρ c (Proc.devRef .tc main_v90_1)))
    (v40_W14 m ρ c))
  show StableHlo.after hostOps6 (W14 m ρ c) (Proc.devRef .tc main_v99) = _
  after_results
  first | done | rfl

/-- The mean of graph g: region 5's sum for g divided by the divisor of g. -/
theorem in6_v92 (u : Fin 1) (g : Fin 512) :
    (W15 m ρ c (Proc.devRef .tc main_v92) : S1x512.Idx → EReal) (ix2 u g)
      = Ideal.div ((W14 m ρ c (Proc.devRef .tc main_v90_0) : S1x512.Idx → EReal) (ix2 u g))
          ((W3 m ρ c (Proc.devRef .tc main_v40) : S512.Idx → EReal) (ix1 g)) :=
  (congrFun (v92_raw m ρ c) (ix2 u g)).trans (meanOf_apply _ _ u g)

/-- The inverse deviation of graph g, over the mean as region 6 finds it. -/
theorem in6_v99 (u : Fin 1) (g : Fin 512) :
    (W15 m ρ c (Proc.devRef .tc main_v99) : S1x512.Idx → EReal) (ix2 u g)
      = Ideal.rsqrt ((Ideal.div ((W14 m ρ c (Proc.devRef .tc main_v90_1) : S1x512.Idx → EReal) (ix2 u g))
            ((W3 m ρ c (Proc.devRef .tc main_v40) : S512.Idx → EReal) (ix1 g))
          - arr S1x512 (W15 m ρ c (Proc.devRef .tc main_v92)) (ix2 u g)
            * arr S1x512 (W15 m ρ c (Proc.devRef .tc main_v92)) (ix2 u g))
        + Ideal.ofBits .f32 0x3727C5AC#32) :=
  (congrFun (v99_raw m ρ c) (ix2 u g)).trans
    (invOf_apply _ _ _ u g _ (congrFun (v92_raw m ρ c) (ix2 u g)))

/-- The same with the mean written out: everything in terms of region 5's two sums and the divisor. -/
theorem in6_v99_sums (u : Fin 1) (g : Fin 512) :
    (W15 m ρ c (Proc.devRef .tc main_v99) : S1x512.Idx → EReal) (ix2 u g)
      = Ideal.rsqrt ((Ideal.div ((W14 m ρ c (Proc.devRef .tc main_v90_1) : S1x512.Idx → EReal) (ix2 u g))
            ((W3 m ρ c (Proc.devRef .tc main_v40) : S512.Idx → EReal) (ix1 g))
          - Ideal.div ((W14 m ρ c (Proc.devRef .tc main_v90_0) : S1x512.Idx → EReal) (ix2 u g))
              ((W3 m ρ c (Proc.devRef .tc main_v40) : S512.Idx → EReal) (ix1 g))
            * Ideal.div ((W14 m ρ c (Proc.devRef .tc main_v90_0) : S1x512.Idx → EReal) (ix2 u g))
              ((W3 m ρ c (Proc.devRef .tc main_v40) : S512.Idx → EReal) (ix1 g)))
        + Ideal.ofBits .f32 0x3727C5AC#32) :=
  (congrFun (v99_raw m ρ c) (ix2 u g)).trans (invOf_apply _ _ _ u g _ (meanOf_apply _ _ u g).symm)

/-! ## Region 7, entered at W16 (no host operation after region 6): the graph ids -/

theorem in7_v21 (p : Fin 100000) (u : Fin 1) :
    (W16 m ρ c (Proc.devRef .tc main_v21) : (⟨S100000x1, .i32⟩ : BufTy).Contents (Elt Ideal)) (ix2 p u)
      = Cert.Names.a2 m c (ix1 p) :=
  (congrFun ((v21_W16 m ρ c).trans ((v21_W15 m ρ c).trans (v21_13_3 m ρ c))) (ix2 p u)).trans (v21_W3 m ρ c p u)

/-! ## What the last stretch of host operations finds, at W17 -/

/-- The per-graph node count, written before region 0: no region windows it and no later stretch writes it. -/
theorem out_v20 : W17 m ρ c (Proc.devRef .tc main_v20) = W3 m ρ c (Proc.devRef .tc main_v20) :=
  (W17_of_ne m ρ c main_v20 (by decide)).trans
    ((W16_of_ne m ρ c main_v20 (by decide)).trans
      ((step5 m ρ c main_v20 (by decide) (by decide)).trans
        ((step4 m ρ c main_v20 (by decide) (by decide)).trans
          ((step3 m ρ c main_v20 (by decide) (by decide)).trans
            ((step2 m ρ c main_v20 (by decide) (by decide)).trans
              ((step1 m ρ c main_v20 (by decide) (by decide)).trans
                (step0 m ρ c main_v20 (by decide) (by decide))))))))

theorem out_arg13 : W17 m ρ c (Proc.devRef .tc main_arg13) = Cert.Names.a13 m c :=
  quiet_W17 m ρ c main_arg13 (by decide) (by decide) (by decide) (by decide) (by decide) (by decide) (by decide)
    (by decide) (by decide)
theorem out_arg14 : W17 m ρ c (Proc.devRef .tc main_arg14) = Cert.Names.a14 m c :=
  quiet_W17 m ρ c main_arg14 (by decide) (by decide) (by decide) (by decide) (by decide) (by decide) (by decide)
    (by decide) (by decide)

end Cert.KernelIdeal.KHostB2

end
-- ==== Proof.Bridge2.lean ====
/-
  The second half of the network, joined step by step: what regions 4, 6 and 7 of the kernel program leave in their
  output arrays is what the reference computes at the same place, each step given the step before.

  Region 4 is the third dense layer: its output at (p, q) is the sum over k of the first normalisation layer's result
  at (p, k) times the weights at (k, q), plus a zero bias. Region 6 is the second normalisation layer: per graph, the
  host divides the two sums region 5 has left by the graph's divisor (its entry count, or one) to get mean and inverse
  standard deviation,
  and region 6 centres, scales, shifts and rectifies each entry with its graph's two numbers picked by one-hot weights;
  with real inputs and graph ids in range that is the reference's layer, which sums over each graph's rows and centres
  before it squares. Region 7 adds up, per graph and channel, the rows of the graph: the reference's scatter-add by
  graph id into zeros.
-/
import proofs.«427561_j32633161515373_1_alg».proof.Proof.Gen.KernelIdeal.Frame
import proofs.«427561_j32633161515373_1_alg».proof.Proof.Names
import proofs.«427561_j32633161515373_1_alg».proof.Proof.ReferenceRead
import proofs.«427561_j32633161515373_1_alg».proof.Proof.LibScatter
import proofs.«427561_j32633161515373_1_alg».proof.Proof.NormCore
import proofs.«427561_j32633161515373_1_alg».proof.Proof.RLin
import proofs.«427561_j32633161515373_1_alg».proof.Proof.RNorm
import proofs.«427561_j32633161515373_1_alg».proof.Proof.Finite
import proofs.«427561_j32633161515373_1_alg».proof.Proof.PreFacts
import proofs.«427561_j32633161515373_1_alg».proof.Proof.KLin
import proofs.«427561_j32633161515373_1_alg».proof.Proof.KApply
import proofs.«427561_j32633161515373_1_alg».proof.Proof.KStats
import proofs.«427561_j32633161515373_1_alg».proof.Proof.KPool
import proofs.«427561_j32633161515373_1_alg».proof.Proof.KHostA
import proofs.«427561_j32633161515373_1_alg».proof.Proof.KHostB2
import Idealize.ShloMosaic.Lib.ValueIdx

set_option maxRecDepth 16384

noncomputable section

namespace Cert.Bridge2

/-! ## The reference's second normalisation layer in the words of the layer's algebra -/

section Reference

open Cert.ReferenceIdeal Cert.ReferenceIdeal.Read Idealize.ShloMosaic Idealize.ShloMosaic.ValueIdx

variable (x0 : (⟨S100000x64, .f32⟩ : BufTy).Contents (Elt Ideal)) (x1 : (⟨S2x1600000, .i32⟩ : BufTy).Contents (Elt Ideal))
  (x2 : (⟨S100000, .i32⟩ : BufTy).Contents (Elt Ideal)) (x3 : (⟨S64x128, .f32⟩ : BufTy).Contents (Elt Ideal))
  (x4 : (⟨S128, .f32⟩ : BufTy).Contents (Elt Ideal)) (x5 : (⟨S128x128, .f32⟩ : BufTy).Contents (Elt Ideal))
  (x6 x7 x8 : (⟨S128, .f32⟩ : BufTy).Contents (Elt Ideal)) (x9 : (⟨S128x128, .f32⟩ : BufTy).Contents (Elt Ideal))
  (x10 x11 x12 : (⟨S128, .f32⟩ : BufTy).Contents (Elt Ideal))

/-- The layer's input at (p, q): the aggregated features at (p, q) plus the bias at q. -/
theorem y2_apply (p : Fin 100000) (q : Fin 128) :
    val_main_v133 (F := Ideal) x0 x1 x2 x3 x4 x5 x6 x7 x8 x9 x10 (ix2 p q)
      = val_main_v130 (F := Ideal) x0 x1 x2 x3 x4 x5 x6 x7 x8 x9 (ix2 p q) + x10 (ix1 q) := by
  rw [val_main_v133_apply, val_main_v132_apply, val_main_v131_apply]
  exact congrArg (fun j => val_main_v130 (F := Ideal) x0 x1 x2 x3 x4 x5 x6 x7 x8 x9 (ix2 p q) + x10 j)
    (funext fun a => Fin.ext (by match a with | ⟨0, _⟩ => rfl))

theorem y2_eq : Cert.RNorm.y2 x0 x1 x2 x3 x4 x5 x6 x7 x8 x9 x10
    = Cert.NormCore.yOf (val_main_v130 (F := Ideal) x0 x1 x2 x3 x4 x5 x6 x7 x8 x9) x10 :=
  funext fun p => funext fun q => y2_apply x0 x1 x2 x3 x4 x5 x6 x7 x8 x9 x10 p q

/-- Every entry of the layer's input is a real when every entry of the reference's array is. -/
theorem y2_real (h : Cert.Finite.Real1 (val_main_v133 (F := Ideal) x0 x1 x2 x3 x4 x5 x6 x7 x8 x9 x10))
    (p : Fin 100000) (q : Fin 128) :
    ∃ r : ℝ, Cert.NormCore.yOf (val_main_v130 (F := Ideal) x0 x1 x2 x3 x4 x5 x6 x7 x8 x9) x10 p q = (r : EReal) := by
  obtain ⟨r, hr⟩ := h (ix2 p q)
  exact ⟨r, (y2_apply x0 x1 x2 x3 x4 x5 x6 x7 x8 x9 x10 p q).symm.trans hr⟩

/-- The layer's result written over each graph's rows is one and the same formula in both spellings. -/
theorem rOut_eq (y : Fin 100000 → Fin 128 → EReal) (β : Fin 100000 → BitVec 32) (gi : Fin 100000 → Fin 512)
    (den : Fin 512 → EReal) (eps : EReal) (γ δ : Fin 128 → EReal) (p : Fin 100000) (q : Fin 128) :
    Cert.RNorm.rOut y β gi den eps γ δ p q = Cert.NormMath.rOut y β gi den eps γ δ p q := rfl

/-- The reference's second normalisation layer at (p, q). -/
theorem tgt2_apply (p : Fin 100000) (q : Fin 128) :
    val_main_v178 (F := Ideal) x0 x1 x2 x3 x4 x5 x6 x7 x8 x9 x10 x11 x12 (ix2 p q)
      = Cert.NormMath.rOut (Cert.NormCore.yOf (val_main_v130 (F := Ideal) x0 x1 x2 x3 x4 x5 x6 x7 x8 x9) x10)
          (Cert.NormCore.idOf x2) (Cert.RNorm.gi (Cert.NormCore.idOf x2))
          (Cert.NormCore.denOf (val_main_v60 (F := Ideal) x2)) (Ideal.ofBits .f32 0x3727C5AC#32)
          (Cert.NormCore.vecOf x11) (Cert.NormCore.vecOf x12) p q :=
  (Cert.RNorm.v178_apply x0 x1 x2 x3 x4 x5 x6 x7 x8 x9 x10 x11 x12 p q).trans
    ((congrArg (fun y => Cert.RNorm.rOut y (Cert.RNorm.ids x2) (Cert.RNorm.gi (Cert.RNorm.ids x2)) (Cert.RNorm.den x2)
        Cert.RNorm.eps (Cert.RNorm.vec x11) (Cert.RNorm.vec x12) p q) (y2_eq x0 x1 x2 x3 x4 x5 x6 x7 x8 x9 x10)).trans
      (rOut_eq _ _ _ _ _ _ _ p q))

end Reference

section Kernel

open Idealize.ShloMosaic Idealize.ShloMosaic.TcCoe Idealize.SL.Sem Idealize.ShloMosaic.ValueIdx
open Cert.KernelIdeal Cert.KernelIdeal.Gen
open Cert.Names (KMem a0 a1 a2 a3 a4 a5 a6 a7 a8 a9 a10 a11 a12)

variable (m : KMem) (ρ : Dev nD → PrngReg) (c : Dev nD)

/-- The third dense layer. Region 4 leaves, at row p and channel q, the sum over k of its input at (p, k) times its
    weights at (k, q), plus its bias row at q; its input is the first normalisation layer's result, its weights are
    the program's tenth argument and its bias row is zero: entry by entry the reference's third dense layer. -/
theorem C12_of
    (hC10 : W10 m ρ c (Proc.devRef .tc main_v73)
      = Cert.ReferenceIdeal.Read.val_main_v101 (F := Ideal) (a0 m c) (a1 m c) (a2 m c) (a3 m c) (a4 m c) (a5 m c) (a6 m c) (a7 m c) (a8 m c)) :
    W12 m ρ c (Proc.devRef .tc main_v75)
      = Cert.ReferenceIdeal.Read.val_main_v102 (F := Ideal) (a0 m c) (a1 m c) (a2 m c) (a3 m c) (a4 m c) (a5 m c) (a6 m c) (a7 m c) (a8 m c) (a9 m c) := by
  refine (Cert.KernelIdeal.KLin.W12_v75_eq m ρ c).trans ?_
  rw [Cert.KernelIdeal.KHostB2.in4_v73 m ρ c, hC10, Cert.KernelIdeal.KHostB2.in4_arg9 m ρ c]
  refine Cert.RLin.lin_eq_v102 _ _ _ _ _ _ _ _ _ _ _ (fun p q => ?_)
  rw [Cert.KernelIdeal.KLin.linG_apply, Cert.KernelIdeal.KHostB2.in4_v74 m ρ c 0 q]

/-- The second normalisation layer. With every float argument real and every graph id in [0, 512), region 6's
    result is the reference's layer: the statistics region's two sums, the host's mean and inverse standard
    deviation, and the one-hot selection are the reference's per-graph sums over rows, entry by entry. -/
theorem C16_of (hP : Cert.Pre_KernelIdeal (hPre_finite_inputs := Cert.Pre_finite_inputs.Gen.facts) m)
    (hC13 : W13 m ρ c (Proc.devRef .tc main_v88)
      = Cert.ReferenceIdeal.Read.val_main_v130 (F := Ideal) (a0 m c) (a1 m c) (a2 m c) (a3 m c) (a4 m c) (a5 m c) (a6 m c) (a7 m c) (a8 m c) (a9 m c))
    (h101 : ∀ i, ∃ r : ℝ, Cert.ReferenceIdeal.Read.val_main_v101 (F := Ideal) (a0 m c) (a1 m c) (a2 m c) (a3 m c) (a4 m c) (a5 m c) (a6 m c) (a7 m c) (a8 m c) i = (r : EReal)) :
    W16 m ρ c (Proc.devRef .tc main_v103)
      = Cert.ReferenceIdeal.Read.val_main_v178 (F := Ideal) (a0 m c) (a1 m c) (a2 m c) (a3 m c) (a4 m c) (a5 m c) (a6 m c) (a7 m c) (a8 m c) (a9 m c) (a10 m c) (a11 m c) (a12 m c) :=
  Cert.NormCore.norm_core
    (conv := Cert.ReferenceIdeal.Read.val_main_v130 (F := Ideal) (a0 m c) (a1 m c) (a2 m c) (a3 m c) (a4 m c) (a5 m c) (a6 m c) (a7 m c) (a8 m c) (a9 m c))
    (bias := a10 m c) (γv := a11 m c) (δv := a12 m c) (ids := a2 m c)
    (den := Cert.ReferenceIdeal.Read.val_main_v60 (F := Ideal) (a2 m c)) (eps := Ideal.ofBits .f32 0x3727C5AC#32)
    (v58 := W15 m ρ c (Proc.devRef .tc main_v88)) (v58' := W13 m ρ c (Proc.devRef .tc main_v88))
    (v59 := W13 m ρ c (Proc.devRef .tc main_v89)) (v70 := W15 m ρ c (Proc.devRef .tc main_v100))
    (v71 := W15 m ρ c (Proc.devRef .tc main_v101)) (v72 := W15 m ρ c (Proc.devRef .tc main_v102))
    (v21 := W15 m ρ c (Proc.devRef .tc main_v21)) (v21' := W13 m ρ c (Proc.devRef .tc main_v21))
    (s0 := W14 m ρ c (Proc.devRef .tc main_v90_0)) (s1 := W14 m ρ c (Proc.devRef .tc main_v90_1))
    (v62 := W15 m ρ c (Proc.devRef .tc main_v92)) (v69 := W15 m ρ c (Proc.devRef .tc main_v99))
    (out := W16 m ρ c (Proc.devRef .tc main_v103))
    (tgt := Cert.ReferenceIdeal.Read.val_main_v178 (F := Ideal) (a0 m c) (a1 m c) (a2 m c) (a3 m c) (a4 m c) (a5 m c) (a6 m c) (a7 m c) (a8 m c) (a9 m c) (a10 m c) (a11 m c) (a12 m c))
    (gi := Cert.RNorm.gi (Cert.NormCore.idOf (a2 m c)))
    (hout := fun p q => (congrFun (Cert.KernelIdeal.RV.W16_v103_eq m ρ c) (ix2 p q)).trans
      (Cert.KernelIdeal.RV.applyArr_apply _ _ _ _ _ _ _ p q))
    (hs0 := fun g => (congrFun (Cert.KernelIdeal.RStats.W14_v90_0_eq m ρ c) (ix2 (0 : Fin 1) g)).trans
      (Cert.KernelIdeal.RStats.stat0_apply _ _ _ g))
    (hs1 := fun g => (congrFun (Cert.KernelIdeal.RStats.W14_v90_1_eq m ρ c) (ix2 (0 : Fin 1) g)).trans
      (Cert.KernelIdeal.RStats.stat1_apply _ _ _ g))
    (h62 := fun g => by
      rw [Cert.KernelIdeal.KHostB2.in6_v92 m ρ c 0 g, Cert.KHostA.C3_den m ρ c])
    (h69 := fun g => by
      rw [Cert.KernelIdeal.KHostB2.in6_v99 m ρ c 0 g, Cert.KHostA.C3_den m ρ c])
    (h58 := (Cert.KernelIdeal.KHostB2.in6_v88 m ρ c).trans hC13) (h58' := hC13)
    (h59 := fun q => Cert.KernelIdeal.KHostB2.in5_v89 m ρ c 0 q)
    (h70 := fun q => Cert.KernelIdeal.KHostB2.in6_v100 m ρ c 0 q)
    (h71 := fun q => Cert.KernelIdeal.KHostB2.in6_v101 m ρ c 0 q)
    (h72 := fun q => Cert.KernelIdeal.KHostB2.in6_v102 m ρ c 0 q)
    (h21 := fun p => Cert.KernelIdeal.KHostB2.in6_v21 m ρ c p 0)
    (h21' := fun p => Cert.KernelIdeal.KHostB2.in5_v21 m ρ c p 0)
    (hy := y2_real _ _ _ _ _ _ _ _ _ _ _
      (Cert.Finite.fin_v133 h101 (Cert.PreFacts.real_a9 m hP c) (Cert.PreFacts.real_a10 m hP c)))
    (hgi := fun p => Cert.RNorm.gi_of_range (Cert.NormCore.idOf (a2 m c)) p (Cert.PreFacts.batch_range m hP c p))
    (hden := fun g => Cert.RNorm.den_eq (a2 m c) g)
    (htgt := tgt2_apply (a0 m c) (a1 m c) (a2 m c) (a3 m c) (a4 m c) (a5 m c) (a6 m c) (a7 m c) (a8 m c) (a9 m c) (a10 m c) (a11 m c) (a12 m c))

/-- The pooling. Region 7 leaves, at graph g and channel q, the sum over all rows p of the one-hot weight
    [the graph word of row p is g] times the second normalisation layer's result at (p, q); the graph words are the
    program's third argument: entry by entry the reference's scatter-add of the rows by graph id into zeros. -/
theorem C17_of
    (hC16 : W16 m ρ c (Proc.devRef .tc main_v103)
      = Cert.ReferenceIdeal.Read.val_main_v178 (F := Ideal) (a0 m c) (a1 m c) (a2 m c) (a3 m c) (a4 m c) (a5 m c) (a6 m c) (a7 m c) (a8 m c) (a9 m c) (a10 m c) (a11 m c) (a12 m c)) :
    W17 m ρ c (Proc.devRef .tc main_v104)
      = Cert.ReferenceIdeal.Read.val_main_v181 (F := Ideal) (a0 m c) (a1 m c) (a2 m c) (a3 m c) (a4 m c) (a5 m c) (a6 m c) (a7 m c) (a8 m c) (a9 m c) (a10 m c) (a11 m c) (a12 m c) := by
  have h21 : ∀ p : Fin 100000,
      (W16 m ρ c (Proc.devRef .tc main_v21) : S100000x1.Idx → BitVec 32) (ix2 p (0 : Fin 1)) = a2 m c (ix1 p) :=
    fun p => Cert.KernelIdeal.KHostB2.in7_v21 m ρ c p 0
  refine (Cert.KernelIdeal.Pool.W17_v104_eq m ρ c).trans ?_
  rw [hC16]
  refine Cert.RLin.pool_eq_v181 _ _ _ _ _ _ _ _ _ _ _ _ _ _
    (fun g q => Cert.RNorm.v181_apply _ _ _ _ _ _ _ _ _ _ _ _ _ g q) (fun g q => ?_)
  rw [Cert.KernelIdeal.Pool.poolG_apply]
  simp only [h21]

end Kernel

end Cert.Bridge2

end
-- ==== Proof.Bridge.lean ====
/-
  The kernel program's result is the reference's result.
  The run of the kernel program is followed boundary by boundary, and at each boundary the buffer just written is
  shown to hold the reference's value of the same quantity, as a function of the arguments: the input layer, the
  first convolution's product, its aggregation, the first normalisation layer (where the finiteness of the inputs and
  the range of the graph ids are used), then the second layer the same way, the pooling and the read-out.
-/
import proofs.«427561_j32633161515373_1_alg».proof.Proof.Gen.KernelIdeal.Frame
import proofs.«427561_j32633161515373_1_alg».proof.Proof.Names
import proofs.«427561_j32633161515373_1_alg».proof.Proof.ReferenceRead
import proofs.«427561_j32633161515373_1_alg».proof.Proof.LibScatter
import proofs.«427561_j32633161515373_1_alg».proof.Proof.NormMath
import proofs.«427561_j32633161515373_1_alg».proof.Proof.NormCore
import proofs.«427561_j32633161515373_1_alg».proof.Proof.KLin
import proofs.«427561_j32633161515373_1_alg».proof.Proof.RLin
import proofs.«427561_j32633161515373_1_alg».proof.Proof.KHostA
import proofs.«427561_j32633161515373_1_alg».proof.Proof.KHostB
import proofs.«427561_j32633161515373_1_alg».proof.Proof.KStats
import proofs.«427561_j32633161515373_1_alg».proof.Proof.KApply
import proofs.«427561_j32633161515373_1_alg».proof.Proof.Finite
import proofs.«427561_j32633161515373_1_alg».proof.Proof.PreFacts
import proofs.«427561_j32633161515373_1_alg».proof.Proof.RNorm
import proofs.«427561_j32633161515373_1_alg».proof.Proof.Bridge2
import Idealize.ShloMosaic.PureOps.Ideal
import Idealize.ShloMosaic.Lib.ValueIdx

set_option maxRecDepth 16384

noncomputable section

namespace Cert.Bridge

open Idealize.ShloMosaic Idealize.ShloMosaic.ValueIdx Idealize.ShloMosaic.TcCoe Idealize.SL.Sem
open Cert.KernelIdeal Cert.KernelIdeal.Gen
open Cert.ReferenceIdeal.Read
open Cert.Names (KMem a0 a1 a2 a3 a4 a5 a6 a7 a8 a9 a10 a11 a12 a13 a14)
open Cert.NormCore Cert.NormMath Cert.LibScatter

section Steps

variable (m : KMem) (ρ : Dev nD → PrngReg) (c : Dev nD)

/-! ## The input layer and the first convolution's product -/

/-- Region 0 leaves the reference's input layer `x · W₁ + b₁`. -/
theorem C4 : W4 m ρ c (Proc.devRef .tc main_v42) = val_main_v24 (F := Ideal) (a0 m c) (a3 m c) (a4 m c) := by
  refine Cert.RLin.lin_eq_v24 (a0 m c) (a3 m c) (a4 m c) _ fun p q => ?_
  refine (congrFun (KLin.W4_v42_eq m ρ c) (ix2 p q)).trans ?_
  rw [KLin.linG_apply, Cert.KHostB.in0_arg0, Cert.KHostB.in0_arg3]
  exact congrArg _ (Cert.KHostB.in0_v41 m ρ c 0 q)

/-- Region 1 leaves the reference's product of the input layer with the first convolution's weights. -/
theorem C6 (hC4 : W4 m ρ c (Proc.devRef .tc main_v42) = val_main_v24 (F := Ideal) (a0 m c) (a3 m c) (a4 m c)) :
    W6 m ρ c (Proc.devRef .tc main_v45) = val_main_v25 (F := Ideal) (a0 m c) (a3 m c) (a4 m c) (a5 m c) := by
  refine Cert.RLin.lin_eq_v25 (a0 m c) (a3 m c) (a4 m c) (a5 m c) _ fun p q => ?_
  refine (congrFun (KLin.W6_v45_eq m ρ c) (ix2 p q)).trans ?_
  rw [KLin.linG_apply, Cert.KHostB.in1_v42, hC4, Cert.KHostB.in1_arg5]
  exact congrArg _ (Cert.KHostB.in1_v44 m ρ c 0 q)

/-! ## The first normalisation layer -/

/-- The layer's input is the aggregated features plus the bias, entry by entry. -/
theorem v56_entry (x0 : (⟨Cert.ReferenceIdeal.S100000x64, .f32⟩ : BufTy).Contents (Elt Ideal))
    (x1 : (⟨Cert.ReferenceIdeal.S2x1600000, .i32⟩ : BufTy).Contents (Elt Ideal))
    (x3 : (⟨Cert.ReferenceIdeal.S64x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal)) (p : Fin 100000) (q : Fin 128) :
    val_main_v56 (F := Ideal) x0 x1 x3 x4 x5 x6 (ix2 p q) = yOf (val_main_v53 (F := Ideal) x0 x1 x3 x4 x5) x6 p q := by
  rw [val_main_v56_apply, val_main_v55_apply, val_main_v54_apply]
  have hidx : idx_main_v54 (idx_main_v55 (ix2 p q)) = ix1 q :=
    funext fun a => Fin.ext (by match a with | ⟨0, _⟩ => rfl)
  rw [hidx]
  rfl

/-- Region 3 leaves the reference's first normalisation layer, given what the reference's layer is entry by entry. -/
theorem C10_of (gi : Fin 100000 → Fin 512)
    (hC7 : W7 m ρ c (Proc.devRef .tc main_v58)
      = val_main_v53 (F := Ideal) (a0 m c) (a1 m c) (a3 m c) (a4 m c) (a5 m c))
    (hy : ∀ p q, ∃ r : ℝ, yOf (val_main_v53 (F := Ideal) (a0 m c) (a1 m c) (a3 m c) (a4 m c) (a5 m c)) (a6 m c) p q
      = (r : EReal))
    (hgi : ∀ p, rowOf? 512 (idOf (a2 m c) p) = some (gi p))
    (hden : ∀ g, denOf (val_main_v60 (F := Ideal) (a2 m c)) g
      = max ((∑ p ∈ rows (idOf (a2 m c)) g, (1 : EReal)) * Ideal.ofBits .f32 0x43000000#32)
          (Ideal.ofBits .f32 0x3F800000#32))
    (htgt : ∀ p q, val_main_v101 (F := Ideal) (a0 m c) (a1 m c) (a2 m c) (a3 m c) (a4 m c) (a5 m c) (a6 m c) (a7 m c) (a8 m c) (ix2 p q)
      = rOut (yOf (val_main_v53 (F := Ideal) (a0 m c) (a1 m c) (a3 m c) (a4 m c) (a5 m c)) (a6 m c)) (idOf (a2 m c)) gi
          (denOf (val_main_v60 (F := Ideal) (a2 m c))) (Ideal.ofBits .f32 0x3727C5AC#32) (vecOf (a7 m c))
          (vecOf (a8 m c)) p q) :
    W10 m ρ c (Proc.devRef .tc main_v73) = val_main_v101 (F := Ideal) (a0 m c) (a1 m c) (a2 m c) (a3 m c) (a4 m c) (a5 m c) (a6 m c) (a7 m c) (a8 m c) := by
  refine norm_core (val_main_v53 (F := Ideal) (a0 m c) (a1 m c) (a3 m c) (a4 m c) (a5 m c)) (a6 m c) (a7 m c) (a8 m c)
    (a2 m c) (val_main_v60 (F := Ideal) (a2 m c)) (Ideal.ofBits .f32 0x3727C5AC#32)
    (W9 m ρ c (Proc.devRef .tc main_v58)) (W7 m ρ c (Proc.devRef .tc main_v58)) (W7 m ρ c (Proc.devRef .tc main_v59))
    (W9 m ρ c (Proc.devRef .tc main_v70)) (W9 m ρ c (Proc.devRef .tc main_v71)) (W9 m ρ c (Proc.devRef .tc main_v72))
    (W9 m ρ c (Proc.devRef .tc main_v21)) (W7 m ρ c (Proc.devRef .tc main_v21))
    (W8 m ρ c (Proc.devRef .tc main_v60_0)) (W8 m ρ c (Proc.devRef .tc main_v60_1))
    (W9 m ρ c (Proc.devRef .tc main_v62)) (W9 m ρ c (Proc.devRef .tc main_v69))
    (W10 m ρ c (Proc.devRef .tc main_v73)) (val_main_v101 (F := Ideal) (a0 m c) (a1 m c) (a2 m c) (a3 m c) (a4 m c) (a5 m c) (a6 m c) (a7 m c) (a8 m c)) gi
    ?hout ?hs0 ?hs1 ?h62 ?h69 ?h58 ?h58' ?h59 ?h70 ?h71 ?h72 ?h21 ?h21' hy hgi hden htgt
  case hout =>
    exact fun p q => (congrFun (RV.W10_v73_eq m ρ c) (ix2 p q)).trans (RV.applyArr_apply _ _ _ _ _ _ _ p q)
  case hs0 =>
    exact fun g => (congrFun (RStats.W8_v60_0_eq m ρ c) (ix2 (0 : Fin 1) g)).trans (RStats.stat0_apply _ _ _ g)
  case hs1 =>
    exact fun g => (congrFun (RStats.W8_v60_1_eq m ρ c) (ix2 (0 : Fin 1) g)).trans (RStats.stat1_apply _ _ _ g)
  case h62 => exact fun g => (Cert.KHostB.in3_v62 m ρ c 0 g).trans (by rw [Cert.KHostA.C3_den m ρ c])
  case h69 => exact fun g => (Cert.KHostB.in3_v69 m ρ c 0 g).trans (by rw [Cert.KHostA.C3_den m ρ c])
  case h58 => exact (Cert.KHostB.in3_v58 m ρ c).trans hC7
  case h58' => exact hC7
  case h59 => exact Cert.KHostB.in2_v59 m ρ c 0
  case h70 => exact Cert.KHostB.in3_v70 m ρ c 0
  case h71 => exact Cert.KHostB.in3_v71 m ρ c 0
  case h72 => exact Cert.KHostB.in3_v72 m ρ c 0
  case h21 => exact fun p => Cert.KHostB.in3_v21 m ρ c p 0
  case h21' => exact fun p => Cert.KHostB.in2_v21 m ρ c p 0

/-! ## The reference's layer in the two spellings -/

/-- The reference's layer spelled at the literal sizes is the layer of the general algebra. -/
theorem rOut_bridge (y : Fin 100000 → Fin 128 → EReal) (β : Fin 100000 → BitVec 32) (gi : Fin 100000 → Fin 512)
    (den : Fin 512 → EReal) (eps : EReal) (γ δ : Fin 128 → EReal) (p : Fin 100000) (q : Fin 128) :
    Cert.RNorm.rOut y β gi den eps γ δ p q = Cert.NormMath.rOut y β gi den eps γ δ p q := by
  unfold Cert.RNorm.rOut Cert.NormMath.rOut Cert.RNorm.rInv Cert.NormMath.rInv Cert.RNorm.rXc Cert.NormMath.rXc
    Cert.RNorm.rMean Cert.NormMath.rMean Cert.RNorm.rows Cert.NormMath.rows
  rfl

/-! ## The first layer's hypotheses, from the precondition and the reference's layer read entry by entry -/

/-- Every entry of the first layer's input is a real. -/
theorem hy1 (hP : Cert.Pre_KernelIdeal (hPre_finite_inputs := Cert.Pre_finite_inputs.Gen.facts) m) :
    ∀ p q, ∃ r : ℝ, yOf (val_main_v53 (F := Ideal) (a0 m c) (a1 m c) (a3 m c) (a4 m c) (a5 m c)) (a6 m c) p q = (r : EReal) := by
  intro p q
  rw [← v56_entry]
  exact Cert.Finite.fin_v56 (x1 := a1 m c) (Cert.PreFacts.real_a0 m hP c) (Cert.PreFacts.real_a3 m hP c)
    (Cert.PreFacts.real_a4 m hP c) (Cert.PreFacts.real_a5 m hP c) (Cert.PreFacts.real_a6 m hP c) (ix2 p q)

/-- Every graph id names its graph's row of a 512-row table. -/
theorem hgi1 (hP : Cert.Pre_KernelIdeal (hPre_finite_inputs := Cert.Pre_finite_inputs.Gen.facts) m) :
    ∀ p, rowOf? 512 (idOf (a2 m c) p) = some (Cert.RNorm.gi (idOf (a2 m c)) p) :=
  fun p => Cert.RNorm.gi_of_range (idOf (a2 m c)) p (Cert.PreFacts.batch_range m hP c p)

/-- The divisor of each graph: its entry count, or one. -/
theorem hden1 : ∀ g, denOf (val_main_v60 (F := Ideal) (a2 m c)) g
    = max ((∑ p ∈ rows (idOf (a2 m c)) g, (1 : EReal)) * Ideal.ofBits .f32 0x43000000#32)
        (Ideal.ofBits .f32 0x3F800000#32) :=
  fun g => Cert.RNorm.den_eq (a2 m c) g

/-- The reference's first normalisation layer, entry by entry, in the general algebra's form. -/
theorem htgt1 : ∀ p q, val_main_v101 (F := Ideal) (a0 m c) (a1 m c) (a2 m c) (a3 m c) (a4 m c) (a5 m c) (a6 m c) (a7 m c) (a8 m c) (ix2 p q)
    = rOut (yOf (val_main_v53 (F := Ideal) (a0 m c) (a1 m c) (a3 m c) (a4 m c) (a5 m c)) (a6 m c)) (idOf (a2 m c)) (Cert.RNorm.gi (idOf (a2 m c))) (denOf (val_main_v60 (F := Ideal) (a2 m c)))
        (Ideal.ofBits .f32 0x3727C5AC#32) (vecOf (a7 m c)) (vecOf (a8 m c)) p q := by
  intro p q
  have hyy : Cert.RNorm.y1 (a0 m c) (a1 m c) (a3 m c) (a4 m c) (a5 m c) (a6 m c) = yOf (val_main_v53 (F := Ideal) (a0 m c) (a1 m c) (a3 m c) (a4 m c) (a5 m c)) (a6 m c) :=
    funext fun p' => funext fun q' => v56_entry (a0 m c) (a1 m c) (a3 m c) (a4 m c) (a5 m c) (a6 m c) p' q'
  refine (Cert.RNorm.v101_apply (a0 m c) (a1 m c) (a2 m c) (a3 m c) (a4 m c) (a5 m c) (a6 m c) (a7 m c) (a8 m c) p q).trans ?_
  refine (congrArg (fun y => Cert.RNorm.rOut y (idOf (a2 m c)) (Cert.RNorm.gi (idOf (a2 m c))) (denOf (val_main_v60 (F := Ideal) (a2 m c)))
    (Ideal.ofBits .f32 0x3727C5AC#32) (vecOf (a7 m c)) (vecOf (a8 m c)) p q) hyy).trans ?_
  exact rOut_bridge _ _ _ _ _ _ _ p q

/-- Region 3 leaves the reference's first normalisation layer. -/
theorem C10 (hP : Cert.Pre_KernelIdeal (hPre_finite_inputs := Cert.Pre_finite_inputs.Gen.facts) m)
    (hC7 : W7 m ρ c (Proc.devRef .tc main_v58) = val_main_v53 (F := Ideal) (a0 m c) (a1 m c) (a3 m c) (a4 m c) (a5 m c)) :
    W10 m ρ c (Proc.devRef .tc main_v73) = val_main_v101 (F := Ideal) (a0 m c) (a1 m c) (a2 m c) (a3 m c) (a4 m c) (a5 m c) (a6 m c) (a7 m c) (a8 m c) :=
  C10_of m ρ c (Cert.RNorm.gi (idOf (a2 m c))) hC7 (hy1 m c hP) (hgi1 m c hP) (hden1 m c) (htgt1 m c)

/-- Every entry of the reference's first normalisation layer is a real. -/
theorem real_v101 (hP : Cert.Pre_KernelIdeal (hPre_finite_inputs := Cert.Pre_finite_inputs.Gen.facts) m) :
    ∀ i, ∃ r : ℝ, val_main_v101 (F := Ideal) (a0 m c) (a1 m c) (a2 m c) (a3 m c) (a4 m c) (a5 m c) (a6 m c) (a7 m c) (a8 m c) i = (r : EReal) :=
  norm_core_real (val_main_v53 (F := Ideal) (a0 m c) (a1 m c) (a3 m c) (a4 m c) (a5 m c)) (a6 m c) (a7 m c) (a8 m c) (a2 m c) (val_main_v60 (F := Ideal) (a2 m c)) (Ideal.ofBits .f32 0x3727C5AC#32)
    (val_main_v101 (F := Ideal) (a0 m c) (a1 m c) (a2 m c) (a3 m c) (a4 m c) (a5 m c) (a6 m c) (a7 m c) (a8 m c)) (Cert.RNorm.gi (idOf (a2 m c)))
    (hy1 m c hP) (hgi1 m c hP) (hden1 m c) (htgt1 m c) ofBits_eps
    (fun q => Cert.PreFacts.real_a7 m hP c (ix1 q)) (fun q => Cert.PreFacts.real_a8 m hP c (ix1 q))

end Steps

/-! ## The whole run -/

/-- The kernel program's result buffer ends at the reference's result, as a function of the arguments. -/
theorem value (m : KMem) (ρ : Dev nD → PrngReg) (hP : Cert.Pre_KernelIdeal (hPre_finite_inputs := Cert.Pre_finite_inputs.Gen.facts) m) (c : Dev nD) :
    W18 m ρ c (Proc.devRef .tc main_v113) = val_main_v190 (F := Ideal) (a0 m c) (a1 m c) (a2 m c) (a3 m c) (a4 m c) (a5 m c) (a6 m c) (a7 m c) (a8 m c) (a9 m c) (a10 m c) (a11 m c) (a12 m c) (a13 m c) (a14 m c) := by
  have hC4 := C4 m ρ c
  have hC6 := C6 m ρ c hC4
  have hC7 := Cert.KHostA.C7_conv m ρ c hC6
  have hC10 := C10 m ρ c hP hC7
  have h101 := real_v101 m c hP
  have hC12 := Cert.Bridge2.C12_of m ρ c hC10
  have hC13 := Cert.KHostA.C13_conv m ρ c hC12
  have hC16 := Cert.Bridge2.C16_of m ρ c hP hC13 h101
  have hC17 := Cert.Bridge2.C17_of m ρ c hC16
  exact Cert.KHostA.C18_out m ρ c hC17

end Cert.Bridge

end
-- ==== Proof.lean ====
/-
  A two-layer graph convolution network with graph-level layer normalisation, mean pooling and a final
  linear map: the kernel program (eight tiled kernels among host gathers and scatter-adds) against the
  plain reference, as equal functions of the arguments over the extended reals.

  Both programs compute, for node features x, an edge list and a graph id per node,
    h0 = x·W1 + b1;  for each of two layers: z = A(h·W) + b with A the symmetrically normalised
    aggregation over the edges (gather rows at the sources, scale, scatter-add at the targets),
    then per graph g the mean μ_g and variance v_g of all entries of the rows of g, and
    h' = max((z − μ_g)·rsqrt(v_g + ε)·γ + β, 0);  finally the per-graph mean of the rows, times W4, plus b4.
  The kernel forms μ_g and the second moment by one-hot weighted sums over all rows and uses
  v_g = E[z²] − μ_g²; the reference centres first and gathers μ_g and rsqrt(v_g + ε) by the graph id. The two
  agree when every entry is a real number (E[(z − μ)²] = E[z²] − μ² over the reals) and every graph id names
  one of the 512 graphs (a one-hot weighted sum over the graphs then is the gathered entry): the
  precondition states both. The linear maps agree because a change of float format is the identity and a
  tiled matrix product into a zero accumulator is the whole product; the aggregation is the same host
  operations in both programs.

  The frames of the two kernel programs are the generated ones; the reference's is its generated run (in its
  repaired copy, ReferenceRun) with the result dropped. The kernel program's run with its result named is the
  same launch once more (KRun); the value it leaves is read off boundary by boundary (KLin, KStats, KApply,
  KPool, KHostA, KHostB, KHostB2); the reference's layers are read at an index (RNorm, RLin, over LibScatter);
  the layer's algebra and the real-valued entries are in NormMath, NormCore, PreFacts and Finite; Bridge and
  Bridge2 join the two sides.
-/
import proofs.«427561_j32633161515373_1_alg».proof.Defs
import proofs.«427561_j32633161515373_1_alg».proof.Proof.Gen.Kernel
import proofs.«427561_j32633161515373_1_alg».proof.Proof.Gen.Kernel.Frame
import proofs.«427561_j32633161515373_1_alg».proof.Proof.Gen.KernelIdeal
import proofs.«427561_j32633161515373_1_alg».proof.Proof.Gen.KernelIdeal.Frame
import proofs.«427561_j32633161515373_1_alg».proof.Proof.Gen.ReferenceIdeal
import proofs.«427561_j32633161515373_1_alg».proof.Proof.ReferenceRun
import proofs.«427561_j32633161515373_1_alg».proof.Proof.ReferenceRead
import proofs.«427561_j32633161515373_1_alg».proof.Proof.Gen.Pre_finite_inputs
import proofs.«427561_j32633161515373_1_alg».proof.Proof.KRun
import proofs.«427561_j32633161515373_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- The idealised kernel program runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, both programs end with the same [512, 1] result: the kernel
    program's last boundary holds the reference's value function of the arguments (`Cert.Bridge.value`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hP hagree
  refine ⟨fun c => Cert.KernelIdeal.Gen.W18 m ρ c (Proc.devRef .tc Cert.KernelIdeal.main_v113),
    Cert.KernelIdeal.KRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v190_eq]
  obtain ⟨e0, e1, e2, e3, e4, e5, e6, e7, e8, e9, e10, e11, e12, e13, e14⟩ := hagree c
  rw [e0, e1, e2, e3, e4, e5, e6, e7, e8, e9, e10, e11, e12, e13, e14]
  exact (Cert.Bridge.value m ρ hP c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
